-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v103_1)) (v1 : (c : Dev Cert.KernelIdeal.nD) → Buf (Elt Ideal) ((c.tc : Thread Cert.KernelIdeal.nD Cert.KernelIdeal.τ).loc Cert.KernelIdeal.main_v102_1)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103_1) = v0 c
          ∧ r.2.mem ((c.tc : Thread Cert.KernelIdeal.nD Cert.KernelIdeal.τ).loc Cert.KernelIdeal.main_v102_1) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_v191) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S200000x64 : Shape := ⟨2, ![200000, 64]⟩
abbrev S4x64 : Shape := ⟨2, ![4, 64]⟩
abbrev S10x64 : Shape := ⟨2, ![10, 64]⟩
abbrev S4x10 : Shape := ⟨2, ![4, 10]⟩
abbrev S2x1000000 : Shape := ⟨2, ![2, 1000000]⟩
abbrev S1000000 : Shape := ⟨1, ![1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S4x64 : S_.BroadcastsInDim S4x64 (![] : Fin 0 → Fin S4x64.rank)
  reducesTo_S4x64_S_d0_1 : S4x64.ReducesTo [0, 1] S_
  bcast_S_S10x64 : S_.BroadcastsInDim S10x64 (![] : Fin 0 → Fin S10x64.rank)
  reducesTo_S10x64_S_d0_1 : S10x64.ReducesTo [0, 1] S_
  bcast_S_S4x10 : S_.BroadcastsInDim S4x10 (![] : Fin 0 → Fin S4x10.rank)
  reducesTo_S4x10_S_d0_1 : S4x10.ReducesTo [0, 1] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_v28 : IVec S_ 1) (main_v33 : IVec S1000000 1) : IVec S_ 1 :=
  let main_c_12 : IVec S_ 1 := constantI S_ 1 1#1
  let main_v34 : IVec S_ 1 := (fun x v => Host.reduce IntOp.andi x v reducesTo_S1000000_S_d0 h_S_) main_v33 main_c_12
  let main_v35 : IVec S_ 1 := andi main_v28 main_v34
  main_v35

def fn_part1 {F : FTy → Type} [FloatOps F] (main_arg4 : FVec F S4x10 .f32) (main_arg6 : IVec S1000000 32) (main_arg9 : FVec F S1000000 .f32) (main_v13 : IVec S_ 1) (main_v16 : IVec S10x64 1) : IVec S_ 1 :=
  let main_c_5 : IVec S_ 1 := constantI S_ 1 1#1
  let main_v17 : IVec S_ 1 := (fun x v => Host.reduce IntOp.andi x v reducesTo_S10x64_S_d0_1 h_S_) main_v16 main_c_5
  let main_v18 : IVec S_ 1 := andi main_v13 main_v17
  let main_v19 : FVec F S4x10 .f32 := Host.absf main_arg4
  let main_cst_6 : FVec F S_ .f32 := constant S_ .f32 0x7F800000#32
  let main_v20 : FVec F S4x10 .f32 := broadcastInDim S4x10 ![] bcast_S_S4x10 main_cst_6
  let main_v21 : IVec S4x10 1 := cmpf .olt main_v19 main_v20
  let main_c_7 : IVec S_ 1 := constantI S_ 1 1#1
  let main_v22 : IVec S_ 1 := (fun x v => Host.reduce IntOp.andi x v reducesTo_S4x10_S_d0_1 h_S_) main_v21 main_c_7
  let main_v23 : IVec S_ 1 := andi main_v18 main_v22
  let main_v24 : FVec F S1000000 .f32 := Host.absf main_arg9
  let main_cst_8 : FVec F S_ .f32 := constant S_ .f32 0x7F800000#32
  let main_v25 : FVec F S1000000 .f32 := broadcastInDim S1000000 ![] bcast_S_S1000000 main_cst_8
  let main_v26 : IVec S1000000 1 := cmpf .olt main_v24 main_v25
  let main_c_9 : IVec S_ 1 := constantI S_ 1 1#1
  let main_v27 : IVec S_ 1 := (fun x v => Host.reduce IntOp.andi x v reducesTo_S1000000_S_d0 h_S_) main_v26 main_c_9
  let main_v28 : IVec S_ 1 := andi main_v23 main_v27
  let main_c_10 : IVec S_ 32 := constantI S_ 32 1#32
  let main_v29 : IVec S1000000 32 := broadcastInDim S1000000 ![] bcast_S_S1000000 main_c_10
  let main_v30 : IVec S1000000 1 := cmpi .sge main_arg6 main_v29
  let main_c_11 : IVec S_ 32 := constantI S_ 32 10#32
  let main_v31 : IVec S1000000 32 := broadcastInDim S1000000 ![] bcast_S_S1000000 main_c_11
  let main_v32 : IVec S1000000 1 := cmpi .sle main_arg6 main_v31
  let main_v33 : IVec S1000000 1 := andi main_v30 main_v32
  fn_part2 (F := F) main_v28 main_v33

def fn {F : FTy → Type} [FloatOps F] (main_arg0 : FVec F S100000x64 .f32) (main_arg1 : FVec F S200000x64 .f32) (main_arg2 : FVec F S4x64 .f32) (main_arg3 : FVec F S10x64 .f32) (main_arg4 : FVec F S4x10 .f32) (main_arg5 : IVec S2x1000000 32) (main_arg6 : IVec S1000000 32) (main_arg7 : IVec S1000000 32) (main_arg8 : IVec S1000000 32) (main_arg9 : FVec F S1000000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S4x64 .f32 := Host.absf main_arg2
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S10x64 .f32 := Host.absf main_arg3
  let main_cst_4 : FVec F S_ .f32 := constant S_ .f32 0x7F800000#32
  let main_v15 : FVec F S10x64 .f32 := broadcastInDim S10x64 ![] bcast_S_S10x64 main_cst_4
  let main_v16 : IVec S10x64 1 := cmpf .olt main_v14 main_v15
  fn_part1 (F := F) main_arg4 main_arg6 main_arg9 main_v13 main_v16
-- ==== Kernel.lean ====
abbrev S100000x64 : Shape := ⟨2, ![100000, 64]⟩
abbrev S200000x64 : Shape := ⟨2, ![200000, 64]⟩
abbrev S4x64 : Shape := ⟨2, ![4, 64]⟩
abbrev S10x64 : Shape := ⟨2, ![10, 64]⟩
abbrev S4x10 : Shape := ⟨2, ![4, 10]⟩
abbrev S2x1000000 : Shape := ⟨2, ![2, 1000000]⟩
abbrev S1000000 : Shape := ⟨1, ![1000000]⟩
abbrev S10x4 : Shape := ⟨2, ![10, 4]⟩
abbrev S_ : Shape := ⟨0, ![]⟩
abbrev S10 : Shape := ⟨1, ![10]⟩
abbrev S10x1 : Shape := ⟨2, ![10, 1]⟩
abbrev S10x10 : Shape := ⟨2, ![10, 10]⟩
abbrev S1x1000000 : Shape := ⟨2, ![1, 1000000]⟩
abbrev S200000 : Shape := ⟨1, ![200000]⟩
abbrev S1000000x1 : Shape := ⟨2, ![1000000, 1]⟩
abbrev S64x4 : Shape := ⟨2, ![64, 4]⟩
abbrev S4 : Shape := ⟨1, ![4]⟩
abbrev S4x1 : Shape := ⟨2, ![4, 1]⟩
abbrev S1000000x64 : Shape := ⟨2, ![1000000, 64]⟩
abbrev S4000x64 : Shape := ⟨2, ![4000, 64]⟩
abbrev S4000x1 : Shape := ⟨2, ![4000, 1]⟩
abbrev S4000x10 : Shape := ⟨2, ![4000, 10]⟩
abbrev S2000x64 : Shape := ⟨2, ![2000, 64]⟩
abbrev S2000x4 : Shape := ⟨2, ![2000, 4]⟩
abbrev S2000 : Shape := ⟨1, ![2000]⟩
abbrev S2000x1 : Shape := ⟨2, ![2000, 1]⟩
abbrev S4000 : Shape := ⟨1, ![4000]⟩

abbrev nBuf : Space → Nat
  | .hbm => 149
  | .vmem => 70
  | .smem => 0
  | _ => 0

abbrev hbmTy0_0 (i : Nat) : BufTy := match i % 128 with
  | 0 => ⟨S100000x64, .f32⟩
  | 1 => ⟨S200000x64, .f32⟩
  | 2 => ⟨S4x64, .f32⟩
  | 3 => ⟨S10x64, .f32⟩
  | 4 => ⟨S4x10, .f32⟩
  | 5 => ⟨S2x1000000, .i32⟩
  | 6 => ⟨S1000000, .i32⟩
  | 7 => ⟨S1000000, .i32⟩
  | 8 => ⟨S1000000, .i32⟩
  | 9 => ⟨S1000000, .f32⟩
  | 10 => ⟨S10x4, .f32⟩
  | 11 => ⟨S10x4, .f32⟩
  | 12 => ⟨S_, .f32⟩
  | 13 => ⟨S10, .f32⟩
  | 14 => ⟨S10x1, .f32⟩
  | 15 => ⟨S10x1, .f32⟩
  | 16 => ⟨S10x4, .f32⟩
  | 17 => ⟨S10x4, .f32⟩
  | 18 => ⟨S10x4, .f32⟩
  | 19 => ⟨S_, .f32⟩
  | 20 => ⟨S10, .f32⟩
  | 21 => ⟨S10x10, .f32⟩
  | 22 => ⟨S_, .f32⟩
  | 23 => ⟨S10, .f32⟩
  | 24 => ⟨S_, .f32⟩
  | 25 => ⟨S10, .f32⟩
  | 26 => ⟨S10, .f32⟩
  | 27 => ⟨S10, .f32⟩
  | 28 => ⟨S_, .f32⟩
  | 29 => ⟨S10, .f32⟩
  | 30 => ⟨S10, .f32⟩
  | 31 => ⟨S10, .f32⟩
  | 32 => ⟨S10, .f32⟩
  | 33 => ⟨S10, .f32⟩
  | 34 => ⟨S_, .f32⟩
  | 35 => ⟨S_, .f32⟩
  | 36 => ⟨S_, .f32⟩
  | 37 => ⟨S1x1000000, .i32⟩
  | 38 => ⟨S1000000, .i32⟩
  | 39 => ⟨S1x1000000, .i32⟩
  | 40 => ⟨S1000000, .i32⟩
  | 41 => ⟨S_, .f32⟩
  | 42 => ⟨S1000000, .f32⟩
  | 43 => ⟨S_, .f32⟩
  | 44 => ⟨S200000, .f32⟩
  | 45 => ⟨S1000000x1, .i32⟩
  | 46 => ⟨S200000, .f32⟩
  | 47 => ⟨S_, .f32⟩
  | 48 => ⟨S200000, .f32⟩
  | 49 => ⟨S200000, .f32⟩
  | 50 => ⟨S_, .f32⟩
  | 51 => ⟨S200000, .f32⟩
  | 52 => ⟨S200000, .f32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000, .f32⟩
  | 62 => ⟨S1000000x1, .f32⟩
  | 63 => ⟨S_, .i32⟩
  | 64 => ⟨S1000000, .i32⟩
  | 65 => ⟨S1000000, .i32⟩
  | 66 => ⟨S1000000x1, .i32⟩
  | 67 => ⟨S64x4, .f32⟩
  | 68 => ⟨S_, .f32⟩
  | 69 => ⟨S4, .f32⟩
  | 70 => ⟨S_, .f32⟩
  | 71 => ⟨S4, .f32⟩
  | 72 => ⟨S4, .f32⟩
  | 73 => ⟨S4x1, .f32⟩
  | 74 => ⟨S4x10, .f32⟩
  | 75 => ⟨S4x10, .f32⟩
  | 76 => ⟨S4x10, .f32⟩
  | 77 => ⟨S_, .f32⟩
  | 78 => ⟨S4, .f32⟩
  | 79 => ⟨S4x1, .f32⟩
  | 80 => ⟨S4x10, .f32⟩
  | 81 => ⟨S4x10, .f32⟩
  | 82 => ⟨S4x64, .f32⟩
  | 83 => ⟨S_, .i32⟩
  | 84 => ⟨S1000000, .i32⟩
  | 85 => ⟨S1000000, .i1⟩
  | 86 => ⟨S_, .i32⟩
  | 87 => ⟨S1000000, .i32⟩
  | 88 => ⟨S1000000, .i32⟩
  | 89 => ⟨S1000000, .i32⟩
  | 90 => ⟨S1000000x1, .i32⟩
  | 91 => ⟨S1000000x64, .f32⟩
  | 92 => ⟨S1000000x64, .f32⟩
  | 93 => ⟨S_, .f32⟩
  | 94 => ⟨S200000x64, .f32⟩
  | 95 => ⟨S1000000x1, .i32⟩
  | 96 => ⟨S200000x64, .f32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x64, .f32⟩
  | 106 => ⟨S1000000x1, .f32⟩
  | 107 => ⟨S1000000x64, .f32⟩
  | 108 => ⟨S_, .f32⟩
  | 109 => ⟨S100000x64, .f32⟩
  | 110 => ⟨S1000000x1, .i32⟩
  | 111 => ⟨S100000x64, .f32⟩
  | 112 => ⟨S100000x64, .f32⟩
  | 113 => ⟨S100000x64, .f32⟩
  | 114 => ⟨S200000x64, .f32⟩
  | 115 => ⟨S200000x64, .f32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S1000000x1, .i32⟩
  | 124 => ⟨S1000000x64, .f32⟩
  | 125 => ⟨S1000000x64, .f32⟩
  | 126 => ⟨S_, .f32⟩
  | 127 => ⟨S200000x64, .f32⟩
  | _ => ⟨S100000x64, .f32⟩

abbrev hbmTy0_1 (i : Nat) : BufTy := match i % 128 with
  | 0 => ⟨S1000000x1, .i32⟩
  | 1 => ⟨S200000x64, .f32⟩
  | 2 => ⟨S_, .i32⟩
  | 3 => ⟨S1000000, .i32⟩
  | 4 => ⟨S1000000, .i1⟩
  | 5 => ⟨S_, .i32⟩
  | 6 => ⟨S1000000, .i32⟩
  | 7 => ⟨S1000000, .i32⟩
  | 8 => ⟨S1000000, .i32⟩
  | 9 => ⟨S1000000x1, .i32⟩
  | 10 => ⟨S1000000x64, .f32⟩
  | 11 => ⟨S1000000x1, .f32⟩
  | 12 => ⟨S1000000x64, .f32⟩
  | 13 => ⟨S_, .f32⟩
  | 14 => ⟨S100000x64, .f32⟩
  | 15 => ⟨S1000000x1, .i32⟩
  | 16 => ⟨S100000x64, .f32⟩
  | 17 => ⟨S100000x64, .f32⟩
  | 18 => ⟨S100000x64, .f32⟩
  | 19 => ⟨S200000x64, .f32⟩
  | 20 => ⟨S200000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x1, .i32⟩
  | .local _ .vmem, ⟨3, _⟩ => ⟨S4000x1, .i32⟩
  | .local _ .vmem, ⟨4, _⟩ => ⟨S10x64, .f32⟩
  | .local _ .vmem, ⟨5, _⟩ => ⟨S4000x1, .f32⟩
  | .local _ .vmem, ⟨6, _⟩ => ⟨S4000x1, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x1, .f32⟩
  | .local _ .vmem, ⟨12, _⟩ => ⟨S4000x1, .f32⟩
  | .local _ .vmem, ⟨13, _⟩ => ⟨S4000x64, .f32⟩
  | .local _ .vmem, ⟨14, _⟩ => ⟨S4000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S64x4, .f32⟩
  | .local _ .vmem, ⟨20, _⟩ => ⟨S4x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S4000x64, .f32⟩
  | .local _ .vmem, ⟨28, _⟩ => ⟨S4000x64, .f32⟩
  | .local _ .vmem, ⟨29, _⟩ => ⟨S4000x64, .f32⟩
  | .local _ .vmem, ⟨30, _⟩ => ⟨S4000x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x64, .f32⟩
  | .local _ .vmem, ⟨36, _⟩ => ⟨S4000x64, .f32⟩
  | .local _ .vmem, ⟨37, _⟩ => ⟨S4000x1, .i32⟩
  | .local _ .vmem, ⟨38, _⟩ => ⟨S4000x1, .i32⟩
  | .local _ .vmem, ⟨39, _⟩ => ⟨S10x64, .f32⟩
  | .local _ .vmem, ⟨40, _⟩ => ⟨S4000x1, .f32⟩
  | .local _ .vmem, ⟨41, _⟩ => ⟨S4000x1, .f32⟩
  | .local _ .vmem, ⟨42, _⟩ => ⟨S4000x64, .f32⟩
  | .local _ .vmem, ⟨43, _⟩ => ⟨S4000x64, .f32⟩
  | .local _ .vmem, ⟨44, _⟩ => ⟨S4000x64, .f32⟩
  | .local _ .vmem, ⟨45, _⟩ => ⟨S4000x64, .f32⟩
  | .local _ .vmem, ⟨46, _⟩ => ⟨S4000x1, .f32⟩
  | .local _ .vmem, ⟨47, _⟩ => ⟨S4000x1, .f32⟩
  | .local _ .vmem, ⟨48, _⟩ => ⟨S4000x64, .f32⟩
  | .local _ .vmem, ⟨49, _⟩ => ⟨S4000x64, .f32⟩
  | .local _ .vmem, ⟨50, _⟩ => ⟨S2000x64, .f32⟩
  | .local _ .vmem, ⟨51, _⟩ => ⟨S2000x64, .f32⟩
  | .local _ .vmem, ⟨52, _⟩ => ⟨S2000x64, .f32⟩
  | .local _ .vmem, ⟨53, _⟩ => ⟨S2000x64, .f32⟩
  | .local _ .vmem, ⟨54, _⟩ => ⟨S64x4, .f32⟩
  | .local _ .vmem, ⟨55, _⟩ => ⟨S4x64, .f32⟩
  | .local _ .vmem, ⟨56, _⟩ => ⟨S2000x64, .f32⟩
  | .local _ .vmem, ⟨57, _⟩ => ⟨S2000x64, .f32⟩
  | .local _ .vmem, ⟨58, _⟩ => ⟨S2000x64, .f32⟩
  | .local _ .vmem, ⟨59, _⟩ => ⟨S2000x64, .f32⟩
  | .local _ .vmem, ⟨60, _⟩ => ⟨S2000x64, .f32⟩
  | .local _ .vmem, ⟨61, _⟩ => ⟨S2000x64, .f32⟩
  | .local _ .vmem, ⟨62, _⟩ => ⟨S4000x64, .f32⟩
  | .local _ .vmem, ⟨63, _⟩ => ⟨S4000x64, .f32⟩
  | .local _ .vmem, ⟨64, _⟩ => ⟨S4000x64, .f32⟩
  | .local _ .vmem, ⟨65, _⟩ => ⟨S4000x64, .f32⟩
  | .local _ .vmem, ⟨66, _⟩ => ⟨S4000x64, .f32⟩
  | .local _ .vmem, ⟨67, _⟩ => ⟨S4000x64, .f32⟩
  | .local _ .vmem, ⟨68, _⟩ => ⟨S4000x64, .f32⟩
  | .local _ .vmem, ⟨69, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_c : Ref sig .tc := ⟨.hbm, 53, rfl⟩
abbrev main_v30 : Ref sig .tc := ⟨.hbm, 54, rfl⟩
abbrev main_v31 : Ref sig .tc := ⟨.hbm, 55, rfl⟩
abbrev main_c_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_cst_11 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_13 : Ref sig .tc := ⟨.hbm, 83, rfl⟩
abbrev main_v54 : Ref sig .tc := ⟨.hbm, 84, rfl⟩
abbrev main_v55 : Ref sig .tc := ⟨.hbm, 85, rfl⟩
abbrev main_c_14 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_15 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_16 : Ref sig .tc := ⟨.hbm, 97, rfl⟩
abbrev main_v65 : Ref sig .tc := ⟨.hbm, 98, rfl⟩
abbrev main_v66 : Ref sig .tc := ⟨.hbm, 99, rfl⟩
abbrev main_c_17 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77_0 : Ref sig .tc := ⟨.hbm, 112, rfl⟩
abbrev main_v77_1 : Ref sig .tc := ⟨.hbm, 113, rfl⟩
abbrev main_v78_0 : Ref sig .tc := ⟨.hbm, 114, rfl⟩
abbrev main_v78_1 : Ref sig .tc := ⟨.hbm, 115, rfl⟩
abbrev main_c_19 : Ref sig .tc := ⟨.hbm, 116, rfl⟩
abbrev main_v79 : Ref sig .tc := ⟨.hbm, 117, rfl⟩
abbrev main_v80 : Ref sig .tc := ⟨.hbm, 118, rfl⟩
abbrev main_c_20 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_21 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_c_22 : Ref sig .tc := ⟨.hbm, 130, rfl⟩
abbrev main_v90 : Ref sig .tc := ⟨.hbm, 131, rfl⟩
abbrev main_v91 : Ref sig .tc := ⟨.hbm, 132, rfl⟩
abbrev main_c_23 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_24 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102_0 : Ref sig .tc := ⟨.hbm, 145, rfl⟩
abbrev main_v102_1 : Ref sig .tc := ⟨.hbm, 146, rfl⟩
abbrev main_v103_0 : Ref sig .tc := ⟨.hbm, 147, rfl⟩
abbrev main_v103_1 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc4_stg4_0 : Ref sig .tc := ⟨.vmem, 42, rfl⟩
abbrev cc4_stg4_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg4_0 : Ref sig .tc := ⟨.vmem, 56, rfl⟩
abbrev cc6_stg4_1 : Ref sig .tc := ⟨.vmem, 57, rfl⟩
abbrev cc6_stg5_0 : Ref sig .tc := ⟨.vmem, 58, rfl⟩
abbrev cc6_stg5_1 : Ref sig .tc := ⟨.vmem, 59, rfl⟩
abbrev cc6_stg6_0 : Ref sig .tc := ⟨.vmem, 60, rfl⟩
abbrev cc6_stg6_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg2_1 : Ref sig .tc := ⟨.vmem, 67, rfl⟩
abbrev cc7_stg3_0 : Ref sig .tc := ⟨.vmem, 68, rfl⟩
abbrev cc7_stg3_1 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem5_1 : DmaSem sig := 24
abbrev cc2_sem6_0 : DmaSem sig := 25
abbrev cc2_sem6_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem3_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem3_0 : DmaSem sig := 40
abbrev cc4_sem3_1 : DmaSem sig := 41
abbrev cc4_sem4_0 : DmaSem sig := 42
abbrev cc4_sem4_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem3_0 : DmaSem sig := 55
abbrev cc6_sem4_0 : DmaSem sig := 56
abbrev cc6_sem4_1 : DmaSem sig := 57
abbrev cc6_sem5_0 : DmaSem sig := 58
abbrev cc6_sem5_1 : DmaSem sig := 59
abbrev cc6_sem6_0 : DmaSem sig := 60
abbrev cc6_sem6_1 : DmaSem sig := 61
abbrev cc7_sem0_0 : DmaSem sig := 62
abbrev cc7_sem0_1 : DmaSem sig := 63
abbrev cc7_sem1_0 : DmaSem sig := 64
abbrev cc7_sem1_1 : DmaSem sig := 65
abbrev cc7_sem2_0 : DmaSem sig := 66
abbrev cc7_sem2_1 : DmaSem sig := 67
abbrev cc7_sem3_0 : DmaSem sig := 68
abbrev cc7_sem3_1 : DmaSem sig := 69

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![250], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S10x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![250], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x4 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S4x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S2000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S2000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S4000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  transposes_S4x10_S10x4_1_0 : S4x10.Transposes [1, 0] S10x4
  reducesTo_S10x4_S10_d1 : S10x4.ReducesTo [1] S10
  h_S_ : 0 < S_.numel
  bcast_S10_S10x1_0 : S10.BroadcastsInDim S10x1 (![0] : Fin 1 → Fin S10x1.rank)
  bcast_S10x1_S10x4_0_1 : S10x1.BroadcastsInDim S10x4 (![0, 1] : Fin 2 → Fin S10x4.rank)
  reducesTo_S10x10_S10_d1 : S10x10.ReducesTo [1] S10
  bcast_S_S10 : S_.BroadcastsInDim S10 (![] : Fin 0 → Fin S10.rank)
  reducesTo_S10_S_d0 : S10.ReducesTo [0] S_
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S200000 : S_.BroadcastsInDim S200000 (![] : Fin 0 → Fin S200000.rank)
  bcast_S1000000_S1000000x1_0 : S1000000.BroadcastsInDim S1000000x1 (![0] : Fin 1 → Fin S1000000x1.rank)
  transposes_S4x64_S64x4_1_0 : S4x64.Transposes [1, 0] S64x4
  reducesTo_S4x10_S4_d1 : S4x10.ReducesTo [1] S4
  bcast_S_S4 : S_.BroadcastsInDim S4 (![] : Fin 0 → Fin S4.rank)
  bcast_S4_S4x1_0 : S4.BroadcastsInDim S4x1 (![0] : Fin 1 → Fin S4x1.rank)
  bcast_S4x1_S4x10_0_1 : S4x1.BroadcastsInDim S4x10 (![0, 1] : Fin 2 → Fin S4x10.rank)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x10_d1_w32 : S4000x10.Iotas .tc 32 [1]
  broadcasts_S4000x1_S4000x10 : S4000x1.Broadcasts S4000x10
  natLt_1_32 : 1 < 32
  bitsLt_bf16_f32 : FTy.bits .bf16 < FTy.bits .f32
  inb_S10x64_S10x64_0_0 : ∀ a, (![0, 0] : Fin 2 → Nat) a + S10x64.size a ≤ S10x64.size a
  h_S10x64 : 0 < S10x64.numel
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S4000x1_S4000x64 : S4000x1.Broadcasts S4000x64
  bcast_S_S200000x64 : S_.BroadcastsInDim S200000x64 (![] : Fin 0 → Fin S200000x64.rank)
  bcast_S_S100000x64 : S_.BroadcastsInDim S100000x64 (![] : Fin 0 → Fin S100000x64.rank)
  inb_S2000x64_S2000x64_0_0 : ∀ a, (![0, 0] : Fin 2 → Nat) a + S2000x64.size a ≤ S2000x64.size a
  h_S2000x64 : 0 < S2000x64.numel
  inb_S64x4_S64x4_0_0 : ∀ a, (![0, 0] : Fin 2 → Nat) a + S64x4.size a ≤ S64x4.size a
  h_S64x4 : 0 < S64x4.numel
  shapeCasts_S64x4_S64x4 : S64x4.ShapeCasts S64x4
  reduces_S2000x4_S2000 : S2000x4.Reduces [1] S2000
  shapeCasts_S2000_S2000x1 : S2000.ShapeCasts S2000x1
  broadcasts_S2000x1_S2000x4 : S2000x1.Broadcasts S2000x4
  inb_S4x64_S4x64_0_0 : ∀ a, (![0, 0] : Fin 2 → Nat) a + S4x64.size a ≤ S4x64.size a
  h_S4x64 : 0 < S4x64.numel
  shapeCasts_S4x64_S4x64 : S4x64.ShapeCasts S4x64
  shapeCasts_S2000x64_S2000x64 : S2000x64.ShapeCasts S2000x64
  reduces_S2000x64_S2000 : S2000x64.Reduces [1] S2000
  broadcasts_S2000x1_S2000x64 : S2000x1.Broadcasts S2000x64
  reduces_S4000x64_S4000 : S4000x64.Reduces [1] S4000
  shapeCasts_S4000_S4000x1 : S4000.ShapeCasts S4000x1
  dot_S10x4_S4x10_S10x10_1_0_0_1_n_n_wf : DotDims.WF S10x4 S4x10 S10x10 [1] [0] [0] [1] [] []
  scatter_S200000_S1000000x1_S1000000_n_0_0_1_wf : ScatterDims.WF S200000 S1000000x1 S1000000 [] [0] [0] 1
  gather_S200000_S1000000x1_S1000000_n_0_n_n_0_1_1_wf : GatherDims.WF S200000 S1000000x1 S1000000 [] [0] [] [0] [] 1 ![1]
  dot_S4x10_S10x64_S4x64_1_0_0_1_n_n_wf : DotDims.WF S4x10 S10x64 S4x64 [1] [0] [0] [1] [] []
  gather_S200000x64_S1000000x1_S1000000x64_1_0_n_n_0_1_164_wf : GatherDims.WF S200000x64 S1000000x1 S1000000x64 [1] [0] [] [0] [] 1 ![1, 64]
  dot_S4000x10_S10x64_S4000x64_1_0_0_1_n_n_wf : DotDims.WF S4000x10 S10x64 S4000x64 [1] [0] [0] [1] [] []
  scatter_S200000x64_S1000000x1_S1000000x64_1_0_0_1_wf : ScatterDims.WF S200000x64 S1000000x1 S1000000x64 [1] [0] [0] 1
  scatter_S100000x64_S1000000x1_S1000000x64_1_0_0_1_wf : ScatterDims.WF S100000x64 S1000000x1 S1000000x64 [1] [0] [0] 1
  dot_S2000x64_S64x4_S2000x4_1_0_0_1_n_n_wf : DotDims.WF S2000x64 S64x4 S2000x4 [1] [0] [0] [1] [] []
  dot_S2000x4_S4x64_S2000x64_1_0_0_1_n_n_wf : DotDims.WF S2000x4 S4x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1000000x64.size a
  hwx0_0 : ∀ i : grid0.Coords, EltTy.bits .f32 = 32 ∨ (Rect.block (s := S1000000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S1000000x1.size a
  hwx0_1 : ∀ i : grid0.Coords, EltTy.bits .i32 = 32 ∨ (Rect.block (s := S1000000x1) S4000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x64.size a ≤ S10x64.size a
  hwx0_2 : ∀ i : grid0.Coords, EltTy.bits .f32 = 32 ∨ (Rect.block (s := S10x64) S10x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S1000000x1.size a
  hwx0_3 : ∀ i : grid0.Coords, EltTy.bits .f32 = 32 ∨ (Rect.block (s := S1000000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S1000000x64.size a
  hwx0_4 : ∀ i : grid0.Coords, EltTy.bits .f32 = 32 ∨ (Rect.block (s := S1000000x64) S4000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S1000000x64.size a
  hwx1_0 : ∀ i : grid1.Coords, EltTy.bits .f32 = 32 ∨ (Rect.block (s := S1000000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S1000000x1.size a
  hwx1_1 : ∀ i : grid1.Coords, EltTy.bits .f32 = 32 ∨ (Rect.block (s := S1000000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S1000000x64.size a
  hwx1_2 : ∀ i : grid1.Coords, EltTy.bits .f32 = 32 ∨ (Rect.block (s := S1000000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x4.size a ≤ S64x4.size a
  hwx2_2 : ∀ i : grid2.Coords, EltTy.bits .f32 = 32 ∨ (Rect.block (s := S64x4) S64x4.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4x64.size a ≤ S4x64.size a
  hwx2_3 : ∀ i : grid2.Coords, EltTy.bits .f32 = 32 ∨ (Rect.block (s := S4x64) S4x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S100000x64.size a
  hwx2_4 : ∀ i : grid2.Coords, EltTy.bits .f32 = 32 ∨ (Rect.block (s := S100000x64) S2000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S100000x64.size a
  hwx2_6 : ∀ i : grid2.Coords, EltTy.bits .f32 = 32 ∨ (Rect.block (s := S100000x64) S2000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S200000x64.size a
  hwx3_0 : ∀ i : grid3.Coords, EltTy.bits .f32 = 32 ∨ (Rect.block (s := S200000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S200000x64.size a
  hwx3_1 : ∀ i : grid3.Coords, EltTy.bits .f32 = 32 ∨ (Rect.block (s := S200000x64) S4000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S200000x64.size a
  hwx3_2 : ∀ i : grid3.Coords, EltTy.bits .f32 = 32 ∨ (Rect.block (s := S200000x64) S4000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x64.size a ≤ S200000x64.size a
  hwx3_3 : ∀ i : grid3.Coords, EltTy.bits .f32 = 32 ∨ (Rect.block (s := S200000x64) S4000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S1000000x64.size a
  hwx4_0 : ∀ i : grid4.Coords, EltTy.bits .f32 = 32 ∨ (Rect.block (s := S1000000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S1000000x1.size a
  hwx4_1 : ∀ i : grid4.Coords, EltTy.bits .i32 = 32 ∨ (Rect.block (s := S1000000x1) S4000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S10x64.size a ≤ S10x64.size a
  hwx4_2 : ∀ i : grid4.Coords, EltTy.bits .f32 = 32 ∨ (Rect.block (s := S10x64) S10x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x1.size a ≤ S1000000x1.size a
  hwx4_3 : ∀ i : grid4.Coords, EltTy.bits .f32 = 32 ∨ (Rect.block (s := S1000000x1) S4000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x64.size a ≤ S1000000x64.size a
  hwx4_4 : ∀ i : grid4.Coords, EltTy.bits .f32 = 32 ∨ (Rect.block (s := S1000000x64) S4000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S1000000x64.size a
  hwx5_0 : ∀ i : grid5.Coords, EltTy.bits .f32 = 32 ∨ (Rect.block (s := S1000000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S1000000x1.size a
  hwx5_1 : ∀ i : grid5.Coords, EltTy.bits .f32 = 32 ∨ (Rect.block (s := S1000000x1) S4000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x64.size a ≤ S1000000x64.size a
  hwx5_2 : ∀ i : grid5.Coords, EltTy.bits .f32 = 32 ∨ (Rect.block (s := S1000000x64) S4000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S100000x64.size a
  hwx6_1 : ∀ i : grid6.Coords, EltTy.bits .f32 = 32 ∨ (Rect.block (s := S100000x64) S2000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x4.size a ≤ S64x4.size a
  hwx6_2 : ∀ i : grid6.Coords, EltTy.bits .f32 = 32 ∨ (Rect.block (s := S64x4) S64x4.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S4x64.size a ≤ S4x64.size a
  hwx6_3 : ∀ i : grid6.Coords, EltTy.bits .f32 = 32 ∨ (Rect.block (s := S4x64) S4x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x64.size a ≤ S100000x64.size a
  hwx6_4 : ∀ i : grid6.Coords, EltTy.bits .f32 = 32 ∨ (Rect.block (s := S100000x64) S2000x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x64.size a ≤ S100000x64.size a
  hwx6_5 : ∀ i : grid6.Coords, EltTy.bits .f32 = 32 ∨ (Rect.block (s := S100000x64) S2000x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x64.size a ≤ S100000x64.size a
  hwx6_6 : ∀ i : grid6.Coords, EltTy.bits .f32 = 32 ∨ (Rect.block (s := S100000x64) S2000x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x64.size a ≤ S200000x64.size a
  hwx7_0 : ∀ i : grid7.Coords, EltTy.bits .f32 = 32 ∨ (Rect.block (s := S200000x64) S4000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x64.size a ≤ S200000x64.size a
  hwx7_1 : ∀ i : grid7.Coords, EltTy.bits .f32 = 32 ∨ (Rect.block (s := S200000x64) S4000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x64.size a ≤ S200000x64.size a
  hwx7_2 : ∀ i : grid7.Coords, EltTy.bits .f32 = 32 ∨ (Rect.block (s := S200000x64) S4000x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4000x64.size a ≤ S200000x64.size a
  hwx7_3 : ∀ i : grid7.Coords, EltTy.bits .f32 = 32 ∨ (Rect.block (s := S200000x64) S4000x64.size (cc7_transform_3 i) (hinb7_3 i)).WholeWords (EltTy.packing .f32)

variable [Facts₀]

def dot_S10x4_S4x10_S10x10_1_0_0_1_n_n : DotDims S10x4 S4x10 S10x10 where
  lhsContracting := [1]
  rhsContracting := [0]
  lhsNonContracting := [0]
  rhsNonContracting := [1]
  lhsBatch := []
  rhsBatch := []
  wf := dot_S10x4_S4x10_S10x10_1_0_0_1_n_n_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S200000_S1000000x1_S1000000_n_0_n_n_0_1_1 : GatherDims S200000 S1000000x1 S1000000 where
  offsetDims := []
  collapsedSliceDims := [0]
  operandBatchingDims := []
  startIndicesBatchingDims := []
  startIndexMap := [0]
  indexVectorDim := 1
  sliceSizes := ![1]
  wf := gather_S200000_S1000000x1_S1000000_n_0_n_n_0_1_1_wf
def dot_S4x10_S10x64_S4x64_1_0_0_1_n_n : DotDims S4x10 S10x64 S4x64 where
  lhsContracting := [1]
  rhsContracting := [0]
  lhsNonContracting := [0]
  rhsNonContracting := [1]
  lhsBatch := []
  rhsBatch := []
  wf := dot_S4x10_S10x64_S4x64_1_0_0_1_n_n_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def dot_S4000x10_S10x64_S4000x64_1_0_0_1_n_n : DotDims S4000x10 S10x64 S4000x64 where
  lhsContracting := [1]
  rhsContracting := [0]
  lhsNonContracting := [0]
  rhsNonContracting := [1]
  lhsBatch := []
  rhsBatch := []
  wf := dot_S4000x10_S10x64_S4000x64_1_0_0_1_n_n_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S2000x64_S64x4_S2000x4_1_0_0_1_n_n : DotDims S2000x64 S64x4 S2000x4 where
  lhsContracting := [1]
  rhsContracting := [0]
  lhsNonContracting := [0]
  rhsNonContracting := [1]
  lhsBatch := []
  rhsBatch := []
  wf := dot_S2000x64_S64x4_S2000x4_1_0_0_1_n_n_wf
def dot_S2000x4_S4x64_S2000x64_1_0_0_1_n_n : DotDims S2000x4 S4x64 S2000x64 where
  lhsContracting := [1]
  rhsContracting := [0]
  lhsNonContracting := [0]
  rhsNonContracting := [1]
  lhsBatch := []
  rhsBatch := []
  wf := dot_S2000x4_S4x64_S2000x64_1_0_0_1_n_n_wf

abbrev win0_0 : Pipeline.Window sig grid0 :=
  Pipeline.Window.ofSpec (Memref.whole main_v60) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S10x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v61) S4000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v71) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v72) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v73) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S64x4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S4x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg0) S2000x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v77_0) S2000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v77_1) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v64) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v78_0) S4000x64.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v78_1) S4000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v85) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg3) S10x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v37) S4000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v86) S4000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v96) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v98) S4000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77_0) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v101) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v41) S64x4.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v53) S4x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v77_1) S2000x64.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v102_0) S2000x64.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v102_1) S2000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v89) S4000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v78_1) S4000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v103_0) S4000x64.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v103_1) S4000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x64 : Shape := ⟨2, ![100000, 64]⟩
abbrev S200000x64 : Shape := ⟨2, ![200000, 64]⟩
abbrev S4x64 : Shape := ⟨2, ![4, 64]⟩
abbrev S10x64 : Shape := ⟨2, ![10, 64]⟩
abbrev S4x10 : Shape := ⟨2, ![4, 10]⟩
abbrev S2x1000000 : Shape := ⟨2, ![2, 1000000]⟩
abbrev S1000000 : Shape := ⟨1, ![1000000]⟩
abbrev S10x4 : Shape := ⟨2, ![10, 4]⟩
abbrev S_ : Shape := ⟨0, ![]⟩
abbrev S10 : Shape := ⟨1, ![10]⟩
abbrev S10x1 : Shape := ⟨2, ![10, 1]⟩
abbrev S10x10 : Shape := ⟨2, ![10, 10]⟩
abbrev S1x1000000 : Shape := ⟨2, ![1, 1000000]⟩
abbrev S200000 : Shape := ⟨1, ![200000]⟩
abbrev S1000000x1 : Shape := ⟨2, ![1000000, 1]⟩
abbrev S1000000x64 : Shape := ⟨2, ![1000000, 64]⟩
abbrev S200000x1 : Shape := ⟨2, ![200000, 1]⟩
abbrev S64x4 : Shape := ⟨2, ![64, 4]⟩
abbrev S100000x4 : Shape := ⟨2, ![100000, 4]⟩
abbrev S100000 : Shape := ⟨1, ![100000]⟩
abbrev S100000x1 : Shape := ⟨2, ![100000, 1]⟩
abbrev S100000x4x1 : Shape := ⟨3, ![100000, 4, 1]⟩
abbrev S4 : Shape := ⟨1, ![4]⟩
abbrev S4x1 : Shape := ⟨2, ![4, 1]⟩
abbrev S1x4x64 : Shape := ⟨3, ![1, 4, 64]⟩
abbrev S100000x4x64 : Shape := ⟨3, ![100000, 4, 64]⟩

abbrev nBuf : Space → Nat
  | .hbm => 267
  | .vmem => 0
  | .smem => 0
  | _ => 0

abbrev hbmTy0_0 (i : Nat) : BufTy := match i % 128 with
  | 0 => ⟨S100000x64, .f32⟩
  | 1 => ⟨S200000x64, .f32⟩
  | 2 => ⟨S4x64, .f32⟩
  | 3 => ⟨S10x64, .f32⟩
  | 4 => ⟨S4x10, .f32⟩
  | 5 => ⟨S2x1000000, .i32⟩
  | 6 => ⟨S1000000, .i32⟩
  | 7 => ⟨S1000000, .i32⟩
  | 8 => ⟨S1000000, .i32⟩
  | 9 => ⟨S1000000, .f32⟩
  | 10 => ⟨S10x4, .f32⟩
  | 11 => ⟨S10x4, .f32⟩
  | 12 => ⟨S_, .f32⟩
  | 13 => ⟨S10, .f32⟩
  | 14 => ⟨S10x1, .f32⟩
  | 15 => ⟨S10x1, .f32⟩
  | 16 => ⟨S10x4, .f32⟩
  | 17 => ⟨S10x4, .f32⟩
  | 18 => ⟨S10x4, .f32⟩
  | 19 => ⟨S_, .f32⟩
  | 20 => ⟨S10, .f32⟩
  | 21 => ⟨S10x10, .f32⟩
  | 22 => ⟨S_, .f32⟩
  | 23 => ⟨S10, .f32⟩
  | 24 => ⟨S_, .f32⟩
  | 25 => ⟨S10, .f32⟩
  | 26 => ⟨S10, .f32⟩
  | 27 => ⟨S10, .f32⟩
  | 28 => ⟨S_, .f32⟩
  | 29 => ⟨S10, .f32⟩
  | 30 => ⟨S10, .f32⟩
  | 31 => ⟨S10, .f32⟩
  | 32 => ⟨S10, .f32⟩
  | 33 => ⟨S10, .f32⟩
  | 34 => ⟨S_, .f32⟩
  | 35 => ⟨S_, .f32⟩
  | 36 => ⟨S_, .f32⟩
  | 37 => ⟨S1x1000000, .i32⟩
  | 38 => ⟨S1000000, .i32⟩
  | 39 => ⟨S1x1000000, .i32⟩
  | 40 => ⟨S1000000, .i32⟩
  | 41 => ⟨S_, .f32⟩
  | 42 => ⟨S1000000, .f32⟩
  | 43 => ⟨S_, .f32⟩
  | 44 => ⟨S200000, .f32⟩
  | 45 => ⟨S1000000x1, .i32⟩
  | 46 => ⟨S200000, .f32⟩
  | 47 => ⟨S_, .f32⟩
  | 48 => ⟨S200000, .f32⟩
  | 49 => ⟨S200000, .f32⟩
  | 50 => ⟨S_, .f32⟩
  | 51 => ⟨S200000, .f32⟩
  | 52 => ⟨S200000, .f32⟩
  | 53 => ⟨S_, .i32⟩
  | 54 => ⟨S1000000, .i32⟩
  | 55 => ⟨S1000000, .i32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000x64, .f32⟩
  | 65 => ⟨S_, .i32⟩
  | 66 => ⟨S1000000, .i32⟩
  | 67 => ⟨S1000000, .i1⟩
  | 68 => ⟨S_, .i32⟩
  | 69 => ⟨S1000000, .i32⟩
  | 70 => ⟨S1000000, .i32⟩
  | 71 => ⟨S1000000, .i32⟩
  | 72 => ⟨S1000000x1, .i32⟩
  | 73 => ⟨S1000000x64, .f32⟩
  | 74 => ⟨S1000000x64, .f32⟩
  | 75 => ⟨S_, .f32⟩
  | 76 => ⟨S200000x64, .f32⟩
  | 77 => ⟨S1000000x1, .i32⟩
  | 78 => ⟨S200000x64, .f32⟩
  | 79 => ⟨S200000x1, .f32⟩
  | 80 => ⟨S200000x64, .f32⟩
  | 81 => ⟨S200000x64, .f32⟩
  | 82 => ⟨S64x4, .f32⟩
  | 83 => ⟨S100000x4, .f32⟩
  | 84 => ⟨S_, .f32⟩
  | 85 => ⟨S100000, .f32⟩
  | 86 => ⟨S_, .f32⟩
  | 87 => ⟨S100000, .f32⟩
  | 88 => ⟨S100000, .f32⟩
  | 89 => ⟨S100000x1, .f32⟩
  | 90 => ⟨S100000x4, .f32⟩
  | 91 => ⟨S100000x4, .f32⟩
  | 92 => ⟨S100000x4, .f32⟩
  | 93 => ⟨S_, .f32⟩
  | 94 => ⟨S100000, .f32⟩
  | 95 => ⟨S100000x1, .f32⟩
  | 96 => ⟨S100000x4, .f32⟩
  | 97 => ⟨S100000x4, .f32⟩
  | 98 => ⟨S100000x4x1, .f32⟩
  | 99 => ⟨S1000000x1, .f32⟩
  | 100 => ⟨S_, .i32⟩
  | 101 => ⟨S1000000, .i32⟩
  | 102 => ⟨S1000000, .i1⟩
  | 103 => ⟨S_, .i32⟩
  | 104 => ⟨S1000000, .i32⟩
  | 105 => ⟨S1000000, .i32⟩
  | 106 => ⟨S1000000, .i32⟩
  | 107 => ⟨S1000000x1, .i32⟩
  | 108 => ⟨S1000000x64, .f32⟩
  | 109 => ⟨S1000000x64, .f32⟩
  | 110 => ⟨S1000000x64, .f32⟩
  | 111 => ⟨S_, .f32⟩
  | 112 => ⟨S100000x64, .f32⟩
  | 113 => ⟨S1000000x1, .i32⟩
  | 114 => ⟨S100000x64, .f32⟩
  | 115 => ⟨S_, .f32⟩
  | 116 => ⟨S4, .f32⟩
  | 117 => ⟨S_, .f32⟩
  | 118 => ⟨S4, .f32⟩
  | 119 => ⟨S4, .f32⟩
  | 120 => ⟨S4x1, .f32⟩
  | 121 => ⟨S4x10, .f32⟩
  | 122 => ⟨S4x10, .f32⟩
  | 123 => ⟨S4x10, .f32⟩
  | 124 => ⟨S_, .f32⟩
  | 125 => ⟨S4, .f32⟩
  | 126 => ⟨S4x1, .f32⟩
  | 127 => ⟨S4x10, .f32⟩
  | _ => ⟨S100000x64, .f32⟩

abbrev hbmTy0_1 (i : Nat) : BufTy := match i % 128 with
  | 0 => ⟨S4x10, .f32⟩
  | 1 => ⟨S4x64, .f32⟩
  | 2 => ⟨S1x4x64, .f32⟩
  | 3 => ⟨S100000x4x64, .f32⟩
  | 4 => ⟨S100000x4x64, .f32⟩
  | 5 => ⟨S100000x4x64, .f32⟩
  | 6 => ⟨S_, .f32⟩
  | 7 => ⟨S100000x64, .f32⟩
  | 8 => ⟨S100000x64, .f32⟩
  | 9 => ⟨S100000x64, .f32⟩
  | 10 => ⟨S200000x64, .f32⟩
  | 11 => ⟨S_, .f32⟩
  | 12 => ⟨S200000, .f32⟩
  | 13 => ⟨S200000x1, .f32⟩
  | 14 => ⟨S200000x1, .f32⟩
  | 15 => ⟨S_, .f32⟩
  | 16 => ⟨S200000x1, .f32⟩
  | 17 => ⟨S200000x1, .f32⟩
  | 18 => ⟨S200000x64, .f32⟩
  | 19 => ⟨S200000x64, .f32⟩
  | 20 => ⟨S100000x64, .f32⟩
  | 21 => ⟨S_, .f32⟩
  | 22 => ⟨S100000, .f32⟩
  | 23 => ⟨S100000x1, .f32⟩
  | 24 => ⟨S100000x1, .f32⟩
  | 25 => ⟨S_, .f32⟩
  | 26 => ⟨S100000x1, .f32⟩
  | 27 => ⟨S100000x1, .f32⟩
  | 28 => ⟨S100000x64, .f32⟩
  | 29 => ⟨S100000x64, .f32⟩
  | 30 => ⟨S200000x64, .f32⟩
  | 31 => ⟨S100000x64, .f32⟩
  | 32 => ⟨S_, .i32⟩
  | 33 => ⟨S1000000, .i32⟩
  | 34 => ⟨S1000000, .i32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000x64, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000x64, .f32⟩
  | 53 => ⟨S1000000x64, .f32⟩
  | 54 => ⟨S_, .f32⟩
  | 55 => ⟨S200000x64, .f32⟩
  | 56 => ⟨S1000000x1, .i32⟩
  | 57 => ⟨S200000x64, .f32⟩
  | 58 => ⟨S200000x1, .f32⟩
  | 59 => ⟨S200000x64, .f32⟩
  | 60 => ⟨S200000x64, .f32⟩
  | 61 => ⟨S64x4, .f32⟩
  | 62 => ⟨S100000x4, .f32⟩
  | 63 => ⟨S_, .f32⟩
  | 64 => ⟨S100000, .f32⟩
  | 65 => ⟨S_, .f32⟩
  | 66 => ⟨S100000, .f32⟩
  | 67 => ⟨S100000, .f32⟩
  | 68 => ⟨S100000x1, .f32⟩
  | 69 => ⟨S100000x4, .f32⟩
  | 70 => ⟨S100000x4, .f32⟩
  | 71 => ⟨S100000x4, .f32⟩
  | 72 => ⟨S_, .f32⟩
  | 73 => ⟨S100000, .f32⟩
  | 74 => ⟨S100000x1, .f32⟩
  | 75 => ⟨S100000x4, .f32⟩
  | 76 => ⟨S100000x4, .f32⟩
  | 77 => ⟨S100000x4x1, .f32⟩
  | 78 => ⟨S1000000x1, .f32⟩
  | 79 => ⟨S_, .i32⟩
  | 80 => ⟨S1000000, .i32⟩
  | 81 => ⟨S1000000, .i1⟩
  | 82 => ⟨S_, .i32⟩
  | 83 => ⟨S1000000, .i32⟩
  | 84 => ⟨S1000000, .i32⟩
  | 85 => ⟨S1000000, .i32⟩
  | 86 => ⟨S1000000x1, .i32⟩
  | 87 => ⟨S1000000x64, .f32⟩
  | 88 => ⟨S1000000x64, .f32⟩
  | 89 => ⟨S1000000x64, .f32⟩
  | 90 => ⟨S_, .f32⟩
  | 91 => ⟨S100000x64, .f32⟩
  | 92 => ⟨S1000000x1, .i32⟩
  | 93 => ⟨S100000x64, .f32⟩
  | 94 => ⟨S_, .f32⟩
  | 95 => ⟨S4, .f32⟩
  | 96 => ⟨S_, .f32⟩
  | 97 => ⟨S4, .f32⟩
  | 98 => ⟨S4, .f32⟩
  | 99 => ⟨S4x1, .f32⟩
  | 100 => ⟨S4x10, .f32⟩
  | 101 => ⟨S4x10, .f32⟩
  | 102 => ⟨S4x10, .f32⟩
  | 103 => ⟨S_, .f32⟩
  | 104 => ⟨S4, .f32⟩
  | 105 => ⟨S4x1, .f32⟩
  | 106 => ⟨S4x10, .f32⟩
  | 107 => ⟨S4x10, .f32⟩
  | 108 => ⟨S4x64, .f32⟩
  | 109 => ⟨S1x4x64, .f32⟩
  | 110 => ⟨S100000x4x64, .f32⟩
  | 111 => ⟨S100000x4x64, .f32⟩
  | 112 => ⟨S100000x4x64, .f32⟩
  | 113 => ⟨S_, .f32⟩
  | 114 => ⟨S100000x64, .f32⟩
  | 115 => ⟨S100000x64, .f32⟩
  | 116 => ⟨S100000x64, .f32⟩
  | 117 => ⟨S200000x64, .f32⟩
  | 118 => ⟨S_, .f32⟩
  | 119 => ⟨S200000, .f32⟩
  | 120 => ⟨S200000x1, .f32⟩
  | 121 => ⟨S200000x1, .f32⟩
  | 122 => ⟨S_, .f32⟩
  | 123 => ⟨S200000x1, .f32⟩
  | 124 => ⟨S200000x1, .f32⟩
  | 125 => ⟨S200000x64, .f32⟩
  | 126 => ⟨S200000x64, .f32⟩
  | 127 => ⟨S100000x64, .f32⟩
  | _ => ⟨S100000x64, .f32⟩

abbrev hbmTy0_2 (i : Nat) : BufTy := match i % 128 with
  | 0 => ⟨S_, .f32⟩
  | 1 => ⟨S100000, .f32⟩
  | 2 => ⟨S100000x1, .f32⟩
  | 3 => ⟨S100000x1, .f32⟩
  | 4 => ⟨S_, .f32⟩
  | 5 => ⟨S100000x1, .f32⟩
  | 6 => ⟨S100000x1, .f32⟩
  | 7 => ⟨S100000x64, .f32⟩
  | 8 => ⟨S100000x64, .f32⟩
  | 9 => ⟨S200000x64, .f32⟩
  | 10 => ⟨S100000x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_c : Ref sig .tc := ⟨.hbm, 53, rfl⟩
abbrev main_v30 : Ref sig .tc := ⟨.hbm, 54, rfl⟩
abbrev main_v31 : Ref sig .tc := ⟨.hbm, 55, rfl⟩
abbrev main_c_8 : Ref sig .tc := ⟨.hbm, 56, rfl⟩
abbrev main_v32 : Ref sig .tc := ⟨.hbm, 57, rfl⟩
abbrev main_v33 : Ref sig .tc := ⟨.hbm, 58, rfl⟩
abbrev main_c_9 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_10 : Ref sig .tc := ⟨.hbm, 65, rfl⟩
abbrev main_v39 : Ref sig .tc := ⟨.hbm, 66, rfl⟩
abbrev main_v40 : Ref sig .tc := ⟨.hbm, 67, rfl⟩
abbrev main_c_11 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_13 : Ref sig .tc := ⟨.hbm, 84, rfl⟩
abbrev main_v55 : Ref sig .tc := ⟨.hbm, 85, rfl⟩
abbrev main_cst_14 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_15 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_c_17 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_19 : Ref sig .tc := ⟨.hbm, 115, rfl⟩
abbrev main_v80 : Ref sig .tc := ⟨.hbm, 116, rfl⟩
abbrev main_cst_20 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_21 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_22 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_call1_v0 : Ref sig .tc := ⟨.hbm, 138, rfl⟩
abbrev main_call1_cst : Ref sig .tc := ⟨.hbm, 139, rfl⟩
abbrev main_call1_v1 : Ref sig .tc := ⟨.hbm, 140, rfl⟩
abbrev main_call1_v2 : Ref sig .tc := ⟨.hbm, 141, rfl⟩
abbrev main_v99 : Ref sig .tc := ⟨.hbm, 142, rfl⟩
abbrev main_cst_23 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_call2_v0 : Ref sig .tc := ⟨.hbm, 148, rfl⟩
abbrev main_call2_cst : Ref sig .tc := ⟨.hbm, 149, rfl⟩
abbrev main_call2_v1 : Ref sig .tc := ⟨.hbm, 150, rfl⟩
abbrev main_call2_v2 : Ref sig .tc := ⟨.hbm, 151, rfl⟩
abbrev main_v104 : Ref sig .tc := ⟨.hbm, 152, rfl⟩
abbrev main_cst_24 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c_25 : Ref sig .tc := ⟨.hbm, 160, rfl⟩
abbrev main_v111 : Ref sig .tc := ⟨.hbm, 161, rfl⟩
abbrev main_v112 : Ref sig .tc := ⟨.hbm, 162, rfl⟩
abbrev main_c_26 : Ref sig .tc := ⟨.hbm, 163, rfl⟩
abbrev main_v113 : Ref sig .tc := ⟨.hbm, 164, rfl⟩
abbrev main_v114 : Ref sig .tc := ⟨.hbm, 165, rfl⟩
abbrev main_c_27 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_c_28 : Ref sig .tc := ⟨.hbm, 172, rfl⟩
abbrev main_v120 : Ref sig .tc := ⟨.hbm, 173, rfl⟩
abbrev main_v121 : Ref sig .tc := ⟨.hbm, 174, rfl⟩
abbrev main_c_29 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_cst_30 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_cst_31 : Ref sig .tc := ⟨.hbm, 191, rfl⟩
abbrev main_v136 : Ref sig .tc := ⟨.hbm, 192, rfl⟩
abbrev main_cst_32 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_cst_33 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_c_34 : Ref sig .tc := ⟨.hbm, 207, rfl⟩
abbrev main_v149 : Ref sig .tc := ⟨.hbm, 208, rfl⟩
abbrev main_v150 : Ref sig .tc := ⟨.hbm, 209, rfl⟩
abbrev main_c_35 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_cst_36 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_cst_37 : Ref sig .tc := ⟨.hbm, 222, rfl⟩
abbrev main_v161 : Ref sig .tc := ⟨.hbm, 223, rfl⟩
abbrev main_cst_38 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_cst_39 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_cst_40 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_call3_v0 : Ref sig .tc := ⟨.hbm, 245, rfl⟩
abbrev main_call3_cst : Ref sig .tc := ⟨.hbm, 246, rfl⟩
abbrev main_call3_v1 : Ref sig .tc := ⟨.hbm, 247, rfl⟩
abbrev main_call3_v2 : Ref sig .tc := ⟨.hbm, 248, rfl⟩
abbrev main_v180 : Ref sig .tc := ⟨.hbm, 249, rfl⟩
abbrev main_cst_41 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_call4_v0 : Ref sig .tc := ⟨.hbm, 255, rfl⟩
abbrev main_call4_cst : Ref sig .tc := ⟨.hbm, 256, rfl⟩
abbrev main_call4_v1 : Ref sig .tc := ⟨.hbm, 257, rfl⟩
abbrev main_call4_v2 : Ref sig .tc := ⟨.hbm, 258, rfl⟩
abbrev main_v185 : Ref sig .tc := ⟨.hbm, 259, rfl⟩
abbrev main_cst_42 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩

abbrev nD : Nat := 1
abbrev τ : Topo := Topo.v7x

variable {F : FTy → Type} [FloatOps F]

class Facts₀ : Prop where
  transposes_S4x10_S10x4_1_0 : S4x10.Transposes [1, 0] S10x4
  reducesTo_S10x4_S10_d1 : S10x4.ReducesTo [1] S10
  h_S_ : 0 < S_.numel
  bcast_S10_S10x1_0 : S10.BroadcastsInDim S10x1 (![0] : Fin 1 → Fin S10x1.rank)
  bcast_S10x1_S10x4_0_1 : S10x1.BroadcastsInDim S10x4 (![0, 1] : Fin 2 → Fin S10x4.rank)
  reducesTo_S10x10_S10_d1 : S10x10.ReducesTo [1] S10
  bcast_S_S10 : S_.BroadcastsInDim S10 (![] : Fin 0 → Fin S10.rank)
  reducesTo_S10_S_d0 : S10.ReducesTo [0] S_
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S200000 : S_.BroadcastsInDim S200000 (![] : Fin 0 → Fin S200000.rank)
  bcast_S1000000_S1000000x1_0 : S1000000.BroadcastsInDim S1000000x1 (![0] : Fin 1 → Fin S1000000x1.rank)
  bcast_S_S200000x64 : S_.BroadcastsInDim S200000x64 (![] : Fin 0 → Fin S200000x64.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  transposes_S4x64_S64x4_1_0 : S4x64.Transposes [1, 0] S64x4
  reducesTo_S100000x4_S100000_d1 : S100000x4.ReducesTo [1] S100000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  bcast_S100000x4_S100000x4x1_0_1 : S100000x4.BroadcastsInDim S100000x4x1 (![0, 1] : Fin 2 → Fin S100000x4x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  reducesTo_S4x10_S4_d1 : S4x10.ReducesTo [1] S4
  bcast_S_S4 : S_.BroadcastsInDim S4 (![] : Fin 0 → Fin S4.rank)
  bcast_S4_S4x1_0 : S4.BroadcastsInDim S4x1 (![0] : Fin 1 → Fin S4x1.rank)
  bcast_S4x1_S4x10_0_1 : S4x1.BroadcastsInDim S4x10 (![0, 1] : Fin 2 → Fin S4x10.rank)
  bcast_S4x64_S1x4x64_1_2 : S4x64.BroadcastsInDim S1x4x64 (![1, 2] : Fin 2 → Fin S1x4x64.rank)
  bcast_S1x4x64_S100000x4x64_0_1_2 : S1x4x64.BroadcastsInDim S100000x4x64 (![0, 1, 2] : Fin 3 → Fin S100000x4x64.rank)
  bcast_S100000x4x1_S100000x4x64_0_1_2 : S100000x4x1.BroadcastsInDim S100000x4x64 (![0, 1, 2] : Fin 3 → Fin S100000x4x64.rank)
  reducesTo_S100000x4x64_S100000x64_d1 : S100000x4x64.ReducesTo [1] S100000x64
  reducesTo_S200000x64_S200000_d1 : S200000x64.ReducesTo [1] S200000
  bcast_S_S200000x1 : S_.BroadcastsInDim S200000x1 (![] : Fin 0 → Fin S200000x1.rank)
  reducesTo_S100000x64_S100000_d1 : S100000x64.ReducesTo [1] S100000
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  dot_S10x4_S4x10_S10x10_1_0_0_1_n_n_wf : DotDims.WF S10x4 S4x10 S10x10 [1] [0] [0] [1] [] []
  scatter_S200000_S1000000x1_S1000000_n_0_0_1_wf : ScatterDims.WF S200000 S1000000x1 S1000000 [] [0] [0] 1
  gather_S10x64_S1000000x1_S1000000x64_1_0_n_n_0_1_164_wf : GatherDims.WF S10x64 S1000000x1 S1000000x64 [1] [0] [] [0] [] 1 ![1, 64]
  gather_S200000x64_S1000000x1_S1000000x64_1_0_n_n_0_1_164_wf : GatherDims.WF S200000x64 S1000000x1 S1000000x64 [1] [0] [] [0] [] 1 ![1, 64]
  scatter_S200000x64_S1000000x1_S1000000x64_1_0_0_1_wf : ScatterDims.WF S200000x64 S1000000x1 S1000000x64 [1] [0] [0] 1
  dot_S100000x64_S64x4_S100000x4_1_0_0_1_n_n_wf : DotDims.WF S100000x64 S64x4 S100000x4 [1] [0] [0] [1] [] []
  scatter_S100000x64_S1000000x1_S1000000x64_1_0_0_1_wf : ScatterDims.WF S100000x64 S1000000x1 S1000000x64 [1] [0] [0] 1
  dot_S4x10_S10x64_S4x64_1_0_0_1_n_n_wf : DotDims.WF S4x10 S10x64 S4x64 [1] [0] [0] [1] [] []

variable [Facts₀]

def dot_S10x4_S4x10_S10x10_1_0_0_1_n_n : DotDims S10x4 S4x10 S10x10 where
  lhsContracting := [1]
  rhsContracting := [0]
  lhsNonContracting := [0]
  rhsNonContracting := [1]
  lhsBatch := []
  rhsBatch := []
  wf := dot_S10x4_S4x10_S10x10_1_0_0_1_n_n_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S10x64_S1000000x1_S1000000x64_1_0_n_n_0_1_164 : GatherDims S10x64 S1000000x1 S1000000x64 where
  offsetDims := [1]
  collapsedSliceDims := [0]
  operandBatchingDims := []
  startIndicesBatchingDims := []
  startIndexMap := [0]
  indexVectorDim := 1
  sliceSizes := ![1, 64]
  wf := gather_S10x64_S1000000x1_S1000000x64_1_0_n_n_0_1_164_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S4x10_S10x64_S4x64_1_0_0_1_n_n : DotDims S4x10 S10x64 S4x64 where
  lhsContracting := [1]
  rhsContracting := [0]
  lhsNonContracting := [0]
  rhsNonContracting := [1]
  lhsBatch := []
  rhsBatch := []
  wf := dot_S4x10_S10x64_S4x64_1_0_0_1_n_n_wf

class Facts : Prop extends Facts₀ where

variable [Facts]
-- ==== Proof.KB.Body0.lean ====
/- Region 0 of @main (custom_call 0, the edge-scale body, pipeline 0) at the contents V the TensorCore's buffers
   have when the region is entered: each window's block at a grid point, what the body leaves in the output
   window's buffer as a function of the input blocks, the body's triple on whole staging memrefs, the pipeline's
   proof data, and the body obligation at every grid point. -/
import proofs.«416106_j13048110645352_1_alg».proof.Proof.Gen.Kernel.Launch
import proofs.«416106_j13048110645352_1_alg».proof.Proof.Gen.Kernel.Skeleton
import proofs.«416106_j13048110645352_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axis
set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there
    or not (an unfetched window's block index has not moved), for any proof data whose array is V's and whose body
    leaves the block in place. One statement per input window: 0, 1, 2 (the weight table, one block for all points), 3. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 4000x1 column (the relation ids, and the per-edge scale). -/
abbrev r0_0 : Rect S4000x1 := Rect.unit (s := S4000x1) ![0, 0] S4000x1.size inb_S4000x1_S4000x1_0_0
/-- The whole 10x64 weight table. -/
abbrev r0_1 : Rect S10x64 := Rect.unit (s := S10x64) ![0, 0] S10x64.size inb_S10x64_S10x64_0_0
/-- The whole 4000x64 block (the tail rows read, the result stored). -/
abbrev r0_2 : Rect S4000x64 := Rect.unit (s := S4000x64) ![0, 0] S4000x64.size inb_S4000x64_S4000x64_0_0

/-! ## What the body leaves in the output window's buffer -/

/-- Window 4's staging buffer after the body, from the input windows' blocks: its one store, of the whole block,
    whose payload is tail * (onehot(relation) @ weight) * scale over the four loads. -/
def out0_4 (x0 : Vec F S4000x64 .f32) (x1 : Vec F S4000x1 .i32) (x2 : Vec F S10x64 .f32) (x3 : Vec F S4000x1 .f32) : Vec F S4000x64 .f32 :=
  View.canon [⟨r0_2, k0_pay1 (View.ld x1 r0_0) (View.ld x2 r0_1) (View.ld x0 r0_2) (View.ld x3 r0_0)⟩]

/-- The one store is of the whole block, so it covers the buffer. -/
theorem cover0_4 (p0 : Vec F S4000x64 .f32) (y : S4000x64.Idx) :
    ∃ pc ∈ ([⟨r0_2, p0⟩] : List (View.Piece (Elt F) S4000x64 .f32)), y ∈ pc.1.set :=
  View.cover_of_tiled [⟨r0_2, p0⟩] S4000x64.size (by rfl) y

/-! ## The body's triple -/

set_option maxHeartbeats 4000000 in
/-- The kernel body on whole staging memrefs, the inputs' at read contents x0..x3 and the output's at anything, runs to
    the continuation holding the inputs' as they were and the output's at out0_4 of the inputs'. -/
theorem sound_kernel0 (c : Dev nD) (E : Set ℕ) (i : grid0.Coords)
    (arg1 : Memref sig .tc .vmem S4000x64 .f32) (harg1 : arg1.IsWhole) (arg2 : Memref sig .tc .vmem S4000x1 .i32) (harg2 : arg2.IsWhole)
    (arg3 : Memref sig .tc .vmem S10x64 .f32) (harg3 : arg3.IsWhole) (arg4 : Memref sig .tc .vmem S4000x1 .f32) (harg4 : arg4.IsWhole)
    (arg5 : Memref sig .tc .vmem S4000x64 .f32) (harg5 : arg5.IsWhole)
    (x0 : Vec F S4000x64 .f32) (x1 : Vec F S4000x1 .i32) (x2 : Vec F S10x64 .f32) (x3 : Vec F S4000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__edge_scale_body i arg1 harg1 arg2 harg2 arg3 harg3 arg4 harg4 arg5 harg5) K := by
  simp only [cc0__edge_scale_body_eq_skeleton]; unfold cc0__edge_scale_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core c: the arrays as the region finds them; after the body at point t each
    input's buffer at its block and the output's at out0_4 of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's owed amounts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KB.Body1.lean ====
import proofs.«416106_j13048110645352_1_alg».proof.Proof.Gen.Kernel.Launch
import proofs.«416106_j13048110645352_1_alg».proof.Proof.Gen.Kernel.Skeleton
import proofs.«416106_j13048110645352_1_alg».proof.Proof.Gen.Kernel.Points
import Idealize.ShloMosaic.Lib.Pipeline.FrameBody
import Idealize.ShloMosaic.Lib.Ring
import Idealize.ShloMosaic.Lib.Tactic

-- membership in a rectangle of 4000 rows: the structural check recurses once per coordinate of the long axis
set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! # Region 1: the row-scaling body `x * s` on blocks of 4000 rows, at the entry contents `V` -/

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    `V`'s and whose body leaves the block in place: the window is fetched whole at every point and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S4000x64 := Rect.unit (s := S4000x64) ![0, 0] S4000x64.size inb_S4000x64_S4000x64_0_0
abbrev r1_1 : Rect S4000x1 := Rect.unit (s := S4000x1) ![0, 0] S4000x1.size inb_S4000x1_S4000x1_0_0

/-! ## What the body leaves in the output window's buffer -/

/-- The output buffer after the body, from the two input blocks: its one whole-block store of the
    product of the rows `x0` by the per-row scalars `x1`. -/
def out1_2 (x0 : Vec F S4000x64 .f32) (x1 : Vec F S4000x1 .f32) : Vec F S4000x64 .f32 :=
  View.canon [⟨r1_0, k1_pay1 (View.ld x0 r1_0) (View.ld x1 r1_1)⟩]

/-- The one store is the whole buffer, so it covers it. -/
theorem cover1_2 (p0 : Vec F S4000x64 .f32) (y : S4000x64.Idx) :
    ∃ pc ∈ ([⟨r1_0, p0⟩] : List (View.Piece (Elt F) S4000x64 .f32)), y ∈ pc.1.set :=
  View.cover_of_tiled [⟨r1_0, p0⟩] S4000x64.size (by rfl) y

/-! ## The body's triple -/

set_option maxHeartbeats 1000000 in
/-- The body on whole staging memrefs, the inputs' at contents `x0`, `x1` and the output's at anything, runs to the
    continuation holding the inputs' unchanged and the output's at `out1_2 x0 x1`. -/
theorem sound_kernel1 (c : Dev nD) (E : Set ℕ) (i : grid1.Coords)
    (arg1 : Memref sig .tc .vmem S4000x64 .f32) (harg1 : arg1.IsWhole) (arg2 : Memref sig .tc .vmem S4000x1 .f32) (harg2 : arg2.IsWhole)
    (arg3 : Memref sig .tc .vmem S4000x64 .f32) (harg3 : arg3.IsWhole)
    (x0 : Vec F S4000x64 .f32) (x1 : Vec F S4000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__scale_body i arg1 harg1 arg2 harg2 arg3 harg3) K := by
  simp only [cc1__scale_body_eq_skeleton]; unfold cc1__scale_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays as the region finds them; after the body at point `t`
    each input's buffer at its block and the output's at `out1_2` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KB.Body2.lean ====
/- Region 2 of @main (custom_call 2, the user-update body over pipeline 2) at a parameter: the buffer contents the
   region is entered with. Each window's block at a point, what the body leaves in the two output windows' staging
   buffers as a function of the input blocks, the body's triple, the pipeline's proof data and the body obligation. -/
import proofs.«416106_j13048110645352_1_alg».proof.Proof.Gen.Kernel.Launch
import proofs.«416106_j13048110645352_1_alg».proof.Proof.Gen.Kernel.Skeleton
import proofs.«416106_j13048110645352_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open scoped Idealize.SL.RA.PCS
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is the entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is the entry contents and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is through the whole block -/

abbrev r2_0 : Rect S2000x64 := Rect.unit (s := S2000x64) ![0, 0] S2000x64.size inb_S2000x64_S2000x64_0_0
abbrev r2_1 : Rect S64x4 := Rect.unit (s := S64x4) ![0, 0] S64x4.size inb_S64x4_S64x4_0_0
abbrev r2_2 : Rect S4x64 := Rect.unit (s := S4x64) ![0, 0] S4x64.size inb_S4x64_S4x64_0_0

/-! ## What the body leaves in each output window's buffer -/

/-- Window 5 (the normalized rows): one whole-block store of the first payload, a function of the blocks of
    windows 0 (rows), 2 and 3 (the two small matrices) and 1 (the aggregate). -/
def out2_5 (x0 : Vec F S2000x64 .f32) (x1 : Vec F S2000x64 .f32) (x2 : Vec F S64x4 .f32) (x3 : Vec F S4x64 .f32) : Vec F S2000x64 .f32 :=
  View.canon [⟨r2_0, k2_pay1 (View.ld x0 r2_0) (View.ld x2 r2_1) (View.ld x3 r2_2) (View.ld x1 r2_0)⟩]

/-- Window 6 (the residual sum): one whole-block store of the second payload, which adds window 4's block. -/
def out2_6 (x0 : Vec F S2000x64 .f32) (x1 : Vec F S2000x64 .f32) (x2 : Vec F S64x4 .f32) (x3 : Vec F S4x64 .f32) (x4 : Vec F S2000x64 .f32) : Vec F S2000x64 .f32 :=
  View.canon [⟨r2_0, k2_pay2 (View.ld x0 r2_0) (View.ld x2 r2_1) (View.ld x3 r2_2) (View.ld x1 r2_0) (View.ld x4 r2_0)⟩]

/-- A single whole-block store covers the buffer. -/
theorem cover2_5 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-! ## The body's triple -/

set_option maxHeartbeats 4000000 in
/-- The body on whole staging memrefs, the five inputs' at read contents and the two outputs' at anything, runs to
    the continuation holding the inputs' as they were and the outputs' at the two closed forms above: the printed
    functions are their skeletons, run step by step, through the part call. -/
theorem sound_kernel2 (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S64x4 .f32) (harg3 : arg3.IsWhole) (arg4 : Memref sig .tc .vmem S4x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole)
    (x0 : Vec F S2000x64 .f32) (x1 : Vec F S2000x64 .f32) (x2 : Vec F S64x4 .f32) (x3 : Vec F S4x64 .f32) (x4 : Vec F S2000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3) ∗ owns (c : Thread nD τ) arg7 fullShare (out2_6 x0 x1 x2 x3 x4)) -∗ K ⟨⟩))
      ⊢ wp frame (wpE (defs₀ (F := F)) Variants.none c none) E (cc2__user_update_body i arg1 harg1 arg2 harg2 arg3 harg3 arg4 harg4 arg5 harg5 arg6 harg6 arg7 harg7) K := by
  simp only [cc2__user_update_body_eq_skeleton]; unfold cc2__user_update_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover2_5 _)
  iexists _; isplitr
  swap; · iexact H6
  ipureintro
  try dsimp only
  exact View.read_writes_eq_canon _ _ _ (cover2_5 _)

/-! ## The shares of the array that windows 0 and 4 both read -/
-- BEGIN shared-array shares
/-- The array read through windows 0 and 4 is held in two halves, one per window; every other input is held whole. -/
def q2 : Fin cfg2.W → PosShare TreeShare := fun w =>
  match w with
  | ⟨0, _⟩ => fullShare.left
  | ⟨1, _⟩ => fullShare
  | ⟨2, _⟩ => fullShare
  | ⟨3, _⟩ => fullShare
  | ⟨4, _⟩ => fullShare.right
  | ⟨5, _⟩ => fullShare
  | ⟨6, _⟩ => fullShare

/-- The two halves make the whole. -/
theorem q2_halves : fullShare ∈ q2 0 ·? q2 4 := PosShare.mem_left_op_right fullShare
-- END shared-array shares

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t)
    | ⟨6, _⟩ => out2_6 (iblk2 V c 0 t) (iblk2 V c 1 t) (iblk2 V c 2 t) (iblk2 V c 3 t) (iblk2 V c 4 t)
  Φ _ := Pipeline.ΦA spec2 c
  q := q2
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]

-- BEGIN shared-array entry and exit
/-- The share the pipeline holds each window's array at is the one named above (an output's is whole). -/
theorem share_eq2 (c : Dev nD) (w : Fin cfg2.W) : (dat2 V c).share w = q2 w := by
  unfold Dat.share
  fin_cases w <;> rfl

/-- The pipeline's arrays at contents read off a valuation of the buffers, window by window. -/
theorem arrays_eq2 (c : Dev nD) (V₀ : (b : Ref sig .tc) → Buf (Elt F) ((c : Thread nD τ).loc b))
    (G : (w : Fin cfg2.W) → Buf (Elt F) ((cfg2.win w).arr.view.loc (c : Thread nD τ))) (hG : ∀ w, G w = V₀ (Pipeline.arrRef spec2 w)) :
    (dat2 V c).arrays G = (iprop(((c : Thread nD τ).loc (Pipeline.arrRef spec2 0) ↦{q2 0} V₀ (Pipeline.arrRef spec2 0))
        ∗ ((c : Thread nD τ).loc (Pipeline.arrRef spec2 1) ↦{q2 1} V₀ (Pipeline.arrRef spec2 1))
        ∗ ((c : Thread nD τ).loc (Pipeline.arrRef spec2 2) ↦{q2 2} V₀ (Pipeline.arrRef spec2 2))
        ∗ ((c : Thread nD τ).loc (Pipeline.arrRef spec2 3) ↦{q2 3} V₀ (Pipeline.arrRef spec2 3))
        ∗ ((c : Thread nD τ).loc (Pipeline.arrRef spec2 4) ↦{q2 4} V₀ (Pipeline.arrRef spec2 4))
        ∗ ((c : Thread nD τ).loc (Pipeline.arrRef spec2 5) ↦{q2 5} V₀ (Pipeline.arrRef spec2 5))
        ∗ ((c : Thread nD τ).loc (Pipeline.arrRef spec2 6) ↦{q2 6} V₀ (Pipeline.arrRef spec2 6))) : sProp 𝕄) := by
  unfold Dat.arrays
  rw [bigSep_W2]
  simp only [hG, share_eq2, View.set_whole]

/-- The distinct buffers behind the windows, each whole at one valuation, as the same seven conjuncts: the array
    behind windows 0 and 4 is split in its two halves. -/
theorem arrBufs_eq2 (c : Dev nD) (V₀ : (b : Ref sig .tc) → Buf (Elt F) ((c : Thread nD τ).loc b)) :
    (Pipeline.arrBufs spec2 c V₀ : sProp 𝕄) ⊣⊢ iprop(((c : Thread nD τ).loc (Pipeline.arrRef spec2 0) ↦{q2 0} V₀ (Pipeline.arrRef spec2 0))
        ∗ ((c : Thread nD τ).loc (Pipeline.arrRef spec2 1) ↦{q2 1} V₀ (Pipeline.arrRef spec2 1))
        ∗ ((c : Thread nD τ).loc (Pipeline.arrRef spec2 2) ↦{q2 2} V₀ (Pipeline.arrRef spec2 2))
        ∗ ((c : Thread nD τ).loc (Pipeline.arrRef spec2 3) ↦{q2 3} V₀ (Pipeline.arrRef spec2 3))
        ∗ ((c : Thread nD τ).loc (Pipeline.arrRef spec2 4) ↦{q2 4} V₀ (Pipeline.arrRef spec2 4))
        ∗ ((c : Thread nD τ).loc (Pipeline.arrRef spec2 5) ↦{q2 5} V₀ (Pipeline.arrRef spec2 5))
        ∗ ((c : Thread nD τ).loc (Pipeline.arrRef spec2 6) ↦{q2 6} V₀ (Pipeline.arrRef spec2 6))) := by
  have hL : ∀ Φ : Ref sig .tc → sProp 𝕄, bigSep (Finset.univ.image (Pipeline.arrRef spec2)) Φ
      = iprop(Φ (Pipeline.arrRef spec2 0) ∗ Φ (Pipeline.arrRef spec2 1) ∗ Φ (Pipeline.arrRef spec2 2) ∗ Φ (Pipeline.arrRef spec2 3)
          ∗ Φ (Pipeline.arrRef spec2 5) ∗ Φ (Pipeline.arrRef spec2 6)) :=
    fun Φ => bigSep_eq_bigSepL_of_eq [Pipeline.arrRef spec2 0, Pipeline.arrRef spec2 1, Pipeline.arrRef spec2 2, Pipeline.arrRef spec2 3,
      Pipeline.arrRef spec2 5, Pipeline.arrRef spec2 6] (by decide) (by decide) Φ
  have h1 : q2 1 = fullShare := rfl
  have h2 : q2 2 = fullShare := rfl
  have h3 : q2 3 = fullShare := rfl
  have h5 : q2 5 = fullShare := rfl
  have h6 : q2 6 = fullShare := rfl
  have h4 : Pipeline.arrRef spec2 4 = Pipeline.arrRef spec2 0 := rfl
  unfold Pipeline.arrBufs
  rw [hL, h1, h2, h3, h5, h6, h4]
  constructor
  · iintro ⟨H0, H1, H2, H3, H5, H6⟩
    ihave H04 := (pointsTo_share q2_halves).1 $$ H0
    icases H04 with ⟨H0, H4⟩
    isplitl [H0]; · iexact H0
    isplitl [H1]; · iexact H1
    isplitl [H2]; · iexact H2
    isplitl [H3]; · iexact H3
    isplitl [H4]; · iexact H4
    isplitl [H5]; · iexact H5
    iexact H6
  · iintro ⟨H0, H1, H2, H3, H4, H5, H6⟩
    ihave H04 := (pointsTo_share q2_halves).2 $$ [H0 H4]
    · isplitl [H0]; · iexact H0
      iexact H4
    isplitl [H04]; · iexact H04
    isplitl [H1]; · iexact H1
    isplitl [H2]; · iexact H2
    isplitl [H3]; · iexact H3
    isplitl [H5]; · iexact H5
    iexact H6

/-- ENTRY: the distinct buffers behind the windows, whole at the entry contents, are the pipeline's arrays at the
    first point (windows 0 and 4 each take half of the array they share). -/
theorem arrays_of_arrBufs2 (c : Dev nD) :
    (Pipeline.arrBufs spec2 c (V c) : sProp 𝕄) ⊢ (dat2 V c).arrays ((dat2 V c).arrAt · 0) := by
  rw [arrays_eq2 V c (V c) (fun w => (dat2 V c).arrAt w 0) (fun w => A_eq2 V c w)]
  exact (arrBufs_eq2 c (V c)).1

/-- EXIT: the arrays at what the write-backs leave are those buffers whole at any contents that has each array there. -/
theorem arrBufs_of_arrays2 (c : Dev nD) (V' : (b : Ref sig .tc) → Buf (Elt F) ((c : Thread nD τ).loc b))
    (hF : ∀ w, (dat2 V c).arrAt w cfg2.N = V' (Pipeline.arrRef spec2 w)) :
    (dat2 V c).arrays ((dat2 V c).arrAt · cfg2.N) ⊢ (Pipeline.arrBufs spec2 c V' : sProp 𝕄) := by
  rw [arrays_eq2 V c V' (fun w => (dat2 V c).arrAt w cfg2.N) hF]
  exact (arrBufs_eq2 c V').2
-- END shared-array entry and exit

/-! ## The body obligation -/

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Frm

end
-- ==== Proof.KB.Body3.lean ====
/- Region 3 of @main (custom_call 3, the entity update: row-wise L2 normalisation of the aggregate and the
   residual's accumulation), at a parameter V — the TensorCore's buffer contents when the region is entered:
   each window's block at a point, what the body leaves in the two output buffers as a function of the two
   input blocks, the body's triple, the pipeline's proof data and the body obligation. -/
import proofs.«416106_j13048110645352_1_alg».proof.Proof.Gen.Kernel.Launch
import proofs.«416106_j13048110645352_1_alg».proof.Proof.Gen.Kernel.Skeleton
import proofs.«416106_j13048110645352_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The one rectangle the body touches: the whole 4000 x 64 block. -/
abbrev r3_0 : Rect S4000x64 := Rect.unit (s := S4000x64) ![0, 0] S4000x64.size inb_S4000x64_S4000x64_0_0

/-! ## What the body leaves in each output window's buffer -/

/-- Window 2's buffer after the body: the normalised aggregate, stored whole. -/
def out3_2 (x0 : Vec F S4000x64 .f32) : Vec F S4000x64 .f32 :=
  View.canon [⟨r3_0, k3_pay1 (View.ld x0 r3_0)⟩]

/-- Window 3's buffer after the body: the residual plus the normalised aggregate, stored whole. -/
def out3_3 (x0 : Vec F S4000x64 .f32) (x1 : Vec F S4000x64 .f32) : Vec F S4000x64 .f32 :=
  View.canon [⟨r3_0, k3_pay2 (View.ld x0 r3_0) (View.ld x1 r3_0)⟩]

/-- One whole-block store tiles the buffer, so it covers it. -/
theorem cover3_2 (p0 : Vec F S4000x64 .f32) (y : S4000x64.Idx) :
    ∃ pc ∈ ([⟨r3_0, p0⟩] : List (View.Piece (Elt F) S4000x64 .f32)), y ∈ pc.1.set :=
  View.cover_of_tiled [⟨r3_0, p0⟩] S4000x64.size (by rfl) y

/-! ## The body's triple -/

set_option maxHeartbeats 1000000 in
/-- The body on whole staging memrefs, the inputs' at read contents x0, x1 and the outputs' at anything, runs to the
    continuation holding the inputs' as they were and each output's at its function of the inputs. -/
theorem sound_kernel3 (c : Dev nD) (E : Set ℕ) (i : grid3.Coords)
    (arg1 : Memref sig .tc .vmem S4000x64 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S4000x64 .f32) (harg4 : arg4.IsWhole)
    (x0 : Vec F S4000x64 .f32) (x1 : Vec F S4000x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out3_2 x0) ∗ owns (c : Thread nD τ) arg4 fullShare (out3_3 x0 x1)) -∗ K ⟨⟩))
      ⊢ wp frame (wpE (defs₀ (F := F)) Variants.none c none) E (cc3__entity_update_body i arg1 harg1 arg2 harg2 arg3 harg3 arg4 harg4) K := by
  simp only [cc3__entity_update_body_eq_skeleton]; unfold cc3__entity_update_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover3_2 _)
  iexists _; isplitr
  swap; · iexact H3
  ipureintro
  exact View.read_writes_eq_canon _ _ _ (cover3_2 _)

/-! ## The pipeline's proof data -/

/-- The proof data of pipeline 3 on core c: the arrays as the region finds them; after the body at point t each
    input's buffer at its block and each output's at its function of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t)
    | ⟨3, _⟩ => out3_3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) := by dsimp only [dat3]
theorem after3_3 (c : Dev nD) (t : Fin cfg3.N) : (dat3 V c).after 3 t = out3_3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Region3

end Cert.Kernel.Frm
-- ==== Proof.KB.Body4.lean ====
/- Region 4 of @main (custom_call 4, the edge-scale body at the second hop, pipeline 4) at the contents V the TensorCore's buffers
   have when the region is entered: each window's block at a grid point, what the body leaves in the output
   window's buffer as a function of the input blocks, the body's triple on whole staging memrefs, the pipeline's
   proof data, and the body obligation at every grid point. -/
import proofs.«416106_j13048110645352_1_alg».proof.Proof.Gen.Kernel.Launch
import proofs.«416106_j13048110645352_1_alg».proof.Proof.Gen.Kernel.Skeleton
import proofs.«416106_j13048110645352_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axis
set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether the pipeline fetched it there
    or not (an unfetched window's block index has not moved), for any proof data whose array is V's and whose body
    leaves the block in place. One statement per input window: 0, 1, 2 (the weight table, one block for all points), 3. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 4000x1 column (the relation ids, and the per-edge scale). -/
abbrev r4_0 : Rect S4000x1 := Rect.unit (s := S4000x1) ![0, 0] S4000x1.size inb_S4000x1_S4000x1_0_0
/-- The whole 10x64 weight table. -/
abbrev r4_1 : Rect S10x64 := Rect.unit (s := S10x64) ![0, 0] S10x64.size inb_S10x64_S10x64_0_0
/-- The whole 4000x64 block (the tail rows read, the result stored). -/
abbrev r4_2 : Rect S4000x64 := Rect.unit (s := S4000x64) ![0, 0] S4000x64.size inb_S4000x64_S4000x64_0_0

/-! ## What the body leaves in the output window's buffer -/

/-- Window 4's staging buffer after the body, from the input windows' blocks: its one store, of the whole block,
    whose payload is tail * (onehot(relation) @ weight) * scale over the four loads. -/
def out4_4 (x0 : Vec F S4000x64 .f32) (x1 : Vec F S4000x1 .i32) (x2 : Vec F S10x64 .f32) (x3 : Vec F S4000x1 .f32) : Vec F S4000x64 .f32 :=
  View.canon [⟨r4_2, k4_pay1 (View.ld x1 r4_0) (View.ld x2 r4_1) (View.ld x0 r4_2) (View.ld x3 r4_0)⟩]

/-- The one store is of the whole block, so it covers the buffer. -/
theorem cover4_4 (p0 : Vec F S4000x64 .f32) (y : S4000x64.Idx) :
    ∃ pc ∈ ([⟨r4_2, p0⟩] : List (View.Piece (Elt F) S4000x64 .f32)), y ∈ pc.1.set :=
  View.cover_of_tiled [⟨r4_2, p0⟩] S4000x64.size (by rfl) y

/-! ## The body's triple -/

set_option maxHeartbeats 4000000 in
/-- The kernel body on whole staging memrefs, the inputs' at read contents x0..x3 and the output's at anything, runs to
    the continuation holding the inputs' as they were and the output's at out4_4 of the inputs'. -/
theorem sound_kernel4 (c : Dev nD) (E : Set ℕ) (i : grid4.Coords)
    (arg1 : Memref sig .tc .vmem S4000x64 .f32) (harg1 : arg1.IsWhole) (arg2 : Memref sig .tc .vmem S4000x1 .i32) (harg2 : arg2.IsWhole)
    (arg3 : Memref sig .tc .vmem S10x64 .f32) (harg3 : arg3.IsWhole) (arg4 : Memref sig .tc .vmem S4000x1 .f32) (harg4 : arg4.IsWhole)
    (arg5 : Memref sig .tc .vmem S4000x64 .f32) (harg5 : arg5.IsWhole)
    (x0 : Vec F S4000x64 .f32) (x1 : Vec F S4000x1 .i32) (x2 : Vec F S10x64 .f32) (x3 : Vec F S4000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__edge_scale_body i arg1 harg1 arg2 harg2 arg3 harg3 arg4 harg4 arg5 harg5) K := by
  simp only [cc4__edge_scale_body_eq_skeleton]; unfold cc4__edge_scale_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of pipeline 4 on core c: the arrays as the region finds them; after the body at point t each
    input's buffer at its block and the output's at out4_4 of the input blocks; the scoped rest and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so the body's triple applies; the invariant and
    the core's owed amounts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Frm

end
-- ==== Proof.KB.Body5.lean ====
import proofs.«416106_j13048110645352_1_alg».proof.Proof.Gen.Kernel.Launch
import proofs.«416106_j13048110645352_1_alg».proof.Proof.Gen.Kernel.Skeleton
import proofs.«416106_j13048110645352_1_alg».proof.Proof.Gen.Kernel.Points
import Idealize.ShloMosaic.Lib.Pipeline.FrameBody
import Idealize.ShloMosaic.Lib.Ring
import Idealize.ShloMosaic.Lib.Tactic

-- membership in a rectangle of 4000 rows: the structural check recurses once per coordinate of the long axis
set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! # Region 5: the row-scaling body `x * s` on blocks of 4000 rows, at the entry contents `V` -/

/-! ## The windows' blocks -/

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, for any proof data whose array is
    `V`'s and whose body leaves the block in place: the window is fetched whole at every point and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_0 : Rect S4000x64 := Rect.unit (s := S4000x64) ![0, 0] S4000x64.size inb_S4000x64_S4000x64_0_0
abbrev r5_1 : Rect S4000x1 := Rect.unit (s := S4000x1) ![0, 0] S4000x1.size inb_S4000x1_S4000x1_0_0

/-! ## What the body leaves in the output window's buffer -/

/-- The output buffer after the body, from the two input blocks: its one whole-block store of the
    product of the rows `x0` by the per-row scalars `x1`. -/
def out5_2 (x0 : Vec F S4000x64 .f32) (x1 : Vec F S4000x1 .f32) : Vec F S4000x64 .f32 :=
  View.canon [⟨r5_0, k5_pay1 (View.ld x0 r5_0) (View.ld x1 r5_1)⟩]

/-- The one store is the whole buffer, so it covers it. -/
theorem cover5_2 (p0 : Vec F S4000x64 .f32) (y : S4000x64.Idx) :
    ∃ pc ∈ ([⟨r5_0, p0⟩] : List (View.Piece (Elt F) S4000x64 .f32)), y ∈ pc.1.set :=
  View.cover_of_tiled [⟨r5_0, p0⟩] S4000x64.size (by rfl) y

/-! ## The body's triple -/

set_option maxHeartbeats 1000000 in
/-- The body on whole staging memrefs, the inputs' at contents `x0`, `x1` and the output's at anything, runs to the
    continuation holding the inputs' unchanged and the output's at `out5_2 x0 x1`. -/
theorem sound_kernel5 (c : Dev nD) (E : Set ℕ) (i : grid5.Coords)
    (arg1 : Memref sig .tc .vmem S4000x64 .f32) (harg1 : arg1.IsWhole) (arg2 : Memref sig .tc .vmem S4000x1 .f32) (harg2 : arg2.IsWhole)
    (arg3 : Memref sig .tc .vmem S4000x64 .f32) (harg3 : arg3.IsWhole)
    (x0 : Vec F S4000x64 .f32) (x1 : Vec F S4000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__scale_body i arg1 harg1 arg2 harg2 arg3 harg3) K := by
  simp only [cc5__scale_body_eq_skeleton]; unfold cc5__scale_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of this pipeline on core `c`: the arrays as the region finds them; after the body at point `t`
    each input's buffer at its block and the output's at `out5_2` of the input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Frm

end
-- ==== Proof.KB.Body6.lean ====
/- Region 6 of @main (custom_call 6, the user-update body over pipeline 6) at a parameter: the buffer contents the
   region is entered with. Each window's block at a point, what the body leaves in the two output windows' staging
   buffers as a function of the input blocks, the body's triple, the pipeline's proof data and the body obligation. -/
import proofs.«416106_j13048110645352_1_alg».proof.Proof.Gen.Kernel.Launch
import proofs.«416106_j13048110645352_1_alg».proof.Proof.Gen.Kernel.Skeleton
import proofs.«416106_j13048110645352_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open scoped Idealize.SL.RA.PCS
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is the entry contents and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is the entry contents and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is the entry contents and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is the entry contents and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is the entry contents and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and store is through the whole block -/

abbrev r6_0 : Rect S2000x64 := Rect.unit (s := S2000x64) ![0, 0] S2000x64.size inb_S2000x64_S2000x64_0_0
abbrev r6_1 : Rect S64x4 := Rect.unit (s := S64x4) ![0, 0] S64x4.size inb_S64x4_S64x4_0_0
abbrev r6_2 : Rect S4x64 := Rect.unit (s := S4x64) ![0, 0] S4x64.size inb_S4x64_S4x64_0_0

/-! ## What the body leaves in each output window's buffer -/

/-- Window 5 (the normalized rows): one whole-block store of the first payload, a function of the blocks of
    windows 0 (rows), 2 and 3 (the two small matrices) and 1 (the aggregate). -/
def out6_5 (x0 : Vec F S2000x64 .f32) (x1 : Vec F S2000x64 .f32) (x2 : Vec F S64x4 .f32) (x3 : Vec F S4x64 .f32) : Vec F S2000x64 .f32 :=
  View.canon [⟨r6_0, k6_pay1 (View.ld x0 r6_0) (View.ld x2 r6_1) (View.ld x3 r6_2) (View.ld x1 r6_0)⟩]

/-- Window 6 (the residual sum): one whole-block store of the second payload, which adds window 4's block. -/
def out6_6 (x0 : Vec F S2000x64 .f32) (x1 : Vec F S2000x64 .f32) (x2 : Vec F S64x4 .f32) (x3 : Vec F S4x64 .f32) (x4 : Vec F S2000x64 .f32) : Vec F S2000x64 .f32 :=
  View.canon [⟨r6_0, k6_pay2 (View.ld x0 r6_0) (View.ld x2 r6_1) (View.ld x3 r6_2) (View.ld x1 r6_0) (View.ld x4 r6_0)⟩]

/-- A single whole-block store covers the buffer. -/
theorem cover6_5 (p0 : Vec F S2000x64 .f32) (y : S2000x64.Idx) :
    ∃ pc ∈ ([⟨r6_0, p0⟩] : List (View.Piece (Elt F) S2000x64 .f32)), y ∈ pc.1.set :=
  View.cover_of_tiled [⟨r6_0, p0⟩] S2000x64.size (by rfl) y

/-! ## The body's triple -/

set_option maxHeartbeats 4000000 in
/-- The body on whole staging memrefs, the five inputs' at read contents and the two outputs' at anything, runs to
    the continuation holding the inputs' as they were and the outputs' at the two closed forms above: the printed
    functions are their skeletons, run step by step, through the part call. -/
theorem sound_kernel6 (c : Dev nD) (E : Set ℕ) (i : grid6.Coords) (arg1 : Memref sig .tc .vmem S2000x64 .f32) (harg1 : arg1.IsWhole) (arg2 : Memref sig .tc .vmem S2000x64 .f32) (harg2 : arg2.IsWhole) (arg3 : Memref sig .tc .vmem S64x4 .f32) (harg3 : arg3.IsWhole) (arg4 : Memref sig .tc .vmem S4x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole)
    (x0 : Vec F S2000x64 .f32) (x1 : Vec F S2000x64 .f32) (x2 : Vec F S64x4 .f32) (x3 : Vec F S4x64 .f32) (x4 : Vec F S2000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3) ∗ owns (c : Thread nD τ) arg7 fullShare (out6_6 x0 x1 x2 x3 x4)) -∗ K ⟨⟩))
      ⊢ wp frame (wpE (defs₀ (F := F)) Variants.none c none) E (cc6__user_update_body i arg1 harg1 arg2 harg2 arg3 harg3 arg4 harg4 arg5 harg5 arg6 harg6 arg7 harg7) K := by
  simp only [cc6__user_update_body_eq_skeleton]; unfold cc6__user_update_body_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover6_5 _)
  iexists _; isplitr
  swap; · iexact H6
  ipureintro
  try dsimp only
  exact View.read_writes_eq_canon _ _ _ (cover6_5 _)

/-! ## The shares of the array that windows 0 and 4 both read -/

/-! ## The pipeline's proof data -/

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t)
    | ⟨6, _⟩ => out6_6 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) := by dsimp only [dat6]

/-! ## The body obligation -/

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' memrefs hold their blocks, so the triple applies; the invariant and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Region6

end Cert.Kernel.Frm

end
-- ==== Proof.KB.Body7.lean ====
/- Region 7 of @main (custom_call 7, the entity update: row-wise L2 normalisation of the aggregate and the
   residual's accumulation), at a parameter V — the TensorCore's buffer contents when the region is entered:
   each window's block at a point, what the body leaves in the two output buffers as a function of the two
   input blocks, the body's triple, the pipeline's proof data and the body obligation. -/
import proofs.«416106_j13048110645352_1_alg».proof.Proof.Gen.Kernel.Launch
import proofs.«416106_j13048110645352_1_alg».proof.Proof.Gen.Kernel.Skeleton
import proofs.«416106_j13048110645352_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
variable (V : (c : Dev nD) → (b : Ref sig .tc) → Buf (Elt F) ((c : Thread nD τ).loc b))

/-! ## The windows' blocks -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, for any proof data whose array is
    V's and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The same for input window 1. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The one rectangle the body touches: the whole 4000 x 64 block. -/
abbrev r7_0 : Rect S4000x64 := Rect.unit (s := S4000x64) ![0, 0] S4000x64.size inb_S4000x64_S4000x64_0_0

/-! ## What the body leaves in each output window's buffer -/

/-- Window 2's buffer after the body: the normalised aggregate, stored whole. -/
def out7_2 (x0 : Vec F S4000x64 .f32) : Vec F S4000x64 .f32 :=
  View.canon [⟨r7_0, k7_pay1 (View.ld x0 r7_0)⟩]

/-- Window 3's buffer after the body: the residual plus the normalised aggregate, stored whole. -/
def out7_3 (x0 : Vec F S4000x64 .f32) (x1 : Vec F S4000x64 .f32) : Vec F S4000x64 .f32 :=
  View.canon [⟨r7_0, k7_pay2 (View.ld x0 r7_0) (View.ld x1 r7_0)⟩]

/-- One whole-block store tiles the buffer, so it covers it. -/
theorem cover7_2 (p0 : Vec F S4000x64 .f32) (y : S4000x64.Idx) :
    ∃ pc ∈ ([⟨r7_0, p0⟩] : List (View.Piece (Elt F) S4000x64 .f32)), y ∈ pc.1.set :=
  View.cover_of_tiled [⟨r7_0, p0⟩] S4000x64.size (by rfl) y

/-! ## The body's triple -/

set_option maxHeartbeats 1000000 in
/-- The body on whole staging memrefs, the inputs' at read contents x0, x1 and the outputs' at anything, runs to the
    continuation holding the inputs' as they were and each output's at its function of the inputs. -/
theorem sound_kernel7 (c : Dev nD) (E : Set ℕ) (i : grid7.Coords)
    (arg1 : Memref sig .tc .vmem S4000x64 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S4000x64 .f32) (harg4 : arg4.IsWhole)
    (x0 : Vec F S4000x64 .f32) (x1 : Vec F S4000x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out7_2 x0) ∗ owns (c : Thread nD τ) arg4 fullShare (out7_3 x0 x1)) -∗ K ⟨⟩))
      ⊢ wp frame (wpE (defs₀ (F := F)) Variants.none c none) E (cc7__entity_update_body i arg1 harg1 arg2 harg2 arg3 harg3 arg4 harg4) K := by
  simp only [cc7__entity_update_body_eq_skeleton]; unfold cc7__entity_update_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover7_2 _)
  iexists _; isplitr
  swap; · iexact H3
  ipureintro
  exact View.read_writes_eq_canon _ _ _ (cover7_2 _)

/-! ## The pipeline's proof data -/

/-- The proof data of pipeline 7 on core c: the arrays as the region finds them; after the body at point t each
    input's buffer at its block and each output's at its function of the input blocks; the invariant the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t)
    | ⟨3, _⟩ => out7_3 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) := by dsimp only [dat7]
theorem after7_3 (c : Dev nD) (t : Fin cfg7.N) : (dat7 V c).after 3 t = out7_3 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation7 (c : Dev nD) : BodyObligation (dat7 (F := F) V c) (defs₀ (F := F)) Variants.none () Set.univ := fun t => by
  rw [bigSep_W7, bigSep_W7]
  exact sound_body7 V c t

end Region7

end Cert.Kernel.Frm
-- ==== Proof.KB.Run.Chain.lean ====
/- The buffer contents of the eight-region program at every boundary of @main's eighteen items (ten stretches of host
   operations, eight kernel regions): a fold from the launch memory, a stretch mapping the contents by its operations and
   a region putting each of its arrays at what its write-backs leave. Each item keeps every reference it does not write,
   so each argument array read at the end holds its launch contents. -/
import proofs.«416106_j13048110645352_1_alg».proof.Proof.KB.Body0
import proofs.«416106_j13048110645352_1_alg».proof.Proof.KB.Body1
import proofs.«416106_j13048110645352_1_alg».proof.Proof.KB.Body2
import proofs.«416106_j13048110645352_1_alg».proof.Proof.KB.Body3
import proofs.«416106_j13048110645352_1_alg».proof.Proof.KB.Body4
import proofs.«416106_j13048110645352_1_alg».proof.Proof.KB.Body5
import proofs.«416106_j13048110645352_1_alg».proof.Proof.KB.Body6
import proofs.«416106_j13048110645352_1_alg».proof.Proof.KB.Body7
import proofs.«416106_j13048110645352_1_alg».proof.Proof.Gen.Kernel.Launch
import proofs.«416106_j13048110645352_1_alg».proof.Proof.Gen.Kernel.Skeleton
import proofs.«416106_j13048110645352_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffer contents at every boundary of @main's eighteen items

## Two facts about a region's exit contents, for any proof data -/

section Generic
variable {cfg : Cfg sig Λ₀} {c : Dev nD}

/-- Contents read at one buffer are, moved along an equation of buffers, the contents read at the other. -/
theorem cast_valuation (Wv : Valuation τ sig (Elt F)) {x y : DevRef τ sig} (e : x = y) :
    cast (congrArg (fun b' : DevRef τ sig => b'.ty.Contents (Elt F)) e) (Wv x) = Wv y := by
  subst e; rfl

/-- A region's exit contents at a buffer that is none of its OUTPUT arrays are the entry contents: an input array
    is never written back (even one that several windows read), and a buffer that is no array bypasses the region. -/
theorem withArrays_exit_of_in (dat : Dat τ (Elt F) Unit ℕ (UR sig nD τ) ℕ cfg c) (Wv : Valuation τ sig (Elt F))
    (hA : ∀ w, dat.A w = Wv (Proc.devRef .tc (Pipeline.arrRef cfg.spec w))) (r : Ref sig .tc)
    (hin : ∀ w, Pipeline.arrRef cfg.spec w = r → (cfg.win w).isOut = false) :
    Pipeline.withArrays cfg.spec c Wv (fun w => dat.arrAt w cfg.N) (Proc.devRef .tc r) = Wv (Proc.devRef .tc r) := by
  unfold Pipeline.withArrays
  split
  · next h =>
    have e := h.choose_spec
    have hw := hin h.choose (Proc.devRef_injective _ e)
    beta_reduce
    rw [dat.arrAt_in h.choose hw, hA]
    exact cast_valuation Wv e
  · rfl

/-- A region's exit contents at an array only ONE window names are what that window's write-backs leave. -/
theorem withArrays_arr_of_unique (Wv : Valuation τ sig (Elt F))
    (A : (w : Fin cfg.W) → Buf (Elt F) ((cfg.spec w).arr.view.loc (c : Thread nD τ))) (w : Fin cfg.W)
    (huniq : ∀ w', Pipeline.arrRef cfg.spec w' = Pipeline.arrRef cfg.spec w → w' = w) :
    Pipeline.withArrays cfg.spec c Wv A (Proc.devRef .tc (Pipeline.arrRef cfg.spec w)) = A w := by
  unfold Pipeline.withArrays
  have h : ∃ w', Proc.devRef .tc (Pipeline.arrRef cfg.spec w') = Proc.devRef (τ := τ) .tc (Pipeline.arrRef cfg.spec w) := ⟨w, rfl⟩
  rw [dif_pos h]
  suffices ∀ (w' : Fin cfg.W) (e : Proc.devRef .tc (Pipeline.arrRef cfg.spec w') = Proc.devRef (τ := τ) .tc (Pipeline.arrRef cfg.spec w)),
      cast (congrArg (fun b' : DevRef τ sig => b'.ty.Contents (Elt F)) e) (A w') = A w from this _ h.choose_spec
  intro w' e
  obtain rfl : w' = w := huniq w' (Proc.devRef_injective _ e)
  rfl

end Generic

variable (m : (ℓ : Loc nD τ sig) → Buf (Elt F) ℓ) (ρ : Dev nD → PrngReg)

/-! ## What each stretch of host operations writes -/

/-- Every operation of a stretch writes one buffer, found in the stretch's list of written references. -/
local macro "writes_sub" : tactic => `(tactic| (
  simp only [List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)))

/-- The references the first stretch (the transpose) writes. -/
abbrev main_part0_ops0_W : List (Ref sig .tc) := [main_v0]
theorem main_part0_ops0_writes : (main_part0_ops0 : List (HloOp τ sig (Elt F))).Forall fun op => op.writes ⊆ (main_part0_ops0_W.map (Proc.devRef (τ := τ) .tc)).toFinset := by
  writes_sub
/-- The references the norm's five operations write. -/
abbrev main_part0_ops1_W : List (Ref sig .tc) := [main_call0_v0, main_call0_cst, main_call0_v1, main_call0_v2, main_v1]
theorem main_part0_ops1_writes : (main_part0_ops1 : List (HloOp τ sig (Elt F))).Forall fun op => op.writes ⊆ (main_part0_ops1_W.map (Proc.devRef (τ := τ) .tc)).toFinset := by
  writes_sub
/-- The references the 58 operations of the third stretch write. -/
abbrev main_part0_ops2_W : List (Ref sig .tc) := [main_v2, main_v3, main_v4, main_cst, main_v5, main_v6, main_cst_0, main_v7, main_cst_1, main_v8, main_v9, main_v10, main_cst_2, main_v11, main_v12, main_v13, main_v14, main_v15, main_cst_3, main_v16, main_v17, main_v18, main_v19, main_v20, main_v21, main_cst_4, main_v22, main_cst_5, main_v23, main_v24, main_v25, main_cst_6, main_v26, main_v27, main_cst_7, main_v28, main_v29, main_c, main_v30, main_v31, main_c_8, main_v32, main_v33, main_v34, main_v35, main_v36, main_v37, main_c_9, main_v38, main_v39, main_v40, main_v41, main_cst_10, main_v42, main_cst_11, main_v43, main_v44, main_v45]
set_option maxHeartbeats 4000000 in
theorem main_part0_ops2_writes : (main_part0_ops2 : List (HloOp τ sig (Elt F))).Forall fun op => op.writes ⊆ (main_part0_ops2_W.map (Proc.devRef (τ := τ) .tc)).toFinset := by
  writes_sub
/-- The references the stretch before region 0 writes. -/
abbrev main_part1_ops0_W : List (Ref sig .tc) := [main_v46, main_v47, main_v48, main_cst_12, main_v49, main_v50, main_v51, main_v52, main_v53, main_c_13, main_v54, main_v55, main_c_14, main_v56, main_v57, main_v58, main_v59, main_v60]
theorem main_part1_ops0_writes : (main_part1_ops0 : List (HloOp τ sig (Elt F))).Forall fun op => op.writes ⊆ (main_part1_ops0_W.map (Proc.devRef (τ := τ) .tc)).toFinset := by
  writes_sub
/-- The references the stretch between regions 0 and 1 writes. -/
abbrev main_part1_ops1_W : List (Ref sig .tc) := [main_cst_15, main_v62, main_v63, main_v64, main_c_16, main_v65, main_v66, main_c_17, main_v67, main_v68, main_v69, main_v70, main_v71, main_v72]
theorem main_part1_ops1_writes : (main_part1_ops1 : List (HloOp τ sig (Elt F))).Forall fun op => op.writes ⊆ (main_part1_ops1_W.map (Proc.devRef (τ := τ) .tc)).toFinset := by
  writes_sub
/-- The references the stretch between regions 1 and 2 writes. -/
abbrev main_part1_ops2_W : List (Ref sig .tc) := [main_cst_18, main_v74, main_v75, main_v76]
theorem main_part1_ops2_writes : (main_part1_ops2 : List (HloOp τ sig (Elt F))).Forall fun op => op.writes ⊆ (main_part1_ops2_W.map (Proc.devRef (τ := τ) .tc)).toFinset := by
  writes_sub
/-- The references the stretch between regions 3 and 4 writes. -/
abbrev main_part1_ops3_W : List (Ref sig .tc) := [main_c_19, main_v79, main_v80, main_c_20, main_v81, main_v82, main_v83, main_v84, main_v85]
theorem main_part1_ops3_writes : (main_part1_ops3 : List (HloOp τ sig (Elt F))).Forall fun op => op.writes ⊆ (main_part1_ops3_W.map (Proc.devRef (τ := τ) .tc)).toFinset := by
  writes_sub
/-- The references the first stretch after region 4 writes. -/
abbrev main_part1_ops4_W : List (Ref sig .tc) := [main_cst_21, main_v87, main_v88, main_v89, main_c_22, main_v90, main_v91, main_c_23, main_v92, main_v93]
theorem main_part1_ops4_writes : (main_part1_ops4 : List (HloOp τ sig (Elt F))).Forall fun op => op.writes ⊆ (main_part1_ops4_W.map (Proc.devRef (τ := τ) .tc)).toFinset := by
  writes_sub
/-- The references the second stretch after region 4 writes. -/
abbrev main_part2_ops0_W : List (Ref sig .tc) := [main_v94, main_v95, main_v96, main_v97]
theorem main_part2_ops0_writes : (main_part2_ops0 : List (HloOp τ sig (Elt F))).Forall fun op => op.writes ⊆ (main_part2_ops0_W.map (Proc.devRef (τ := τ) .tc)).toFinset := by
  writes_sub
/-- The references the stretch between regions 5 and 6 writes. -/
abbrev main_part2_ops1_W : List (Ref sig .tc) := [main_cst_24, main_v99, main_v100, main_v101]
theorem main_part2_ops1_writes : (main_part2_ops1 : List (HloOp τ sig (Elt F))).Forall fun op => op.writes ⊆ (main_part2_ops1_W.map (Proc.devRef (τ := τ) .tc)).toFinset := by
  writes_sub

/-! ## What each region writes: its output arrays; every other window of it is an input -/

abbrev reg0_W : List (Ref sig .tc) := [main_v61]
abbrev reg1_W : List (Ref sig .tc) := [main_v73]
abbrev reg2_W : List (Ref sig .tc) := [main_v77_0, main_v77_1]
abbrev reg3_W : List (Ref sig .tc) := [main_v78_0, main_v78_1]
abbrev reg4_W : List (Ref sig .tc) := [main_v86]
abbrev reg5_W : List (Ref sig .tc) := [main_v98]
abbrev reg6_W : List (Ref sig .tc) := [main_v102_0, main_v102_1]
abbrev reg7_W : List (Ref sig .tc) := [main_v103_0, main_v103_1]
theorem reg0_in : ∀ w : Fin cfg0.W, Pipeline.arrRef spec0 w ∉ reg0_W → (cfg0.win w).isOut = false := by decide
theorem reg1_in : ∀ w : Fin cfg1.W, Pipeline.arrRef spec1 w ∉ reg1_W → (cfg1.win w).isOut = false := by decide
theorem reg2_in : ∀ w : Fin cfg2.W, Pipeline.arrRef spec2 w ∉ reg2_W → (cfg2.win w).isOut = false := by decide
theorem reg3_in : ∀ w : Fin cfg3.W, Pipeline.arrRef spec3 w ∉ reg3_W → (cfg3.win w).isOut = false := by decide
theorem reg4_in : ∀ w : Fin cfg4.W, Pipeline.arrRef spec4 w ∉ reg4_W → (cfg4.win w).isOut = false := by decide
theorem reg5_in : ∀ w : Fin cfg5.W, Pipeline.arrRef spec5 w ∉ reg5_W → (cfg5.win w).isOut = false := by decide
theorem reg6_in : ∀ w : Fin cfg6.W, Pipeline.arrRef spec6 w ∉ reg6_W → (cfg6.win w).isOut = false := by decide
theorem reg7_in : ∀ w : Fin cfg7.W, Pipeline.arrRef spec7 w ∉ reg7_W → (cfg7.win w).isOut = false := by decide
/-- Region 2 reads one array through two windows (0 and 4); every OTHER array of it is named by one window only. -/
theorem reg2_unique : ∀ w : Fin cfg2.W, (cfg2.win w).isOut = false ∨ ∀ w', Pipeline.arrRef spec2 w' = Pipeline.arrRef spec2 w → w' = w := by decide

/-! ## The contents at each boundary: a fold through @main's eighteen items

`WJ m ρ c` is core `c`'s buffer contents after item `J` (`W0`: at launch); `VJ` is `WJ` read at the TensorCore's
references, which is what a region's proof data take. A stretch of host operations maps the contents by
`StableHlo.after`; a region puts each of its arrays at what the write-backs leave and keeps every other buffer. Each
item comes with `WJ_of`: a reference the item does not write keeps its contents. -/

/-- Core `c`'s buffers at launch. -/
abbrev W0 : Dev nD → Valuation τ sig (Elt F) := fun c b => (⟨m, fun _ => 0, ρ⟩ : MemSt nD τ sig (Elt F)).mem ((c : Dev nD), b)

/-- After item 1, the transpose `main_part0_ops0`. -/
abbrev W1 : Dev nD → Valuation τ sig (Elt F) := fun c => StableHlo.after main_part0_ops0 (W0 m ρ c)
theorem W1_of (c : Dev nD) (r : Ref sig .tc) (h : r ∉ main_part0_ops0_W) : W1 m ρ c (Proc.devRef .tc r) = W0 m ρ c (Proc.devRef .tc r) :=
  StableHlo.after_of_writes_sub main_part0_ops0 _ main_part0_ops0_writes h
/-- After item 2, the norm `main_part0_ops1`. -/
abbrev W2 : Dev nD → Valuation τ sig (Elt F) := fun c => StableHlo.after main_part0_ops1 (W1 m ρ c)
theorem W2_of (c : Dev nD) (r : Ref sig .tc) (h : r ∉ main_part0_ops1_W) : W2 m ρ c (Proc.devRef .tc r) = W1 m ρ c (Proc.devRef .tc r) :=
  StableHlo.after_of_writes_sub main_part0_ops1 _ main_part0_ops1_writes h
/-- After item 3, the 58 operations `main_part0_ops2`. -/
abbrev W3 : Dev nD → Valuation τ sig (Elt F) := fun c => StableHlo.after main_part0_ops2 (W2 m ρ c)
theorem W3_of (c : Dev nD) (r : Ref sig .tc) (h : r ∉ main_part0_ops2_W) : W3 m ρ c (Proc.devRef .tc r) = W2 m ρ c (Proc.devRef .tc r) :=
  StableHlo.after_of_writes_sub main_part0_ops2 _ main_part0_ops2_writes h
/-- After item 4, `main_part1_ops0`: region 0's entry. -/
abbrev W4 : Dev nD → Valuation τ sig (Elt F) := fun c => StableHlo.after main_part1_ops0 (W3 m ρ c)
theorem W4_of (c : Dev nD) (r : Ref sig .tc) (h : r ∉ main_part1_ops0_W) : W4 m ρ c (Proc.devRef .tc r) = W3 m ρ c (Proc.devRef .tc r) :=
  StableHlo.after_of_writes_sub main_part1_ops0 _ main_part1_ops0_writes h
/-- Region 0's entry contents at the TensorCore's references. -/
abbrev V4 : (c : Dev nD) → (b : Ref sig .tc) → Buf (Elt F) ((c : Thread nD τ).loc b) := fun c b => W4 m ρ c b

/-- After item 5, region 0: its arrays at what the pipeline leaves, every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
theorem W5_of (c : Dev nD) (r : Ref sig .tc) (h : r ∉ reg0_W) : W5 m ρ c (Proc.devRef .tc r) = W4 m ρ c (Proc.devRef .tc r) :=
  withArrays_exit_of_in (dat0 (V4 m ρ) c) (W4 m ρ c) (A_eq0 (V4 m ρ) c) r fun w e => reg0_in w (e ▸ h)
/-- Region 0's exit contents at the TensorCore's references. -/
abbrev V5 : (c : Dev nD) → (b : Ref sig .tc) → Buf (Elt F) ((c : Thread nD τ).loc b) := fun c b => W5 m ρ c b
/-- At region 0's exit each array holds what the pipeline leaves, every other buffer what it held at entry. -/
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- After item 6, `main_part1_ops1`: region 1's entry. -/
abbrev W6 : Dev nD → Valuation τ sig (Elt F) := fun c => StableHlo.after main_part1_ops1 (W5 m ρ c)
theorem W6_of (c : Dev nD) (r : Ref sig .tc) (h : r ∉ main_part1_ops1_W) : W6 m ρ c (Proc.devRef .tc r) = W5 m ρ c (Proc.devRef .tc r) :=
  StableHlo.after_of_writes_sub main_part1_ops1 _ main_part1_ops1_writes h
abbrev V6 : (c : Dev nD) → (b : Ref sig .tc) → Buf (Elt F) ((c : Thread nD τ).loc b) := fun c b => W6 m ρ c b

/-- After item 7, region 1. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
theorem W7_of (c : Dev nD) (r : Ref sig .tc) (h : r ∉ reg1_W) : W7 m ρ c (Proc.devRef .tc r) = W6 m ρ c (Proc.devRef .tc r) :=
  withArrays_exit_of_in (dat1 (V6 m ρ) c) (W6 m ρ c) (A_eq1 (V6 m ρ) c) r fun w e => reg1_in w (e ▸ h)
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After item 8, `main_part1_ops2`: region 2's entry. -/
abbrev W8 : Dev nD → Valuation τ sig (Elt F) := fun c => StableHlo.after main_part1_ops2 (W7 m ρ c)
theorem W8_of (c : Dev nD) (r : Ref sig .tc) (h : r ∉ main_part1_ops2_W) : W8 m ρ c (Proc.devRef .tc r) = W7 m ρ c (Proc.devRef .tc r) :=
  StableHlo.after_of_writes_sub main_part1_ops2 _ main_part1_ops2_writes h
abbrev V8 : (c : Dev nD) → (b : Ref sig .tc) → Buf (Elt F) ((c : Thread nD τ).loc b) := fun c b => W8 m ρ c b

/-- After item 9, region 2 (two of its windows read one array, which it does not write). -/
def W9 (c : Dev nD) : Valuation τ sig (Elt F) :=
  Pipeline.withArrays spec2 c (W8 m ρ c) fun w => (dat2 (V8 m ρ) c).arrAt w cfg2.N
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
theorem W9_of (c : Dev nD) (r : Ref sig .tc) (h : r ∉ reg2_W) : W9 m ρ c (Proc.devRef .tc r) = W8 m ρ c (Proc.devRef .tc r) :=
  withArrays_exit_of_in (dat2 (V8 m ρ) c) (W8 m ρ c) (A_eq2 (V8 m ρ) c) r fun w e => reg2_in w (e ▸ h)
/-- An input array (the shared one too) holds its entry contents, which is what the fold computes for an input; an
    output array is named by one window. -/
theorem W9_arr (c : Dev nD) (w : Fin cfg2.W) :
    W9 m ρ c (Proc.devRef .tc (Pipeline.arrRef spec2 w)) = (dat2 (V8 m ρ) c).arrAt w cfg2.N := by
  rcases reg2_unique w with hin | huniq
  · refine (withArrays_exit_of_in (dat2 (V8 m ρ) c) (W8 m ρ c) (A_eq2 (V8 m ρ) c) (Pipeline.arrRef spec2 w) fun w' e => ?_).trans
      (((dat2 (V8 m ρ) c).arrAt_in w hin _).trans (A_eq2 (V8 m ρ) c w)).symm
    revert e hin; revert w' w; decide
  · unfold W9; exact withArrays_arr_of_unique (cfg := cfg2) (W8 m ρ c) _ w huniq
abbrev V9 : (c : Dev nD) → (b : Ref sig .tc) → Buf (Elt F) ((c : Thread nD τ).loc b) := fun c b => W9 m ρ c b
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-- After item 10, region 3 (entered straight from region 2's exit). -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
theorem W10_of (c : Dev nD) (r : Ref sig .tc) (h : r ∉ reg3_W) : W10 m ρ c (Proc.devRef .tc r) = W9 m ρ c (Proc.devRef .tc r) :=
  withArrays_exit_of_in (dat3 (V9 m ρ) c) (W9 m ρ c) (A_eq3 (V9 m ρ) c) r fun w e => reg3_in w (e ▸ h)
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-- After item 11, `main_part1_ops3`: region 4's entry. -/
abbrev W11 : Dev nD → Valuation τ sig (Elt F) := fun c => StableHlo.after main_part1_ops3 (W10 m ρ c)
theorem W11_of (c : Dev nD) (r : Ref sig .tc) (h : r ∉ main_part1_ops3_W) : W11 m ρ c (Proc.devRef .tc r) = W10 m ρ c (Proc.devRef .tc r) :=
  StableHlo.after_of_writes_sub main_part1_ops3 _ main_part1_ops3_writes h
abbrev V11 : (c : Dev nD) → (b : Ref sig .tc) → Buf (Elt F) ((c : Thread nD τ).loc b) := fun c b => W11 m ρ c b

/-- After item 12, region 4. -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
theorem W12_of (c : Dev nD) (r : Ref sig .tc) (h : r ∉ reg4_W) : W12 m ρ c (Proc.devRef .tc r) = W11 m ρ c (Proc.devRef .tc r) :=
  withArrays_exit_of_in (dat4 (V11 m ρ) c) (W11 m ρ c) (A_eq4 (V11 m ρ) c) r fun w e => reg4_in w (e ▸ h)
abbrev V12 : (c : Dev nD) → (b : Ref sig .tc) → Buf (Elt F) ((c : Thread nD τ).loc b) := fun c b => W12 m ρ c b
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)

/-- After item 13, `main_part1_ops4`. -/
abbrev W13 : Dev nD → Valuation τ sig (Elt F) := fun c => StableHlo.after main_part1_ops4 (W12 m ρ c)
theorem W13_of (c : Dev nD) (r : Ref sig .tc) (h : r ∉ main_part1_ops4_W) : W13 m ρ c (Proc.devRef .tc r) = W12 m ρ c (Proc.devRef .tc r) :=
  StableHlo.after_of_writes_sub main_part1_ops4 _ main_part1_ops4_writes h
/-- After item 14, `main_part2_ops0`: region 5's entry. -/
abbrev W14 : Dev nD → Valuation τ sig (Elt F) := fun c => StableHlo.after main_part2_ops0 (W13 m ρ c)
theorem W14_of (c : Dev nD) (r : Ref sig .tc) (h : r ∉ main_part2_ops0_W) : W14 m ρ c (Proc.devRef .tc r) = W13 m ρ c (Proc.devRef .tc r) :=
  StableHlo.after_of_writes_sub main_part2_ops0 _ main_part2_ops0_writes h
abbrev V14 : (c : Dev nD) → (b : Ref sig .tc) → Buf (Elt F) ((c : Thread nD τ).loc b) := fun c b => W14 m ρ c b

/-- After item 15, region 5. -/
def W15 (c : Dev nD) : Valuation τ sig (Elt F) :=
  Pipeline.withArrays spec5 c (W14 m ρ c) fun w => (dat5 (V14 m ρ) c).arrAt w cfg5.N
theorem W15_arr (c : Dev nD) (w : Fin cfg5.W) :
    W15 m ρ c (Proc.devRef .tc (Pipeline.arrRef spec5 w)) = (dat5 (V14 m ρ) c).arrAt w cfg5.N := by
  unfold W15; exact Pipeline.withArrays_arr spec5 launch5.win.arr_inj c _ _ w
theorem W15_of_ne (c : Dev nD) (b : Ref sig .tc) (hb : ∀ w, Pipeline.arrRef spec5 w ≠ b) :
    W15 m ρ c (Proc.devRef .tc b) = W14 m ρ c (Proc.devRef .tc b) := by
  unfold W15; exact Pipeline.withArrays_of_ne spec5 c _ _ b hb
theorem W15_of (c : Dev nD) (r : Ref sig .tc) (h : r ∉ reg5_W) : W15 m ρ c (Proc.devRef .tc r) = W14 m ρ c (Proc.devRef .tc r) :=
  withArrays_exit_of_in (dat5 (V14 m ρ) c) (W14 m ρ c) (A_eq5 (V14 m ρ) c) r fun w e => reg5_in w (e ▸ h)
abbrev V15 : (c : Dev nD) → (b : Ref sig .tc) → Buf (Elt F) ((c : Thread nD τ).loc b) := fun c b => W15 m ρ c b
theorem hF5 (c : Dev nD) (w : Fin cfg5.W) : (dat5 (V14 m ρ) c).arrAt w cfg5.N = V15 m ρ c (Pipeline.arrRef spec5 w) :=
  (W15_arr m ρ c w).symm
theorem hrest5 (c : Dev nD) : ∀ b, b ∉ Finset.univ.image (Pipeline.arrRef spec5) → V15 m ρ c b = V14 m ρ c b :=
  fun b hb => W15_of_ne m ρ c b fun w e => hb (Finset.mem_image.mpr ⟨w, Finset.mem_univ _, e⟩)

/-- After item 16, `main_part2_ops1`: region 6's entry. -/
abbrev W16 : Dev nD → Valuation τ sig (Elt F) := fun c => StableHlo.after main_part2_ops1 (W15 m ρ c)
theorem W16_of (c : Dev nD) (r : Ref sig .tc) (h : r ∉ main_part2_ops1_W) : W16 m ρ c (Proc.devRef .tc r) = W15 m ρ c (Proc.devRef .tc r) :=
  StableHlo.after_of_writes_sub main_part2_ops1 _ main_part2_ops1_writes h
abbrev V16 : (c : Dev nD) → (b : Ref sig .tc) → Buf (Elt F) ((c : Thread nD τ).loc b) := fun c b => W16 m ρ c b

/-- After item 17, region 6. -/
def W17 (c : Dev nD) : Valuation τ sig (Elt F) :=
  Pipeline.withArrays spec6 c (W16 m ρ c) fun w => (dat6 (V16 m ρ) c).arrAt w cfg6.N
theorem W17_arr (c : Dev nD) (w : Fin cfg6.W) :
    W17 m ρ c (Proc.devRef .tc (Pipeline.arrRef spec6 w)) = (dat6 (V16 m ρ) c).arrAt w cfg6.N := by
  unfold W17; exact Pipeline.withArrays_arr spec6 launch6.win.arr_inj c _ _ w
theorem W17_of_ne (c : Dev nD) (b : Ref sig .tc) (hb : ∀ w, Pipeline.arrRef spec6 w ≠ b) :
    W17 m ρ c (Proc.devRef .tc b) = W16 m ρ c (Proc.devRef .tc b) := by
  unfold W17; exact Pipeline.withArrays_of_ne spec6 c _ _ b hb
theorem W17_of (c : Dev nD) (r : Ref sig .tc) (h : r ∉ reg6_W) : W17 m ρ c (Proc.devRef .tc r) = W16 m ρ c (Proc.devRef .tc r) :=
  withArrays_exit_of_in (dat6 (V16 m ρ) c) (W16 m ρ c) (A_eq6 (V16 m ρ) c) r fun w e => reg6_in w (e ▸ h)
abbrev V17 : (c : Dev nD) → (b : Ref sig .tc) → Buf (Elt F) ((c : Thread nD τ).loc b) := fun c b => W17 m ρ c b
theorem hF6 (c : Dev nD) (w : Fin cfg6.W) : (dat6 (V16 m ρ) c).arrAt w cfg6.N = V17 m ρ c (Pipeline.arrRef spec6 w) :=
  (W17_arr m ρ c w).symm
theorem hrest6 (c : Dev nD) : ∀ b, b ∉ Finset.univ.image (Pipeline.arrRef spec6) → V17 m ρ c b = V16 m ρ c b :=
  fun b hb => W17_of_ne m ρ c b fun w e => hb (Finset.mem_image.mpr ⟨w, Finset.mem_univ _, e⟩)

/-- After item 18, region 7 (entered straight from region 6's exit): the contents @main returns with. -/
def W18 (c : Dev nD) : Valuation τ sig (Elt F) :=
  Pipeline.withArrays spec7 c (W17 m ρ c) fun w => (dat7 (V17 m ρ) c).arrAt w cfg7.N
theorem W18_arr (c : Dev nD) (w : Fin cfg7.W) :
    W18 m ρ c (Proc.devRef .tc (Pipeline.arrRef spec7 w)) = (dat7 (V17 m ρ) c).arrAt w cfg7.N := by
  unfold W18; exact Pipeline.withArrays_arr spec7 launch7.win.arr_inj c _ _ w
theorem W18_of_ne (c : Dev nD) (b : Ref sig .tc) (hb : ∀ w, Pipeline.arrRef spec7 w ≠ b) :
    W18 m ρ c (Proc.devRef .tc b) = W17 m ρ c (Proc.devRef .tc b) := by
  unfold W18; exact Pipeline.withArrays_of_ne spec7 c _ _ b hb
theorem W18_of (c : Dev nD) (r : Ref sig .tc) (h : r ∉ reg7_W) : W18 m ρ c (Proc.devRef .tc r) = W17 m ρ c (Proc.devRef .tc r) :=
  withArrays_exit_of_in (dat7 (V17 m ρ) c) (W17 m ρ c) (A_eq7 (V17 m ρ) c) r fun w e => reg7_in w (e ▸ h)
abbrev V18 : (c : Dev nD) → (b : Ref sig .tc) → Buf (Elt F) ((c : Thread nD τ).loc b) := fun c b => W18 m ρ c b
theorem hF7 (c : Dev nD) (w : Fin cfg7.W) : (dat7 (V17 m ρ) c).arrAt w cfg7.N = V18 m ρ c (Pipeline.arrRef spec7 w) :=
  (W18_arr m ρ c w).symm
theorem hrest7 (c : Dev nD) : ∀ b, b ∉ Finset.univ.image (Pipeline.arrRef spec7) → V18 m ρ c b = V17 m ρ c b :=
  fun b hb => W18_of_ne m ρ c b fun w e => hb (Finset.mem_image.mpr ⟨w, Finset.mem_univ _, e⟩)

/-- The contents @main returns with. -/
abbrev Wn : Dev nD → Valuation τ sig (Elt F) := W18 m ρ

/-! ## The arguments end as launched: no item writes one -/

/-- The ten argument arrays. -/
abbrev argRefs : List (Ref sig .tc) :=
  [main_arg0, main_arg1, main_arg2, main_arg3, main_arg4, main_arg5, main_arg6, main_arg7, main_arg8, main_arg9]

/-- No argument is among the references any of the eighteen items writes. -/
theorem args_unwritten : ∀ r ∈ argRefs,
    (r ∉ main_part0_ops0_W ∧ r ∉ main_part0_ops1_W ∧ r ∉ main_part0_ops2_W ∧ r ∉ main_part1_ops0_W ∧ r ∉ reg0_W ∧ r ∉ main_part1_ops1_W)
    ∧ (r ∉ reg1_W ∧ r ∉ main_part1_ops2_W ∧ r ∉ reg2_W ∧ r ∉ reg3_W ∧ r ∉ main_part1_ops3_W ∧ r ∉ reg4_W)
    ∧ (r ∉ main_part1_ops4_W ∧ r ∉ main_part2_ops0_W ∧ r ∉ reg5_W ∧ r ∉ main_part2_ops1_W ∧ r ∉ reg6_W ∧ r ∉ reg7_W) := by
  decide

/-- An argument array read at the end of @main holds its launch contents: the fold walked back item by item. -/
theorem Wn_arg (c : Dev nD) (r : Ref sig .tc) (h : r ∈ argRefs) :
    Wn m ρ c (Proc.devRef .tc r) = m ((c : Thread nD τ).loc r) := by
  obtain ⟨⟨h1, h2, h3, h4, h5, h6⟩, ⟨h7, h8, h9, h10, h11, h12⟩, ⟨h13, h14, h15, h16, h17, h18⟩⟩ := args_unwritten r h
  exact (W18_of m ρ c r h18).trans <| (W17_of m ρ c r h17).trans <| (W16_of m ρ c r h16).trans <| (W15_of m ρ c r h15).trans <|
    (W14_of m ρ c r h14).trans <| (W13_of m ρ c r h13).trans <| (W12_of m ρ c r h12).trans <| (W11_of m ρ c r h11).trans <|
    (W10_of m ρ c r h10).trans <| (W9_of m ρ c r h9).trans <| (W8_of m ρ c r h8).trans <| (W7_of m ρ c r h7).trans <|
    (W6_of m ρ c r h6).trans <| (W5_of m ρ c r h5).trans <| (W4_of m ρ c r h4).trans <| (W3_of m ρ c r h3).trans <|
    (W2_of m ρ c r h2).trans <| (W1_of m ρ c r h1)

theorem Wn_main_arg0 (c : Dev nD) : Wn m ρ c (Proc.devRef .tc main_arg0) = m ((c : Thread nD τ).loc main_arg0) := Wn_arg m ρ c _ (by decide)
theorem Wn_main_arg1 (c : Dev nD) : Wn m ρ c (Proc.devRef .tc main_arg1) = m ((c : Thread nD τ).loc main_arg1) := Wn_arg m ρ c _ (by decide)
theorem Wn_main_arg2 (c : Dev nD) : Wn m ρ c (Proc.devRef .tc main_arg2) = m ((c : Thread nD τ).loc main_arg2) := Wn_arg m ρ c _ (by decide)
theorem Wn_main_arg3 (c : Dev nD) : Wn m ρ c (Proc.devRef .tc main_arg3) = m ((c : Thread nD τ).loc main_arg3) := Wn_arg m ρ c _ (by decide)
theorem Wn_main_arg4 (c : Dev nD) : Wn m ρ c (Proc.devRef .tc main_arg4) = m ((c : Thread nD τ).loc main_arg4) := Wn_arg m ρ c _ (by decide)
theorem Wn_main_arg5 (c : Dev nD) : Wn m ρ c (Proc.devRef .tc main_arg5) = m ((c : Thread nD τ).loc main_arg5) := Wn_arg m ρ c _ (by decide)
theorem Wn_main_arg6 (c : Dev nD) : Wn m ρ c (Proc.devRef .tc main_arg6) = m ((c : Thread nD τ).loc main_arg6) := Wn_arg m ρ c _ (by decide)
theorem Wn_main_arg7 (c : Dev nD) : Wn m ρ c (Proc.devRef .tc main_arg7) = m ((c : Thread nD τ).loc main_arg7) := Wn_arg m ρ c _ (by decide)
theorem Wn_main_arg8 (c : Dev nD) : Wn m ρ c (Proc.devRef .tc main_arg8) = m ((c : Thread nD τ).loc main_arg8) := Wn_arg m ρ c _ (by decide)
theorem Wn_main_arg9 (c : Dev nD) : Wn m ρ c (Proc.devRef .tc main_arg9) = m ((c : Thread nD τ).loc main_arg9) := Wn_arg m ρ c _ (by decide)

end Cert.Kernel.Frm

end
-- ==== Proof.KB.Run.lean ====
/- The launch of the eight-region program: every pipeline's proof data at its region's entry contents, each stretch of
   host operations and each kernel region as a segment over the thread state "every unscoped buffer at the boundary's
   contents, the generator register at some state, nothing owed", @main as the run of the eighteen segments, and the
   run itself: termination, the three result arrays at the last boundary's contents, the ten arguments as launched. -/
import proofs.«416106_j13048110645352_1_alg».proof.Proof.KB.Run.Chain

set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's eighteen items as segments, and the launch

## The proof data family and the thread state -/

/-- The prefetched tables' admissible contents: no pipeline has a table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V6 m ρ) c
  | ⟨2, _⟩ => fun c => dat2 (V8 m ρ) c
  | ⟨3, _⟩ => fun c => dat3 (V9 m ρ) c
  | ⟨4, _⟩ => fun c => dat4 (V11 m ρ) c
  | ⟨5, _⟩ => fun c => dat5 (V14 m ρ) c
  | ⟨6, _⟩ => fun c => dat6 (V16 m ρ) c
  | ⟨7, _⟩ => fun c => dat7 (V17 m ρ) c
  | ⟨_ + 8, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem main_part1_ops2_fresh : (main_part1_ops2 : List (HloOp τ sig (Elt F))).Forall fun op => op.fresh = ∅ := by
  simp only [List.Forall]; repeat' constructor
theorem main_part1_ops3_fresh : (main_part1_ops3 : List (HloOp τ sig (Elt F))).Forall fun op => op.fresh = ∅ := by
  simp only [List.Forall]; repeat' constructor
theorem main_part1_ops4_fresh : (main_part1_ops4 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part2_ops1_fresh : (main_part2_ops1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## A kernel region as a segment, once for the eight

A region is entered from every unscoped buffer at the entry contents `Wi` and left with them at the exit contents
`Wo`. Its arrays are split out of the unscoped buffers at entry (`hsplit`) and put back at exit (`hjoin`): the two
entailments are the region's own (seven regions have distinct arrays; region 2 reads one array through two windows).
The generator register goes into the pipeline's invariant and comes out; nothing is owed; the kernel has no semaphore of
its own. -/

set_option backward.isDefEq.respectTransparency.types false in
def regOf (p : Fin 8)
    (hw : Pipeline.WinFacts₀ (pcfgs (F := F) p).spec)
    (hblock : ∀ w : Fin (Pipeline.pin (pcfgs (F := F)) adm p).W, 0 < ((Pipeline.pin (pcfgs (F := F)) adm p).spec w).block.numel)
    (hstage : ∀ (w : Fin (Pipeline.pin (pcfgs (F := F)) adm p).W) (s : Fin ((Pipeline.pin (pcfgs (F := F)) adm p).spec w).nbuf),
      (((Pipeline.pin (pcfgs (F := F)) adm p).spec w).stage s).IsWhole)
    (Wi Wo : Dev nD → Valuation τ sig (Elt F))
    (hbody : ∀ c : Dev nD, Pipeline.BodyObligationLoose (pdats m ρ p c) (defs₀ (F := F)) 𝒱₀ () Set.univ)
    (hΦ : ∀ (c : Dev nD) t, (pdats m ρ p c).Φ t = Pipeline.ΦA (Pipeline.pin (pcfgs (F := F)) adm p).spec c)
    (howed : ∀ (c : Dev nD) t, (pdats m ρ p c).owed t = 0)
    (hrec : ∀ (c : Dev nD) t, (pdats m ρ p c).recorded t = Set.univ)
    (hsplit : ∀ c : Dev nD, (StableHlo.held (c : Thread nD τ) (Pipeline.ucRefs τ sig) (Wi c) : sProp 𝕄)
      ⊢ iprop((pdats m ρ p c).arrays ((pdats m ρ p c).arrAt · 0)
          ∗ Pipeline.unscopedRest (Ix := Unit) (Name := ℕ) (U := UR sig nD τ) (Lvl := ℕ) (Pipeline.pin (pcfgs (F := F)) adm p).spec c (fun b => Wi c b)))
    (hjoin : ∀ c : Dev nD, iprop((pdats m ρ p c).arrays ((pdats m ρ p c).arrAt · (Pipeline.pin (pcfgs (F := F)) adm p).N)
          ∗ Pipeline.unscopedRest (Ix := Unit) (Name := ℕ) (U := UR sig nD τ) (Lvl := ℕ) (Pipeline.pin (pcfgs (F := F)) adm p).spec c (fun b => Wi c b))
      ⊢ (StableHlo.held (c : Thread nD τ) (Pipeline.ucRefs τ sig) (Wo c) : sProp 𝕄)) :
    Pipeline.RegionSeg (pcfgs (F := F)) adm (pdats m ρ) () defs₀ 𝒱₀ L lv p where
  win := hw
  block_pos := hblock
  stage_whole := hstage
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Wi c b)
  hentry c := by
    rw [Pipeline.ownSems0_none]
    iintro ⟨⟨Hub, Hp, HO⟩, -, -⟩
    ihave H := (hsplit c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr
      · ipureintro; intro x _; left; rw [hrec c 0]; trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (hjoin c); isplitl [Ha] <;> iassumption
    isplitl [HY]; · iexact HY
    unfold Pipeline.Dat.owesAt Pipeline.owesWithin
    rw [howed c (Fin.last _)]
    icases HO with ⟨%W, -, HO⟩; iexists W; iexact HO

/-! ## The eight regions' arrays, split out of the unscoped buffers at entry and put back at exit -/

set_option backward.isDefEq.respectTransparency.types false in
theorem hsplit0 (c : Dev nD) : (StableHlo.held (c : Thread nD τ) (Pipeline.ucRefs τ sig) (W4 m ρ c) : sProp 𝕄)
    ⊢ iprop((pdats m ρ 0 c).arrays ((pdats m ρ 0 c).arrAt · 0)
      ∗ Pipeline.unscopedRest (Ix := Unit) (Name := ℕ) (U := UR sig nD τ) (Lvl := ℕ) spec0 c (fun b => W4 m ρ c b)) := by
  have h := Pipeline.arrays_of_unscopedBufs (p := 0) (pcfgs (F := F)) adm (pdats m ρ) launch0.win launch0.arr_whole c
    ((pdats m ρ 0 c).share_full fun _ => rfl) (V4 m ρ c) fun _ => rfl
  rw [Pipeline.unscopedBufs_held] at h
  exact h
set_option backward.isDefEq.respectTransparency.types false in
theorem hjoin0 (c : Dev nD) : iprop((pdats m ρ 0 c).arrays ((pdats m ρ 0 c).arrAt · cfg0.N)
      ∗ Pipeline.unscopedRest (Ix := Unit) (Name := ℕ) (U := UR sig nD τ) (Lvl := ℕ) spec0 c (fun b => W4 m ρ c b))
    ⊢ (StableHlo.held (c : Thread nD τ) (Pipeline.ucRefs τ sig) (W5 m ρ c) : sProp 𝕄) := by
  have h := Pipeline.unscopedBufs_of_arrays (p := 0) (pcfgs (F := F)) adm (Ix := Unit) (Name := ℕ) (U := UR sig nD τ) (Lvl := ℕ)
    launch0.win launch0.arr_whole c (pdats m ρ) ((pdats m ρ 0 c).share_full fun _ => rfl)
    (V4 m ρ c) (V5 m ρ c) ((pdats m ρ 0 c).arrAt · cfg0.N) (hF0 m ρ c) (hrest0 m ρ c)
  rw [Pipeline.unscopedBufs_held] at h
  exact h

set_option backward.isDefEq.respectTransparency.types false in
theorem hsplit1 (c : Dev nD) : (StableHlo.held (c : Thread nD τ) (Pipeline.ucRefs τ sig) (W6 m ρ c) : sProp 𝕄)
    ⊢ iprop((pdats m ρ 1 c).arrays ((pdats m ρ 1 c).arrAt · 0)
      ∗ Pipeline.unscopedRest (Ix := Unit) (Name := ℕ) (U := UR sig nD τ) (Lvl := ℕ) spec1 c (fun b => W6 m ρ c b)) := by
  have h := Pipeline.arrays_of_unscopedBufs (p := 1) (pcfgs (F := F)) adm (pdats m ρ) launch1.win launch1.arr_whole c
    ((pdats m ρ 1 c).share_full fun _ => rfl) (V6 m ρ c) fun _ => rfl
  rw [Pipeline.unscopedBufs_held] at h
  exact h
set_option backward.isDefEq.respectTransparency.types false in
theorem hjoin1 (c : Dev nD) : iprop((pdats m ρ 1 c).arrays ((pdats m ρ 1 c).arrAt · cfg1.N)
      ∗ Pipeline.unscopedRest (Ix := Unit) (Name := ℕ) (U := UR sig nD τ) (Lvl := ℕ) spec1 c (fun b => W6 m ρ c b))
    ⊢ (StableHlo.held (c : Thread nD τ) (Pipeline.ucRefs τ sig) (W7 m ρ c) : sProp 𝕄) := by
  have h := Pipeline.unscopedBufs_of_arrays (p := 1) (pcfgs (F := F)) adm (Ix := Unit) (Name := ℕ) (U := UR sig nD τ) (Lvl := ℕ)
    launch1.win launch1.arr_whole c (pdats m ρ) ((pdats m ρ 1 c).share_full fun _ => rfl)
    (V6 m ρ c) (V7 m ρ c) ((pdats m ρ 1 c).arrAt · cfg1.N) (hF1 m ρ c) (hrest1 m ρ c)
  rw [Pipeline.unscopedBufs_held] at h
  exact h

/-- Region 2 at entry: the distinct buffers behind its windows come out of the unscoped buffers whole, and the one two
    windows read is halved between them. -/
theorem hsplit2 (c : Dev nD) : (StableHlo.held (c : Thread nD τ) (Pipeline.ucRefs τ sig) (W8 m ρ c) : sProp 𝕄)
    ⊢ iprop((pdats m ρ 2 c).arrays ((pdats m ρ 2 c).arrAt · 0)
      ∗ Pipeline.unscopedRest (Ix := Unit) (Name := ℕ) (U := UR sig nD τ) (Lvl := ℕ) spec2 c (fun b => W8 m ρ c b)) := by
  rw [← Pipeline.unscopedBufs_held c (W8 m ρ c),
    Pipeline.unscopedBufs_split₀ (Pipeline.pin (pcfgs (F := F)) adm) 2 winFacts₀2.arr_unscoped c (Ix := Unit) (Name := ℕ) (U := UR sig nD τ) (Lvl := ℕ) (V8 m ρ c)]
  exact sep_mono (arrays_of_arrBufs2 (V8 m ρ) c) .rfl
/-- Region 2 at exit: the halves rejoin, the outputs are at what the write-backs leave, the rest bypassed the region. -/
theorem hjoin2 (c : Dev nD) : iprop((pdats m ρ 2 c).arrays ((pdats m ρ 2 c).arrAt · cfg2.N)
      ∗ Pipeline.unscopedRest (Ix := Unit) (Name := ℕ) (U := UR sig nD τ) (Lvl := ℕ) spec2 c (fun b => W8 m ρ c b))
    ⊢ (StableHlo.held (c : Thread nD τ) (Pipeline.ucRefs τ sig) (W9 m ρ c) : sProp 𝕄) := by
  rw [← Pipeline.unscopedBufs_held c (W9 m ρ c),
    Pipeline.unscopedBufs_split₀ (Pipeline.pin (pcfgs (F := F)) adm) 2 winFacts₀2.arr_unscoped c (Ix := Unit) (Name := ℕ) (U := UR sig nD τ) (Lvl := ℕ) (V9 m ρ c)]
  refine sep_mono (arrBufs_of_arrays2 (V8 m ρ) c (V9 m ρ c) (hF2 m ρ c)) (Entails.of_eq ?_)
  unfold Pipeline.unscopedRest
  exact bigSep_congr fun b hb => by rw [hrest2 m ρ c b (Finset.mem_sdiff.mp hb).2]

set_option backward.isDefEq.respectTransparency.types false in
theorem hsplit3 (c : Dev nD) : (StableHlo.held (c : Thread nD τ) (Pipeline.ucRefs τ sig) (W9 m ρ c) : sProp 𝕄)
    ⊢ iprop((pdats m ρ 3 c).arrays ((pdats m ρ 3 c).arrAt · 0)
      ∗ Pipeline.unscopedRest (Ix := Unit) (Name := ℕ) (U := UR sig nD τ) (Lvl := ℕ) spec3 c (fun b => W9 m ρ c b)) := by
  have h := Pipeline.arrays_of_unscopedBufs (p := 3) (pcfgs (F := F)) adm (pdats m ρ) launch3.win launch3.arr_whole c
    ((pdats m ρ 3 c).share_full fun _ => rfl) (V9 m ρ c) fun _ => rfl
  rw [Pipeline.unscopedBufs_held] at h
  exact h
set_option backward.isDefEq.respectTransparency.types false in
theorem hjoin3 (c : Dev nD) : iprop((pdats m ρ 3 c).arrays ((pdats m ρ 3 c).arrAt · cfg3.N)
      ∗ Pipeline.unscopedRest (Ix := Unit) (Name := ℕ) (U := UR sig nD τ) (Lvl := ℕ) spec3 c (fun b => W9 m ρ c b))
    ⊢ (StableHlo.held (c : Thread nD τ) (Pipeline.ucRefs τ sig) (W10 m ρ c) : sProp 𝕄) := by
  have h := Pipeline.unscopedBufs_of_arrays (p := 3) (pcfgs (F := F)) adm (Ix := Unit) (Name := ℕ) (U := UR sig nD τ) (Lvl := ℕ)
    launch3.win launch3.arr_whole c (pdats m ρ) ((pdats m ρ 3 c).share_full fun _ => rfl)
    (V9 m ρ c) (V10 m ρ c) ((pdats m ρ 3 c).arrAt · cfg3.N) (hF3 m ρ c) (hrest3 m ρ c)
  rw [Pipeline.unscopedBufs_held] at h
  exact h

set_option backward.isDefEq.respectTransparency.types false in
theorem hsplit4 (c : Dev nD) : (StableHlo.held (c : Thread nD τ) (Pipeline.ucRefs τ sig) (W11 m ρ c) : sProp 𝕄)
    ⊢ iprop((pdats m ρ 4 c).arrays ((pdats m ρ 4 c).arrAt · 0)
      ∗ Pipeline.unscopedRest (Ix := Unit) (Name := ℕ) (U := UR sig nD τ) (Lvl := ℕ) spec4 c (fun b => W11 m ρ c b)) := by
  have h := Pipeline.arrays_of_unscopedBufs (p := 4) (pcfgs (F := F)) adm (pdats m ρ) launch4.win launch4.arr_whole c
    ((pdats m ρ 4 c).share_full fun _ => rfl) (V11 m ρ c) fun _ => rfl
  rw [Pipeline.unscopedBufs_held] at h
  exact h
set_option backward.isDefEq.respectTransparency.types false in
theorem hjoin4 (c : Dev nD) : iprop((pdats m ρ 4 c).arrays ((pdats m ρ 4 c).arrAt · cfg4.N)
      ∗ Pipeline.unscopedRest (Ix := Unit) (Name := ℕ) (U := UR sig nD τ) (Lvl := ℕ) spec4 c (fun b => W11 m ρ c b))
    ⊢ (StableHlo.held (c : Thread nD τ) (Pipeline.ucRefs τ sig) (W12 m ρ c) : sProp 𝕄) := by
  have h := Pipeline.unscopedBufs_of_arrays (p := 4) (pcfgs (F := F)) adm (Ix := Unit) (Name := ℕ) (U := UR sig nD τ) (Lvl := ℕ)
    launch4.win launch4.arr_whole c (pdats m ρ) ((pdats m ρ 4 c).share_full fun _ => rfl)
    (V11 m ρ c) (V12 m ρ c) ((pdats m ρ 4 c).arrAt · cfg4.N) (hF4 m ρ c) (hrest4 m ρ c)
  rw [Pipeline.unscopedBufs_held] at h
  exact h

set_option backward.isDefEq.respectTransparency.types false in
theorem hsplit5 (c : Dev nD) : (StableHlo.held (c : Thread nD τ) (Pipeline.ucRefs τ sig) (W14 m ρ c) : sProp 𝕄)
    ⊢ iprop((pdats m ρ 5 c).arrays ((pdats m ρ 5 c).arrAt · 0)
      ∗ Pipeline.unscopedRest (Ix := Unit) (Name := ℕ) (U := UR sig nD τ) (Lvl := ℕ) spec5 c (fun b => W14 m ρ c b)) := by
  have h := Pipeline.arrays_of_unscopedBufs (p := 5) (pcfgs (F := F)) adm (pdats m ρ) launch5.win launch5.arr_whole c
    ((pdats m ρ 5 c).share_full fun _ => rfl) (V14 m ρ c) fun _ => rfl
  rw [Pipeline.unscopedBufs_held] at h
  exact h
set_option backward.isDefEq.respectTransparency.types false in
theorem hjoin5 (c : Dev nD) : iprop((pdats m ρ 5 c).arrays ((pdats m ρ 5 c).arrAt · cfg5.N)
      ∗ Pipeline.unscopedRest (Ix := Unit) (Name := ℕ) (U := UR sig nD τ) (Lvl := ℕ) spec5 c (fun b => W14 m ρ c b))
    ⊢ (StableHlo.held (c : Thread nD τ) (Pipeline.ucRefs τ sig) (W15 m ρ c) : sProp 𝕄) := by
  have h := Pipeline.unscopedBufs_of_arrays (p := 5) (pcfgs (F := F)) adm (Ix := Unit) (Name := ℕ) (U := UR sig nD τ) (Lvl := ℕ)
    launch5.win launch5.arr_whole c (pdats m ρ) ((pdats m ρ 5 c).share_full fun _ => rfl)
    (V14 m ρ c) (V15 m ρ c) ((pdats m ρ 5 c).arrAt · cfg5.N) (hF5 m ρ c) (hrest5 m ρ c)
  rw [Pipeline.unscopedBufs_held] at h
  exact h

set_option backward.isDefEq.respectTransparency.types false in
theorem hsplit6 (c : Dev nD) : (StableHlo.held (c : Thread nD τ) (Pipeline.ucRefs τ sig) (W16 m ρ c) : sProp 𝕄)
    ⊢ iprop((pdats m ρ 6 c).arrays ((pdats m ρ 6 c).arrAt · 0)
      ∗ Pipeline.unscopedRest (Ix := Unit) (Name := ℕ) (U := UR sig nD τ) (Lvl := ℕ) spec6 c (fun b => W16 m ρ c b)) := by
  have h := Pipeline.arrays_of_unscopedBufs (p := 6) (pcfgs (F := F)) adm (pdats m ρ) launch6.win launch6.arr_whole c
    ((pdats m ρ 6 c).share_full fun _ => rfl) (V16 m ρ c) fun _ => rfl
  rw [Pipeline.unscopedBufs_held] at h
  exact h
set_option backward.isDefEq.respectTransparency.types false in
theorem hjoin6 (c : Dev nD) : iprop((pdats m ρ 6 c).arrays ((pdats m ρ 6 c).arrAt · cfg6.N)
      ∗ Pipeline.unscopedRest (Ix := Unit) (Name := ℕ) (U := UR sig nD τ) (Lvl := ℕ) spec6 c (fun b => W16 m ρ c b))
    ⊢ (StableHlo.held (c : Thread nD τ) (Pipeline.ucRefs τ sig) (W17 m ρ c) : sProp 𝕄) := by
  have h := Pipeline.unscopedBufs_of_arrays (p := 6) (pcfgs (F := F)) adm (Ix := Unit) (Name := ℕ) (U := UR sig nD τ) (Lvl := ℕ)
    launch6.win launch6.arr_whole c (pdats m ρ) ((pdats m ρ 6 c).share_full fun _ => rfl)
    (V16 m ρ c) (V17 m ρ c) ((pdats m ρ 6 c).arrAt · cfg6.N) (hF6 m ρ c) (hrest6 m ρ c)
  rw [Pipeline.unscopedBufs_held] at h
  exact h

set_option backward.isDefEq.respectTransparency.types false in
theorem hsplit7 (c : Dev nD) : (StableHlo.held (c : Thread nD τ) (Pipeline.ucRefs τ sig) (W17 m ρ c) : sProp 𝕄)
    ⊢ iprop((pdats m ρ 7 c).arrays ((pdats m ρ 7 c).arrAt · 0)
      ∗ Pipeline.unscopedRest (Ix := Unit) (Name := ℕ) (U := UR sig nD τ) (Lvl := ℕ) spec7 c (fun b => W17 m ρ c b)) := by
  have h := Pipeline.arrays_of_unscopedBufs (p := 7) (pcfgs (F := F)) adm (pdats m ρ) launch7.win launch7.arr_whole c
    ((pdats m ρ 7 c).share_full fun _ => rfl) (V17 m ρ c) fun _ => rfl
  rw [Pipeline.unscopedBufs_held] at h
  exact h
set_option backward.isDefEq.respectTransparency.types false in
theorem hjoin7 (c : Dev nD) : iprop((pdats m ρ 7 c).arrays ((pdats m ρ 7 c).arrAt · cfg7.N)
      ∗ Pipeline.unscopedRest (Ix := Unit) (Name := ℕ) (U := UR sig nD τ) (Lvl := ℕ) spec7 c (fun b => W17 m ρ c b))
    ⊢ (StableHlo.held (c : Thread nD τ) (Pipeline.ucRefs τ sig) (W18 m ρ c) : sProp 𝕄) := by
  have h := Pipeline.unscopedBufs_of_arrays (p := 7) (pcfgs (F := F)) adm (Ix := Unit) (Name := ℕ) (U := UR sig nD τ) (Lvl := ℕ)
    launch7.win launch7.arr_whole c (pdats m ρ) ((pdats m ρ 7 c).share_full fun _ => rfl)
    (V17 m ρ c) (V18 m ρ c) ((pdats m ρ 7 c).arrAt · cfg7.N) (hF7 m ρ c) (hrest7 m ρ c)
  rw [Pipeline.unscopedBufs_held] at h
  exact h

/-! ## The regions as segments -/

/-- REGION 0 (the edge-scaling kernel, first hop): entered at `W4`, left at `W5`. -/
def reg0 : Pipeline.RegionSeg (pcfgs (F := F)) adm (pdats m ρ) () defs₀ 𝒱₀ L lv 0 :=
  regOf m ρ 0 launch0.win.to₀ launch0.block_pos launch0.stage_whole (W4 m ρ) (W5 m ρ)
    (fun c => (body_obligation0 (V4 m ρ) c).loose) (fun _ _ => rfl) (fun _ _ => rfl) (fun _ _ => rfl) (hsplit0 m ρ) (hjoin0 m ρ)
/-- REGION 1 (the row-scaling kernel, first hop): entered at `W6`, left at `W7`. -/
def reg1 : Pipeline.RegionSeg (pcfgs (F := F)) adm (pdats m ρ) () defs₀ 𝒱₀ L lv 1 :=
  regOf m ρ 1 launch1.win.to₀ launch1.block_pos launch1.stage_whole (W6 m ρ) (W7 m ρ)
    (fun c => (body_obligation1 (V6 m ρ) c).loose) (fun _ _ => rfl) (fun _ _ => rfl) (fun _ _ => rfl) (hsplit1 m ρ) (hjoin1 m ρ)
/-- REGION 2 (the user update, first hop; two windows on one array): entered at `W8`, left at `W9`. -/
def reg2 : Pipeline.RegionSeg (pcfgs (F := F)) adm (pdats m ρ) () defs₀ 𝒱₀ L lv 2 :=
  regOf m ρ 2 winFacts₀2 block_pos2 stage_whole2 (W8 m ρ) (W9 m ρ)
    (fun c => (body_obligation2 (V8 m ρ) c).loose) (fun _ _ => rfl) (fun _ _ => rfl) (fun _ _ => rfl) (hsplit2 m ρ) (hjoin2 m ρ)
/-- REGION 3 (the entity update, first hop): entered at `W9`, left at `W10`. -/
def reg3 : Pipeline.RegionSeg (pcfgs (F := F)) adm (pdats m ρ) () defs₀ 𝒱₀ L lv 3 :=
  regOf m ρ 3 launch3.win.to₀ launch3.block_pos launch3.stage_whole (W9 m ρ) (W10 m ρ)
    (fun c => (body_obligation3 (V9 m ρ) c).loose) (fun _ _ => rfl) (fun _ _ => rfl) (fun _ _ => rfl) (hsplit3 m ρ) (hjoin3 m ρ)
/-- REGION 4 (the edge-scaling kernel, second hop): entered at `W11`, left at `W12`. -/
def reg4 : Pipeline.RegionSeg (pcfgs (F := F)) adm (pdats m ρ) () defs₀ 𝒱₀ L lv 4 :=
  regOf m ρ 4 launch4.win.to₀ launch4.block_pos launch4.stage_whole (W11 m ρ) (W12 m ρ)
    (fun c => (body_obligation4 (V11 m ρ) c).loose) (fun _ _ => rfl) (fun _ _ => rfl) (fun _ _ => rfl) (hsplit4 m ρ) (hjoin4 m ρ)
/-- REGION 5 (the row-scaling kernel, second hop): entered at `W14`, left at `W15`. -/
def reg5 : Pipeline.RegionSeg (pcfgs (F := F)) adm (pdats m ρ) () defs₀ 𝒱₀ L lv 5 :=
  regOf m ρ 5 launch5.win.to₀ launch5.block_pos launch5.stage_whole (W14 m ρ) (W15 m ρ)
    (fun c => (body_obligation5 (V14 m ρ) c).loose) (fun _ _ => rfl) (fun _ _ => rfl) (fun _ _ => rfl) (hsplit5 m ρ) (hjoin5 m ρ)
/-- REGION 6 (the user update, second hop): entered at `W16`, left at `W17`. -/
def reg6 : Pipeline.RegionSeg (pcfgs (F := F)) adm (pdats m ρ) () defs₀ 𝒱₀ L lv 6 :=
  regOf m ρ 6 launch6.win.to₀ launch6.block_pos launch6.stage_whole (W16 m ρ) (W17 m ρ)
    (fun c => (body_obligation6 (V16 m ρ) c).loose) (fun _ _ => rfl) (fun _ _ => rfl) (fun _ _ => rfl) (hsplit6 m ρ) (hjoin6 m ρ)
/-- REGION 7 (the entity update, second hop): entered at `W17`, left at `W18`, which @main returns with. -/
def reg7 : Pipeline.RegionSeg (pcfgs (F := F)) adm (pdats m ρ) () defs₀ 𝒱₀ L lv 7 :=
  regOf m ρ 7 launch7.win.to₀ launch7.block_pos launch7.stage_whole (W17 m ρ) (W18 m ρ)
    (fun c => (body_obligation7 (V17 m ρ) c).loose) (fun _ _ => rfl) (fun _ _ => rfl) (fun _ _ => rfl) (hsplit7 m ρ) (hjoin7 m ρ)

/-! ## @main as segments, and the launch -/

/-- @main's eighteen segments in order: a host segment per stretch from its boundary's contents, a region per pallas_call. -/
abbrev segs : List (Pipeline.Seg (pcfgs (F := F)) adm (pdats m ρ) () defs₀ 𝒱₀ L lv) :=
  [ .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part1_ops0 main_part1_ops0_sub main_part1_ops0_fresh (W3 m ρ)),
    .region (reg0 m ρ),
    .host (hseg main_part1_ops1 main_part1_ops1_sub main_part1_ops1_fresh (W5 m ρ)),
    .region (reg1 m ρ),
    .host (hseg main_part1_ops2 main_part1_ops2_sub main_part1_ops2_fresh (W7 m ρ)),
    .region (reg2 m ρ),
    .region (reg3 m ρ),
    .host (hseg main_part1_ops3 main_part1_ops3_sub main_part1_ops3_fresh (W10 m ρ)),
    .region (reg4 m ρ),
    .host (hseg main_part1_ops4 main_part1_ops4_sub main_part1_ops4_fresh (W12 m ρ)),
    .host (hseg main_part2_ops0 main_part2_ops0_sub main_part2_ops0_fresh (W13 m ρ)),
    .region (reg5 m ρ),
    .host (hseg main_part2_ops1 main_part2_ops1_sub main_part2_ops1_fresh (W15 m ρ)),
    .region (reg6 m ρ),
    .region (reg7 m ρ) ]

/-- @main IS the run of the segments: its chain of windowed items, then the segments' run against that chain by the
    kernel's definitional check. -/
theorem main_run (c : Dev nD) : main (F := F) c = Pipeline.Seg.run (segs m ρ) := (main_chain_windows c).trans (by chain_rfl)

/-- The last thread state without the `owes`: every unscoped buffer at the last boundary's contents, the generator
    register at some state. -/
abbrev Tₙ (c : Dev nD) : sProp 𝕄 := iprop(StableHlo.held (c : Thread nD τ) (Pipeline.ucRefs τ sig) (Wn m ρ c) ∗ ∃ r, prngReg c r)

set_option backward.isDefEq.respectTransparency.types false in
/-- THE RUN: from any memory with zero counters, every weakly fair execution of @main on the TensorCores terminates,
    nothing faulting, and every final state has the three result arrays at the last boundary's contents and the ten
    argument arrays as launched. -/
theorem run_main : θ_run defs (onTc (τ := τ) (main (F := F))) ⟨m, fun _ => 0, ρ⟩ (fun r => ∀ c : Dev nD,
      r.2.mem ((c : Thread nD τ).loc main_v103_1) = Wn m ρ c (Proc.devRef .tc main_v103_1)
      ∧ r.2.mem ((c : Thread nD τ).loc main_v102_1) = Wn m ρ c (Proc.devRef .tc main_v102_1)
      ∧ r.2.mem ((c : Thread nD τ).loc main_v17) = Wn m ρ c (Proc.devRef .tc main_v17)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun c =>
        show iprop(StableHlo.held (c : Thread nD τ) (Pipeline.ucRefs τ sig) (W18 m ρ c) ∗ R c)
          ⊢ iprop(Tₙ m ρ c ∗ ∃ W, owes (c : Thread nD τ) (0 : CellTallies nD τ sig Unit) W) from by
        iintro ⟨Hh, Hr, HO⟩
        isplitl [Hh Hr]
        · isplitl [Hh]; · iexact Hh
          iexact Hr
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wn m ρ c b)
    (hfin := fun c s' => by
      iintro ⟨⟨Hh, -⟩, HSI⟩
      unfold StableHlo.held
      imodintro
      iapply (pointsTo_read_all (Pipeline.ucRefs τ sig) (fun b => (((c : Thread nD τ)).1, b)) (Wn m ρ c) s')
      isplitl [Hh] <;> iassumption)
    (hQ := fun s h c =>
      ⟨h c _ (mem_uc main_v103_1 (by decide)), h c _ (mem_uc main_v102_1 (by decide)), h c _ (mem_uc main_v17 (by decide)),
       (h c _ (mem_uc main_arg0 (by decide))).trans (Wn_main_arg0 m ρ c),
       (h c _ (mem_uc main_arg1 (by decide))).trans (Wn_main_arg1 m ρ c),
       (h c _ (mem_uc main_arg2 (by decide))).trans (Wn_main_arg2 m ρ c),
       (h c _ (mem_uc main_arg3 (by decide))).trans (Wn_main_arg3 m ρ c),
       (h c _ (mem_uc main_arg4 (by decide))).trans (Wn_main_arg4 m ρ c),
       (h c _ (mem_uc main_arg5 (by decide))).trans (Wn_main_arg5 m ρ c),
       (h c _ (mem_uc main_arg6 (by decide))).trans (Wn_main_arg6 m ρ c),
       (h c _ (mem_uc main_arg7 (by decide))).trans (Wn_main_arg7 m ρ c),
       (h c _ (mem_uc main_arg8 (by decide))).trans (Wn_main_arg8 m ρ c),
       (h c _ (mem_uc main_arg9 (by decide))).trans (Wn_main_arg9 m ρ c)⟩)

/-- THE FRAME: @main terminates from any memory with zero counters and its ten argument arrays end as launched. -/
theorem frame : θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)) :=
  (θ_run _ _ _).mono (fun r h c => (h c).2.2.2) (run_main m ρ)

end Cert.Kernel.Frm

end
-- ==== Proof.KI.Body0.lean ====
/- Region 0 of @main (custom_call 0, the edge-scale body, pipeline 0) at the contents V the TensorCore's buffers
   have when the region is entered: each window's block at a grid point, what the body leaves in the output
   window's buffer as a function of the input blocks, the body's triple on whole staging memrefs, the pipeline's
   proof data, and the body obligation at every grid point. -/
import proofs.«416106_j13048110645352_1_alg».proof.Proof.Gen.KernelIdeal.Launch
import proofs.«416106_j13048110645352_1_alg».proof.Proof.Gen.KernelIdeal.Skeleton
import proofs.«416106_j13048110645352_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axis
set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there
    or not (an unfetched window's block index has not moved), for any proof data whose array is V's and whose body
    leaves the block in place. One statement per input window: 0, 1, 2 (the weight table, one block for all points), 3. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 4000x1 column (the relation ids, and the per-edge scale). -/
abbrev r0_0 : Rect S4000x1 := Rect.unit (s := S4000x1) ![0, 0] S4000x1.size inb_S4000x1_S4000x1_0_0
/-- The whole 10x64 weight table. -/
abbrev r0_1 : Rect S10x64 := Rect.unit (s := S10x64) ![0, 0] S10x64.size inb_S10x64_S10x64_0_0
/-- The whole 4000x64 block (the tail rows read, the result stored). -/
abbrev r0_2 : Rect S4000x64 := Rect.unit (s := S4000x64) ![0, 0] S4000x64.size inb_S4000x64_S4000x64_0_0

/-! ## What the body leaves in the output window's buffer -/

/-- Window 4's staging buffer after the body, from the input windows' blocks: its one store, of the whole block,
    whose payload is tail * (onehot(relation) @ weight) * scale over the four loads. -/
def out0_4 (x0 : Vec F S4000x64 .f32) (x1 : Vec F S4000x1 .i32) (x2 : Vec F S10x64 .f32) (x3 : Vec F S4000x1 .f32) : Vec F S4000x64 .f32 :=
  View.canon [⟨r0_2, k0_pay1 (View.ld x1 r0_0) (View.ld x2 r0_1) (View.ld x0 r0_2) (View.ld x3 r0_0)⟩]

/-- The one store is of the whole block, so it covers the buffer. -/
theorem cover0_4 (p0 : Vec F S4000x64 .f32) (y : S4000x64.Idx) :
    ∃ pc ∈ ([⟨r0_2, p0⟩] : List (View.Piece (Elt F) S4000x64 .f32)), y ∈ pc.1.set :=
  View.cover_of_tiled [⟨r0_2, p0⟩] S4000x64.size (by rfl) y

/-! ## The body's triple -/

set_option maxHeartbeats 4000000 in
/-- The kernel body on whole staging memrefs, the inputs' at read contents x0..x3 and the output's at anything, runs to
    the continuation holding the inputs' as they were and the output's at out0_4 of the inputs'. -/
theorem sound_kernel0 (c : Dev nD) (E : Set ℕ) (i : grid0.Coords)
    (arg1 : Memref sig .tc .vmem S4000x64 .f32) (harg1 : arg1.IsWhole) (arg2 : Memref sig .tc .vmem S4000x1 .i32) (harg2 : arg2.IsWhole)
    (arg3 : Memref sig .tc .vmem S10x64 .f32) (harg3 : arg3.IsWhole) (arg4 : Memref sig .tc .vmem S4000x1 .f32) (harg4 : arg4.IsWhole)
    (arg5 : Memref sig .tc .vmem S4000x64 .f32) (harg5 : arg5.IsWhole)
    (x0 : Vec F S4000x64 .f32) (x1 : Vec F S4000x1 .i32) (x2 : Vec F S10x64 .f32) (x3 : Vec F S4000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__edge_scale_body i arg1 harg1 arg2 harg2 arg3 harg3 arg4 harg4 arg5 harg5) K := by
  simp only [cc0__edge_scale_body_eq_skeleton]; unfold cc0__edge_scale_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core c: the arrays as the region finds them; after the body at point t each
    input's buffer at its block and the output's at out0_4 of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's owed amounts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.Body1.lean ====
import proofs.«416106_j13048110645352_1_alg».proof.Proof.Gen.KernelIdeal.Launch
import proofs.«416106_j13048110645352_1_alg».proof.Proof.Gen.KernelIdeal.Skeleton
import proofs.«416106_j13048110645352_1_alg».proof.Proof.Gen.KernelIdeal.Points
import Idealize.ShloMosaic.Lib.Pipeline.FrameBody
import Idealize.ShloMosaic.Lib.Ring
import Idealize.ShloMosaic.Lib.Tactic

-- membership in a rectangle of 4000 rows: the structural check recurses once per coordinate of the long axis
set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! # Region 1: the row-scaling body `x * s` on blocks of 4000 rows, at the entry contents `V` -/

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    `V`'s and whose body leaves the block in place: the window is fetched whole at every point and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S4000x64 := Rect.unit (s := S4000x64) ![0, 0] S4000x64.size inb_S4000x64_S4000x64_0_0
abbrev r1_1 : Rect S4000x1 := Rect.unit (s := S4000x1) ![0, 0] S4000x1.size inb_S4000x1_S4000x1_0_0

/-! ## What the body leaves in the output window's buffer -/

/-- The output buffer after the body, from the two input blocks: its one whole-block store of the
    product of the rows `x0` by the per-row scalars `x1`. -/
def out1_2 (x0 : Vec F S4000x64 .f32) (x1 : Vec F S4000x1 .f32) : Vec F S4000x64 .f32 :=
  View.canon [⟨r1_0, k1_pay1 (View.ld x0 r1_0) (View.ld x1 r1_1)⟩]

/-- The one store is the whole buffer, so it covers it. -/
theorem cover1_2 (p0 : Vec F S4000x64 .f32) (y : S4000x64.Idx) :
    ∃ pc ∈ ([⟨r1_0, p0⟩] : List (View.Piece (Elt F) S4000x64 .f32)), y ∈ pc.1.set :=
  View.cover_of_tiled [⟨r1_0, p0⟩] S4000x64.size (by rfl) y

/-! ## The body's triple -/

set_option maxHeartbeats 1000000 in
/-- The body on whole staging memrefs, the inputs' at contents `x0`, `x1` and the output's at anything, runs to the
    continuation holding the inputs' unchanged and the output's at `out1_2 x0 x1`. -/
theorem sound_kernel1 (c : Dev nD) (E : Set ℕ) (i : grid1.Coords)
    (arg1 : Memref sig .tc .vmem S4000x64 .f32) (harg1 : arg1.IsWhole) (arg2 : Memref sig .tc .vmem S4000x1 .f32) (harg2 : arg2.IsWhole)
    (arg3 : Memref sig .tc .vmem S4000x64 .f32) (harg3 : arg3.IsWhole)
    (x0 : Vec F S4000x64 .f32) (x1 : Vec F S4000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__scale_body i arg1 harg1 arg2 harg2 arg3 harg3) K := by
  simp only [cc1__scale_body_eq_skeleton]; unfold cc1__scale_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays as the region finds them; after the body at point `t`
    each input's buffer at its block and the output's at `out1_2` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI.Body2.lean ====
/- Region 2 of @main (custom_call 2, the user-update body over pipeline 2) at a parameter: the buffer contents the
   region is entered with. Each window's block at a point, what the body leaves in the two output windows' staging
   buffers as a function of the input blocks, the body's triple, the pipeline's proof data and the body obligation. -/
import proofs.«416106_j13048110645352_1_alg».proof.Proof.Gen.KernelIdeal.Launch
import proofs.«416106_j13048110645352_1_alg».proof.Proof.Gen.KernelIdeal.Skeleton
import proofs.«416106_j13048110645352_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open scoped Idealize.SL.RA.PCS
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is the entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is the entry contents and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is through the whole block -/

abbrev r2_0 : Rect S2000x64 := Rect.unit (s := S2000x64) ![0, 0] S2000x64.size inb_S2000x64_S2000x64_0_0
abbrev r2_1 : Rect S64x4 := Rect.unit (s := S64x4) ![0, 0] S64x4.size inb_S64x4_S64x4_0_0
abbrev r2_2 : Rect S4x64 := Rect.unit (s := S4x64) ![0, 0] S4x64.size inb_S4x64_S4x64_0_0

/-! ## What the body leaves in each output window's buffer -/

/-- Window 5 (the normalized rows): one whole-block store of the first payload, a function of the blocks of
    windows 0 (rows), 2 and 3 (the two small matrices) and 1 (the aggregate). -/
def out2_5 (x0 : Vec F S2000x64 .f32) (x1 : Vec F S2000x64 .f32) (x2 : Vec F S64x4 .f32) (x3 : Vec F S4x64 .f32) : Vec F S2000x64 .f32 :=
  View.canon [⟨r2_0, k2_pay1 (View.ld x0 r2_0) (View.ld x2 r2_1) (View.ld x3 r2_2) (View.ld x1 r2_0)⟩]

/-- Window 6 (the residual sum): one whole-block store of the second payload, which adds window 4's block. -/
def out2_6 (x0 : Vec F S2000x64 .f32) (x1 : Vec F S2000x64 .f32) (x2 : Vec F S64x4 .f32) (x3 : Vec F S4x64 .f32) (x4 : Vec F S2000x64 .f32) : Vec F S2000x64 .f32 :=
  View.canon [⟨r2_0, k2_pay2 (View.ld x0 r2_0) (View.ld x2 r2_1) (View.ld x3 r2_2) (View.ld x1 r2_0) (View.ld x4 r2_0)⟩]

/-- A single whole-block store covers the buffer. -/
theorem cover2_5 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-! ## The body's triple -/

set_option maxHeartbeats 4000000 in
/-- The body on whole staging memrefs, the five inputs' at read contents and the two outputs' at anything, runs to
    the continuation holding the inputs' as they were and the outputs' at the two closed forms above: the printed
    functions are their skeletons, run step by step, through the part call. -/
theorem sound_kernel2 (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S64x4 .f32) (harg3 : arg3.IsWhole) (arg4 : Memref sig .tc .vmem S4x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole)
    (x0 : Vec F S2000x64 .f32) (x1 : Vec F S2000x64 .f32) (x2 : Vec F S64x4 .f32) (x3 : Vec F S4x64 .f32) (x4 : Vec F S2000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3) ∗ owns (c : Thread nD τ) arg7 fullShare (out2_6 x0 x1 x2 x3 x4)) -∗ K ⟨⟩))
      ⊢ wp frame (wpE (defs₀ (F := F)) Variants.none c none) E (cc2__user_update_body i arg1 harg1 arg2 harg2 arg3 harg3 arg4 harg4 arg5 harg5 arg6 harg6 arg7 harg7) K := by
  simp only [cc2__user_update_body_eq_skeleton]; unfold cc2__user_update_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover2_5 _)
  iexists _; isplitr
  swap; · iexact H6
  ipureintro
  try dsimp only
  exact View.read_writes_eq_canon _ _ _ (cover2_5 _)

/-! ## The shares of the array that windows 0 and 4 both read -/
-- BEGIN shared-array shares
/-- The array read through windows 0 and 4 is held in two halves, one per window; every other input is held whole. -/
def q2 : Fin cfg2.W → PosShare TreeShare := fun w =>
  match w with
  | ⟨0, _⟩ => fullShare.left
  | ⟨1, _⟩ => fullShare
  | ⟨2, _⟩ => fullShare
  | ⟨3, _⟩ => fullShare
  | ⟨4, _⟩ => fullShare.right
  | ⟨5, _⟩ => fullShare
  | ⟨6, _⟩ => fullShare

/-- The two halves make the whole. -/
theorem q2_halves : fullShare ∈ q2 0 ·? q2 4 := PosShare.mem_left_op_right fullShare
-- END shared-array shares

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t)
    | ⟨6, _⟩ => out2_6 (iblk2 V c 0 t) (iblk2 V c 1 t) (iblk2 V c 2 t) (iblk2 V c 3 t) (iblk2 V c 4 t)
  Φ _ := Pipeline.ΦA spec2 c
  q := q2
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]

-- BEGIN shared-array entry and exit
/-- The share the pipeline holds each window's array at is the one named above (an output's is whole). -/
theorem share_eq2 (c : Dev nD) (w : Fin cfg2.W) : (dat2 V c).share w = q2 w := by
  unfold Dat.share
  fin_cases w <;> rfl

/-- The pipeline's arrays at contents read off a valuation of the buffers, window by window. -/
theorem arrays_eq2 (c : Dev nD) (V₀ : (b : Ref sig .tc) → Buf (Elt F) ((c : Thread nD τ).loc b))
    (G : (w : Fin cfg2.W) → Buf (Elt F) ((cfg2.win w).arr.view.loc (c : Thread nD τ))) (hG : ∀ w, G w = V₀ (Pipeline.arrRef spec2 w)) :
    (dat2 V c).arrays G = (iprop(((c : Thread nD τ).loc (Pipeline.arrRef spec2 0) ↦{q2 0} V₀ (Pipeline.arrRef spec2 0))
        ∗ ((c : Thread nD τ).loc (Pipeline.arrRef spec2 1) ↦{q2 1} V₀ (Pipeline.arrRef spec2 1))
        ∗ ((c : Thread nD τ).loc (Pipeline.arrRef spec2 2) ↦{q2 2} V₀ (Pipeline.arrRef spec2 2))
        ∗ ((c : Thread nD τ).loc (Pipeline.arrRef spec2 3) ↦{q2 3} V₀ (Pipeline.arrRef spec2 3))
        ∗ ((c : Thread nD τ).loc (Pipeline.arrRef spec2 4) ↦{q2 4} V₀ (Pipeline.arrRef spec2 4))
        ∗ ((c : Thread nD τ).loc (Pipeline.arrRef spec2 5) ↦{q2 5} V₀ (Pipeline.arrRef spec2 5))
        ∗ ((c : Thread nD τ).loc (Pipeline.arrRef spec2 6) ↦{q2 6} V₀ (Pipeline.arrRef spec2 6))) : sProp 𝕄) := by
  unfold Dat.arrays
  rw [bigSep_W2]
  simp only [hG, share_eq2, View.set_whole]

/-- The distinct buffers behind the windows, each whole at one valuation, as the same seven conjuncts: the array
    behind windows 0 and 4 is split in its two halves. -/
theorem arrBufs_eq2 (c : Dev nD) (V₀ : (b : Ref sig .tc) → Buf (Elt F) ((c : Thread nD τ).loc b)) :
    (Pipeline.arrBufs spec2 c V₀ : sProp 𝕄) ⊣⊢ iprop(((c : Thread nD τ).loc (Pipeline.arrRef spec2 0) ↦{q2 0} V₀ (Pipeline.arrRef spec2 0))
        ∗ ((c : Thread nD τ).loc (Pipeline.arrRef spec2 1) ↦{q2 1} V₀ (Pipeline.arrRef spec2 1))
        ∗ ((c : Thread nD τ).loc (Pipeline.arrRef spec2 2) ↦{q2 2} V₀ (Pipeline.arrRef spec2 2))
        ∗ ((c : Thread nD τ).loc (Pipeline.arrRef spec2 3) ↦{q2 3} V₀ (Pipeline.arrRef spec2 3))
        ∗ ((c : Thread nD τ).loc (Pipeline.arrRef spec2 4) ↦{q2 4} V₀ (Pipeline.arrRef spec2 4))
        ∗ ((c : Thread nD τ).loc (Pipeline.arrRef spec2 5) ↦{q2 5} V₀ (Pipeline.arrRef spec2 5))
        ∗ ((c : Thread nD τ).loc (Pipeline.arrRef spec2 6) ↦{q2 6} V₀ (Pipeline.arrRef spec2 6))) := by
  have hL : ∀ Φ : Ref sig .tc → sProp 𝕄, bigSep (Finset.univ.image (Pipeline.arrRef spec2)) Φ
      = iprop(Φ (Pipeline.arrRef spec2 0) ∗ Φ (Pipeline.arrRef spec2 1) ∗ Φ (Pipeline.arrRef spec2 2) ∗ Φ (Pipeline.arrRef spec2 3)
          ∗ Φ (Pipeline.arrRef spec2 5) ∗ Φ (Pipeline.arrRef spec2 6)) :=
    fun Φ => bigSep_eq_bigSepL_of_eq [Pipeline.arrRef spec2 0, Pipeline.arrRef spec2 1, Pipeline.arrRef spec2 2, Pipeline.arrRef spec2 3,
      Pipeline.arrRef spec2 5, Pipeline.arrRef spec2 6] (by decide) (by decide) Φ
  have h1 : q2 1 = fullShare := rfl
  have h2 : q2 2 = fullShare := rfl
  have h3 : q2 3 = fullShare := rfl
  have h5 : q2 5 = fullShare := rfl
  have h6 : q2 6 = fullShare := rfl
  have h4 : Pipeline.arrRef spec2 4 = Pipeline.arrRef spec2 0 := rfl
  unfold Pipeline.arrBufs
  rw [hL, h1, h2, h3, h5, h6, h4]
  constructor
  · iintro ⟨H0, H1, H2, H3, H5, H6⟩
    ihave H04 := (pointsTo_share q2_halves).1 $$ H0
    icases H04 with ⟨H0, H4⟩
    isplitl [H0]; · iexact H0
    isplitl [H1]; · iexact H1
    isplitl [H2]; · iexact H2
    isplitl [H3]; · iexact H3
    isplitl [H4]; · iexact H4
    isplitl [H5]; · iexact H5
    iexact H6
  · iintro ⟨H0, H1, H2, H3, H4, H5, H6⟩
    ihave H04 := (pointsTo_share q2_halves).2 $$ [H0 H4]
    · isplitl [H0]; · iexact H0
      iexact H4
    isplitl [H04]; · iexact H04
    isplitl [H1]; · iexact H1
    isplitl [H2]; · iexact H2
    isplitl [H3]; · iexact H3
    isplitl [H5]; · iexact H5
    iexact H6

/-- ENTRY: the distinct buffers behind the windows, whole at the entry contents, are the pipeline's arrays at the
    first point (windows 0 and 4 each take half of the array they share). -/
theorem arrays_of_arrBufs2 (c : Dev nD) :
    (Pipeline.arrBufs spec2 c (V c) : sProp 𝕄) ⊢ (dat2 V c).arrays ((dat2 V c).arrAt · 0) := by
  rw [arrays_eq2 V c (V c) (fun w => (dat2 V c).arrAt w 0) (fun w => A_eq2 V c w)]
  exact (arrBufs_eq2 c (V c)).1

/-- EXIT: the arrays at what the write-backs leave are those buffers whole at any contents that has each array there. -/
theorem arrBufs_of_arrays2 (c : Dev nD) (V' : (b : Ref sig .tc) → Buf (Elt F) ((c : Thread nD τ).loc b))
    (hF : ∀ w, (dat2 V c).arrAt w cfg2.N = V' (Pipeline.arrRef spec2 w)) :
    (dat2 V c).arrays ((dat2 V c).arrAt · cfg2.N) ⊢ (Pipeline.arrBufs spec2 c V' : sProp 𝕄) := by
  rw [arrays_eq2 V c V' (fun w => (dat2 V c).arrAt w cfg2.N) hF]
  exact (arrBufs_eq2 c V').2
-- END shared-array entry and exit

/-! ## The body obligation -/

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Frm

end
-- ==== Proof.KI.Body3.lean ====
/- Region 3 of @main (custom_call 3, the entity update: row-wise L2 normalisation of the aggregate and the
   residual's accumulation), at a parameter V — the TensorCore's buffer contents when the region is entered:
   each window's block at a point, what the body leaves in the two output buffers as a function of the two
   input blocks, the body's triple, the pipeline's proof data and the body obligation. -/
import proofs.«416106_j13048110645352_1_alg».proof.Proof.Gen.KernelIdeal.Launch
import proofs.«416106_j13048110645352_1_alg».proof.Proof.Gen.KernelIdeal.Skeleton
import proofs.«416106_j13048110645352_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The one rectangle the body touches: the whole 4000 x 64 block. -/
abbrev r3_0 : Rect S4000x64 := Rect.unit (s := S4000x64) ![0, 0] S4000x64.size inb_S4000x64_S4000x64_0_0

/-! ## What the body leaves in each output window's buffer -/

/-- Window 2's buffer after the body: the normalised aggregate, stored whole. -/
def out3_2 (x0 : Vec F S4000x64 .f32) : Vec F S4000x64 .f32 :=
  View.canon [⟨r3_0, k3_pay1 (View.ld x0 r3_0)⟩]

/-- Window 3's buffer after the body: the residual plus the normalised aggregate, stored whole. -/
def out3_3 (x0 : Vec F S4000x64 .f32) (x1 : Vec F S4000x64 .f32) : Vec F S4000x64 .f32 :=
  View.canon [⟨r3_0, k3_pay2 (View.ld x0 r3_0) (View.ld x1 r3_0)⟩]

/-- One whole-block store tiles the buffer, so it covers it. -/
theorem cover3_2 (p0 : Vec F S4000x64 .f32) (y : S4000x64.Idx) :
    ∃ pc ∈ ([⟨r3_0, p0⟩] : List (View.Piece (Elt F) S4000x64 .f32)), y ∈ pc.1.set :=
  View.cover_of_tiled [⟨r3_0, p0⟩] S4000x64.size (by rfl) y

/-! ## The body's triple -/

set_option maxHeartbeats 1000000 in
/-- The body on whole staging memrefs, the inputs' at read contents x0, x1 and the outputs' at anything, runs to the
    continuation holding the inputs' as they were and each output's at its function of the inputs. -/
theorem sound_kernel3 (c : Dev nD) (E : Set ℕ) (i : grid3.Coords)
    (arg1 : Memref sig .tc .vmem S4000x64 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S4000x64 .f32) (harg4 : arg4.IsWhole)
    (x0 : Vec F S4000x64 .f32) (x1 : Vec F S4000x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out3_2 x0) ∗ owns (c : Thread nD τ) arg4 fullShare (out3_3 x0 x1)) -∗ K ⟨⟩))
      ⊢ wp frame (wpE (defs₀ (F := F)) Variants.none c none) E (cc3__entity_update_body i arg1 harg1 arg2 harg2 arg3 harg3 arg4 harg4) K := by
  simp only [cc3__entity_update_body_eq_skeleton]; unfold cc3__entity_update_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover3_2 _)
  iexists _; isplitr
  swap; · iexact H3
  ipureintro
  exact View.read_writes_eq_canon _ _ _ (cover3_2 _)

/-! ## The pipeline's proof data -/

/-- The proof data of pipeline 3 on core c: the arrays as the region finds them; after the body at point t each
    input's buffer at its block and each output's at its function of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t)
    | ⟨3, _⟩ => out3_3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) := by dsimp only [dat3]
theorem after3_3 (c : Dev nD) (t : Fin cfg3.N) : (dat3 V c).after 3 t = out3_3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Region3

end Cert.KernelIdeal.Frm
-- ==== Proof.KI.Body4.lean ====
/- Region 4 of @main (custom_call 4, the edge-scale body at the second hop, pipeline 4) at the contents V the TensorCore's buffers
   have when the region is entered: each window's block at a grid point, what the body leaves in the output
   window's buffer as a function of the input blocks, the body's triple on whole staging memrefs, the pipeline's
   proof data, and the body obligation at every grid point. -/
import proofs.«416106_j13048110645352_1_alg».proof.Proof.Gen.KernelIdeal.Launch
import proofs.«416106_j13048110645352_1_alg».proof.Proof.Gen.KernelIdeal.Skeleton
import proofs.«416106_j13048110645352_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axis
set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether the pipeline fetched it there
    or not (an unfetched window's block index has not moved), for any proof data whose array is V's and whose body
    leaves the block in place. One statement per input window: 0, 1, 2 (the weight table, one block for all points), 3. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 4000x1 column (the relation ids, and the per-edge scale). -/
abbrev r4_0 : Rect S4000x1 := Rect.unit (s := S4000x1) ![0, 0] S4000x1.size inb_S4000x1_S4000x1_0_0
/-- The whole 10x64 weight table. -/
abbrev r4_1 : Rect S10x64 := Rect.unit (s := S10x64) ![0, 0] S10x64.size inb_S10x64_S10x64_0_0
/-- The whole 4000x64 block (the tail rows read, the result stored). -/
abbrev r4_2 : Rect S4000x64 := Rect.unit (s := S4000x64) ![0, 0] S4000x64.size inb_S4000x64_S4000x64_0_0

/-! ## What the body leaves in the output window's buffer -/

/-- Window 4's staging buffer after the body, from the input windows' blocks: its one store, of the whole block,
    whose payload is tail * (onehot(relation) @ weight) * scale over the four loads. -/
def out4_4 (x0 : Vec F S4000x64 .f32) (x1 : Vec F S4000x1 .i32) (x2 : Vec F S10x64 .f32) (x3 : Vec F S4000x1 .f32) : Vec F S4000x64 .f32 :=
  View.canon [⟨r4_2, k4_pay1 (View.ld x1 r4_0) (View.ld x2 r4_1) (View.ld x0 r4_2) (View.ld x3 r4_0)⟩]

/-- The one store is of the whole block, so it covers the buffer. -/
theorem cover4_4 (p0 : Vec F S4000x64 .f32) (y : S4000x64.Idx) :
    ∃ pc ∈ ([⟨r4_2, p0⟩] : List (View.Piece (Elt F) S4000x64 .f32)), y ∈ pc.1.set :=
  View.cover_of_tiled [⟨r4_2, p0⟩] S4000x64.size (by rfl) y

/-! ## The body's triple -/

set_option maxHeartbeats 4000000 in
/-- The kernel body on whole staging memrefs, the inputs' at read contents x0..x3 and the output's at anything, runs to
    the continuation holding the inputs' as they were and the output's at out4_4 of the inputs'. -/
theorem sound_kernel4 (c : Dev nD) (E : Set ℕ) (i : grid4.Coords)
    (arg1 : Memref sig .tc .vmem S4000x64 .f32) (harg1 : arg1.IsWhole) (arg2 : Memref sig .tc .vmem S4000x1 .i32) (harg2 : arg2.IsWhole)
    (arg3 : Memref sig .tc .vmem S10x64 .f32) (harg3 : arg3.IsWhole) (arg4 : Memref sig .tc .vmem S4000x1 .f32) (harg4 : arg4.IsWhole)
    (arg5 : Memref sig .tc .vmem S4000x64 .f32) (harg5 : arg5.IsWhole)
    (x0 : Vec F S4000x64 .f32) (x1 : Vec F S4000x1 .i32) (x2 : Vec F S10x64 .f32) (x3 : Vec F S4000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__edge_scale_body i arg1 harg1 arg2 harg2 arg3 harg3 arg4 harg4 arg5 harg5) K := by
  simp only [cc4__edge_scale_body_eq_skeleton]; unfold cc4__edge_scale_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of pipeline 4 on core c: the arrays as the region finds them; after the body at point t each
    input's buffer at its block and the output's at out4_4 of the input blocks; the scoped rest and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so the body's triple applies; the invariant and
    the core's owed amounts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frm

end
-- ==== Proof.KI.Body5.lean ====
import proofs.«416106_j13048110645352_1_alg».proof.Proof.Gen.KernelIdeal.Launch
import proofs.«416106_j13048110645352_1_alg».proof.Proof.Gen.KernelIdeal.Skeleton
import proofs.«416106_j13048110645352_1_alg».proof.Proof.Gen.KernelIdeal.Points
import Idealize.ShloMosaic.Lib.Pipeline.FrameBody
import Idealize.ShloMosaic.Lib.Ring
import Idealize.ShloMosaic.Lib.Tactic

-- membership in a rectangle of 4000 rows: the structural check recurses once per coordinate of the long axis
set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! # Region 5: the row-scaling body `x * s` on blocks of 4000 rows, at the entry contents `V` -/

/-! ## The windows' blocks -/

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, for any proof data whose array is
    `V`'s and whose body leaves the block in place: the window is fetched whole at every point and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_0 : Rect S4000x64 := Rect.unit (s := S4000x64) ![0, 0] S4000x64.size inb_S4000x64_S4000x64_0_0
abbrev r5_1 : Rect S4000x1 := Rect.unit (s := S4000x1) ![0, 0] S4000x1.size inb_S4000x1_S4000x1_0_0

/-! ## What the body leaves in the output window's buffer -/

/-- The output buffer after the body, from the two input blocks: its one whole-block store of the
    product of the rows `x0` by the per-row scalars `x1`. -/
def out5_2 (x0 : Vec F S4000x64 .f32) (x1 : Vec F S4000x1 .f32) : Vec F S4000x64 .f32 :=
  View.canon [⟨r5_0, k5_pay1 (View.ld x0 r5_0) (View.ld x1 r5_1)⟩]

/-- The one store is the whole buffer, so it covers it. -/
theorem cover5_2 (p0 : Vec F S4000x64 .f32) (y : S4000x64.Idx) :
    ∃ pc ∈ ([⟨r5_0, p0⟩] : List (View.Piece (Elt F) S4000x64 .f32)), y ∈ pc.1.set :=
  View.cover_of_tiled [⟨r5_0, p0⟩] S4000x64.size (by rfl) y

/-! ## The body's triple -/

set_option maxHeartbeats 1000000 in
/-- The body on whole staging memrefs, the inputs' at contents `x0`, `x1` and the output's at anything, runs to the
    continuation holding the inputs' unchanged and the output's at `out5_2 x0 x1`. -/
theorem sound_kernel5 (c : Dev nD) (E : Set ℕ) (i : grid5.Coords)
    (arg1 : Memref sig .tc .vmem S4000x64 .f32) (harg1 : arg1.IsWhole) (arg2 : Memref sig .tc .vmem S4000x1 .f32) (harg2 : arg2.IsWhole)
    (arg3 : Memref sig .tc .vmem S4000x64 .f32) (harg3 : arg3.IsWhole)
    (x0 : Vec F S4000x64 .f32) (x1 : Vec F S4000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__scale_body i arg1 harg1 arg2 harg2 arg3 harg3) K := by
  simp only [cc5__scale_body_eq_skeleton]; unfold cc5__scale_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of this pipeline on core `c`: the arrays as the region finds them; after the body at point `t`
    each input's buffer at its block and the output's at `out5_2` of the input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Frm

end
-- ==== Proof.KI.Body6.lean ====
/- Region 6 of @main (custom_call 6, the user-update body over pipeline 6) at a parameter: the buffer contents the
   region is entered with. Each window's block at a point, what the body leaves in the two output windows' staging
   buffers as a function of the input blocks, the body's triple, the pipeline's proof data and the body obligation. -/
import proofs.«416106_j13048110645352_1_alg».proof.Proof.Gen.KernelIdeal.Launch
import proofs.«416106_j13048110645352_1_alg».proof.Proof.Gen.KernelIdeal.Skeleton
import proofs.«416106_j13048110645352_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open scoped Idealize.SL.RA.PCS
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is the entry contents and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is the entry contents and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is the entry contents and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is the entry contents and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is the entry contents and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and store is through the whole block -/

abbrev r6_0 : Rect S2000x64 := Rect.unit (s := S2000x64) ![0, 0] S2000x64.size inb_S2000x64_S2000x64_0_0
abbrev r6_1 : Rect S64x4 := Rect.unit (s := S64x4) ![0, 0] S64x4.size inb_S64x4_S64x4_0_0
abbrev r6_2 : Rect S4x64 := Rect.unit (s := S4x64) ![0, 0] S4x64.size inb_S4x64_S4x64_0_0

/-! ## What the body leaves in each output window's buffer -/

/-- Window 5 (the normalized rows): one whole-block store of the first payload, a function of the blocks of
    windows 0 (rows), 2 and 3 (the two small matrices) and 1 (the aggregate). -/
def out6_5 (x0 : Vec F S2000x64 .f32) (x1 : Vec F S2000x64 .f32) (x2 : Vec F S64x4 .f32) (x3 : Vec F S4x64 .f32) : Vec F S2000x64 .f32 :=
  View.canon [⟨r6_0, k6_pay1 (View.ld x0 r6_0) (View.ld x2 r6_1) (View.ld x3 r6_2) (View.ld x1 r6_0)⟩]

/-- Window 6 (the residual sum): one whole-block store of the second payload, which adds window 4's block. -/
def out6_6 (x0 : Vec F S2000x64 .f32) (x1 : Vec F S2000x64 .f32) (x2 : Vec F S64x4 .f32) (x3 : Vec F S4x64 .f32) (x4 : Vec F S2000x64 .f32) : Vec F S2000x64 .f32 :=
  View.canon [⟨r6_0, k6_pay2 (View.ld x0 r6_0) (View.ld x2 r6_1) (View.ld x3 r6_2) (View.ld x1 r6_0) (View.ld x4 r6_0)⟩]

/-- A single whole-block store covers the buffer. -/
theorem cover6_5 (p0 : Vec F S2000x64 .f32) (y : S2000x64.Idx) :
    ∃ pc ∈ ([⟨r6_0, p0⟩] : List (View.Piece (Elt F) S2000x64 .f32)), y ∈ pc.1.set :=
  View.cover_of_tiled [⟨r6_0, p0⟩] S2000x64.size (by rfl) y

/-! ## The body's triple -/

set_option maxHeartbeats 4000000 in
/-- The body on whole staging memrefs, the five inputs' at read contents and the two outputs' at anything, runs to
    the continuation holding the inputs' as they were and the outputs' at the two closed forms above: the printed
    functions are their skeletons, run step by step, through the part call. -/
theorem sound_kernel6 (c : Dev nD) (E : Set ℕ) (i : grid6.Coords) (arg1 : Memref sig .tc .vmem S2000x64 .f32) (harg1 : arg1.IsWhole) (arg2 : Memref sig .tc .vmem S2000x64 .f32) (harg2 : arg2.IsWhole) (arg3 : Memref sig .tc .vmem S64x4 .f32) (harg3 : arg3.IsWhole) (arg4 : Memref sig .tc .vmem S4x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole)
    (x0 : Vec F S2000x64 .f32) (x1 : Vec F S2000x64 .f32) (x2 : Vec F S64x4 .f32) (x3 : Vec F S4x64 .f32) (x4 : Vec F S2000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3) ∗ owns (c : Thread nD τ) arg7 fullShare (out6_6 x0 x1 x2 x3 x4)) -∗ K ⟨⟩))
      ⊢ wp frame (wpE (defs₀ (F := F)) Variants.none c none) E (cc6__user_update_body i arg1 harg1 arg2 harg2 arg3 harg3 arg4 harg4 arg5 harg5 arg6 harg6 arg7 harg7) K := by
  simp only [cc6__user_update_body_eq_skeleton]; unfold cc6__user_update_body_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover6_5 _)
  iexists _; isplitr
  swap; · iexact H6
  ipureintro
  try dsimp only
  exact View.read_writes_eq_canon _ _ _ (cover6_5 _)

/-! ## The shares of the array that windows 0 and 4 both read -/

/-! ## The pipeline's proof data -/

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t)
    | ⟨6, _⟩ => out6_6 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) := by dsimp only [dat6]

/-! ## The body obligation -/

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' memrefs hold their blocks, so the triple applies; the invariant and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Region6

end Cert.KernelIdeal.Frm

end
-- ==== Proof.KI.Body7.lean ====
/- Region 7 of @main (custom_call 7, the entity update: row-wise L2 normalisation of the aggregate and the
   residual's accumulation), at a parameter V — the TensorCore's buffer contents when the region is entered:
   each window's block at a point, what the body leaves in the two output buffers as a function of the two
   input blocks, the body's triple, the pipeline's proof data and the body obligation. -/
import proofs.«416106_j13048110645352_1_alg».proof.Proof.Gen.KernelIdeal.Launch
import proofs.«416106_j13048110645352_1_alg».proof.Proof.Gen.KernelIdeal.Skeleton
import proofs.«416106_j13048110645352_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
variable (V : (c : Dev nD) → (b : Ref sig .tc) → Buf (Elt F) ((c : Thread nD τ).loc b))

/-! ## The windows' blocks -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, for any proof data whose array is
    V's and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The same for input window 1. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The one rectangle the body touches: the whole 4000 x 64 block. -/
abbrev r7_0 : Rect S4000x64 := Rect.unit (s := S4000x64) ![0, 0] S4000x64.size inb_S4000x64_S4000x64_0_0

/-! ## What the body leaves in each output window's buffer -/

/-- Window 2's buffer after the body: the normalised aggregate, stored whole. -/
def out7_2 (x0 : Vec F S4000x64 .f32) : Vec F S4000x64 .f32 :=
  View.canon [⟨r7_0, k7_pay1 (View.ld x0 r7_0)⟩]

/-- Window 3's buffer after the body: the residual plus the normalised aggregate, stored whole. -/
def out7_3 (x0 : Vec F S4000x64 .f32) (x1 : Vec F S4000x64 .f32) : Vec F S4000x64 .f32 :=
  View.canon [⟨r7_0, k7_pay2 (View.ld x0 r7_0) (View.ld x1 r7_0)⟩]

/-- One whole-block store tiles the buffer, so it covers it. -/
theorem cover7_2 (p0 : Vec F S4000x64 .f32) (y : S4000x64.Idx) :
    ∃ pc ∈ ([⟨r7_0, p0⟩] : List (View.Piece (Elt F) S4000x64 .f32)), y ∈ pc.1.set :=
  View.cover_of_tiled [⟨r7_0, p0⟩] S4000x64.size (by rfl) y

/-! ## The body's triple -/

set_option maxHeartbeats 1000000 in
/-- The body on whole staging memrefs, the inputs' at read contents x0, x1 and the outputs' at anything, runs to the
    continuation holding the inputs' as they were and each output's at its function of the inputs. -/
theorem sound_kernel7 (c : Dev nD) (E : Set ℕ) (i : grid7.Coords)
    (arg1 : Memref sig .tc .vmem S4000x64 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S4000x64 .f32) (harg4 : arg4.IsWhole)
    (x0 : Vec F S4000x64 .f32) (x1 : Vec F S4000x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out7_2 x0) ∗ owns (c : Thread nD τ) arg4 fullShare (out7_3 x0 x1)) -∗ K ⟨⟩))
      ⊢ wp frame (wpE (defs₀ (F := F)) Variants.none c none) E (cc7__entity_update_body i arg1 harg1 arg2 harg2 arg3 harg3 arg4 harg4) K := by
  simp only [cc7__entity_update_body_eq_skeleton]; unfold cc7__entity_update_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover7_2 _)
  iexists _; isplitr
  swap; · iexact H3
  ipureintro
  exact View.read_writes_eq_canon _ _ _ (cover7_2 _)

/-! ## The pipeline's proof data -/

/-- The proof data of pipeline 7 on core c: the arrays as the region finds them; after the body at point t each
    input's buffer at its block and each output's at its function of the input blocks; the invariant the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t)
    | ⟨3, _⟩ => out7_3 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) := by dsimp only [dat7]
theorem after7_3 (c : Dev nD) (t : Fin cfg7.N) : (dat7 V c).after 3 t = out7_3 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation7 (c : Dev nD) : BodyObligation (dat7 (F := F) V c) (defs₀ (F := F)) Variants.none () Set.univ := fun t => by
  rw [bigSep_W7, bigSep_W7]
  exact sound_body7 V c t

end Region7

end Cert.KernelIdeal.Frm
-- ==== Proof.KI.Run.Chain.lean ====
/- The buffer contents of the eight-region program at every boundary of @main's eighteen items (ten stretches of host
   operations, eight kernel regions): a fold from the launch memory, a stretch mapping the contents by its operations and
   a region putting each of its arrays at what its write-backs leave. Each item keeps every reference it does not write,
   so each argument array read at the end holds its launch contents. -/
import proofs.«416106_j13048110645352_1_alg».proof.Proof.KI.Body0
import proofs.«416106_j13048110645352_1_alg».proof.Proof.KI.Body1
import proofs.«416106_j13048110645352_1_alg».proof.Proof.KI.Body2
import proofs.«416106_j13048110645352_1_alg».proof.Proof.KI.Body3
import proofs.«416106_j13048110645352_1_alg».proof.Proof.KI.Body4
import proofs.«416106_j13048110645352_1_alg».proof.Proof.KI.Body5
import proofs.«416106_j13048110645352_1_alg».proof.Proof.KI.Body6
import proofs.«416106_j13048110645352_1_alg».proof.Proof.KI.Body7
import proofs.«416106_j13048110645352_1_alg».proof.Proof.Gen.KernelIdeal.Launch
import proofs.«416106_j13048110645352_1_alg».proof.Proof.Gen.KernelIdeal.Skeleton
import proofs.«416106_j13048110645352_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffer contents at every boundary of @main's eighteen items

## Two facts about a region's exit contents, for any proof data -/

section Generic
variable {cfg : Cfg sig Λ₀} {c : Dev nD}

/-- Contents read at one buffer are, moved along an equation of buffers, the contents read at the other. -/
theorem cast_valuation (Wv : Valuation τ sig (Elt F)) {x y : DevRef τ sig} (e : x = y) :
    cast (congrArg (fun b' : DevRef τ sig => b'.ty.Contents (Elt F)) e) (Wv x) = Wv y := by
  subst e; rfl

/-- A region's exit contents at a buffer that is none of its OUTPUT arrays are the entry contents: an input array
    is never written back (even one that several windows read), and a buffer that is no array bypasses the region. -/
theorem withArrays_exit_of_in (dat : Dat τ (Elt F) Unit ℕ (UR sig nD τ) ℕ cfg c) (Wv : Valuation τ sig (Elt F))
    (hA : ∀ w, dat.A w = Wv (Proc.devRef .tc (Pipeline.arrRef cfg.spec w))) (r : Ref sig .tc)
    (hin : ∀ w, Pipeline.arrRef cfg.spec w = r → (cfg.win w).isOut = false) :
    Pipeline.withArrays cfg.spec c Wv (fun w => dat.arrAt w cfg.N) (Proc.devRef .tc r) = Wv (Proc.devRef .tc r) := by
  unfold Pipeline.withArrays
  split
  · next h =>
    have e := h.choose_spec
    have hw := hin h.choose (Proc.devRef_injective _ e)
    beta_reduce
    rw [dat.arrAt_in h.choose hw, hA]
    exact cast_valuation Wv e
  · rfl

/-- A region's exit contents at an array only ONE window names are what that window's write-backs leave. -/
theorem withArrays_arr_of_unique (Wv : Valuation τ sig (Elt F))
    (A : (w : Fin cfg.W) → Buf (Elt F) ((cfg.spec w).arr.view.loc (c : Thread nD τ))) (w : Fin cfg.W)
    (huniq : ∀ w', Pipeline.arrRef cfg.spec w' = Pipeline.arrRef cfg.spec w → w' = w) :
    Pipeline.withArrays cfg.spec c Wv A (Proc.devRef .tc (Pipeline.arrRef cfg.spec w)) = A w := by
  unfold Pipeline.withArrays
  have h : ∃ w', Proc.devRef .tc (Pipeline.arrRef cfg.spec w') = Proc.devRef (τ := τ) .tc (Pipeline.arrRef cfg.spec w) := ⟨w, rfl⟩
  rw [dif_pos h]
  suffices ∀ (w' : Fin cfg.W) (e : Proc.devRef .tc (Pipeline.arrRef cfg.spec w') = Proc.devRef (τ := τ) .tc (Pipeline.arrRef cfg.spec w)),
      cast (congrArg (fun b' : DevRef τ sig => b'.ty.Contents (Elt F)) e) (A w') = A w from this _ h.choose_spec
  intro w' e
  obtain rfl : w' = w := huniq w' (Proc.devRef_injective _ e)
  rfl

end Generic

variable (m : (ℓ : Loc nD τ sig) → Buf (Elt F) ℓ) (ρ : Dev nD → PrngReg)

/-! ## What each stretch of host operations writes -/

/-- Every operation of a stretch writes one buffer, found in the stretch's list of written references. -/
local macro "writes_sub" : tactic => `(tactic| (
  simp only [List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)))

/-- The references the first stretch (the transpose) writes. -/
abbrev main_part0_ops0_W : List (Ref sig .tc) := [main_v0]
theorem main_part0_ops0_writes : (main_part0_ops0 : List (HloOp τ sig (Elt F))).Forall fun op => op.writes ⊆ (main_part0_ops0_W.map (Proc.devRef (τ := τ) .tc)).toFinset := by
  writes_sub
/-- The references the norm's five operations write. -/
abbrev main_part0_ops1_W : List (Ref sig .tc) := [main_call0_v0, main_call0_cst, main_call0_v1, main_call0_v2, main_v1]
theorem main_part0_ops1_writes : (main_part0_ops1 : List (HloOp τ sig (Elt F))).Forall fun op => op.writes ⊆ (main_part0_ops1_W.map (Proc.devRef (τ := τ) .tc)).toFinset := by
  writes_sub
/-- The references the 58 operations of the third stretch write. -/
abbrev main_part0_ops2_W : List (Ref sig .tc) := [main_v2, main_v3, main_v4, main_cst, main_v5, main_v6, main_cst_0, main_v7, main_cst_1, main_v8, main_v9, main_v10, main_cst_2, main_v11, main_v12, main_v13, main_v14, main_v15, main_cst_3, main_v16, main_v17, main_v18, main_v19, main_v20, main_v21, main_cst_4, main_v22, main_cst_5, main_v23, main_v24, main_v25, main_cst_6, main_v26, main_v27, main_cst_7, main_v28, main_v29, main_c, main_v30, main_v31, main_c_8, main_v32, main_v33, main_v34, main_v35, main_v36, main_v37, main_c_9, main_v38, main_v39, main_v40, main_v41, main_cst_10, main_v42, main_cst_11, main_v43, main_v44, main_v45]
set_option maxHeartbeats 4000000 in
theorem main_part0_ops2_writes : (main_part0_ops2 : List (HloOp τ sig (Elt F))).Forall fun op => op.writes ⊆ (main_part0_ops2_W.map (Proc.devRef (τ := τ) .tc)).toFinset := by
  writes_sub
/-- The references the stretch before region 0 writes. -/
abbrev main_part1_ops0_W : List (Ref sig .tc) := [main_v46, main_v47, main_v48, main_cst_12, main_v49, main_v50, main_v51, main_v52, main_v53, main_c_13, main_v54, main_v55, main_c_14, main_v56, main_v57, main_v58, main_v59, main_v60]
theorem main_part1_ops0_writes : (main_part1_ops0 : List (HloOp τ sig (Elt F))).Forall fun op => op.writes ⊆ (main_part1_ops0_W.map (Proc.devRef (τ := τ) .tc)).toFinset := by
  writes_sub
/-- The references the stretch between regions 0 and 1 writes. -/
abbrev main_part1_ops1_W : List (Ref sig .tc) := [main_cst_15, main_v62, main_v63, main_v64, main_c_16, main_v65, main_v66, main_c_17, main_v67, main_v68, main_v69, main_v70, main_v71, main_v72]
theorem main_part1_ops1_writes : (main_part1_ops1 : List (HloOp τ sig (Elt F))).Forall fun op => op.writes ⊆ (main_part1_ops1_W.map (Proc.devRef (τ := τ) .tc)).toFinset := by
  writes_sub
/-- The references the stretch between regions 1 and 2 writes. -/
abbrev main_part1_ops2_W : List (Ref sig .tc) := [main_cst_18, main_v74, main_v75, main_v76]
theorem main_part1_ops2_writes : (main_part1_ops2 : List (HloOp τ sig (Elt F))).Forall fun op => op.writes ⊆ (main_part1_ops2_W.map (Proc.devRef (τ := τ) .tc)).toFinset := by
  writes_sub
/-- The references the stretch between regions 3 and 4 writes. -/
abbrev main_part1_ops3_W : List (Ref sig .tc) := [main_c_19, main_v79, main_v80, main_c_20, main_v81, main_v82, main_v83, main_v84, main_v85]
theorem main_part1_ops3_writes : (main_part1_ops3 : List (HloOp τ sig (Elt F))).Forall fun op => op.writes ⊆ (main_part1_ops3_W.map (Proc.devRef (τ := τ) .tc)).toFinset := by
  writes_sub
/-- The references the first stretch after region 4 writes. -/
abbrev main_part1_ops4_W : List (Ref sig .tc) := [main_cst_21, main_v87, main_v88, main_v89, main_c_22, main_v90, main_v91, main_c_23, main_v92, main_v93]
theorem main_part1_ops4_writes : (main_part1_ops4 : List (HloOp τ sig (Elt F))).Forall fun op => op.writes ⊆ (main_part1_ops4_W.map (Proc.devRef (τ := τ) .tc)).toFinset := by
  writes_sub
/-- The references the second stretch after region 4 writes. -/
abbrev main_part2_ops0_W : List (Ref sig .tc) := [main_v94, main_v95, main_v96, main_v97]
theorem main_part2_ops0_writes : (main_part2_ops0 : List (HloOp τ sig (Elt F))).Forall fun op => op.writes ⊆ (main_part2_ops0_W.map (Proc.devRef (τ := τ) .tc)).toFinset := by
  writes_sub
/-- The references the stretch between regions 5 and 6 writes. -/
abbrev main_part2_ops1_W : List (Ref sig .tc) := [main_cst_24, main_v99, main_v100, main_v101]
theorem main_part2_ops1_writes : (main_part2_ops1 : List (HloOp τ sig (Elt F))).Forall fun op => op.writes ⊆ (main_part2_ops1_W.map (Proc.devRef (τ := τ) .tc)).toFinset := by
  writes_sub

/-! ## What each region writes: its output arrays; every other window of it is an input -/

abbrev reg0_W : List (Ref sig .tc) := [main_v61]
abbrev reg1_W : List (Ref sig .tc) := [main_v73]
abbrev reg2_W : List (Ref sig .tc) := [main_v77_0, main_v77_1]
abbrev reg3_W : List (Ref sig .tc) := [main_v78_0, main_v78_1]
abbrev reg4_W : List (Ref sig .tc) := [main_v86]
abbrev reg5_W : List (Ref sig .tc) := [main_v98]
abbrev reg6_W : List (Ref sig .tc) := [main_v102_0, main_v102_1]
abbrev reg7_W : List (Ref sig .tc) := [main_v103_0, main_v103_1]
theorem reg0_in : ∀ w : Fin cfg0.W, Pipeline.arrRef spec0 w ∉ reg0_W → (cfg0.win w).isOut = false := by decide
theorem reg1_in : ∀ w : Fin cfg1.W, Pipeline.arrRef spec1 w ∉ reg1_W → (cfg1.win w).isOut = false := by decide
theorem reg2_in : ∀ w : Fin cfg2.W, Pipeline.arrRef spec2 w ∉ reg2_W → (cfg2.win w).isOut = false := by decide
theorem reg3_in : ∀ w : Fin cfg3.W, Pipeline.arrRef spec3 w ∉ reg3_W → (cfg3.win w).isOut = false := by decide
theorem reg4_in : ∀ w : Fin cfg4.W, Pipeline.arrRef spec4 w ∉ reg4_W → (cfg4.win w).isOut = false := by decide
theorem reg5_in : ∀ w : Fin cfg5.W, Pipeline.arrRef spec5 w ∉ reg5_W → (cfg5.win w).isOut = false := by decide
theorem reg6_in : ∀ w : Fin cfg6.W, Pipeline.arrRef spec6 w ∉ reg6_W → (cfg6.win w).isOut = false := by decide
theorem reg7_in : ∀ w : Fin cfg7.W, Pipeline.arrRef spec7 w ∉ reg7_W → (cfg7.win w).isOut = false := by decide
/-- Region 2 reads one array through two windows (0 and 4); every OTHER array of it is named by one window only. -/
theorem reg2_unique : ∀ w : Fin cfg2.W, (cfg2.win w).isOut = false ∨ ∀ w', Pipeline.arrRef spec2 w' = Pipeline.arrRef spec2 w → w' = w := by decide

/-! ## The contents at each boundary: a fold through @main's eighteen items

`WJ m ρ c` is core `c`'s buffer contents after item `J` (`W0`: at launch); `VJ` is `WJ` read at the TensorCore's
references, which is what a region's proof data take. A stretch of host operations maps the contents by
`StableHlo.after`; a region puts each of its arrays at what the write-backs leave and keeps every other buffer. Each
item comes with `WJ_of`: a reference the item does not write keeps its contents. -/

/-- Core `c`'s buffers at launch. -/
abbrev W0 : Dev nD → Valuation τ sig (Elt F) := fun c b => (⟨m, fun _ => 0, ρ⟩ : MemSt nD τ sig (Elt F)).mem ((c : Dev nD), b)

/-- After item 1, the transpose `main_part0_ops0`. -/
abbrev W1 : Dev nD → Valuation τ sig (Elt F) := fun c => StableHlo.after main_part0_ops0 (W0 m ρ c)
theorem W1_of (c : Dev nD) (r : Ref sig .tc) (h : r ∉ main_part0_ops0_W) : W1 m ρ c (Proc.devRef .tc r) = W0 m ρ c (Proc.devRef .tc r) :=
  StableHlo.after_of_writes_sub main_part0_ops0 _ main_part0_ops0_writes h
/-- After item 2, the norm `main_part0_ops1`. -/
abbrev W2 : Dev nD → Valuation τ sig (Elt F) := fun c => StableHlo.after main_part0_ops1 (W1 m ρ c)
theorem W2_of (c : Dev nD) (r : Ref sig .tc) (h : r ∉ main_part0_ops1_W) : W2 m ρ c (Proc.devRef .tc r) = W1 m ρ c (Proc.devRef .tc r) :=
  StableHlo.after_of_writes_sub main_part0_ops1 _ main_part0_ops1_writes h
/-- After item 3, the 58 operations `main_part0_ops2`. -/
abbrev W3 : Dev nD → Valuation τ sig (Elt F) := fun c => StableHlo.after main_part0_ops2 (W2 m ρ c)
theorem W3_of (c : Dev nD) (r : Ref sig .tc) (h : r ∉ main_part0_ops2_W) : W3 m ρ c (Proc.devRef .tc r) = W2 m ρ c (Proc.devRef .tc r) :=
  StableHlo.after_of_writes_sub main_part0_ops2 _ main_part0_ops2_writes h
/-- After item 4, `main_part1_ops0`: region 0's entry. -/
abbrev W4 : Dev nD → Valuation τ sig (Elt F) := fun c => StableHlo.after main_part1_ops0 (W3 m ρ c)
theorem W4_of (c : Dev nD) (r : Ref sig .tc) (h : r ∉ main_part1_ops0_W) : W4 m ρ c (Proc.devRef .tc r) = W3 m ρ c (Proc.devRef .tc r) :=
  StableHlo.after_of_writes_sub main_part1_ops0 _ main_part1_ops0_writes h
/-- Region 0's entry contents at the TensorCore's references. -/
abbrev V4 : (c : Dev nD) → (b : Ref sig .tc) → Buf (Elt F) ((c : Thread nD τ).loc b) := fun c b => W4 m ρ c b

/-- After item 5, region 0: its arrays at what the pipeline leaves, every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
theorem W5_of (c : Dev nD) (r : Ref sig .tc) (h : r ∉ reg0_W) : W5 m ρ c (Proc.devRef .tc r) = W4 m ρ c (Proc.devRef .tc r) :=
  withArrays_exit_of_in (dat0 (V4 m ρ) c) (W4 m ρ c) (A_eq0 (V4 m ρ) c) r fun w e => reg0_in w (e ▸ h)
/-- Region 0's exit contents at the TensorCore's references. -/
abbrev V5 : (c : Dev nD) → (b : Ref sig .tc) → Buf (Elt F) ((c : Thread nD τ).loc b) := fun c b => W5 m ρ c b
/-- At region 0's exit each array holds what the pipeline leaves, every other buffer what it held at entry. -/
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- After item 6, `main_part1_ops1`: region 1's entry. -/
abbrev W6 : Dev nD → Valuation τ sig (Elt F) := fun c => StableHlo.after main_part1_ops1 (W5 m ρ c)
theorem W6_of (c : Dev nD) (r : Ref sig .tc) (h : r ∉ main_part1_ops1_W) : W6 m ρ c (Proc.devRef .tc r) = W5 m ρ c (Proc.devRef .tc r) :=
  StableHlo.after_of_writes_sub main_part1_ops1 _ main_part1_ops1_writes h
abbrev V6 : (c : Dev nD) → (b : Ref sig .tc) → Buf (Elt F) ((c : Thread nD τ).loc b) := fun c b => W6 m ρ c b

/-- After item 7, region 1. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
theorem W7_of (c : Dev nD) (r : Ref sig .tc) (h : r ∉ reg1_W) : W7 m ρ c (Proc.devRef .tc r) = W6 m ρ c (Proc.devRef .tc r) :=
  withArrays_exit_of_in (dat1 (V6 m ρ) c) (W6 m ρ c) (A_eq1 (V6 m ρ) c) r fun w e => reg1_in w (e ▸ h)
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After item 8, `main_part1_ops2`: region 2's entry. -/
abbrev W8 : Dev nD → Valuation τ sig (Elt F) := fun c => StableHlo.after main_part1_ops2 (W7 m ρ c)
theorem W8_of (c : Dev nD) (r : Ref sig .tc) (h : r ∉ main_part1_ops2_W) : W8 m ρ c (Proc.devRef .tc r) = W7 m ρ c (Proc.devRef .tc r) :=
  StableHlo.after_of_writes_sub main_part1_ops2 _ main_part1_ops2_writes h
abbrev V8 : (c : Dev nD) → (b : Ref sig .tc) → Buf (Elt F) ((c : Thread nD τ).loc b) := fun c b => W8 m ρ c b

/-- After item 9, region 2 (two of its windows read one array, which it does not write). -/
def W9 (c : Dev nD) : Valuation τ sig (Elt F) :=
  Pipeline.withArrays spec2 c (W8 m ρ c) fun w => (dat2 (V8 m ρ) c).arrAt w cfg2.N
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
theorem W9_of (c : Dev nD) (r : Ref sig .tc) (h : r ∉ reg2_W) : W9 m ρ c (Proc.devRef .tc r) = W8 m ρ c (Proc.devRef .tc r) :=
  withArrays_exit_of_in (dat2 (V8 m ρ) c) (W8 m ρ c) (A_eq2 (V8 m ρ) c) r fun w e => reg2_in w (e ▸ h)
/-- An input array (the shared one too) holds its entry contents, which is what the fold computes for an input; an
    output array is named by one window. -/
theorem W9_arr (c : Dev nD) (w : Fin cfg2.W) :
    W9 m ρ c (Proc.devRef .tc (Pipeline.arrRef spec2 w)) = (dat2 (V8 m ρ) c).arrAt w cfg2.N := by
  rcases reg2_unique w with hin | huniq
  · refine (withArrays_exit_of_in (dat2 (V8 m ρ) c) (W8 m ρ c) (A_eq2 (V8 m ρ) c) (Pipeline.arrRef spec2 w) fun w' e => ?_).trans
      (((dat2 (V8 m ρ) c).arrAt_in w hin _).trans (A_eq2 (V8 m ρ) c w)).symm
    revert e hin; revert w' w; decide
  · unfold W9; exact withArrays_arr_of_unique (cfg := cfg2) (W8 m ρ c) _ w huniq
abbrev V9 : (c : Dev nD) → (b : Ref sig .tc) → Buf (Elt F) ((c : Thread nD τ).loc b) := fun c b => W9 m ρ c b
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-- After item 10, region 3 (entered straight from region 2's exit). -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
theorem W10_of (c : Dev nD) (r : Ref sig .tc) (h : r ∉ reg3_W) : W10 m ρ c (Proc.devRef .tc r) = W9 m ρ c (Proc.devRef .tc r) :=
  withArrays_exit_of_in (dat3 (V9 m ρ) c) (W9 m ρ c) (A_eq3 (V9 m ρ) c) r fun w e => reg3_in w (e ▸ h)
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-- After item 11, `main_part1_ops3`: region 4's entry. -/
abbrev W11 : Dev nD → Valuation τ sig (Elt F) := fun c => StableHlo.after main_part1_ops3 (W10 m ρ c)
theorem W11_of (c : Dev nD) (r : Ref sig .tc) (h : r ∉ main_part1_ops3_W) : W11 m ρ c (Proc.devRef .tc r) = W10 m ρ c (Proc.devRef .tc r) :=
  StableHlo.after_of_writes_sub main_part1_ops3 _ main_part1_ops3_writes h
abbrev V11 : (c : Dev nD) → (b : Ref sig .tc) → Buf (Elt F) ((c : Thread nD τ).loc b) := fun c b => W11 m ρ c b

/-- After item 12, region 4. -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
theorem W12_of (c : Dev nD) (r : Ref sig .tc) (h : r ∉ reg4_W) : W12 m ρ c (Proc.devRef .tc r) = W11 m ρ c (Proc.devRef .tc r) :=
  withArrays_exit_of_in (dat4 (V11 m ρ) c) (W11 m ρ c) (A_eq4 (V11 m ρ) c) r fun w e => reg4_in w (e ▸ h)
abbrev V12 : (c : Dev nD) → (b : Ref sig .tc) → Buf (Elt F) ((c : Thread nD τ).loc b) := fun c b => W12 m ρ c b
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)

/-- After item 13, `main_part1_ops4`. -/
abbrev W13 : Dev nD → Valuation τ sig (Elt F) := fun c => StableHlo.after main_part1_ops4 (W12 m ρ c)
theorem W13_of (c : Dev nD) (r : Ref sig .tc) (h : r ∉ main_part1_ops4_W) : W13 m ρ c (Proc.devRef .tc r) = W12 m ρ c (Proc.devRef .tc r) :=
  StableHlo.after_of_writes_sub main_part1_ops4 _ main_part1_ops4_writes h
/-- After item 14, `main_part2_ops0`: region 5's entry. -/
abbrev W14 : Dev nD → Valuation τ sig (Elt F) := fun c => StableHlo.after main_part2_ops0 (W13 m ρ c)
theorem W14_of (c : Dev nD) (r : Ref sig .tc) (h : r ∉ main_part2_ops0_W) : W14 m ρ c (Proc.devRef .tc r) = W13 m ρ c (Proc.devRef .tc r) :=
  StableHlo.after_of_writes_sub main_part2_ops0 _ main_part2_ops0_writes h
abbrev V14 : (c : Dev nD) → (b : Ref sig .tc) → Buf (Elt F) ((c : Thread nD τ).loc b) := fun c b => W14 m ρ c b

/-- After item 15, region 5. -/
def W15 (c : Dev nD) : Valuation τ sig (Elt F) :=
  Pipeline.withArrays spec5 c (W14 m ρ c) fun w => (dat5 (V14 m ρ) c).arrAt w cfg5.N
theorem W15_arr (c : Dev nD) (w : Fin cfg5.W) :
    W15 m ρ c (Proc.devRef .tc (Pipeline.arrRef spec5 w)) = (dat5 (V14 m ρ) c).arrAt w cfg5.N := by
  unfold W15; exact Pipeline.withArrays_arr spec5 launch5.win.arr_inj c _ _ w
theorem W15_of_ne (c : Dev nD) (b : Ref sig .tc) (hb : ∀ w, Pipeline.arrRef spec5 w ≠ b) :
    W15 m ρ c (Proc.devRef .tc b) = W14 m ρ c (Proc.devRef .tc b) := by
  unfold W15; exact Pipeline.withArrays_of_ne spec5 c _ _ b hb
theorem W15_of (c : Dev nD) (r : Ref sig .tc) (h : r ∉ reg5_W) : W15 m ρ c (Proc.devRef .tc r) = W14 m ρ c (Proc.devRef .tc r) :=
  withArrays_exit_of_in (dat5 (V14 m ρ) c) (W14 m ρ c) (A_eq5 (V14 m ρ) c) r fun w e => reg5_in w (e ▸ h)
abbrev V15 : (c : Dev nD) → (b : Ref sig .tc) → Buf (Elt F) ((c : Thread nD τ).loc b) := fun c b => W15 m ρ c b
theorem hF5 (c : Dev nD) (w : Fin cfg5.W) : (dat5 (V14 m ρ) c).arrAt w cfg5.N = V15 m ρ c (Pipeline.arrRef spec5 w) :=
  (W15_arr m ρ c w).symm
theorem hrest5 (c : Dev nD) : ∀ b, b ∉ Finset.univ.image (Pipeline.arrRef spec5) → V15 m ρ c b = V14 m ρ c b :=
  fun b hb => W15_of_ne m ρ c b fun w e => hb (Finset.mem_image.mpr ⟨w, Finset.mem_univ _, e⟩)

/-- After item 16, `main_part2_ops1`: region 6's entry. -/
abbrev W16 : Dev nD → Valuation τ sig (Elt F) := fun c => StableHlo.after main_part2_ops1 (W15 m ρ c)
theorem W16_of (c : Dev nD) (r : Ref sig .tc) (h : r ∉ main_part2_ops1_W) : W16 m ρ c (Proc.devRef .tc r) = W15 m ρ c (Proc.devRef .tc r) :=
  StableHlo.after_of_writes_sub main_part2_ops1 _ main_part2_ops1_writes h
abbrev V16 : (c : Dev nD) → (b : Ref sig .tc) → Buf (Elt F) ((c : Thread nD τ).loc b) := fun c b => W16 m ρ c b

/-- After item 17, region 6. -/
def W17 (c : Dev nD) : Valuation τ sig (Elt F) :=
  Pipeline.withArrays spec6 c (W16 m ρ c) fun w => (dat6 (V16 m ρ) c).arrAt w cfg6.N
theorem W17_arr (c : Dev nD) (w : Fin cfg6.W) :
    W17 m ρ c (Proc.devRef .tc (Pipeline.arrRef spec6 w)) = (dat6 (V16 m ρ) c).arrAt w cfg6.N := by
  unfold W17; exact Pipeline.withArrays_arr spec6 launch6.win.arr_inj c _ _ w
theorem W17_of_ne (c : Dev nD) (b : Ref sig .tc) (hb : ∀ w, Pipeline.arrRef spec6 w ≠ b) :
    W17 m ρ c (Proc.devRef .tc b) = W16 m ρ c (Proc.devRef .tc b) := by
  unfold W17; exact Pipeline.withArrays_of_ne spec6 c _ _ b hb
theorem W17_of (c : Dev nD) (r : Ref sig .tc) (h : r ∉ reg6_W) : W17 m ρ c (Proc.devRef .tc r) = W16 m ρ c (Proc.devRef .tc r) :=
  withArrays_exit_of_in (dat6 (V16 m ρ) c) (W16 m ρ c) (A_eq6 (V16 m ρ) c) r fun w e => reg6_in w (e ▸ h)
abbrev V17 : (c : Dev nD) → (b : Ref sig .tc) → Buf (Elt F) ((c : Thread nD τ).loc b) := fun c b => W17 m ρ c b
theorem hF6 (c : Dev nD) (w : Fin cfg6.W) : (dat6 (V16 m ρ) c).arrAt w cfg6.N = V17 m ρ c (Pipeline.arrRef spec6 w) :=
  (W17_arr m ρ c w).symm
theorem hrest6 (c : Dev nD) : ∀ b, b ∉ Finset.univ.image (Pipeline.arrRef spec6) → V17 m ρ c b = V16 m ρ c b :=
  fun b hb => W17_of_ne m ρ c b fun w e => hb (Finset.mem_image.mpr ⟨w, Finset.mem_univ _, e⟩)

/-- After item 18, region 7 (entered straight from region 6's exit): the contents @main returns with. -/
def W18 (c : Dev nD) : Valuation τ sig (Elt F) :=
  Pipeline.withArrays spec7 c (W17 m ρ c) fun w => (dat7 (V17 m ρ) c).arrAt w cfg7.N
theorem W18_arr (c : Dev nD) (w : Fin cfg7.W) :
    W18 m ρ c (Proc.devRef .tc (Pipeline.arrRef spec7 w)) = (dat7 (V17 m ρ) c).arrAt w cfg7.N := by
  unfold W18; exact Pipeline.withArrays_arr spec7 launch7.win.arr_inj c _ _ w
theorem W18_of_ne (c : Dev nD) (b : Ref sig .tc) (hb : ∀ w, Pipeline.arrRef spec7 w ≠ b) :
    W18 m ρ c (Proc.devRef .tc b) = W17 m ρ c (Proc.devRef .tc b) := by
  unfold W18; exact Pipeline.withArrays_of_ne spec7 c _ _ b hb
theorem W18_of (c : Dev nD) (r : Ref sig .tc) (h : r ∉ reg7_W) : W18 m ρ c (Proc.devRef .tc r) = W17 m ρ c (Proc.devRef .tc r) :=
  withArrays_exit_of_in (dat7 (V17 m ρ) c) (W17 m ρ c) (A_eq7 (V17 m ρ) c) r fun w e => reg7_in w (e ▸ h)
abbrev V18 : (c : Dev nD) → (b : Ref sig .tc) → Buf (Elt F) ((c : Thread nD τ).loc b) := fun c b => W18 m ρ c b
theorem hF7 (c : Dev nD) (w : Fin cfg7.W) : (dat7 (V17 m ρ) c).arrAt w cfg7.N = V18 m ρ c (Pipeline.arrRef spec7 w) :=
  (W18_arr m ρ c w).symm
theorem hrest7 (c : Dev nD) : ∀ b, b ∉ Finset.univ.image (Pipeline.arrRef spec7) → V18 m ρ c b = V17 m ρ c b :=
  fun b hb => W18_of_ne m ρ c b fun w e => hb (Finset.mem_image.mpr ⟨w, Finset.mem_univ _, e⟩)

/-- The contents @main returns with. -/
abbrev Wn : Dev nD → Valuation τ sig (Elt F) := W18 m ρ

/-! ## The arguments end as launched: no item writes one -/

/-- The ten argument arrays. -/
abbrev argRefs : List (Ref sig .tc) :=
  [main_arg0, main_arg1, main_arg2, main_arg3, main_arg4, main_arg5, main_arg6, main_arg7, main_arg8, main_arg9]

/-- No argument is among the references any of the eighteen items writes. -/
theorem args_unwritten : ∀ r ∈ argRefs,
    (r ∉ main_part0_ops0_W ∧ r ∉ main_part0_ops1_W ∧ r ∉ main_part0_ops2_W ∧ r ∉ main_part1_ops0_W ∧ r ∉ reg0_W ∧ r ∉ main_part1_ops1_W)
    ∧ (r ∉ reg1_W ∧ r ∉ main_part1_ops2_W ∧ r ∉ reg2_W ∧ r ∉ reg3_W ∧ r ∉ main_part1_ops3_W ∧ r ∉ reg4_W)
    ∧ (r ∉ main_part1_ops4_W ∧ r ∉ main_part2_ops0_W ∧ r ∉ reg5_W ∧ r ∉ main_part2_ops1_W ∧ r ∉ reg6_W ∧ r ∉ reg7_W) := by
  decide

/-- An argument array read at the end of @main holds its launch contents: the fold walked back item by item. -/
theorem Wn_arg (c : Dev nD) (r : Ref sig .tc) (h : r ∈ argRefs) :
    Wn m ρ c (Proc.devRef .tc r) = m ((c : Thread nD τ).loc r) := by
  obtain ⟨⟨h1, h2, h3, h4, h5, h6⟩, ⟨h7, h8, h9, h10, h11, h12⟩, ⟨h13, h14, h15, h16, h17, h18⟩⟩ := args_unwritten r h
  exact (W18_of m ρ c r h18).trans <| (W17_of m ρ c r h17).trans <| (W16_of m ρ c r h16).trans <| (W15_of m ρ c r h15).trans <|
    (W14_of m ρ c r h14).trans <| (W13_of m ρ c r h13).trans <| (W12_of m ρ c r h12).trans <| (W11_of m ρ c r h11).trans <|
    (W10_of m ρ c r h10).trans <| (W9_of m ρ c r h9).trans <| (W8_of m ρ c r h8).trans <| (W7_of m ρ c r h7).trans <|
    (W6_of m ρ c r h6).trans <| (W5_of m ρ c r h5).trans <| (W4_of m ρ c r h4).trans <| (W3_of m ρ c r h3).trans <|
    (W2_of m ρ c r h2).trans <| (W1_of m ρ c r h1)

theorem Wn_main_arg0 (c : Dev nD) : Wn m ρ c (Proc.devRef .tc main_arg0) = m ((c : Thread nD τ).loc main_arg0) := Wn_arg m ρ c _ (by decide)
theorem Wn_main_arg1 (c : Dev nD) : Wn m ρ c (Proc.devRef .tc main_arg1) = m ((c : Thread nD τ).loc main_arg1) := Wn_arg m ρ c _ (by decide)
theorem Wn_main_arg2 (c : Dev nD) : Wn m ρ c (Proc.devRef .tc main_arg2) = m ((c : Thread nD τ).loc main_arg2) := Wn_arg m ρ c _ (by decide)
theorem Wn_main_arg3 (c : Dev nD) : Wn m ρ c (Proc.devRef .tc main_arg3) = m ((c : Thread nD τ).loc main_arg3) := Wn_arg m ρ c _ (by decide)
theorem Wn_main_arg4 (c : Dev nD) : Wn m ρ c (Proc.devRef .tc main_arg4) = m ((c : Thread nD τ).loc main_arg4) := Wn_arg m ρ c _ (by decide)
theorem Wn_main_arg5 (c : Dev nD) : Wn m ρ c (Proc.devRef .tc main_arg5) = m ((c : Thread nD τ).loc main_arg5) := Wn_arg m ρ c _ (by decide)
theorem Wn_main_arg6 (c : Dev nD) : Wn m ρ c (Proc.devRef .tc main_arg6) = m ((c : Thread nD τ).loc main_arg6) := Wn_arg m ρ c _ (by decide)
theorem Wn_main_arg7 (c : Dev nD) : Wn m ρ c (Proc.devRef .tc main_arg7) = m ((c : Thread nD τ).loc main_arg7) := Wn_arg m ρ c _ (by decide)
theorem Wn_main_arg8 (c : Dev nD) : Wn m ρ c (Proc.devRef .tc main_arg8) = m ((c : Thread nD τ).loc main_arg8) := Wn_arg m ρ c _ (by decide)
theorem Wn_main_arg9 (c : Dev nD) : Wn m ρ c (Proc.devRef .tc main_arg9) = m ((c : Thread nD τ).loc main_arg9) := Wn_arg m ρ c _ (by decide)

end Cert.KernelIdeal.Frm

end
-- ==== Proof.KI.Run.lean ====
/- The launch of the eight-region program: every pipeline's proof data at its region's entry contents, each stretch of
   host operations and each kernel region as a segment over the thread state "every unscoped buffer at the boundary's
   contents, the generator register at some state, nothing owed", @main as the run of the eighteen segments, and the
   run itself: termination, the three result arrays at the last boundary's contents, the ten arguments as launched. -/
import proofs.«416106_j13048110645352_1_alg».proof.Proof.KI.Run.Chain

set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's eighteen items as segments, and the launch

## The proof data family and the thread state -/

/-- The prefetched tables' admissible contents: no pipeline has a table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V6 m ρ) c
  | ⟨2, _⟩ => fun c => dat2 (V8 m ρ) c
  | ⟨3, _⟩ => fun c => dat3 (V9 m ρ) c
  | ⟨4, _⟩ => fun c => dat4 (V11 m ρ) c
  | ⟨5, _⟩ => fun c => dat5 (V14 m ρ) c
  | ⟨6, _⟩ => fun c => dat6 (V16 m ρ) c
  | ⟨7, _⟩ => fun c => dat7 (V17 m ρ) c
  | ⟨_ + 8, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem main_part1_ops2_fresh : (main_part1_ops2 : List (HloOp τ sig (Elt F))).Forall fun op => op.fresh = ∅ := by
  simp only [List.Forall]; repeat' constructor
theorem main_part1_ops3_fresh : (main_part1_ops3 : List (HloOp τ sig (Elt F))).Forall fun op => op.fresh = ∅ := by
  simp only [List.Forall]; repeat' constructor
theorem main_part1_ops4_fresh : (main_part1_ops4 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part2_ops1_fresh : (main_part2_ops1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## A kernel region as a segment, once for the eight

A region is entered from every unscoped buffer at the entry contents `Wi` and left with them at the exit contents
`Wo`. Its arrays are split out of the unscoped buffers at entry (`hsplit`) and put back at exit (`hjoin`): the two
entailments are the region's own (seven regions have distinct arrays; region 2 reads one array through two windows).
The generator register goes into the pipeline's invariant and comes out; nothing is owed; the kernel has no semaphore of
its own. -/

set_option backward.isDefEq.respectTransparency.types false in
def regOf (p : Fin 8)
    (hw : Pipeline.WinFacts₀ (pcfgs (F := F) p).spec)
    (hblock : ∀ w : Fin (Pipeline.pin (pcfgs (F := F)) adm p).W, 0 < ((Pipeline.pin (pcfgs (F := F)) adm p).spec w).block.numel)
    (hstage : ∀ (w : Fin (Pipeline.pin (pcfgs (F := F)) adm p).W) (s : Fin ((Pipeline.pin (pcfgs (F := F)) adm p).spec w).nbuf),
      (((Pipeline.pin (pcfgs (F := F)) adm p).spec w).stage s).IsWhole)
    (Wi Wo : Dev nD → Valuation τ sig (Elt F))
    (hbody : ∀ c : Dev nD, Pipeline.BodyObligationLoose (pdats m ρ p c) (defs₀ (F := F)) 𝒱₀ () Set.univ)
    (hΦ : ∀ (c : Dev nD) t, (pdats m ρ p c).Φ t = Pipeline.ΦA (Pipeline.pin (pcfgs (F := F)) adm p).spec c)
    (howed : ∀ (c : Dev nD) t, (pdats m ρ p c).owed t = 0)
    (hrec : ∀ (c : Dev nD) t, (pdats m ρ p c).recorded t = Set.univ)
    (hsplit : ∀ c : Dev nD, (StableHlo.held (c : Thread nD τ) (Pipeline.ucRefs τ sig) (Wi c) : sProp 𝕄)
      ⊢ iprop((pdats m ρ p c).arrays ((pdats m ρ p c).arrAt · 0)
          ∗ Pipeline.unscopedRest (Ix := Unit) (Name := ℕ) (U := UR sig nD τ) (Lvl := ℕ) (Pipeline.pin (pcfgs (F := F)) adm p).spec c (fun b => Wi c b)))
    (hjoin : ∀ c : Dev nD, iprop((pdats m ρ p c).arrays ((pdats m ρ p c).arrAt · (Pipeline.pin (pcfgs (F := F)) adm p).N)
          ∗ Pipeline.unscopedRest (Ix := Unit) (Name := ℕ) (U := UR sig nD τ) (Lvl := ℕ) (Pipeline.pin (pcfgs (F := F)) adm p).spec c (fun b => Wi c b))
      ⊢ (StableHlo.held (c : Thread nD τ) (Pipeline.ucRefs τ sig) (Wo c) : sProp 𝕄)) :
    Pipeline.RegionSeg (pcfgs (F := F)) adm (pdats m ρ) () defs₀ 𝒱₀ L lv p where
  win := hw
  block_pos := hblock
  stage_whole := hstage
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Wi c b)
  hentry c := by
    rw [Pipeline.ownSems0_none]
    iintro ⟨⟨Hub, Hp, HO⟩, -, -⟩
    ihave H := (hsplit c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr
      · ipureintro; intro x _; left; rw [hrec c 0]; trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (hjoin c); isplitl [Ha] <;> iassumption
    isplitl [HY]; · iexact HY
    unfold Pipeline.Dat.owesAt Pipeline.owesWithin
    rw [howed c (Fin.last _)]
    icases HO with ⟨%W, -, HO⟩; iexists W; iexact HO

/-! ## The eight regions' arrays, split out of the unscoped buffers at entry and put back at exit -/

set_option backward.isDefEq.respectTransparency.types false in
theorem hsplit0 (c : Dev nD) : (StableHlo.held (c : Thread nD τ) (Pipeline.ucRefs τ sig) (W4 m ρ c) : sProp 𝕄)
    ⊢ iprop((pdats m ρ 0 c).arrays ((pdats m ρ 0 c).arrAt · 0)
      ∗ Pipeline.unscopedRest (Ix := Unit) (Name := ℕ) (U := UR sig nD τ) (Lvl := ℕ) spec0 c (fun b => W4 m ρ c b)) := by
  have h := Pipeline.arrays_of_unscopedBufs (p := 0) (pcfgs (F := F)) adm (pdats m ρ) launch0.win launch0.arr_whole c
    ((pdats m ρ 0 c).share_full fun _ => rfl) (V4 m ρ c) fun _ => rfl
  rw [Pipeline.unscopedBufs_held] at h
  exact h
set_option backward.isDefEq.respectTransparency.types false in
theorem hjoin0 (c : Dev nD) : iprop((pdats m ρ 0 c).arrays ((pdats m ρ 0 c).arrAt · cfg0.N)
      ∗ Pipeline.unscopedRest (Ix := Unit) (Name := ℕ) (U := UR sig nD τ) (Lvl := ℕ) spec0 c (fun b => W4 m ρ c b))
    ⊢ (StableHlo.held (c : Thread nD τ) (Pipeline.ucRefs τ sig) (W5 m ρ c) : sProp 𝕄) := by
  have h := Pipeline.unscopedBufs_of_arrays (p := 0) (pcfgs (F := F)) adm (Ix := Unit) (Name := ℕ) (U := UR sig nD τ) (Lvl := ℕ)
    launch0.win launch0.arr_whole c (pdats m ρ) ((pdats m ρ 0 c).share_full fun _ => rfl)
    (V4 m ρ c) (V5 m ρ c) ((pdats m ρ 0 c).arrAt · cfg0.N) (hF0 m ρ c) (hrest0 m ρ c)
  rw [Pipeline.unscopedBufs_held] at h
  exact h

set_option backward.isDefEq.respectTransparency.types false in
theorem hsplit1 (c : Dev nD) : (StableHlo.held (c : Thread nD τ) (Pipeline.ucRefs τ sig) (W6 m ρ c) : sProp 𝕄)
    ⊢ iprop((pdats m ρ 1 c).arrays ((pdats m ρ 1 c).arrAt · 0)
      ∗ Pipeline.unscopedRest (Ix := Unit) (Name := ℕ) (U := UR sig nD τ) (Lvl := ℕ) spec1 c (fun b => W6 m ρ c b)) := by
  have h := Pipeline.arrays_of_unscopedBufs (p := 1) (pcfgs (F := F)) adm (pdats m ρ) launch1.win launch1.arr_whole c
    ((pdats m ρ 1 c).share_full fun _ => rfl) (V6 m ρ c) fun _ => rfl
  rw [Pipeline.unscopedBufs_held] at h
  exact h
set_option backward.isDefEq.respectTransparency.types false in
theorem hjoin1 (c : Dev nD) : iprop((pdats m ρ 1 c).arrays ((pdats m ρ 1 c).arrAt · cfg1.N)
      ∗ Pipeline.unscopedRest (Ix := Unit) (Name := ℕ) (U := UR sig nD τ) (Lvl := ℕ) spec1 c (fun b => W6 m ρ c b))
    ⊢ (StableHlo.held (c : Thread nD τ) (Pipeline.ucRefs τ sig) (W7 m ρ c) : sProp 𝕄) := by
  have h := Pipeline.unscopedBufs_of_arrays (p := 1) (pcfgs (F := F)) adm (Ix := Unit) (Name := ℕ) (U := UR sig nD τ) (Lvl := ℕ)
    launch1.win launch1.arr_whole c (pdats m ρ) ((pdats m ρ 1 c).share_full fun _ => rfl)
    (V6 m ρ c) (V7 m ρ c) ((pdats m ρ 1 c).arrAt · cfg1.N) (hF1 m ρ c) (hrest1 m ρ c)
  rw [Pipeline.unscopedBufs_held] at h
  exact h

/-- Region 2 at entry: the distinct buffers behind its windows come out of the unscoped buffers whole, and the one two
    windows read is halved between them. -/
theorem hsplit2 (c : Dev nD) : (StableHlo.held (c : Thread nD τ) (Pipeline.ucRefs τ sig) (W8 m ρ c) : sProp 𝕄)
    ⊢ iprop((pdats m ρ 2 c).arrays ((pdats m ρ 2 c).arrAt · 0)
      ∗ Pipeline.unscopedRest (Ix := Unit) (Name := ℕ) (U := UR sig nD τ) (Lvl := ℕ) spec2 c (fun b => W8 m ρ c b)) := by
  rw [← Pipeline.unscopedBufs_held c (W8 m ρ c),
    Pipeline.unscopedBufs_split₀ (Pipeline.pin (pcfgs (F := F)) adm) 2 winFacts₀2.arr_unscoped c (Ix := Unit) (Name := ℕ) (U := UR sig nD τ) (Lvl := ℕ) (V8 m ρ c)]
  exact sep_mono (arrays_of_arrBufs2 (V8 m ρ) c) .rfl
/-- Region 2 at exit: the halves rejoin, the outputs are at what the write-backs leave, the rest bypassed the region. -/
theorem hjoin2 (c : Dev nD) : iprop((pdats m ρ 2 c).arrays ((pdats m ρ 2 c).arrAt · cfg2.N)
      ∗ Pipeline.unscopedRest (Ix := Unit) (Name := ℕ) (U := UR sig nD τ) (Lvl := ℕ) spec2 c (fun b => W8 m ρ c b))
    ⊢ (StableHlo.held (c : Thread nD τ) (Pipeline.ucRefs τ sig) (W9 m ρ c) : sProp 𝕄) := by
  rw [← Pipeline.unscopedBufs_held c (W9 m ρ c),
    Pipeline.unscopedBufs_split₀ (Pipeline.pin (pcfgs (F := F)) adm) 2 winFacts₀2.arr_unscoped c (Ix := Unit) (Name := ℕ) (U := UR sig nD τ) (Lvl := ℕ) (V9 m ρ c)]
  refine sep_mono (arrBufs_of_arrays2 (V8 m ρ) c (V9 m ρ c) (hF2 m ρ c)) (Entails.of_eq ?_)
  unfold Pipeline.unscopedRest
  exact bigSep_congr fun b hb => by rw [hrest2 m ρ c b (Finset.mem_sdiff.mp hb).2]

set_option backward.isDefEq.respectTransparency.types false in
theorem hsplit3 (c : Dev nD) : (StableHlo.held (c : Thread nD τ) (Pipeline.ucRefs τ sig) (W9 m ρ c) : sProp 𝕄)
    ⊢ iprop((pdats m ρ 3 c).arrays ((pdats m ρ 3 c).arrAt · 0)
      ∗ Pipeline.unscopedRest (Ix := Unit) (Name := ℕ) (U := UR sig nD τ) (Lvl := ℕ) spec3 c (fun b => W9 m ρ c b)) := by
  have h := Pipeline.arrays_of_unscopedBufs (p := 3) (pcfgs (F := F)) adm (pdats m ρ) launch3.win launch3.arr_whole c
    ((pdats m ρ 3 c).share_full fun _ => rfl) (V9 m ρ c) fun _ => rfl
  rw [Pipeline.unscopedBufs_held] at h
  exact h
set_option backward.isDefEq.respectTransparency.types false in
theorem hjoin3 (c : Dev nD) : iprop((pdats m ρ 3 c).arrays ((pdats m ρ 3 c).arrAt · cfg3.N)
      ∗ Pipeline.unscopedRest (Ix := Unit) (Name := ℕ) (U := UR sig nD τ) (Lvl := ℕ) spec3 c (fun b => W9 m ρ c b))
    ⊢ (StableHlo.held (c : Thread nD τ) (Pipeline.ucRefs τ sig) (W10 m ρ c) : sProp 𝕄) := by
  have h := Pipeline.unscopedBufs_of_arrays (p := 3) (pcfgs (F := F)) adm (Ix := Unit) (Name := ℕ) (U := UR sig nD τ) (Lvl := ℕ)
    launch3.win launch3.arr_whole c (pdats m ρ) ((pdats m ρ 3 c).share_full fun _ => rfl)
    (V9 m ρ c) (V10 m ρ c) ((pdats m ρ 3 c).arrAt · cfg3.N) (hF3 m ρ c) (hrest3 m ρ c)
  rw [Pipeline.unscopedBufs_held] at h
  exact h

set_option backward.isDefEq.respectTransparency.types false in
theorem hsplit4 (c : Dev nD) : (StableHlo.held (c : Thread nD τ) (Pipeline.ucRefs τ sig) (W11 m ρ c) : sProp 𝕄)
    ⊢ iprop((pdats m ρ 4 c).arrays ((pdats m ρ 4 c).arrAt · 0)
      ∗ Pipeline.unscopedRest (Ix := Unit) (Name := ℕ) (U := UR sig nD τ) (Lvl := ℕ) spec4 c (fun b => W11 m ρ c b)) := by
  have h := Pipeline.arrays_of_unscopedBufs (p := 4) (pcfgs (F := F)) adm (pdats m ρ) launch4.win launch4.arr_whole c
    ((pdats m ρ 4 c).share_full fun _ => rfl) (V11 m ρ c) fun _ => rfl
  rw [Pipeline.unscopedBufs_held] at h
  exact h
set_option backward.isDefEq.respectTransparency.types false in
theorem hjoin4 (c : Dev nD) : iprop((pdats m ρ 4 c).arrays ((pdats m ρ 4 c).arrAt · cfg4.N)
      ∗ Pipeline.unscopedRest (Ix := Unit) (Name := ℕ) (U := UR sig nD τ) (Lvl := ℕ) spec4 c (fun b => W11 m ρ c b))
    ⊢ (StableHlo.held (c : Thread nD τ) (Pipeline.ucRefs τ sig) (W12 m ρ c) : sProp 𝕄) := by
  have h := Pipeline.unscopedBufs_of_arrays (p := 4) (pcfgs (F := F)) adm (Ix := Unit) (Name := ℕ) (U := UR sig nD τ) (Lvl := ℕ)
    launch4.win launch4.arr_whole c (pdats m ρ) ((pdats m ρ 4 c).share_full fun _ => rfl)
    (V11 m ρ c) (V12 m ρ c) ((pdats m ρ 4 c).arrAt · cfg4.N) (hF4 m ρ c) (hrest4 m ρ c)
  rw [Pipeline.unscopedBufs_held] at h
  exact h

set_option backward.isDefEq.respectTransparency.types false in
theorem hsplit5 (c : Dev nD) : (StableHlo.held (c : Thread nD τ) (Pipeline.ucRefs τ sig) (W14 m ρ c) : sProp 𝕄)
    ⊢ iprop((pdats m ρ 5 c).arrays ((pdats m ρ 5 c).arrAt · 0)
      ∗ Pipeline.unscopedRest (Ix := Unit) (Name := ℕ) (U := UR sig nD τ) (Lvl := ℕ) spec5 c (fun b => W14 m ρ c b)) := by
  have h := Pipeline.arrays_of_unscopedBufs (p := 5) (pcfgs (F := F)) adm (pdats m ρ) launch5.win launch5.arr_whole c
    ((pdats m ρ 5 c).share_full fun _ => rfl) (V14 m ρ c) fun _ => rfl
  rw [Pipeline.unscopedBufs_held] at h
  exact h
set_option backward.isDefEq.respectTransparency.types false in
theorem hjoin5 (c : Dev nD) : iprop((pdats m ρ 5 c).arrays ((pdats m ρ 5 c).arrAt · cfg5.N)
      ∗ Pipeline.unscopedRest (Ix := Unit) (Name := ℕ) (U := UR sig nD τ) (Lvl := ℕ) spec5 c (fun b => W14 m ρ c b))
    ⊢ (StableHlo.held (c : Thread nD τ) (Pipeline.ucRefs τ sig) (W15 m ρ c) : sProp 𝕄) := by
  have h := Pipeline.unscopedBufs_of_arrays (p := 5) (pcfgs (F := F)) adm (Ix := Unit) (Name := ℕ) (U := UR sig nD τ) (Lvl := ℕ)
    launch5.win launch5.arr_whole c (pdats m ρ) ((pdats m ρ 5 c).share_full fun _ => rfl)
    (V14 m ρ c) (V15 m ρ c) ((pdats m ρ 5 c).arrAt · cfg5.N) (hF5 m ρ c) (hrest5 m ρ c)
  rw [Pipeline.unscopedBufs_held] at h
  exact h

set_option backward.isDefEq.respectTransparency.types false in
theorem hsplit6 (c : Dev nD) : (StableHlo.held (c : Thread nD τ) (Pipeline.ucRefs τ sig) (W16 m ρ c) : sProp 𝕄)
    ⊢ iprop((pdats m ρ 6 c).arrays ((pdats m ρ 6 c).arrAt · 0)
      ∗ Pipeline.unscopedRest (Ix := Unit) (Name := ℕ) (U := UR sig nD τ) (Lvl := ℕ) spec6 c (fun b => W16 m ρ c b)) := by
  have h := Pipeline.arrays_of_unscopedBufs (p := 6) (pcfgs (F := F)) adm (pdats m ρ) launch6.win launch6.arr_whole c
    ((pdats m ρ 6 c).share_full fun _ => rfl) (V16 m ρ c) fun _ => rfl
  rw [Pipeline.unscopedBufs_held] at h
  exact h
set_option backward.isDefEq.respectTransparency.types false in
theorem hjoin6 (c : Dev nD) : iprop((pdats m ρ 6 c).arrays ((pdats m ρ 6 c).arrAt · cfg6.N)
      ∗ Pipeline.unscopedRest (Ix := Unit) (Name := ℕ) (U := UR sig nD τ) (Lvl := ℕ) spec6 c (fun b => W16 m ρ c b))
    ⊢ (StableHlo.held (c : Thread nD τ) (Pipeline.ucRefs τ sig) (W17 m ρ c) : sProp 𝕄) := by
  have h := Pipeline.unscopedBufs_of_arrays (p := 6) (pcfgs (F := F)) adm (Ix := Unit) (Name := ℕ) (U := UR sig nD τ) (Lvl := ℕ)
    launch6.win launch6.arr_whole c (pdats m ρ) ((pdats m ρ 6 c).share_full fun _ => rfl)
    (V16 m ρ c) (V17 m ρ c) ((pdats m ρ 6 c).arrAt · cfg6.N) (hF6 m ρ c) (hrest6 m ρ c)
  rw [Pipeline.unscopedBufs_held] at h
  exact h

set_option backward.isDefEq.respectTransparency.types false in
theorem hsplit7 (c : Dev nD) : (StableHlo.held (c : Thread nD τ) (Pipeline.ucRefs τ sig) (W17 m ρ c) : sProp 𝕄)
    ⊢ iprop((pdats m ρ 7 c).arrays ((pdats m ρ 7 c).arrAt · 0)
      ∗ Pipeline.unscopedRest (Ix := Unit) (Name := ℕ) (U := UR sig nD τ) (Lvl := ℕ) spec7 c (fun b => W17 m ρ c b)) := by
  have h := Pipeline.arrays_of_unscopedBufs (p := 7) (pcfgs (F := F)) adm (pdats m ρ) launch7.win launch7.arr_whole c
    ((pdats m ρ 7 c).share_full fun _ => rfl) (V17 m ρ c) fun _ => rfl
  rw [Pipeline.unscopedBufs_held] at h
  exact h
set_option backward.isDefEq.respectTransparency.types false in
theorem hjoin7 (c : Dev nD) : iprop((pdats m ρ 7 c).arrays ((pdats m ρ 7 c).arrAt · cfg7.N)
      ∗ Pipeline.unscopedRest (Ix := Unit) (Name := ℕ) (U := UR sig nD τ) (Lvl := ℕ) spec7 c (fun b => W17 m ρ c b))
    ⊢ (StableHlo.held (c : Thread nD τ) (Pipeline.ucRefs τ sig) (W18 m ρ c) : sProp 𝕄) := by
  have h := Pipeline.unscopedBufs_of_arrays (p := 7) (pcfgs (F := F)) adm (Ix := Unit) (Name := ℕ) (U := UR sig nD τ) (Lvl := ℕ)
    launch7.win launch7.arr_whole c (pdats m ρ) ((pdats m ρ 7 c).share_full fun _ => rfl)
    (V17 m ρ c) (V18 m ρ c) ((pdats m ρ 7 c).arrAt · cfg7.N) (hF7 m ρ c) (hrest7 m ρ c)
  rw [Pipeline.unscopedBufs_held] at h
  exact h

/-! ## The regions as segments -/

/-- REGION 0 (the edge-scaling kernel, first hop): entered at `W4`, left at `W5`. -/
def reg0 : Pipeline.RegionSeg (pcfgs (F := F)) adm (pdats m ρ) () defs₀ 𝒱₀ L lv 0 :=
  regOf m ρ 0 launch0.win.to₀ launch0.block_pos launch0.stage_whole (W4 m ρ) (W5 m ρ)
    (fun c => (body_obligation0 (V4 m ρ) c).loose) (fun _ _ => rfl) (fun _ _ => rfl) (fun _ _ => rfl) (hsplit0 m ρ) (hjoin0 m ρ)
/-- REGION 1 (the row-scaling kernel, first hop): entered at `W6`, left at `W7`. -/
def reg1 : Pipeline.RegionSeg (pcfgs (F := F)) adm (pdats m ρ) () defs₀ 𝒱₀ L lv 1 :=
  regOf m ρ 1 launch1.win.to₀ launch1.block_pos launch1.stage_whole (W6 m ρ) (W7 m ρ)
    (fun c => (body_obligation1 (V6 m ρ) c).loose) (fun _ _ => rfl) (fun _ _ => rfl) (fun _ _ => rfl) (hsplit1 m ρ) (hjoin1 m ρ)
/-- REGION 2 (the user update, first hop; two windows on one array): entered at `W8`, left at `W9`. -/
def reg2 : Pipeline.RegionSeg (pcfgs (F := F)) adm (pdats m ρ) () defs₀ 𝒱₀ L lv 2 :=
  regOf m ρ 2 winFacts₀2 block_pos2 stage_whole2 (W8 m ρ) (W9 m ρ)
    (fun c => (body_obligation2 (V8 m ρ) c).loose) (fun _ _ => rfl) (fun _ _ => rfl) (fun _ _ => rfl) (hsplit2 m ρ) (hjoin2 m ρ)
/-- REGION 3 (the entity update, first hop): entered at `W9`, left at `W10`. -/
def reg3 : Pipeline.RegionSeg (pcfgs (F := F)) adm (pdats m ρ) () defs₀ 𝒱₀ L lv 3 :=
  regOf m ρ 3 launch3.win.to₀ launch3.block_pos launch3.stage_whole (W9 m ρ) (W10 m ρ)
    (fun c => (body_obligation3 (V9 m ρ) c).loose) (fun _ _ => rfl) (fun _ _ => rfl) (fun _ _ => rfl) (hsplit3 m ρ) (hjoin3 m ρ)
/-- REGION 4 (the edge-scaling kernel, second hop): entered at `W11`, left at `W12`. -/
def reg4 : Pipeline.RegionSeg (pcfgs (F := F)) adm (pdats m ρ) () defs₀ 𝒱₀ L lv 4 :=
  regOf m ρ 4 launch4.win.to₀ launch4.block_pos launch4.stage_whole (W11 m ρ) (W12 m ρ)
    (fun c => (body_obligation4 (V11 m ρ) c).loose) (fun _ _ => rfl) (fun _ _ => rfl) (fun _ _ => rfl) (hsplit4 m ρ) (hjoin4 m ρ)
/-- REGION 5 (the row-scaling kernel, second hop): entered at `W14`, left at `W15`. -/
def reg5 : Pipeline.RegionSeg (pcfgs (F := F)) adm (pdats m ρ) () defs₀ 𝒱₀ L lv 5 :=
  regOf m ρ 5 launch5.win.to₀ launch5.block_pos launch5.stage_whole (W14 m ρ) (W15 m ρ)
    (fun c => (body_obligation5 (V14 m ρ) c).loose) (fun _ _ => rfl) (fun _ _ => rfl) (fun _ _ => rfl) (hsplit5 m ρ) (hjoin5 m ρ)
/-- REGION 6 (the user update, second hop): entered at `W16`, left at `W17`. -/
def reg6 : Pipeline.RegionSeg (pcfgs (F := F)) adm (pdats m ρ) () defs₀ 𝒱₀ L lv 6 :=
  regOf m ρ 6 launch6.win.to₀ launch6.block_pos launch6.stage_whole (W16 m ρ) (W17 m ρ)
    (fun c => (body_obligation6 (V16 m ρ) c).loose) (fun _ _ => rfl) (fun _ _ => rfl) (fun _ _ => rfl) (hsplit6 m ρ) (hjoin6 m ρ)
/-- REGION 7 (the entity update, second hop): entered at `W17`, left at `W18`, which @main returns with. -/
def reg7 : Pipeline.RegionSeg (pcfgs (F := F)) adm (pdats m ρ) () defs₀ 𝒱₀ L lv 7 :=
  regOf m ρ 7 launch7.win.to₀ launch7.block_pos launch7.stage_whole (W17 m ρ) (W18 m ρ)
    (fun c => (body_obligation7 (V17 m ρ) c).loose) (fun _ _ => rfl) (fun _ _ => rfl) (fun _ _ => rfl) (hsplit7 m ρ) (hjoin7 m ρ)

/-! ## @main as segments, and the launch -/

/-- @main's eighteen segments in order: a host segment per stretch from its boundary's contents, a region per pallas_call. -/
abbrev segs : List (Pipeline.Seg (pcfgs (F := F)) adm (pdats m ρ) () defs₀ 𝒱₀ L lv) :=
  [ .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part1_ops0 main_part1_ops0_sub main_part1_ops0_fresh (W3 m ρ)),
    .region (reg0 m ρ),
    .host (hseg main_part1_ops1 main_part1_ops1_sub main_part1_ops1_fresh (W5 m ρ)),
    .region (reg1 m ρ),
    .host (hseg main_part1_ops2 main_part1_ops2_sub main_part1_ops2_fresh (W7 m ρ)),
    .region (reg2 m ρ),
    .region (reg3 m ρ),
    .host (hseg main_part1_ops3 main_part1_ops3_sub main_part1_ops3_fresh (W10 m ρ)),
    .region (reg4 m ρ),
    .host (hseg main_part1_ops4 main_part1_ops4_sub main_part1_ops4_fresh (W12 m ρ)),
    .host (hseg main_part2_ops0 main_part2_ops0_sub main_part2_ops0_fresh (W13 m ρ)),
    .region (reg5 m ρ),
    .host (hseg main_part2_ops1 main_part2_ops1_sub main_part2_ops1_fresh (W15 m ρ)),
    .region (reg6 m ρ),
    .region (reg7 m ρ) ]

/-- @main IS the run of the segments: its chain of windowed items, then the segments' run against that chain by the
    kernel's definitional check. -/
theorem main_run (c : Dev nD) : main (F := F) c = Pipeline.Seg.run (segs m ρ) := (main_chain_windows c).trans (by chain_rfl)

/-- The last thread state without the `owes`: every unscoped buffer at the last boundary's contents, the generator
    register at some state. -/
abbrev Tₙ (c : Dev nD) : sProp 𝕄 := iprop(StableHlo.held (c : Thread nD τ) (Pipeline.ucRefs τ sig) (Wn m ρ c) ∗ ∃ r, prngReg c r)

set_option backward.isDefEq.respectTransparency.types false in
/-- THE RUN: from any memory with zero counters, every weakly fair execution of @main on the TensorCores terminates,
    nothing faulting, and every final state has the three result arrays at the last boundary's contents and the ten
    argument arrays as launched. -/
theorem run_main : θ_run defs (onTc (τ := τ) (main (F := F))) ⟨m, fun _ => 0, ρ⟩ (fun r => ∀ c : Dev nD,
      r.2.mem ((c : Thread nD τ).loc main_v103_1) = Wn m ρ c (Proc.devRef .tc main_v103_1)
      ∧ r.2.mem ((c : Thread nD τ).loc main_v102_1) = Wn m ρ c (Proc.devRef .tc main_v102_1)
      ∧ r.2.mem ((c : Thread nD τ).loc main_v17) = Wn m ρ c (Proc.devRef .tc main_v17)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun c =>
        show iprop(StableHlo.held (c : Thread nD τ) (Pipeline.ucRefs τ sig) (W18 m ρ c) ∗ R c)
          ⊢ iprop(Tₙ m ρ c ∗ ∃ W, owes (c : Thread nD τ) (0 : CellTallies nD τ sig Unit) W) from by
        iintro ⟨Hh, Hr, HO⟩
        isplitl [Hh Hr]
        · isplitl [Hh]; · iexact Hh
          iexact Hr
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wn m ρ c b)
    (hfin := fun c s' => by
      iintro ⟨⟨Hh, -⟩, HSI⟩
      unfold StableHlo.held
      imodintro
      iapply (pointsTo_read_all (Pipeline.ucRefs τ sig) (fun b => (((c : Thread nD τ)).1, b)) (Wn m ρ c) s')
      isplitl [Hh] <;> iassumption)
    (hQ := fun s h c =>
      ⟨h c _ (mem_uc main_v103_1 (by decide)), h c _ (mem_uc main_v102_1 (by decide)), h c _ (mem_uc main_v17 (by decide)),
       (h c _ (mem_uc main_arg0 (by decide))).trans (Wn_main_arg0 m ρ c),
       (h c _ (mem_uc main_arg1 (by decide))).trans (Wn_main_arg1 m ρ c),
       (h c _ (mem_uc main_arg2 (by decide))).trans (Wn_main_arg2 m ρ c),
       (h c _ (mem_uc main_arg3 (by decide))).trans (Wn_main_arg3 m ρ c),
       (h c _ (mem_uc main_arg4 (by decide))).trans (Wn_main_arg4 m ρ c),
       (h c _ (mem_uc main_arg5 (by decide))).trans (Wn_main_arg5 m ρ c),
       (h c _ (mem_uc main_arg6 (by decide))).trans (Wn_main_arg6 m ρ c),
       (h c _ (mem_uc main_arg7 (by decide))).trans (Wn_main_arg7 m ρ c),
       (h c _ (mem_uc main_arg8 (by decide))).trans (Wn_main_arg8 m ρ c),
       (h c _ (mem_uc main_arg9 (by decide))).trans (Wn_main_arg9 m ρ c)⟩)

/-- THE FRAME: @main terminates from any memory with zero counters and its ten argument arrays end as launched. -/
theorem frame : θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)) :=
  (θ_run _ _ _).mono (fun r h c => (h c).2.2.2) (run_main m ρ)

end Cert.KernelIdeal.Frm

end
-- ==== Proof.Val.PreFacts.lean ====
/-
  The precondition's last conjunct, read back: every entry of the relation-id vector is a word in 1..10, read signed.
  The predicate is a chain of `and`s of whole-array `all`s. Only its last `and`, the last `all` and the two
  signed comparisons under it are opened; the finiteness conjuncts before them stay closed words throughout.
-/
import proofs.«416106_j13048110645352_1_alg».proof.Pre_finite_inputs
import proofs.«416106_j13048110645352_1_alg».proof.Proof.Gen.Pre_finite_inputs
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx Cert.Pre_finite_inputs

/-- The rank-0 shape has exactly one index. -/
instance subsingleton_scalar_idx : Subsingleton S_.Idx := ⟨fun a b => funext fun d => d.elim0⟩

variable [Facts] {F : FTy → Type} [FloatOps F]

/-- The tail of the predicate is `w ∧ all p`: where it is 1, every entry of `p` is 1. -/
theorem tail_all (w : IVec S_ 1) (p : IVec S1000000 1) (h : fn_part2 (F := F) w p ix0 = 1#1) (i : S1000000.Idx) :
    p i = 1#1 := by
  have h' : IntOp.andi (w ix0)
      (Host.reduce IntOp.andi p (constantI S_ 1 1#1) Facts.reducesTo_S1000000_S_d0 Facts.h_S_ ix0) = 1#1 := h
  exact Host.reduce_andi_all p _ _ _ _ (IntOp.andi_eq_one.1 h').2 i

theorem toInt_one : (1#32 : BitVec 32).toInt = 1 := by decide
theorem toInt_ten : (10#32 : BitVec 32).toInt = 10 := by decide

/-- The middle of the predicate hands the tail the mask `(t ≥ 1) ∧ (t ≤ 10)` of the id vector `t`: where the
    predicate is 1, each id satisfies both signed comparisons against the broadcast literals. -/
theorem mid_range (a4 : FVec F S4x10 .f32) (t : IVec S1000000 32) (a9 : FVec F S1000000 .f32) (w : IVec S_ 1)
    (p : IVec S10x64 1) (h : fn_part1 (F := F) a4 t a9 w p ix0 = 1#1) (i : S1000000.Idx) :
    1 ≤ (t i).toInt ∧ (t i).toInt ≤ 10 := by
  have hm := tail_all (F := F) _ _ h i
  obtain ⟨hge, hle⟩ := IntOp.andi_eq_one.1 hm
  have h1 : (1#32 : BitVec 32).toInt ≤ (t i).toInt := IntOp.cmpi_sge.1 hge
  have h10 : (t i).toInt ≤ (10#32 : BitVec 32).toInt := IntOp.cmpi_sle.1 hle
  rw [toInt_one] at h1
  rw [toInt_ten] at h10
  exact ⟨h1, h10⟩

/-- THE RANGE FACT: under the precondition every relation id is between 1 and 10. -/
theorem etype_range (a0 : FVec F S100000x64 .f32) (a1 : FVec F S200000x64 .f32) (a2 : FVec F S4x64 .f32)
    (a3 : FVec F S10x64 .f32) (a4 : FVec F S4x10 .f32) (a5 : IVec S2x1000000 32) (a6 : IVec S1000000 32)
    (a7 : IVec S1000000 32) (a8 : IVec S1000000 32) (a9 : FVec F S1000000 .f32)
    (h : fn (F := F) a0 a1 a2 a3 a4 a5 a6 a7 a8 a9 = fun _ => 1#1) (e : Fin 1000000) :
    1 ≤ (a6 (ix1 e)).toInt ∧ (a6 (ix1 e)).toInt ≤ 10 :=
  mid_range (F := F) a4 a6 a9 _ _ (congrFun h ix0) (ix1 e)

end Cert.PreFacts

end
-- ==== Proof.Val.Spec.lean ====
/- The mathematics both programs compute, element by element over the extended reals: an edge message
   (a tail row times the relation row a one-hot combination selects, times the head's inverse degree), a scaled row,
   a user row's update (softmax attention over four latent factors, a disentangled combination, an L2
   normalisation with a floor on the norm) and an entity row's normalisation. No program is imported here. -/
import Idealize.ShloMosaic.PureOps.Ideal
import Idealize.ShloMosaic.PureOps.Ideal.Laws
import Idealize.ShloMosaic.Lib.ValueIdx

noncomputable section

namespace Cert.Spec

open Idealize.ShloMosaic

/-- The floor on a row's norm: the float both programs carry (the nearest single-precision number to 1e-12). -/
def eps : EReal := Ideal.ofBits .f32 0x2B8CBCCC#32

/-- The float −∞ a row maximum starts from. -/
def negInf : EReal := Ideal.ofBits .f32 0xFF800000#32

/-- The coefficient of relation `r` in the one-hot row of the relation id `t`: one on the id's own column. -/
def hot (t : BitVec 32) (r : Fin 10) : EReal := if t = BitVec.ofNat 32 r.val then 1 else 0

/-- The relation row as the one-hot combination of the table's ten rows. -/
def relSum (w : Fin 10 → Fin 64 → EReal) (t : BitVec 32) (q : Fin 64) : EReal := ∑ r : Fin 10, hot t r * w r q

/-- An edge's message: its tail's row, times the relation row, times its head's inverse degree. -/
def edgeVal (te : Fin 1000000 → Fin 64 → EReal) (t : Fin 1000000 → BitVec 32) (w : Fin 10 → Fin 64 → EReal)
    (ih : Fin 1000000 → EReal) (e : Fin 1000000) (q : Fin 64) : EReal :=
  te e q * relSum w (t e) q * ih e

/-- A gathered row scaled by its interaction's value. -/
def scaleVal (x : Fin 1000000 → Fin 64 → EReal) (s : Fin 1000000 → EReal) (e : Fin 1000000) (q : Fin 64) : EReal :=
  x e q * s e

/-- A row's Euclidean norm, floored at `eps`. -/
def nrm (y : Fin 64 → EReal) : EReal := max (Ideal.sqrt (∑ k : Fin 64, y k * y k)) eps

/-- The row divided by its floored norm. -/
def normRow (y : Fin 64 → EReal) (q : Fin 64) : EReal := Ideal.div (y q) (nrm y)

/-- A user row's four attention logits against the latent factors (`lt k f`: factor `f`'s coordinate `k`). -/
def logit (x : Fin 64 → EReal) (lt : Fin 64 → Fin 4 → EReal) (f : Fin 4) : EReal := ∑ k : Fin 64, x k * lt k f

/-- The shift of the softmax: the largest logit (a fold of `max` from −∞, then once more against −∞, as both programs spell it). -/
def rowMax (z : Fin 4 → EReal) : EReal := max negInf ((Finset.univ : Finset (Fin 4)).fold max negInf z)

/-- The softmax of four logits. -/
def soft (z : Fin 4 → EReal) (f : Fin 4) : EReal :=
  Ideal.div (Ideal.exp (z f - rowMax z)) (∑ g : Fin 4, Ideal.exp (z g - rowMax z))

/-- The attention-weighted combination of the four disentangled relation rows. -/
def combine (p : Fin 4 → EReal) (dw : Fin 4 → Fin 64 → EReal) (q : Fin 64) : EReal := ∑ f : Fin 4, p f * dw f q

/-- A user's aggregate modulated by the combination, plus itself. -/
def userNew (x g : Fin 64 → EReal) (lt : Fin 64 → Fin 4 → EReal) (dw : Fin 4 → Fin 64 → EReal) (q : Fin 64) : EReal :=
  g q * combine (soft (logit x lt)) dw q + g q

/-- The user's new embedding: that row normalised. -/
def userOut (x g : Fin 64 → EReal) (lt : Fin 64 → Fin 4 → EReal) (dw : Fin 4 → Fin 64 → EReal) (q : Fin 64) : EReal :=
  normRow (userNew x g lt dw) q

end Cert.Spec

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.Val.K0.lean ====
/- The value of region 0 at the ideal instance: the output window's array after the region, element by element, is
   the edge message of the region-entry arrays: the tail row's entry, times the relation row that the one-hot
   combination of the ten table rows selects, times the per-edge scale. -/
import proofs.«416106_j13048110645352_1_alg».proof.Proof.KI.Body0
import proofs.«416106_j13048110645352_1_alg».proof.Proof.Val.Spec
import proofs.«416106_j13048110645352_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The zero offsets of a whole-block access. -/
theorem hz0 : (![0, 0] : Fin 2 → Nat) = fun _ => 0 := funext fun a => by fin_cases a <;> rfl

/-- A column [a,1] broadcast along the lanes to [a,b] reads, at (p, c), the column's row p. -/
theorem bcol0_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot coefficient: the comparison bit of the relation id against column r, widened and converted, is one on
    the id's own column and zero elsewhere. -/
theorem hot0_eq (t : BitVec 32) (r : Fin 10) :
    (((BitVec.setWidth 32 (IntOp.cmpi .eq t (BitVec.ofNat 32 r.val))).toInt : ℝ) : EReal) = Cert.Spec.hot t r := by
  have e1 : (BitVec.setWidth 32 (BitVec.ofBool true)).toInt = 1 := by decide
  have e0 : (BitVec.setWidth 32 (BitVec.ofBool false)).toInt = 0 := by decide
  show (((BitVec.setWidth 32 (BitVec.ofBool (t == BitVec.ofNat 32 r.val))).toInt : ℝ) : EReal) = if t = BitVec.ofNat 32 r.val then 1 else 0
  by_cases h : t = BitVec.ofNat 32 r.val
  · rw [if_pos h, show (t == BitVec.ofNat 32 r.val) = true from beq_iff_eq.mpr h, e1, Int.cast_one, EReal.coe_one]
  · rw [if_neg h, show (t == BitVec.ofNat 32 r.val) = false from beq_eq_false_iff_ne.mpr h, e0, Int.cast_zero, EReal.coe_zero]

/-- The body's payload at row p, lane q of the block: the tail entry, times the one-hot combination of the table's
    rows at lane q, times the row's scale. -/
theorem pay0_1_apply (v0 : Vec Ideal S4000x1 .i32) (v8 : Vec Ideal S10x64 .f32) (v11 : Vec Ideal S4000x64 .f32) (v14 : Vec Ideal S4000x1 .f32)
    (p : Fin 4000) (q : Fin 64) :
    k0_pay1 v0 v8 v11 v14 (ix2 p q)
      = v11 (ix2 p q) * Cert.Spec.relSum (fun r q => v8 (ix2 r q)) (v0 (ix2 p 0)) q * v14 (ix2 p 0) := by
  unfold k0_pay1
  simp only [shapeCast_self]
  rw [mulf_apply, mulf_apply, bcol0_apply]
  simp only [matmul]
  rw [Ideal.matmul_constant_zero_apply, PlainDot.sum_eq _ rfl rfl rfl rfl rfl rfl]
  refine congrArg (fun s => v11 (ix2 p q) * s * v14 (ix2 p 0)) (Finset.sum_congr rfl fun r _ => ?_)
  refine congrArg₂ (· * ·) ?_ rfl
  show (((BitVec.setWidth 32 (IntOp.cmpi .eq (broadcastTo S4000x10 v0 _ (ix2 p r)) (iota .tc S4000x10 32 [1] _ (ix2 p r)))).toInt : ℝ) : EReal) = _
  rw [bcol0_apply, iota_single_apply]
  exact hot0_eq _ r

/-- The output array as one function of the region-entry arrays, index by index. -/
def G0_4 (a0 : S1000000x64.Idx → EReal) (a1 : S1000000x1.Idx → BitVec 32) (a2 : S10x64.Idx → EReal) (a3 : S1000000x1.Idx → EReal) :
    S1000000x64.Idx → EReal :=
  fun i => Cert.Spec.edgeVal (fun e q => a0 (ix2 e q)) (fun e => a1 (ix2 e 0)) (fun r q => a2 (ix2 r q)) (fun e => a3 (ix2 e 0)) (i 0) (i 1)

/-- The printed index maps over the grid: the row-blocked windows move with the point, the table stays. -/
theorem idx_facts0 : ∀ t : Fin cfg0.N, win0_4.index t (0 : Fin 2) = t.val ∧ win0_4.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p, lane q of point t's block of a row-blocked window (0: the tail rows) is row 4000 t + p of its array. -/
theorem iblk0_0_eq (c : Dev nD) (t : Fin cfg0.N) (p : Fin 4000) (q : Fin 64) (hlt : t.val * 4000 + p.val < 1000000) :
    Frm.iblk0 V c 0 t (ix2 p q) = V c (Pipeline.arrRef spec0 0) (ix2 (⟨t.val * 4000 + p.val, hlt⟩ : Fin 1000000) q) := by
  obtain ⟨e40, e41, e00, e01, e10, e11, e20, e21, e30, e31⟩ := idx_facts0 t
  unfold Frm.iblk0
  rw [View.read_apply]
  show V c (Pipeline.arrRef spec0 0) _ = V c (Pipeline.arrRef spec0 0) _
  congr 1
  funext a
  apply Fin.ext
  match a with
  | ⟨0, _⟩ => show win0_0.index t (0 : Fin 2) * 4000 + 1 * p.val = t.val * 4000 + p.val; omega
  | ⟨1, _⟩ => show win0_0.index t (1 : Fin 2) * 64 + 1 * q.val = q.val; omega

/-- The same of window 1, the column of relation ids. -/
theorem iblk0_1_eq (c : Dev nD) (t : Fin cfg0.N) (p : Fin 4000) (hlt : t.val * 4000 + p.val < 1000000) :
    Frm.iblk0 V c 1 t (ix2 p (0 : Fin 1)) = V c (Pipeline.arrRef spec0 1) (ix2 (⟨t.val * 4000 + p.val, hlt⟩ : Fin 1000000) (0 : Fin 1)) := by
  obtain ⟨e40, e41, e00, e01, e10, e11, e20, e21, e30, e31⟩ := idx_facts0 t
  unfold Frm.iblk0
  rw [View.read_apply]
  show V c (Pipeline.arrRef spec0 1) _ = V c (Pipeline.arrRef spec0 1) _
  congr 1
  funext a
  apply Fin.ext
  match a with
  | ⟨0, _⟩ => show win0_1.index t (0 : Fin 2) * 4000 + 1 * p.val = t.val * 4000 + p.val; omega
  | ⟨1, _⟩ => show win0_1.index t (1 : Fin 2) * 1 + 1 * 0 = 0; omega

/-- Window 2's one block is the whole table at every point. -/
theorem iblk0_2_eq (c : Dev nD) (t : Fin cfg0.N) (r : Fin 10) (q : Fin 64) :
    Frm.iblk0 V c 2 t (ix2 r q) = V c (Pipeline.arrRef spec0 2) (ix2 r q) := by
  obtain ⟨e40, e41, e00, e01, e10, e11, e20, e21, e30, e31⟩ := idx_facts0 t
  unfold Frm.iblk0
  rw [View.read_apply]
  show V c (Pipeline.arrRef spec0 2) _ = V c (Pipeline.arrRef spec0 2) _
  congr 1
  funext a
  apply Fin.ext
  match a with
  | ⟨0, _⟩ => show win0_2.index t (0 : Fin 2) * 10 + 1 * r.val = r.val; omega
  | ⟨1, _⟩ => show win0_2.index t (1 : Fin 2) * 64 + 1 * q.val = q.val; omega

/-- The same of window 3, the column of per-edge scales. -/
theorem iblk0_3_eq (c : Dev nD) (t : Fin cfg0.N) (p : Fin 4000) (hlt : t.val * 4000 + p.val < 1000000) :
    Frm.iblk0 V c 3 t (ix2 p (0 : Fin 1)) = V c (Pipeline.arrRef spec0 3) (ix2 (⟨t.val * 4000 + p.val, hlt⟩ : Fin 1000000) (0 : Fin 1)) := by
  obtain ⟨e40, e41, e00, e01, e10, e11, e20, e21, e30, e31⟩ := idx_facts0 t
  unfold Frm.iblk0
  rw [View.read_apply]
  show V c (Pipeline.arrRef spec0 3) _ = V c (Pipeline.arrRef spec0 3) _
  congr 1
  funext a
  apply Fin.ext
  match a with
  | ⟨0, _⟩ => show win0_3.index t (0 : Fin 2) * 4000 + 1 * p.val = t.val * 4000 + p.val; omega
  | ⟨1, _⟩ => show win0_3.index t (1 : Fin 2) * 1 + 1 * 0 = 0; omega

set_option maxHeartbeats 1000000 in
/-- What point t writes back is block t of G0_4 of the region-entry arrays. -/
theorem flushed0_4_eq (c : Dev nD) (t : Fin cfg0.N) :
    (Frm.dat0 V c).flushed 4 t = ((cfg0.win 4).blk t).view.read (Elt Ideal)
      (G0_4 (V c (Pipeline.arrRef spec0 0)) (V c (Pipeline.arrRef spec0 1)) (V c (Pipeline.arrRef spec0 2)) (V c (Pipeline.arrRef spec0 3))) := by
  show (cfg0.win 4).cut (grid0.coords t) ((Frm.dat0 V c).after 4 t) = _
  rw [Frm.after0_4]
  unfold Frm.out0_4
  rw [View.canon_unit_zero hz0]
  simp only [View.ld_unit_zero (S := S4000x64) hz0, View.ld_unit_zero (S := S4000x1) hz0, View.ld_unit_zero (S := S10x64) hz0]
  obtain ⟨e40, e41, -⟩ := idx_facts0 t
  have hN : t.val < 250 := lt_of_lt_of_eq t.isLt N_0
  funext j
  obtain ⟨p, q, rfl⟩ : ∃ (p : Fin 4000) (q : Fin 64), j = ix2 p q := ⟨j 0, j 1, eq_ix2 j⟩
  have hp : p.val < 4000 := p.isLt
  have hq : q.val < 64 := q.isLt
  have hlt : t.val * 4000 + p.val < 1000000 := by omega
  have h4 : ((cfg0.win 4).blk t).view.emb (ix2 p q) = ix2 (⟨t.val * 4000 + p.val, hlt⟩ : Fin 1000000) q := by
    funext a; apply Fin.ext
    match a with
    | ⟨0, _⟩ => show win0_4.index t (0 : Fin 2) * 4000 + 1 * p.val = t.val * 4000 + p.val; omega
    | ⟨1, _⟩ => show win0_4.index t (1 : Fin 2) * 64 + 1 * q.val = q.val; omega
  show k0_pay1 (Frm.iblk0 V c 1 t) (Frm.iblk0 V c 2 t) (Frm.iblk0 V c 0 t) (Frm.iblk0 V c 3 t) (ix2 p q) = G0_4 _ _ _ _ (((cfg0.win 4).blk t).view.emb (ix2 p q))
  rw [pay0_1_apply, h4]
  have a0 := iblk0_0_eq V c t p q hlt
  have a1 := iblk0_1_eq V c t p hlt
  have a3 := iblk0_3_eq V c t p hlt
  have a2 : (fun (r : Fin 10) (q' : Fin 64) => Frm.iblk0 V c 2 t (ix2 r q')) = fun r q' => V c (Pipeline.arrRef spec0 2) (ix2 r q') :=
    funext fun r => funext fun q' => iblk0_2_eq V c t r q'
  unfold G0_4 Cert.Spec.edgeVal
  exact congrArg₂ (· * ·) (congrArg₂ (· * ·) a0 (congrArg₂ (fun w t => Cert.Spec.relSum w t q) a2 a1)) a3

/-- An index of the array is in point t's block iff each coordinate is in the block's range on its axis. -/
theorem mem_blk0_4 (t : Fin cfg0.N) (i : S1000000x64.Idx) :
    i ∈ ((cfg0.win 4).blk t).view.set ↔ ∀ a : Fin 2, win0_4.index t a * S4000x64.size a ≤ (i a).val ∧ (i a).val < win0_4.index t a * S4000x64.size a + S4000x64.size a := by
  show i ∈ ((View.whole (Pipeline.arrRef spec0 4)).slice (win0_4.rect t)).set ↔ _
  rw [View.set_slice_whole, Rect.mem_set_unit]
  exact Iff.rfl

/-- Every index of the array is in some point's block: row r is in the block of point r / 4000. -/
theorem covered0_4 (i : S1000000x64.Idx) : ∃ t : Fin cfg0.N, (cfg0.win 4).flush t = true ∧ i ∈ ((cfg0.win 4).blk t).view.set := by
  have hi0 : (i 0).val < 1000000 := (i 0).isLt
  have hi1 : (i 1).val < 64 := (i 1).isLt
  have ht : (i 0).val / 4000 < cfg0.N := by rw [show cfg0.N = 250 from N_0]; omega
  obtain ⟨e40, e41, -⟩ := idx_facts0 ⟨(i 0).val / 4000, ht⟩
  have e40' : win0_4.index ⟨(i 0).val / 4000, ht⟩ (0 : Fin 2) = (i 0).val / 4000 := e40
  refine ⟨⟨(i 0).val / 4000, ht⟩, flush0_4 _, ?_⟩
  rw [mem_blk0_4]
  intro a
  match a with
  | ⟨0, _⟩ =>
    show win0_4.index ⟨(i 0).val / 4000, ht⟩ (0 : Fin 2) * 4000 ≤ (i 0).val ∧ (i 0).val < win0_4.index ⟨(i 0).val / 4000, ht⟩ (0 : Fin 2) * 4000 + 4000
    omega
  | ⟨1, _⟩ =>
    show win0_4.index ⟨(i 0).val / 4000, ht⟩ (1 : Fin 2) * 64 ≤ (i 1).val ∧ (i 1).val < win0_4.index ⟨(i 0).val / 4000, ht⟩ (1 : Fin 2) * 64 + 64
    omega

/-- The output window's array after the region, as a function. -/
theorem final0_4_fun (c : Dev nD) : (Frm.dat0 V c).arrAt 4 cfg0.N
    = G0_4 (V c (Pipeline.arrRef spec0 0)) (V c (Pipeline.arrRef spec0 1)) (V c (Pipeline.arrRef spec0 2)) (V c (Pipeline.arrRef spec0 3)) :=
  (Frm.dat0 V c).arrAt_eq_of_cover 4 _ (fun t _ => flushed0_4_eq V c t) covered0_4

/-- The output window's array after the region, element by element: the edge message of the region-entry arrays. -/
theorem final0_4 (c : Dev nD) (e : Fin 1000000) (q : Fin 64) :
    ((Frm.dat0 V c).arrAt 4 cfg0.N : S1000000x64.Idx → EReal) (ix2 e q)
      = Cert.Spec.edgeVal (fun e q => (V c (Pipeline.arrRef spec0 0) : S1000000x64.Idx → EReal) (ix2 e q))
          (fun e => (V c (Pipeline.arrRef spec0 1) : S1000000x1.Idx → BitVec 32) (ix2 e 0))
          (fun r q => (V c (Pipeline.arrRef spec0 2) : S10x64.Idx → EReal) (ix2 r q))
          (fun e => (V c (Pipeline.arrRef spec0 3) : S1000000x1.Idx → EReal) (ix2 e 0)) e q := by
  exact congrFun (final0_4_fun V c) (ix2 e q)

end Cert.KernelIdeal.Val

end
-- ==== Proof.Val.K4.lean ====
/- The value of region 4 at the ideal instance: the output window's array after the region, element by element, is
   the edge message of the region-entry arrays: the tail row's entry, times the relation row that the one-hot
   combination of the ten table rows selects, times the per-edge scale. -/
import proofs.«416106_j13048110645352_1_alg».proof.Proof.KI.Body4
import proofs.«416106_j13048110645352_1_alg».proof.Proof.Val.Spec
import proofs.«416106_j13048110645352_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The zero offsets of a whole-block access. -/
theorem hz4 : (![0, 0] : Fin 2 → Nat) = fun _ => 0 := funext fun a => by fin_cases a <;> rfl

/-- A column [a,1] broadcast along the lanes to [a,b] reads, at (p, c), the column's row p. -/
theorem bcol4_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot coefficient: the comparison bit of the relation id against column r, widened and converted, is one on
    the id's own column and zero elsewhere. -/
theorem hot4_eq (t : BitVec 32) (r : Fin 10) :
    (((BitVec.setWidth 32 (IntOp.cmpi .eq t (BitVec.ofNat 32 r.val))).toInt : ℝ) : EReal) = Cert.Spec.hot t r := by
  have e1 : (BitVec.setWidth 32 (BitVec.ofBool true)).toInt = 1 := by decide
  have e0 : (BitVec.setWidth 32 (BitVec.ofBool false)).toInt = 0 := by decide
  show (((BitVec.setWidth 32 (BitVec.ofBool (t == BitVec.ofNat 32 r.val))).toInt : ℝ) : EReal) = if t = BitVec.ofNat 32 r.val then 1 else 0
  by_cases h : t = BitVec.ofNat 32 r.val
  · rw [if_pos h, show (t == BitVec.ofNat 32 r.val) = true from beq_iff_eq.mpr h, e1, Int.cast_one, EReal.coe_one]
  · rw [if_neg h, show (t == BitVec.ofNat 32 r.val) = false from beq_eq_false_iff_ne.mpr h, e0, Int.cast_zero, EReal.coe_zero]

/-- The body's payload at row p, lane q of the block: the tail entry, times the one-hot combination of the table's
    rows at lane q, times the row's scale. -/
theorem pay4_1_apply (v0 : Vec Ideal S4000x1 .i32) (v8 : Vec Ideal S10x64 .f32) (v11 : Vec Ideal S4000x64 .f32) (v14 : Vec Ideal S4000x1 .f32)
    (p : Fin 4000) (q : Fin 64) :
    k4_pay1 v0 v8 v11 v14 (ix2 p q)
      = v11 (ix2 p q) * Cert.Spec.relSum (fun r q => v8 (ix2 r q)) (v0 (ix2 p 0)) q * v14 (ix2 p 0) := by
  unfold k4_pay1
  simp only [shapeCast_self]
  rw [mulf_apply, mulf_apply, bcol4_apply]
  simp only [matmul]
  rw [Ideal.matmul_constant_zero_apply, PlainDot.sum_eq _ rfl rfl rfl rfl rfl rfl]
  refine congrArg (fun s => v11 (ix2 p q) * s * v14 (ix2 p 0)) (Finset.sum_congr rfl fun r _ => ?_)
  refine congrArg₂ (· * ·) ?_ rfl
  show (((BitVec.setWidth 32 (IntOp.cmpi .eq (broadcastTo S4000x10 v0 _ (ix2 p r)) (iota .tc S4000x10 32 [1] _ (ix2 p r)))).toInt : ℝ) : EReal) = _
  rw [bcol4_apply, iota_single_apply]
  exact hot4_eq _ r

/-- The output array as one function of the region-entry arrays, index by index. -/
def G4_4 (a0 : S1000000x64.Idx → EReal) (a1 : S1000000x1.Idx → BitVec 32) (a2 : S10x64.Idx → EReal) (a3 : S1000000x1.Idx → EReal) :
    S1000000x64.Idx → EReal :=
  fun i => Cert.Spec.edgeVal (fun e q => a0 (ix2 e q)) (fun e => a1 (ix2 e 0)) (fun r q => a2 (ix2 r q)) (fun e => a3 (ix2 e 0)) (i 0) (i 1)

/-- The printed index maps over the grid: the row-blocked windows move with the point, the table stays. -/
theorem idx_facts4 : ∀ t : Fin cfg4.N, win4_4.index t (0 : Fin 2) = t.val ∧ win4_4.index t (1 : Fin 2) = 0
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p, lane q of point t's block of a row-blocked window (0: the tail rows) is row 4000 t + p of its array. -/
theorem iblk4_0_eq (c : Dev nD) (t : Fin cfg4.N) (p : Fin 4000) (q : Fin 64) (hlt : t.val * 4000 + p.val < 1000000) :
    Frm.iblk4 V c 0 t (ix2 p q) = V c (Pipeline.arrRef spec4 0) (ix2 (⟨t.val * 4000 + p.val, hlt⟩ : Fin 1000000) q) := by
  obtain ⟨e40, e41, e00, e01, e10, e11, e20, e21, e30, e31⟩ := idx_facts4 t
  unfold Frm.iblk4
  rw [View.read_apply]
  show V c (Pipeline.arrRef spec4 0) _ = V c (Pipeline.arrRef spec4 0) _
  congr 1
  funext a
  apply Fin.ext
  match a with
  | ⟨0, _⟩ => show win4_0.index t (0 : Fin 2) * 4000 + 1 * p.val = t.val * 4000 + p.val; omega
  | ⟨1, _⟩ => show win4_0.index t (1 : Fin 2) * 64 + 1 * q.val = q.val; omega

/-- The same of window 1, the column of relation ids. -/
theorem iblk4_1_eq (c : Dev nD) (t : Fin cfg4.N) (p : Fin 4000) (hlt : t.val * 4000 + p.val < 1000000) :
    Frm.iblk4 V c 1 t (ix2 p (0 : Fin 1)) = V c (Pipeline.arrRef spec4 1) (ix2 (⟨t.val * 4000 + p.val, hlt⟩ : Fin 1000000) (0 : Fin 1)) := by
  obtain ⟨e40, e41, e00, e01, e10, e11, e20, e21, e30, e31⟩ := idx_facts4 t
  unfold Frm.iblk4
  rw [View.read_apply]
  show V c (Pipeline.arrRef spec4 1) _ = V c (Pipeline.arrRef spec4 1) _
  congr 1
  funext a
  apply Fin.ext
  match a with
  | ⟨0, _⟩ => show win4_1.index t (0 : Fin 2) * 4000 + 1 * p.val = t.val * 4000 + p.val; omega
  | ⟨1, _⟩ => show win4_1.index t (1 : Fin 2) * 1 + 1 * 0 = 0; omega

/-- Window 2's one block is the whole table at every point. -/
theorem iblk4_2_eq (c : Dev nD) (t : Fin cfg4.N) (r : Fin 10) (q : Fin 64) :
    Frm.iblk4 V c 2 t (ix2 r q) = V c (Pipeline.arrRef spec4 2) (ix2 r q) := by
  obtain ⟨e40, e41, e00, e01, e10, e11, e20, e21, e30, e31⟩ := idx_facts4 t
  unfold Frm.iblk4
  rw [View.read_apply]
  show V c (Pipeline.arrRef spec4 2) _ = V c (Pipeline.arrRef spec4 2) _
  congr 1
  funext a
  apply Fin.ext
  match a with
  | ⟨0, _⟩ => show win4_2.index t (0 : Fin 2) * 10 + 1 * r.val = r.val; omega
  | ⟨1, _⟩ => show win4_2.index t (1 : Fin 2) * 64 + 1 * q.val = q.val; omega

/-- The same of window 3, the column of per-edge scales. -/
theorem iblk4_3_eq (c : Dev nD) (t : Fin cfg4.N) (p : Fin 4000) (hlt : t.val * 4000 + p.val < 1000000) :
    Frm.iblk4 V c 3 t (ix2 p (0 : Fin 1)) = V c (Pipeline.arrRef spec4 3) (ix2 (⟨t.val * 4000 + p.val, hlt⟩ : Fin 1000000) (0 : Fin 1)) := by
  obtain ⟨e40, e41, e00, e01, e10, e11, e20, e21, e30, e31⟩ := idx_facts4 t
  unfold Frm.iblk4
  rw [View.read_apply]
  show V c (Pipeline.arrRef spec4 3) _ = V c (Pipeline.arrRef spec4 3) _
  congr 1
  funext a
  apply Fin.ext
  match a with
  | ⟨0, _⟩ => show win4_3.index t (0 : Fin 2) * 4000 + 1 * p.val = t.val * 4000 + p.val; omega
  | ⟨1, _⟩ => show win4_3.index t (1 : Fin 2) * 1 + 1 * 0 = 0; omega

set_option maxHeartbeats 1000000 in
/-- What point t writes back is block t of G4_4 of the region-entry arrays. -/
theorem flushed4_4_eq (c : Dev nD) (t : Fin cfg4.N) :
    (Frm.dat4 V c).flushed 4 t = ((cfg4.win 4).blk t).view.read (Elt Ideal)
      (G4_4 (V c (Pipeline.arrRef spec4 0)) (V c (Pipeline.arrRef spec4 1)) (V c (Pipeline.arrRef spec4 2)) (V c (Pipeline.arrRef spec4 3))) := by
  show (cfg4.win 4).cut (grid4.coords t) ((Frm.dat4 V c).after 4 t) = _
  rw [Frm.after4_4]
  unfold Frm.out4_4
  rw [View.canon_unit_zero hz4]
  simp only [View.ld_unit_zero (S := S4000x64) hz4, View.ld_unit_zero (S := S4000x1) hz4, View.ld_unit_zero (S := S10x64) hz4]
  obtain ⟨e40, e41, -⟩ := idx_facts4 t
  have hN : t.val < 250 := lt_of_lt_of_eq t.isLt N_4
  funext j
  obtain ⟨p, q, rfl⟩ : ∃ (p : Fin 4000) (q : Fin 64), j = ix2 p q := ⟨j 0, j 1, eq_ix2 j⟩
  have hp : p.val < 4000 := p.isLt
  have hq : q.val < 64 := q.isLt
  have hlt : t.val * 4000 + p.val < 1000000 := by omega
  have h4 : ((cfg4.win 4).blk t).view.emb (ix2 p q) = ix2 (⟨t.val * 4000 + p.val, hlt⟩ : Fin 1000000) q := by
    funext a; apply Fin.ext
    match a with
    | ⟨0, _⟩ => show win4_4.index t (0 : Fin 2) * 4000 + 1 * p.val = t.val * 4000 + p.val; omega
    | ⟨1, _⟩ => show win4_4.index t (1 : Fin 2) * 64 + 1 * q.val = q.val; omega
  show k4_pay1 (Frm.iblk4 V c 1 t) (Frm.iblk4 V c 2 t) (Frm.iblk4 V c 0 t) (Frm.iblk4 V c 3 t) (ix2 p q) = G4_4 _ _ _ _ (((cfg4.win 4).blk t).view.emb (ix2 p q))
  rw [pay4_1_apply, h4]
  have a0 := iblk4_0_eq V c t p q hlt
  have a1 := iblk4_1_eq V c t p hlt
  have a3 := iblk4_3_eq V c t p hlt
  have a2 : (fun (r : Fin 10) (q' : Fin 64) => Frm.iblk4 V c 2 t (ix2 r q')) = fun r q' => V c (Pipeline.arrRef spec4 2) (ix2 r q') :=
    funext fun r => funext fun q' => iblk4_2_eq V c t r q'
  unfold G4_4 Cert.Spec.edgeVal
  exact congrArg₂ (· * ·) (congrArg₂ (· * ·) a0 (congrArg₂ (fun w t => Cert.Spec.relSum w t q) a2 a1)) a3

/-- An index of the array is in point t's block iff each coordinate is in the block's range on its axis. -/
theorem mem_blk4_4 (t : Fin cfg4.N) (i : S1000000x64.Idx) :
    i ∈ ((cfg4.win 4).blk t).view.set ↔ ∀ a : Fin 2, win4_4.index t a * S4000x64.size a ≤ (i a).val ∧ (i a).val < win4_4.index t a * S4000x64.size a + S4000x64.size a := by
  show i ∈ ((View.whole (Pipeline.arrRef spec4 4)).slice (win4_4.rect t)).set ↔ _
  rw [View.set_slice_whole, Rect.mem_set_unit]
  exact Iff.rfl

/-- Every index of the array is in some point's block: row r is in the block of point r / 4000. -/
theorem covered4_4 (i : S1000000x64.Idx) : ∃ t : Fin cfg4.N, (cfg4.win 4).flush t = true ∧ i ∈ ((cfg4.win 4).blk t).view.set := by
  have hi0 : (i 0).val < 1000000 := (i 0).isLt
  have hi1 : (i 1).val < 64 := (i 1).isLt
  have ht : (i 0).val / 4000 < cfg4.N := by rw [show cfg4.N = 250 from N_4]; omega
  obtain ⟨e40, e41, -⟩ := idx_facts4 ⟨(i 0).val / 4000, ht⟩
  have e40' : win4_4.index ⟨(i 0).val / 4000, ht⟩ (0 : Fin 2) = (i 0).val / 4000 := e40
  refine ⟨⟨(i 0).val / 4000, ht⟩, flush4_4 _, ?_⟩
  rw [mem_blk4_4]
  intro a
  match a with
  | ⟨0, _⟩ =>
    show win4_4.index ⟨(i 0).val / 4000, ht⟩ (0 : Fin 2) * 4000 ≤ (i 0).val ∧ (i 0).val < win4_4.index ⟨(i 0).val / 4000, ht⟩ (0 : Fin 2) * 4000 + 4000
    omega
  | ⟨1, _⟩ =>
    show win4_4.index ⟨(i 0).val / 4000, ht⟩ (1 : Fin 2) * 64 ≤ (i 1).val ∧ (i 1).val < win4_4.index ⟨(i 0).val / 4000, ht⟩ (1 : Fin 2) * 64 + 64
    omega

/-- The output window's array after the region, as a function. -/
theorem final4_4_fun (c : Dev nD) : (Frm.dat4 V c).arrAt 4 cfg4.N
    = G4_4 (V c (Pipeline.arrRef spec4 0)) (V c (Pipeline.arrRef spec4 1)) (V c (Pipeline.arrRef spec4 2)) (V c (Pipeline.arrRef spec4 3)) :=
  (Frm.dat4 V c).arrAt_eq_of_cover 4 _ (fun t _ => flushed4_4_eq V c t) covered4_4

/-- The output window's array after the region, element by element: the edge message of the region-entry arrays. -/
theorem final4_4 (c : Dev nD) (e : Fin 1000000) (q : Fin 64) :
    ((Frm.dat4 V c).arrAt 4 cfg4.N : S1000000x64.Idx → EReal) (ix2 e q)
      = Cert.Spec.edgeVal (fun e q => (V c (Pipeline.arrRef spec4 0) : S1000000x64.Idx → EReal) (ix2 e q))
          (fun e => (V c (Pipeline.arrRef spec4 1) : S1000000x1.Idx → BitVec 32) (ix2 e 0))
          (fun r q => (V c (Pipeline.arrRef spec4 2) : S10x64.Idx → EReal) (ix2 r q))
          (fun e => (V c (Pipeline.arrRef spec4 3) : S1000000x1.Idx → EReal) (ix2 e 0)) e q := by
  exact congrFun (final4_4_fun V c) (ix2 e q)

end Cert.KernelIdeal.Val

end
-- ==== Proof.Val.K3.lean ====
/- Region 3's two output arrays after the region, element by element at the ideal instance: row n of the first is
   the aggregate's row n divided by its floored Euclidean norm, row n of the second the residual's row n plus that.
   The payloads at an index (a lane sum, a column cast, a column broadcast), each input block's row as a row of its
   array, what a point writes back as a block of one whole-array function, the cover of the rows by the points. -/
import proofs.«416106_j13048110645352_1_alg».proof.Proof.KI.Body3
import proofs.«416106_j13048110645352_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## Two layout operations read at an index -/

/-- An [a] array cast to [a, 1] reads, at (i, u), the operand at i, whatever the unit coordinate u. -/
theorem cast3_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem bcast3_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads at an index -/

/-- The source index over row p with lane k inserted is (p, k). -/
theorem lift3_row (p : Fin 4000) (k : Fin (S4000x64.size 1)) : (reduces_S4000x64_S4000).lift (ix1 p) k = ix2 p k := by
  funext a; apply Fin.ext
  match a with
  | ⟨0, _⟩ => rfl
  | ⟨1, _⟩ => rfl

/-- The lane sum of a block's squares at row p. -/
theorem rowSq3 (x : FVec Ideal S4000x64 .f32) (p : Fin 4000) :
    multiReduction (F := Ideal) .add [1] S4000 (mulf x x) 0x00000000#32 reduces_S4000x64_S4000 (.inl rfl) rfl (ix1 p)
      = ∑ k : Fin 64, x (ix2 p k) * x (ix2 p k) :=
  (Ideal.multiReduction_add_single (mulf x x) 0x00000000#32 reduces_S4000x64_S4000 (.inl rfl) rfl (ix1 p)).trans
    (Finset.sum_congr rfl fun k _ => congrArg (fun i => x i * x i) (lift3_row p k))

/-- The normalised block at (p, q): the row's entry over the row's floored norm. -/
theorem pay3_1_apply (x : Vec Ideal S4000x64 .f32) (p : Fin 4000) (q : Fin 64) :
    k3_pay1 (F := Ideal) x (ix2 p q) = Cert.Spec.normRow (fun k => x (ix2 p k)) q := by
  unfold k3_pay1
  simp only [shapeCast_self]
  rw [divf_apply, bcast3_col_apply, maximumf_apply, broadcast_apply]
  show Ideal.div _ (max (Ideal.sqrt (shapeCast S4000x1 _ _ (ix2 p (0 : Fin 1)))) _) = _
  rw [cast3_col_apply, rowSq3]
  rfl

/-- The accumulated block at (p, q): the residual's entry plus the normalised entry. -/
theorem pay3_2_apply (x y : Vec Ideal S4000x64 .f32) (p : Fin 4000) (q : Fin 64) :
    k3_pay2 (F := Ideal) x y (ix2 p q) = y (ix2 p q) + Cert.Spec.normRow (fun k => x (ix2 p k)) q := by
  rw [← pay3_1_apply]
  unfold k3_pay2
  first | rfl | (simp only [shapeCast_self]; rfl)

/-! ## From blocks to the arrays -/

section Region3
variable (V : (c : Dev nD) → (b : Ref sig .tc) → Buf (Elt Ideal) ((c : Thread nD τ).loc b))

/-- Input window 0's array (the aggregate) as the region finds it, by row and column. -/
def arr3_0 (c : Dev nD) (n : Fin 200000) (k : Fin 64) : EReal :=
  (V c (Pipeline.arrRef spec3 0) : S200000x64.Idx → EReal) (ix2 n k)

/-- Input window 1's array (the residual) as the region finds it, by row and column. -/
def arr3_1 (c : Dev nD) (n : Fin 200000) (k : Fin 64) : EReal :=
  (V c (Pipeline.arrRef spec3 1) : S200000x64.Idx → EReal) (ix2 n k)

/-- What output window 2's array ends holding: each row of the aggregate normalised. -/
def G3_2 (c : Dev nD) : S200000x64.Idx → EReal := fun i =>
  Cert.Spec.normRow (fun k => arr3_0 V c ⟨(i 0).val, idx2_lt0 i⟩ k) ⟨(i 1).val, idx2_lt1 i⟩

/-- What output window 3's array ends holding: the residual plus the normalised aggregate. -/
def G3_3 (c : Dev nD) : S200000x64.Idx → EReal := fun i =>
  arr3_1 V c ⟨(i 0).val, idx2_lt0 i⟩ ⟨(i 1).val, idx2_lt1 i⟩
    + Cert.Spec.normRow (fun k => arr3_0 V c ⟨(i 0).val, idx2_lt0 i⟩ k) ⟨(i 1).val, idx2_lt1 i⟩

theorem hz3 : (![0, 0] : Fin 2 → Nat) = fun _ => 0 := funext fun a => by fin_cases a <;> rfl

/-- The printed index maps, decided over the grid: every window's block index at point t is (t, 0). -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Row p of point t's block is a row of the array. -/
theorem row3_lt (t : Fin cfg3.N) (p : Fin 4000) : t.val * 4000 + p.val < 200000 := by
  have hN : cfg3.N = 50 := N_3
  have h1 := t.isLt
  have h2 := p.isLt
  omega

/-- Input window 0's block at point t, row p, is row 4000 t + p of the aggregate. -/
theorem iblk3_0_apply (c : Dev nD) (t : Fin cfg3.N) (p : Fin 4000) (k : Fin 64) :
    (Frm.iblk3 V c 0 t : S4000x64.Idx → EReal) (ix2 p k) = arr3_0 V c ⟨t.val * 4000 + p.val, row3_lt t p⟩ k := by
  obtain ⟨e0, e1, -⟩ := idx3 t
  unfold Frm.iblk3 arr3_0
  rw [View.read_apply]
  show V c (Pipeline.arrRef spec3 0) _ = V c (Pipeline.arrRef spec3 0) _
  congr 1
  funext a; apply Fin.ext
  match a with
  | ⟨0, _⟩ => show win3_0.index t (0 : Fin 2) * 4000 + 1 * p.val = t.val * 4000 + p.val; rw [e0]; omega
  | ⟨1, _⟩ => show win3_0.index t (1 : Fin 2) * 64 + 1 * k.val = k.val; rw [e1]; omega

/-- Input window 1's block at point t, row p, is row 4000 t + p of the residual. -/
theorem iblk3_1_apply (c : Dev nD) (t : Fin cfg3.N) (p : Fin 4000) (k : Fin 64) :
    (Frm.iblk3 V c 1 t : S4000x64.Idx → EReal) (ix2 p k) = arr3_1 V c ⟨t.val * 4000 + p.val, row3_lt t p⟩ k := by
  obtain ⟨-, -, e0, e1, -⟩ := idx3 t
  unfold Frm.iblk3 arr3_1
  rw [View.read_apply]
  show V c (Pipeline.arrRef spec3 1) _ = V c (Pipeline.arrRef spec3 1) _
  congr 1
  funext a; apply Fin.ext
  match a with
  | ⟨0, _⟩ => show win3_1.index t (0 : Fin 2) * 4000 + 1 * p.val = t.val * 4000 + p.val; rw [e0]; omega
  | ⟨1, _⟩ => show win3_1.index t (1 : Fin 2) * 64 + 1 * k.val = k.val; rw [e1]; omega

/-- Output window 2's block at point t sits at rows 4000 t … of its array. -/
theorem emb3_2 (t : Fin cfg3.N) (p : Fin 4000) (q : Fin 64) :
    (((cfg3.win 2).blk t).view.emb (ix2 p q) : S200000x64.Idx) = ix2 ⟨t.val * 4000 + p.val, row3_lt t p⟩ q := by
  obtain ⟨-, -, -, -, e0, e1, -⟩ := idx3 t
  funext a; apply Fin.ext
  match a with
  | ⟨0, _⟩ => show win3_2.index t (0 : Fin 2) * 4000 + 1 * p.val = t.val * 4000 + p.val; rw [e0]; omega
  | ⟨1, _⟩ => show win3_2.index t (1 : Fin 2) * 64 + 1 * q.val = q.val; rw [e1]; omega

/-- The same for output window 3. -/
theorem emb3_3 (t : Fin cfg3.N) (p : Fin 4000) (q : Fin 64) :
    (((cfg3.win 3).blk t).view.emb (ix2 p q) : S200000x64.Idx) = ix2 ⟨t.val * 4000 + p.val, row3_lt t p⟩ q := by
  obtain ⟨-, -, -, -, -, -, e0, e1⟩ := idx3 t
  funext a; apply Fin.ext
  match a with
  | ⟨0, _⟩ => show win3_3.index t (0 : Fin 2) * 4000 + 1 * p.val = t.val * 4000 + p.val; rw [e0]; omega
  | ⟨1, _⟩ => show win3_3.index t (1 : Fin 2) * 64 + 1 * q.val = q.val; rw [e1]; omega

/-- What point t writes back to window 2 is block t of G3_2. -/
theorem flushed3_2 (c : Dev nD) (t : Fin cfg3.N) :
    (Frm.dat3 V c).flushed 2 t = ((cfg3.win 2).blk t).view.read (Elt Ideal) (G3_2 V c) := by
  show (cfg3.win 2).cut (grid3.coords t) ((Frm.dat3 V c).after 2 t) = _
  rw [Frm.after3_2]
  unfold Frm.out3_2
  rw [View.canon_unit_zero hz3]
  simp only [View.ld_unit_zero (S := S4000x64) hz3]
  funext j
  obtain ⟨p, q, rfl⟩ : ∃ (p : Fin 4000) (q : Fin 64), j = ix2 p q := ⟨j 0, j 1, eq_ix2 j⟩
  show k3_pay1 (F := Ideal) (Frm.iblk3 V c 0 t) (ix2 p q) = G3_2 V c (((cfg3.win 2).blk t).view.emb (ix2 p q))
  rw [pay3_1_apply, emb3_2]
  unfold G3_2
  simp only [iblk3_0_apply]

/-- What point t writes back to window 3 is block t of G3_3. -/
theorem flushed3_3 (c : Dev nD) (t : Fin cfg3.N) :
    (Frm.dat3 V c).flushed 3 t = ((cfg3.win 3).blk t).view.read (Elt Ideal) (G3_3 V c) := by
  show (cfg3.win 3).cut (grid3.coords t) ((Frm.dat3 V c).after 3 t) = _
  rw [Frm.after3_3]
  unfold Frm.out3_3
  rw [View.canon_unit_zero hz3]
  simp only [View.ld_unit_zero (S := S4000x64) hz3]
  funext j
  obtain ⟨p, q, rfl⟩ : ∃ (p : Fin 4000) (q : Fin 64), j = ix2 p q := ⟨j 0, j 1, eq_ix2 j⟩
  show k3_pay2 (F := Ideal) (Frm.iblk3 V c 0 t) (Frm.iblk3 V c 1 t) (ix2 p q) = G3_3 V c (((cfg3.win 3).blk t).view.emb (ix2 p q))
  rw [pay3_2_apply, emb3_3]
  unfold G3_3
  simp only [iblk3_0_apply, iblk3_1_apply]

/-- An index of window 2's array is in point t's block iff each coordinate is in the block's range. -/
theorem mem_blk3_2 (t : Fin cfg3.N) (i : S200000x64.Idx) :
    i ∈ ((cfg3.win 2).blk t).view.set ↔ ∀ a : Fin 2, win3_2.index t a * S4000x64.size a ≤ (i a).val ∧ (i a).val < win3_2.index t a * S4000x64.size a + S4000x64.size a := by
  show i ∈ ((View.whole (Pipeline.arrRef spec3 2)).slice (win3_2.rect t)).set ↔ _
  rw [View.set_slice_whole, Rect.mem_set_unit]
  exact Iff.rfl

/-- The same for window 3. -/
theorem mem_blk3_3 (t : Fin cfg3.N) (i : S200000x64.Idx) :
    i ∈ ((cfg3.win 3).blk t).view.set ↔ ∀ a : Fin 2, win3_3.index t a * S4000x64.size a ≤ (i a).val ∧ (i a).val < win3_3.index t a * S4000x64.size a + S4000x64.size a := by
  show i ∈ ((View.whole (Pipeline.arrRef spec3 3)).slice (win3_3.rect t)).set ↔ _
  rw [View.set_slice_whole, Rect.mem_set_unit]
  exact Iff.rfl

/-- Row r of window 2's array is in the block of point r / 4000. -/
theorem cover3_2 (i : S200000x64.Idx) : ∃ t : Fin cfg3.N, (cfg3.win 2).flush t = true ∧ i ∈ ((cfg3.win 2).blk t).view.set := by
  have hN : cfg3.N = 50 := N_3
  have h0 : (i 0).val < 200000 := (i 0).isLt
  have h1 : (i 1).val < 64 := (i 1).isLt
  have ht : (i 0).val / 4000 < cfg3.N := by rw [hN]; omega
  obtain ⟨-, -, -, -, e0, e1, -⟩ := idx3 ⟨(i 0).val / 4000, ht⟩
  refine ⟨⟨(i 0).val / 4000, ht⟩, flush3_2 _, ?_⟩
  rw [mem_blk3_2]
  intro a
  match a with
  | ⟨0, _⟩ =>
    show win3_2.index ⟨(i 0).val / 4000, ht⟩ (0 : Fin 2) * 4000 ≤ (i 0).val ∧ (i 0).val < win3_2.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win3_2.index ⟨(i 0).val / 4000, ht⟩ (1 : Fin 2) * 64 ≤ (i 1).val ∧ (i 1).val < win3_2.index ⟨(i 0).val / 4000, ht⟩ (1 : Fin 2) * 64 + 64
    rw [e1]; omega

/-- The same for window 3. -/
theorem cover3_3 (i : S200000x64.Idx) : ∃ t : Fin cfg3.N, (cfg3.win 3).flush t = true ∧ i ∈ ((cfg3.win 3).blk t).view.set := by
  have hN : cfg3.N = 50 := N_3
  have h0 : (i 0).val < 200000 := (i 0).isLt
  have h1 : (i 1).val < 64 := (i 1).isLt
  have ht : (i 0).val / 4000 < cfg3.N := by rw [hN]; omega
  obtain ⟨-, -, -, -, -, -, e0, e1⟩ := idx3 ⟨(i 0).val / 4000, ht⟩
  refine ⟨⟨(i 0).val / 4000, ht⟩, flush3_3 _, ?_⟩
  rw [mem_blk3_3]
  intro a
  match a with
  | ⟨0, _⟩ =>
    show win3_3.index ⟨(i 0).val / 4000, ht⟩ (0 : Fin 2) * 4000 ≤ (i 0).val ∧ (i 0).val < win3_3.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win3_3.index ⟨(i 0).val / 4000, ht⟩ (1 : Fin 2) * 64 ≤ (i 1).val ∧ (i 1).val < win3_3.index ⟨(i 0).val / 4000, ht⟩ (1 : Fin 2) * 64 + 64
    rw [e1]; omega

/-- Output window 2's array after the region, at row n and column q: the aggregate's row n, normalised. -/
theorem final3_2 (c : Dev nD) (n : Fin 200000) (q : Fin 64) :
    ((Frm.dat3 V c).arrAt 2 cfg3.N : S200000x64.Idx → EReal) (ix2 n q) = Cert.Spec.normRow (fun k => arr3_0 V c n k) q :=
  congrFun ((Frm.dat3 V c).arrAt_eq_of_cover 2 (G3_2 V c) (fun t _ => flushed3_2 V c t) cover3_2) (ix2 n q)

/-- Output window 3's array after the region, at row n and column q: the residual's entry plus the normalised aggregate's. -/
theorem final3_3 (c : Dev nD) (n : Fin 200000) (q : Fin 64) :
    ((Frm.dat3 V c).arrAt 3 cfg3.N : S200000x64.Idx → EReal) (ix2 n q) = arr3_1 V c n q + Cert.Spec.normRow (fun k => arr3_0 V c n k) q :=
  congrFun ((Frm.dat3 V c).arrAt_eq_of_cover 3 (G3_3 V c) (fun t _ => flushed3_3 V c t) cover3_3) (ix2 n q)

end Region3

end Cert.KernelIdeal.Val

end
-- ==== Proof.Val.K7.lean ====
/- Region 7's two output arrays after the region, element by element at the ideal instance: row n of the first is
   the aggregate's row n divided by its floored Euclidean norm, row n of the second the residual's row n plus that.
   The payloads at an index (a lane sum, a column cast, a column broadcast), each input block's row as a row of its
   array, what a point writes back as a block of one whole-array function, the cover of the rows by the points. -/
import proofs.«416106_j13048110645352_1_alg».proof.Proof.KI.Body7
import proofs.«416106_j13048110645352_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## Two layout operations read at an index -/

/-- An [a] array cast to [a, 1] reads, at (i, u), the operand at i, whatever the unit coordinate u. -/
theorem cast7_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem bcast7_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads at an index -/

/-- The source index over row p with lane k inserted is (p, k). -/
theorem lift7_row (p : Fin 4000) (k : Fin (S4000x64.size 1)) : (reduces_S4000x64_S4000).lift (ix1 p) k = ix2 p k := by
  funext a; apply Fin.ext
  match a with
  | ⟨0, _⟩ => rfl
  | ⟨1, _⟩ => rfl

/-- The lane sum of a block's squares at row p. -/
theorem rowSq7 (x : FVec Ideal S4000x64 .f32) (p : Fin 4000) :
    multiReduction (F := Ideal) .add [1] S4000 (mulf x x) 0x00000000#32 reduces_S4000x64_S4000 (.inl rfl) rfl (ix1 p)
      = ∑ k : Fin 64, x (ix2 p k) * x (ix2 p k) :=
  (Ideal.multiReduction_add_single (mulf x x) 0x00000000#32 reduces_S4000x64_S4000 (.inl rfl) rfl (ix1 p)).trans
    (Finset.sum_congr rfl fun k _ => congrArg (fun i => x i * x i) (lift7_row p k))

/-- The normalised block at (p, q): the row's entry over the row's floored norm. -/
theorem pay7_1_apply (x : Vec Ideal S4000x64 .f32) (p : Fin 4000) (q : Fin 64) :
    k7_pay1 (F := Ideal) x (ix2 p q) = Cert.Spec.normRow (fun k => x (ix2 p k)) q := by
  unfold k7_pay1
  simp only [shapeCast_self]
  rw [divf_apply, bcast7_col_apply, maximumf_apply, broadcast_apply]
  show Ideal.div _ (max (Ideal.sqrt (shapeCast S4000x1 _ _ (ix2 p (0 : Fin 1)))) _) = _
  rw [cast7_col_apply, rowSq7]
  rfl

/-- The accumulated block at (p, q): the residual's entry plus the normalised entry. -/
theorem pay7_2_apply (x y : Vec Ideal S4000x64 .f32) (p : Fin 4000) (q : Fin 64) :
    k7_pay2 (F := Ideal) x y (ix2 p q) = y (ix2 p q) + Cert.Spec.normRow (fun k => x (ix2 p k)) q := by
  rw [← pay7_1_apply]
  unfold k7_pay2
  first | rfl | (simp only [shapeCast_self]; rfl)

/-! ## From blocks to the arrays -/

section Region7
variable (V : (c : Dev nD) → (b : Ref sig .tc) → Buf (Elt Ideal) ((c : Thread nD τ).loc b))

/-- Input window 0's array (the aggregate) as the region finds it, by row and column. -/
def arr7_0 (c : Dev nD) (n : Fin 200000) (k : Fin 64) : EReal :=
  (V c (Pipeline.arrRef spec7 0) : S200000x64.Idx → EReal) (ix2 n k)

/-- Input window 1's array (the residual) as the region finds it, by row and column. -/
def arr7_1 (c : Dev nD) (n : Fin 200000) (k : Fin 64) : EReal :=
  (V c (Pipeline.arrRef spec7 1) : S200000x64.Idx → EReal) (ix2 n k)

/-- What output window 2's array ends holding: each row of the aggregate normalised. -/
def G7_2 (c : Dev nD) : S200000x64.Idx → EReal := fun i =>
  Cert.Spec.normRow (fun k => arr7_0 V c ⟨(i 0).val, idx2_lt0 i⟩ k) ⟨(i 1).val, idx2_lt1 i⟩

/-- What output window 3's array ends holding: the residual plus the normalised aggregate. -/
def G7_3 (c : Dev nD) : S200000x64.Idx → EReal := fun i =>
  arr7_1 V c ⟨(i 0).val, idx2_lt0 i⟩ ⟨(i 1).val, idx2_lt1 i⟩
    + Cert.Spec.normRow (fun k => arr7_0 V c ⟨(i 0).val, idx2_lt0 i⟩ k) ⟨(i 1).val, idx2_lt1 i⟩

theorem hz7 : (![0, 0] : Fin 2 → Nat) = fun _ => 0 := funext fun a => by fin_cases a <;> rfl

/-- The printed index maps, decided over the grid: every window's block index at point t is (t, 0). -/
theorem idx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

/-- Row p of point t's block is a row of the array. -/
theorem row7_lt (t : Fin cfg7.N) (p : Fin 4000) : t.val * 4000 + p.val < 200000 := by
  have hN : cfg7.N = 50 := N_7
  have h1 := t.isLt
  have h2 := p.isLt
  omega

/-- Input window 0's block at point t, row p, is row 4000 t + p of the aggregate. -/
theorem iblk7_0_apply (c : Dev nD) (t : Fin cfg7.N) (p : Fin 4000) (k : Fin 64) :
    (Frm.iblk7 V c 0 t : S4000x64.Idx → EReal) (ix2 p k) = arr7_0 V c ⟨t.val * 4000 + p.val, row7_lt t p⟩ k := by
  obtain ⟨e0, e1, -⟩ := idx7 t
  unfold Frm.iblk7 arr7_0
  rw [View.read_apply]
  show V c (Pipeline.arrRef spec7 0) _ = V c (Pipeline.arrRef spec7 0) _
  congr 1
  funext a; apply Fin.ext
  match a with
  | ⟨0, _⟩ => show win7_0.index t (0 : Fin 2) * 4000 + 1 * p.val = t.val * 4000 + p.val; rw [e0]; omega
  | ⟨1, _⟩ => show win7_0.index t (1 : Fin 2) * 64 + 1 * k.val = k.val; rw [e1]; omega

/-- Input window 1's block at point t, row p, is row 4000 t + p of the residual. -/
theorem iblk7_1_apply (c : Dev nD) (t : Fin cfg7.N) (p : Fin 4000) (k : Fin 64) :
    (Frm.iblk7 V c 1 t : S4000x64.Idx → EReal) (ix2 p k) = arr7_1 V c ⟨t.val * 4000 + p.val, row7_lt t p⟩ k := by
  obtain ⟨-, -, e0, e1, -⟩ := idx7 t
  unfold Frm.iblk7 arr7_1
  rw [View.read_apply]
  show V c (Pipeline.arrRef spec7 1) _ = V c (Pipeline.arrRef spec7 1) _
  congr 1
  funext a; apply Fin.ext
  match a with
  | ⟨0, _⟩ => show win7_1.index t (0 : Fin 2) * 4000 + 1 * p.val = t.val * 4000 + p.val; rw [e0]; omega
  | ⟨1, _⟩ => show win7_1.index t (1 : Fin 2) * 64 + 1 * k.val = k.val; rw [e1]; omega

/-- Output window 2's block at point t sits at rows 4000 t … of its array. -/
theorem emb7_2 (t : Fin cfg7.N) (p : Fin 4000) (q : Fin 64) :
    (((cfg7.win 2).blk t).view.emb (ix2 p q) : S200000x64.Idx) = ix2 ⟨t.val * 4000 + p.val, row7_lt t p⟩ q := by
  obtain ⟨-, -, -, -, e0, e1, -⟩ := idx7 t
  funext a; apply Fin.ext
  match a with
  | ⟨0, _⟩ => show win7_2.index t (0 : Fin 2) * 4000 + 1 * p.val = t.val * 4000 + p.val; rw [e0]; omega
  | ⟨1, _⟩ => show win7_2.index t (1 : Fin 2) * 64 + 1 * q.val = q.val; rw [e1]; omega

/-- The same for output window 3. -/
theorem emb7_3 (t : Fin cfg7.N) (p : Fin 4000) (q : Fin 64) :
    (((cfg7.win 3).blk t).view.emb (ix2 p q) : S200000x64.Idx) = ix2 ⟨t.val * 4000 + p.val, row7_lt t p⟩ q := by
  obtain ⟨-, -, -, -, -, -, e0, e1⟩ := idx7 t
  funext a; apply Fin.ext
  match a with
  | ⟨0, _⟩ => show win7_3.index t (0 : Fin 2) * 4000 + 1 * p.val = t.val * 4000 + p.val; rw [e0]; omega
  | ⟨1, _⟩ => show win7_3.index t (1 : Fin 2) * 64 + 1 * q.val = q.val; rw [e1]; omega

/-- What point t writes back to window 2 is block t of G7_2. -/
theorem flushed7_2 (c : Dev nD) (t : Fin cfg7.N) :
    (Frm.dat7 V c).flushed 2 t = ((cfg7.win 2).blk t).view.read (Elt Ideal) (G7_2 V c) := by
  show (cfg7.win 2).cut (grid7.coords t) ((Frm.dat7 V c).after 2 t) = _
  rw [Frm.after7_2]
  unfold Frm.out7_2
  rw [View.canon_unit_zero hz7]
  simp only [View.ld_unit_zero (S := S4000x64) hz7]
  funext j
  obtain ⟨p, q, rfl⟩ : ∃ (p : Fin 4000) (q : Fin 64), j = ix2 p q := ⟨j 0, j 1, eq_ix2 j⟩
  show k7_pay1 (F := Ideal) (Frm.iblk7 V c 0 t) (ix2 p q) = G7_2 V c (((cfg7.win 2).blk t).view.emb (ix2 p q))
  rw [pay7_1_apply, emb7_2]
  unfold G7_2
  simp only [iblk7_0_apply]

/-- What point t writes back to window 3 is block t of G7_3. -/
theorem flushed7_3 (c : Dev nD) (t : Fin cfg7.N) :
    (Frm.dat7 V c).flushed 3 t = ((cfg7.win 3).blk t).view.read (Elt Ideal) (G7_3 V c) := by
  show (cfg7.win 3).cut (grid7.coords t) ((Frm.dat7 V c).after 3 t) = _
  rw [Frm.after7_3]
  unfold Frm.out7_3
  rw [View.canon_unit_zero hz7]
  simp only [View.ld_unit_zero (S := S4000x64) hz7]
  funext j
  obtain ⟨p, q, rfl⟩ : ∃ (p : Fin 4000) (q : Fin 64), j = ix2 p q := ⟨j 0, j 1, eq_ix2 j⟩
  show k7_pay2 (F := Ideal) (Frm.iblk7 V c 0 t) (Frm.iblk7 V c 1 t) (ix2 p q) = G7_3 V c (((cfg7.win 3).blk t).view.emb (ix2 p q))
  rw [pay7_2_apply, emb7_3]
  unfold G7_3
  simp only [iblk7_0_apply, iblk7_1_apply]

/-- An index of window 2's array is in point t's block iff each coordinate is in the block's range. -/
theorem mem_blk7_2 (t : Fin cfg7.N) (i : S200000x64.Idx) :
    i ∈ ((cfg7.win 2).blk t).view.set ↔ ∀ a : Fin 2, win7_2.index t a * S4000x64.size a ≤ (i a).val ∧ (i a).val < win7_2.index t a * S4000x64.size a + S4000x64.size a := by
  show i ∈ ((View.whole (Pipeline.arrRef spec7 2)).slice (win7_2.rect t)).set ↔ _
  rw [View.set_slice_whole, Rect.mem_set_unit]
  exact Iff.rfl

/-- The same for window 3. -/
theorem mem_blk7_3 (t : Fin cfg7.N) (i : S200000x64.Idx) :
    i ∈ ((cfg7.win 3).blk t).view.set ↔ ∀ a : Fin 2, win7_3.index t a * S4000x64.size a ≤ (i a).val ∧ (i a).val < win7_3.index t a * S4000x64.size a + S4000x64.size a := by
  show i ∈ ((View.whole (Pipeline.arrRef spec7 3)).slice (win7_3.rect t)).set ↔ _
  rw [View.set_slice_whole, Rect.mem_set_unit]
  exact Iff.rfl

/-- Row r of window 2's array is in the block of point r / 4000. -/
theorem cover7_2 (i : S200000x64.Idx) : ∃ t : Fin cfg7.N, (cfg7.win 2).flush t = true ∧ i ∈ ((cfg7.win 2).blk t).view.set := by
  have hN : cfg7.N = 50 := N_7
  have h0 : (i 0).val < 200000 := (i 0).isLt
  have h1 : (i 1).val < 64 := (i 1).isLt
  have ht : (i 0).val / 4000 < cfg7.N := by rw [hN]; omega
  obtain ⟨-, -, -, -, e0, e1, -⟩ := idx7 ⟨(i 0).val / 4000, ht⟩
  refine ⟨⟨(i 0).val / 4000, ht⟩, flush7_2 _, ?_⟩
  rw [mem_blk7_2]
  intro a
  match a with
  | ⟨0, _⟩ =>
    show win7_2.index ⟨(i 0).val / 4000, ht⟩ (0 : Fin 2) * 4000 ≤ (i 0).val ∧ (i 0).val < win7_2.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win7_2.index ⟨(i 0).val / 4000, ht⟩ (1 : Fin 2) * 64 ≤ (i 1).val ∧ (i 1).val < win7_2.index ⟨(i 0).val / 4000, ht⟩ (1 : Fin 2) * 64 + 64
    rw [e1]; omega

/-- The same for window 3. -/
theorem cover7_3 (i : S200000x64.Idx) : ∃ t : Fin cfg7.N, (cfg7.win 3).flush t = true ∧ i ∈ ((cfg7.win 3).blk t).view.set := by
  have hN : cfg7.N = 50 := N_7
  have h0 : (i 0).val < 200000 := (i 0).isLt
  have h1 : (i 1).val < 64 := (i 1).isLt
  have ht : (i 0).val / 4000 < cfg7.N := by rw [hN]; omega
  obtain ⟨-, -, -, -, -, -, e0, e1⟩ := idx7 ⟨(i 0).val / 4000, ht⟩
  refine ⟨⟨(i 0).val / 4000, ht⟩, flush7_3 _, ?_⟩
  rw [mem_blk7_3]
  intro a
  match a with
  | ⟨0, _⟩ =>
    show win7_3.index ⟨(i 0).val / 4000, ht⟩ (0 : Fin 2) * 4000 ≤ (i 0).val ∧ (i 0).val < win7_3.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win7_3.index ⟨(i 0).val / 4000, ht⟩ (1 : Fin 2) * 64 ≤ (i 1).val ∧ (i 1).val < win7_3.index ⟨(i 0).val / 4000, ht⟩ (1 : Fin 2) * 64 + 64
    rw [e1]; omega

/-- Output window 2's array after the region, at row n and column q: the aggregate's row n, normalised. -/
theorem final7_2 (c : Dev nD) (n : Fin 200000) (q : Fin 64) :
    ((Frm.dat7 V c).arrAt 2 cfg7.N : S200000x64.Idx → EReal) (ix2 n q) = Cert.Spec.normRow (fun k => arr7_0 V c n k) q :=
  congrFun ((Frm.dat7 V c).arrAt_eq_of_cover 2 (G7_2 V c) (fun t _ => flushed7_2 V c t) cover7_2) (ix2 n q)

/-- Output window 3's array after the region, at row n and column q: the residual's entry plus the normalised aggregate's. -/
theorem final7_3 (c : Dev nD) (n : Fin 200000) (q : Fin 64) :
    ((Frm.dat7 V c).arrAt 3 cfg7.N : S200000x64.Idx → EReal) (ix2 n q) = arr7_1 V c n q + Cert.Spec.normRow (fun k => arr7_0 V c n k) q :=
  congrFun ((Frm.dat7 V c).arrAt_eq_of_cover 3 (G7_3 V c) (fun t _ => flushed7_3 V c t) cover7_3) (ix2 n q)

end Region7

end Cert.KernelIdeal.Val

end
-- ==== Proof.Val.Agg.lean ====
/- The aggregation step both programs share, read element by element over the extended reals: what a row gather
   and an accumulating scatter of these extents hold at one element, and the identity that lets an edge message be
   weighted by its head's inverse degree before the sum over a head's edges instead of after. -/
import proofs.«416106_j13048110645352_1_alg».proof.KernelIdeal
import proofs.«416106_j13048110645352_1_alg».proof.ReferenceIdeal
import proofs.«416106_j13048110645352_1_alg».proof.Proof.Val.Spec
import Idealize.ShloMosaic.PureOps.Ideal
import Idealize.ShloMosaic.PureOps.Ideal.Laws
import Idealize.ShloMosaic.Lib.ValueIdx
import Idealize.ShloMosaic.Lib.StableHlo.Predicate
import Mathlib.Data.EReal.Operations
import Mathlib.Data.EReal.Inv

noncomputable section

namespace Cert.Agg

open Idealize.ShloMosaic Idealize.ShloMosaic.ValueIdx
open scoped BigOperators

/-! ## Lists and kept axes -/

/-- Every entry of a one-element list is that element. -/
theorem getElem_of_eq_singleton {β : Type} {l : List β} {a : β} (hl : l = [a]) (k : Nat) (hk : k < l.length) :
    l[k]'hk = a := by
  subst hl
  have hk0 : k = 0 := by simpa using hk
  subst hk0
  rfl

/-! ## A row gather read at one element (any extents)

Rows of an [N, C] table gathered at an [E, 1] column of start indices, one row per index: the operand index of result
element (e, q) is the start index of e, read signed and clamped so that one row fits, on the row axis, and q on the
column axis. -/

section Ga
variable {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)

include hoff hivd in
theorem ga_siIdx (j : (⟨2, ![E, C]⟩ : Shape).Idx) (c : Fin d.startIndexMap.length) (hc : c.val = 0) :
    d.siIdx j c = ix2 (⟨(j 0).val, idx2_lt0 j⟩ : Fin E) (0 : Fin 1) := by
  have hB : d.batchDims = [0] := by
    show (⟨2, ![E, C]⟩ : Shape).kept d.offsetDims = [0]
    rw [hoff]; rfl
  funext b
  match b with
  | ⟨0, _⟩ =>
    unfold GatherDims.siIdx
    rw [dif_neg (by rw [hivd]; show ¬ (0 : Nat) = 1; omega)]
    unfold GatherDims.siCoord
    apply Fin.ext
    simp only [Fin.val_cast]
    exact congrArg (fun a => (j a).val) (getElem_of_eq_singleton hB _ _)
  | ⟨1, _⟩ =>
    unfold GatherDims.siIdx
    rw [dif_pos (by rw [hivd])]
    apply Fin.ext
    exact hc

include hoff hcoll hsim hivd in
theorem ga_start0 (j : (⟨2, ![E, C]⟩ : Shape).Idx) (idx : IVec ⟨2, ![E, 1]⟩ w) :
    d.start j idx 0 = min (idx (ix2 (⟨(j 0).val, idx2_lt0 j⟩ : Fin E) (0 : Fin 1))).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, ga_siIdx d hoff hivd j _ (by show List.idxOf (0 : Fin 2) d.startIndexMap = 0; rw [hsim]; simp), hsl]
  rfl

include hsim in
theorem ga_start1 (j : (⟨2, ![E, C]⟩ : Shape).Idx) (idx : IVec ⟨2, ![E, 1]⟩ w) : d.start j idx 1 = 0 := by
  have hm : (1 : Fin 2) ∉ d.startIndexMap := by rw [hsim]; simp
  unfold GatherDims.start
  rw [dif_neg hm]

include hob in
theorem ga_batch (j : (⟨2, ![E, C]⟩ : Shape).Idx) (a : Fin 2) : d.batchCoord j a = 0 :=
  d.batchCoord_eq_zero j a (by rw [hob]; exact List.not_mem_nil)

include hcoll in
theorem ga_off0 (j : (⟨2, ![E, C]⟩ : Shape).Idx) : d.offCoord j 0 = 0 :=
  d.offCoord_eq_zero j 0 (fun h => ((d.mem_sKept 0).1 h).1 (by rw [hcoll]; exact List.mem_singleton.mpr rfl))

include hoff hcoll hob in
theorem ga_off1 (j : (⟨2, ![E, C]⟩ : Shape).Idx) : d.offCoord j 1 = (j 1).val := by
  have hm : (1 : Fin 2) ∈ d.sKept := (d.mem_sKept 1).2 ⟨by rw [hcoll]; simp, by rw [hob]; exact List.not_mem_nil⟩
  unfold GatherDims.offCoord
  rw [dif_pos hm]
  exact congrArg (fun a => (j a).val) (getElem_of_eq_singleton hoff _ _)

include hoff hcoll hob hsim hivd in
theorem gather_rows_apply (hN : 0 < N)
    (x : (⟨2, ![N, C]⟩ : Shape).Idx → α) (idx : IVec ⟨2, ![E, 1]⟩ w) (e : Fin E) (q : Fin C) :
    Host.gather d x idx (ix2 e q) = x (ix2 (⟨min (idx (ix2 e 0)).toInt.toNat (N - 1), by omega⟩ : Fin N) q) := by
  unfold Host.gather
  congr 1
  funext a
  match a with
  | ⟨0, _⟩ =>
    apply Fin.ext
    show d.start (ix2 e q) idx 0 + d.batchCoord (ix2 e q) 0 + d.offCoord (ix2 e q) 0 = _
    rw [ga_start0 d hoff hcoll hsim hivd, ga_batch d hob, ga_off0 d hcoll]
    rfl
  | ⟨1, _⟩ =>
    apply Fin.ext
    show d.start (ix2 e q) idx 1 + d.batchCoord (ix2 e q) 1 + d.offCoord (ix2 e q) 1 = _
    rw [ga_start1 d hsim, ga_batch d hob, ga_off1 d hoff hcoll hob]
    show 0 + 0 + q.val = q.val
    omega

end Ga

theorem ofFin_eq_ix1 {n : Nat} (k : Fin n) : Shape.Idx.ofFin k = ix1 k := by
  funext a
  match a with
  | ⟨0, _⟩ => rfl

theorem ixP_eq_ix2 {n : Nat} (p : Fin n) : StableHlo.Predicate.ixP p = ix2 p (0 : Fin 1) := by
  funext a
  match a with
  | ⟨0, _⟩ => rfl
  | ⟨1, _⟩ => rfl

theorem gather_vec_apply {α : Type} {N E w : Nat} (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1) (hN : 0 < N)
    (x : (⟨1, ![N]⟩ : Shape).Idx → α) (idx : IVec ⟨2, ![E, 1]⟩ w) (e : Fin E) :
    Host.gather d x idx (ix1 e) = x (ix1 (⟨min (idx (ix2 e 0)).toInt.toNat (N - 1), by omega⟩ : Fin N)) := by
  have h := StableHlo.Predicate.gather_take d hcoll hob hsim hivd x idx e hN
  simpa only [ofFin_eq_ix1, ixP_eq_ix2] using h

/-! ## An accumulating scatter of rows read at one element (any extents)

An update element (e, c) lands on row `idx e`, read signed and not clamped, and column c; it is dropped when that row is
outside the array. So element (n, q) gains exactly the updates (e, q) with `idx e = n`: the sum over update indices is
re-indexed to a sum over the edges e, the column fixed by the window coordinate. -/

section Sc
variable {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
include huw hivd in
theorem sc_siIdx (j : (⟨2, ![E, C]⟩ : Shape).Idx) (c : Fin d.scatterDimsToOperandDims.length)
    (hc : c.val = 0) :
    d.siIdx j c = ix2 (⟨(j 0).val, idx2_lt0 j⟩ : Fin E) (0 : Fin 1) := by
  have hU : d.uScatter = [0] := by
    show (⟨2, ![E, C]⟩ : Shape).kept d.updateWindowDims = [0]
    rw [huw]; rfl
  funext b
  match b with
  | ⟨0, _⟩ =>
    unfold ScatterDims.siIdx
    rw [dif_neg (by rw [hivd]; show ¬ (0 : Nat) = 1; omega)]
    unfold ScatterDims.siCoord
    apply Fin.ext
    simp only [Fin.val_cast]
    exact congrArg (fun a => (j a).val) (getElem_of_eq_singleton hU _ _)
  | ⟨1, _⟩ =>
    unfold ScatterDims.siIdx
    rw [dif_pos (by rw [hivd])]
    apply Fin.ext
    exact hc

include huw hsd hivd in
theorem sc_start0 (j : (⟨2, ![E, C]⟩ : Shape).Idx) (idx : IVec ⟨2, ![E, 1]⟩ w) :
    d.start j idx 0 = (idx (ix2 (⟨(j 0).val, idx2_lt0 j⟩ : Fin E) (0 : Fin 1))).toInt := by
  have hm : (0 : Fin 2) ∈ d.scatterDimsToOperandDims := by rw [hsd]; exact List.mem_singleton.mpr rfl
  unfold ScatterDims.start
  rw [dif_pos hm, sc_siIdx d huw hivd j _ (by show List.idxOf (0 : Fin 2) d.scatterDimsToOperandDims = 0; rw [hsd]; simp)]

include hsd in
theorem sc_start1 (j : (⟨2, ![E, C]⟩ : Shape).Idx) (idx : IVec ⟨2, ![E, 1]⟩ w) : d.start j idx 1 = 0 := by
  have hm : (1 : Fin 2) ∉ d.scatterDimsToOperandDims := by rw [hsd]; simp
  unfold ScatterDims.start
  rw [dif_neg hm]

include hiw in
theorem sc_window0 (j : (⟨2, ![E, C]⟩ : Shape).Idx) : d.window j 0 = 0 := by
  have hK : d.sKept = [1] := by
    show (⟨2, ![N, C]⟩ : Shape).kept d.insertedWindowDims = [1]
    rw [hiw]; rfl
  have hm : (0 : Fin 2) ∉ d.sKept := by rw [hK]; simp
  unfold ScatterDims.window
  rw [dif_neg hm]

include huw hiw in
theorem sc_window1 (j : (⟨2, ![E, C]⟩ : Shape).Idx) : d.window j 1 = (j 1).val := by
  have hK : d.sKept = [1] := by
    show (⟨2, ![N, C]⟩ : Shape).kept d.insertedWindowDims = [1]
    rw [hiw]; rfl
  have hm : (1 : Fin 2) ∈ d.sKept := by rw [hK]; exact List.mem_singleton.mpr rfl
  unfold ScatterDims.window
  rw [dif_pos hm]
  exact congrArg (fun a => (j a).val) (getElem_of_eq_singleton huw _ _)

include huw hiw hsd hivd in
theorem sc_resultIdx_iff (j : (⟨2, ![E, C]⟩ : Shape).Idx) (idx : IVec ⟨2, ![E, 1]⟩ w) (n : Fin N) (q : Fin C) :
    d.resultIdx? j idx = some (ix2 n q)
      ↔ (idx (ix2 (⟨(j 0).val, idx2_lt0 j⟩ : Fin E) (0 : Fin 1))).toInt = (n : ℤ) ∧ (j 1).val = q.val := by
  have hs0 := sc_start0 d huw hsd hivd j idx
  have hs1 := sc_start1 d hsd j idx
  have hw0 := sc_window0 d hiw j
  have hw1 := sc_window1 d huw hiw j
  have hn := n.isLt
  have hj1 := idx2_lt1 j
  unfold ScatterDims.resultIdx?
  split
  · rename_i hall
    have h0 := (hall 0).1
    rw [hs0, hw0] at h0
    constructor
    · intro hf
      have hf' := Option.some.inj hf
      have e0 : (d.start j idx 0 + (d.window j 0 : ℤ)).toNat = n.val := congrArg (fun f => (f 0).val) hf'
      have e1 : (d.start j idx 1 + (d.window j 1 : ℤ)).toNat = q.val := congrArg (fun f => (f 1).val) hf'
      rw [hs0, hw0] at e0
      rw [hs1, hw1] at e1
      constructor <;> omega
    · rintro ⟨ht, hq⟩
      congr 1
      funext a
      match a with
      | ⟨0, _⟩ =>
        apply Fin.ext
        show (d.start j idx 0 + (d.window j 0 : ℤ)).toNat = n.val
        rw [hs0, hw0]; omega
      | ⟨1, _⟩ =>
        apply Fin.ext
        show (d.start j idx 1 + (d.window j 1 : ℤ)).toNat = q.val
        rw [hs1, hw1]; omega
  · rename_i hnot
    constructor
    · intro hf; cases hf
    · rintro ⟨ht, hq⟩
      exfalso; apply hnot; intro a
      match a with
      | ⟨0, _⟩ =>
        show 0 ≤ d.start j idx 0 + (d.window j 0 : ℤ) ∧ d.start j idx 0 + (d.window j 0 : ℤ) < (N : ℤ)
        rw [hs0, hw0]; omega
      | ⟨1, _⟩ =>
        show 0 ≤ d.start j idx 1 + (d.window j 1 : ℤ) ∧ d.start j idx 1 + (d.window j 1 : ℤ) < (C : ℤ)
        rw [hs1, hw1]; omega

include huw hiw hsd hivd in
theorem scatter_rows_apply {φ : FTy}
    (x : FVec Ideal ⟨2, ![N, C]⟩ φ) (idx : IVec ⟨2, ![E, 1]⟩ w) (upd : FVec Ideal ⟨2, ![E, C]⟩ φ) (n : Fin N) (q : Fin C) :
    Host.scatterAdd d x idx upd (ix2 n q)
      = x (ix2 n q) + ∑ e ∈ Finset.univ.filter (fun e : Fin E => (idx (ix2 e 0)).toInt = (n : ℤ)), upd (ix2 e q) := by
  show Ideal.hostScatterAdd d x idx upd (ix2 n q) = _
  unfold Ideal.hostScatterAdd
  congr 1
  refine Finset.sum_nbij' (fun j => (⟨(j 0).val, idx2_lt0 j⟩ : Fin E)) (fun e => ix2 e q) ?_ ?_ ?_ ?_ ?_
  · intro j hj
    rw [Finset.mem_filter] at hj ⊢
    exact ⟨Finset.mem_univ _, ((sc_resultIdx_iff d huw hiw hsd hivd j idx n q).1 hj.2).1⟩
  · intro e he
    rw [Finset.mem_filter] at he ⊢
    exact ⟨Finset.mem_univ _, (sc_resultIdx_iff d huw hiw hsd hivd (ix2 e q) idx n q).2 ⟨he.2, rfl⟩⟩
  · intro j hj
    rw [Finset.mem_filter] at hj
    have hq := ((sc_resultIdx_iff d huw hiw hsd hivd j idx n q).1 hj.2).2
    funext a
    match a with
    | ⟨0, _⟩ => rfl
    | ⟨1, _⟩ => exact Fin.ext hq.symm
  · intro e _; rfl
  · intro j hj
    rw [Finset.mem_filter] at hj
    have hq := ((sc_resultIdx_iff d huw hiw hsd hivd j idx n q).1 hj.2).2
    congr 1
    funext a
    match a with
    | ⟨0, _⟩ => rfl
    | ⟨1, _⟩ => exact Fin.ext hq

end Sc

/-! ## The same for a vector -/

section Sc1
variable {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)

include huw hivd in
theorem sv_siIdx (j : (⟨1, ![E]⟩ : Shape).Idx) (c : Fin d.scatterDimsToOperandDims.length) (hc : c.val = 0) :
    d.siIdx j c = ix2 (⟨(j 0).val, (j 0).isLt⟩ : Fin E) (0 : Fin 1) := by
  have hU : d.uScatter = [0] := by
    show (⟨1, ![E]⟩ : Shape).kept d.updateWindowDims = [0]
    rw [huw]; rfl
  funext b
  match b with
  | ⟨0, _⟩ =>
    unfold ScatterDims.siIdx
    rw [dif_neg (by rw [hivd]; show ¬ (0 : Nat) = 1; omega)]
    unfold ScatterDims.siCoord
    apply Fin.ext
    simp only [Fin.val_cast]
    exact congrArg (fun a => (j a).val) (getElem_of_eq_singleton hU _ _)
  | ⟨1, _⟩ =>
    unfold ScatterDims.siIdx
    rw [dif_pos (by rw [hivd])]
    apply Fin.ext
    exact hc

include huw hsd hivd in
theorem sv_start0 (j : (⟨1, ![E]⟩ : Shape).Idx) (idx : IVec ⟨2, ![E, 1]⟩ w) :
    d.start j idx 0 = (idx (ix2 (⟨(j 0).val, (j 0).isLt⟩ : Fin E) (0 : Fin 1))).toInt := by
  have hm : (0 : Fin 1) ∈ d.scatterDimsToOperandDims := by rw [hsd]; exact List.mem_singleton.mpr rfl
  unfold ScatterDims.start
  rw [dif_pos hm, sv_siIdx d huw hivd j _ (by show List.idxOf (0 : Fin 1) d.scatterDimsToOperandDims = 0; rw [hsd]; simp)]

include hiw in
theorem sv_window0 (j : (⟨1, ![E]⟩ : Shape).Idx) : d.window j 0 = 0 := by
  have hK : d.sKept = [] := by
    show (⟨1, ![N]⟩ : Shape).kept d.insertedWindowDims = []
    rw [hiw]; rfl
  have hm : (0 : Fin 1) ∉ d.sKept := by rw [hK]; exact List.not_mem_nil
  unfold ScatterDims.window
  rw [dif_neg hm]

include huw hiw hsd hivd in
theorem sv_resultIdx_iff (j : (⟨1, ![E]⟩ : Shape).Idx) (idx : IVec ⟨2, ![E, 1]⟩ w) (n : Fin N) :
    d.resultIdx? j idx = some (ix1 n)
      ↔ (idx (ix2 (⟨(j 0).val, (j 0).isLt⟩ : Fin E) (0 : Fin 1))).toInt = (n : ℤ) := by
  have hs0 := sv_start0 d huw hsd hivd j idx
  have hw0 := sv_window0 d hiw j
  have hn := n.isLt
  unfold ScatterDims.resultIdx?
  split
  · rename_i hall
    have h0 := (hall 0).1
    rw [hs0, hw0] at h0
    constructor
    · intro hf
      have hf' := Option.some.inj hf
      have e0 : (d.start j idx 0 + (d.window j 0 : ℤ)).toNat = n.val := congrArg (fun f => (f 0).val) hf'
      rw [hs0, hw0] at e0
      omega
    · intro ht
      congr 1
      funext a
      match a with
      | ⟨0, _⟩ =>
        apply Fin.ext
        show (d.start j idx 0 + (d.window j 0 : ℤ)).toNat = n.val
        rw [hs0, hw0]; omega
  · rename_i hnot
    constructor
    · intro hf; cases hf
    · intro ht
      exfalso; apply hnot; intro a
      match a with
      | ⟨0, _⟩ =>
        show 0 ≤ d.start j idx 0 + (d.window j 0 : ℤ) ∧ d.start j idx 0 + (d.window j 0 : ℤ) < (N : ℤ)
        rw [hs0, hw0]; omega

include huw hiw hsd hivd in
theorem scatter_vec_apply {φ : FTy}
    (x : FVec Ideal ⟨1, ![N]⟩ φ) (idx : IVec ⟨2, ![E, 1]⟩ w) (upd : FVec Ideal ⟨1, ![E]⟩ φ) (n : Fin N) :
    Host.scatterAdd d x idx upd (ix1 n)
      = x (ix1 n) + ∑ e ∈ Finset.univ.filter (fun e : Fin E => (idx (ix2 e 0)).toInt = (n : ℤ)), upd (ix1 e) := by
  show Ideal.hostScatterAdd d x idx upd (ix1 n) = _
  unfold Ideal.hostScatterAdd
  congr 1
  refine Finset.sum_nbij' (fun j => (⟨(j 0).val, (j 0).isLt⟩ : Fin E)) (fun e => ix1 e) ?_ ?_ ?_ ?_ ?_
  · intro j hj
    rw [Finset.mem_filter] at hj ⊢
    exact ⟨Finset.mem_univ _, (sv_resultIdx_iff d huw hiw hsd hivd j idx n).1 hj.2⟩
  · intro e he
    rw [Finset.mem_filter] at he ⊢
    exact ⟨Finset.mem_univ _, (sv_resultIdx_iff d huw hiw hsd hivd (ix1 e) idx n).2 he.2⟩
  · intro j _
    funext a
    match a with
    | ⟨0, _⟩ => rfl
  · intro e _; rfl
  · intro j _
    congr 1
    funext a
    match a with
    | ⟨0, _⟩ => rfl

end Sc1

/-! ## The two programs' records -/

/-- A start index clamped into a table of 200000 rows: read signed, a negative one to row 0, one past the end to the
    last row. -/
def row200000 (t : BitVec 32) : Fin 200000 := ⟨min t.toInt.toNat (200000 - 1), by omega⟩

/-- A start index clamped into a table of 10 rows. -/
def row10 (t : BitVec 32) : Fin 10 := ⟨min t.toInt.toNat (10 - 1), by omega⟩

section RecordsBoth
variable [Cert.KernelIdeal.Facts₀] [Cert.ReferenceIdeal.Facts₀]

theorem ref_gather_rows_eq : Cert.ReferenceIdeal.gather_S200000x64_S1000000x1_S1000000x64_1_0_n_n_0_1_164
    = Cert.KernelIdeal.gather_S200000x64_S1000000x1_S1000000x64_1_0_n_n_0_1_164 := rfl
theorem ref_scatter_rows200000_eq : Cert.ReferenceIdeal.scatter_S200000x64_S1000000x1_S1000000x64_1_0_0_1
    = Cert.KernelIdeal.scatter_S200000x64_S1000000x1_S1000000x64_1_0_0_1 := rfl
theorem ref_scatter_rows100000_eq : Cert.ReferenceIdeal.scatter_S100000x64_S1000000x1_S1000000x64_1_0_0_1
    = Cert.KernelIdeal.scatter_S100000x64_S1000000x1_S1000000x64_1_0_0_1 := rfl
theorem ref_scatter_vec_eq : Cert.ReferenceIdeal.scatter_S200000_S1000000x1_S1000000_n_0_0_1
    = Cert.KernelIdeal.scatter_S200000_S1000000x1_S1000000_n_0_0_1 := rfl

end RecordsBoth

section RecordsKernel
variable [Cert.KernelIdeal.Facts₀]

/-- A gathered entity row at (e, q): the table's row at the clamped start index of e. -/
theorem gather_rows200000 {α : Type} (x : Cert.KernelIdeal.S200000x64.Idx → α) (idx : IVec Cert.KernelIdeal.S1000000x1 32)
    (e : Fin 1000000) (q : Fin 64) :
    Host.gather Cert.KernelIdeal.gather_S200000x64_S1000000x1_S1000000x64_1_0_n_n_0_1_164 x idx (ix2 e q)
      = x (ix2 (row200000 (idx (ix2 e 0))) q) :=
  gather_rows_apply Cert.KernelIdeal.gather_S200000x64_S1000000x1_S1000000x64_1_0_n_n_0_1_164 rfl rfl rfl rfl rfl
    (by omega) x idx e q

/-- A gathered entry of a 200000-vector at e. -/
theorem gather_vec200000 {α : Type} (x : Cert.KernelIdeal.S200000.Idx → α) (idx : IVec Cert.KernelIdeal.S1000000x1 32)
    (e : Fin 1000000) :
    Host.gather Cert.KernelIdeal.gather_S200000_S1000000x1_S1000000_n_0_n_n_0_1_1 x idx (ix1 e)
      = x (ix1 (row200000 (idx (ix2 e 0)))) :=
  gather_vec_apply Cert.KernelIdeal.gather_S200000_S1000000x1_S1000000_n_0_n_n_0_1_1 rfl rfl rfl rfl (by omega) x idx e

/-- Rows accumulated into the [200000, 64] array, at (n, q). -/
theorem scatter_rows200000 {φ : FTy} (x : FVec Ideal Cert.KernelIdeal.S200000x64 φ) (idx : IVec Cert.KernelIdeal.S1000000x1 32)
    (upd : FVec Ideal Cert.KernelIdeal.S1000000x64 φ) (n : Fin 200000) (q : Fin 64) :
    Host.scatterAdd Cert.KernelIdeal.scatter_S200000x64_S1000000x1_S1000000x64_1_0_0_1 x idx upd (ix2 n q)
      = x (ix2 n q) + ∑ e ∈ Finset.univ.filter (fun e : Fin 1000000 => (idx (ix2 e 0)).toInt = (n : ℤ)), upd (ix2 e q) :=
  scatter_rows_apply Cert.KernelIdeal.scatter_S200000x64_S1000000x1_S1000000x64_1_0_0_1 rfl rfl rfl rfl x idx upd n q

/-- Rows accumulated into the [100000, 64] array, at (n, q). -/
theorem scatter_rows100000 {φ : FTy} (x : FVec Ideal Cert.KernelIdeal.S100000x64 φ) (idx : IVec Cert.KernelIdeal.S1000000x1 32)
    (upd : FVec Ideal Cert.KernelIdeal.S1000000x64 φ) (n : Fin 100000) (q : Fin 64) :
    Host.scatterAdd Cert.KernelIdeal.scatter_S100000x64_S1000000x1_S1000000x64_1_0_0_1 x idx upd (ix2 n q)
      = x (ix2 n q) + ∑ e ∈ Finset.univ.filter (fun e : Fin 1000000 => (idx (ix2 e 0)).toInt = (n : ℤ)), upd (ix2 e q) :=
  scatter_rows_apply Cert.KernelIdeal.scatter_S100000x64_S1000000x1_S1000000x64_1_0_0_1 rfl rfl rfl rfl x idx upd n q

/-- Entries accumulated into the 200000-vector, at n. -/
theorem scatter_vec200000 {φ : FTy} (x : FVec Ideal Cert.KernelIdeal.S200000 φ) (idx : IVec Cert.KernelIdeal.S1000000x1 32)
    (upd : FVec Ideal Cert.KernelIdeal.S1000000 φ) (n : Fin 200000) :
    Host.scatterAdd Cert.KernelIdeal.scatter_S200000_S1000000x1_S1000000_n_0_0_1 x idx upd (ix1 n)
      = x (ix1 n) + ∑ e ∈ Finset.univ.filter (fun e : Fin 1000000 => (idx (ix2 e 0)).toInt = (n : ℤ)), upd (ix1 e) :=
  scatter_vec_apply Cert.KernelIdeal.scatter_S200000_S1000000x1_S1000000_n_0_0_1 rfl rfl rfl rfl x idx upd n

end RecordsKernel

section RecordsReference
variable [Cert.ReferenceIdeal.Facts₀]

/-- A gathered relation row at (e, q). -/
theorem gather_rows10 {α : Type} (x : Cert.ReferenceIdeal.S10x64.Idx → α) (idx : IVec Cert.ReferenceIdeal.S1000000x1 32)
    (e : Fin 1000000) (q : Fin 64) :
    Host.gather Cert.ReferenceIdeal.gather_S10x64_S1000000x1_S1000000x64_1_0_n_n_0_1_164 x idx (ix2 e q)
      = x (ix2 (row10 (idx (ix2 e 0))) q) :=
  gather_rows_apply Cert.ReferenceIdeal.gather_S10x64_S1000000x1_S1000000x64_1_0_n_n_0_1_164 rfl rfl rfl rfl rfl
    (by omega) x idx e q

end RecordsReference

/-! ## Index words and the identity -/

/-- The wrap of a negative index: the extent is added to an index below zero, any other index is kept. -/
def normIdx (ext : BitVec 32) (h : BitVec 32) : BitVec 32 :=
  Scalar.select (IntOp.cmpi .slt h 0#32) (IntOp.addi h ext) h
/-- The table row a relation id between 1 and 10 names. -/
def relRow (t : BitVec 32) (h : 1 ≤ t.toInt ∧ t.toInt ≤ 10) : Fin 10 := ⟨(t.toInt - 1).toNat, by omega⟩

/-- The wrap, by the sign of the index. -/
theorem normIdx_eq (ext h : BitVec 32) : normIdx ext h = if h.toInt < 0 then h + ext else h := by
  have h0 : (0#32 : BitVec 32).toInt = 0 := by decide
  by_cases hh : h.toInt < 0 <;>
    simp [normIdx, Scalar.select, IntOp.cmpi, IntOp.addi, BitVec.slt, h0, hh]

/-- An index that is already a row number is left alone by the wrap and by the clamp. -/
theorem row200000_normIdx {h : BitVec 32} {n : Fin 200000} (hn : h.toInt = (n : ℤ)) :
    row200000 (normIdx 200000#32 h) = n := by
  have hlt := n.isLt
  rw [normIdx_eq, if_neg (by omega)]
  apply Fin.ext
  show min h.toInt.toNat (200000 - 1) = n.val
  omega

/-- A relation id between 1 and 10, less one, does not wrap. -/
theorem toInt_sub_one (t : BitVec 32) (h : 1 ≤ t.toInt ∧ t.toInt ≤ 10) : (t - 1#32).toInt = t.toInt - 1 := by
  have h1 : (1#32 : BitVec 32).toInt = 1 := by decide
  rw [BitVec.toInt_sub, h1]
  apply Int.bmod_eq_of_le_mul_two <;> first | omega | (norm_num; omega)

/-- The id less one is a row number of the ten-row table: the wrap and the clamp leave it alone. -/
theorem row10_normIdx (t : BitVec 32) (h : 1 ≤ t.toInt ∧ t.toInt ≤ 10) :
    row10 (normIdx 10#32 (t - 1#32)) = relRow t h := by
  have hs := toInt_sub_one t h
  rw [normIdx_eq, if_neg (by omega)]
  apply Fin.ext
  show min (t - 1#32).toInt.toNat (10 - 1) = (t.toInt - 1).toNat
  omega

/-- The float 1.0 both programs print is the number one. -/
theorem ofBits_one_f32 : Ideal.ofBits .f32 0x3F800000#32 = 1 := by
  simp [Ideal.ofBits, Ideal.ieee]
  first
    | (rw [← EReal.coe_mul]; norm_num; done)
    | (norm_cast; norm_num; done)
    | (push_cast; norm_num; done)

/-- The one-hot row of the id less one has its one on the column of the row the id names, and nowhere else. -/
theorem sub_one_eq_ofNat_iff (t : BitVec 32) (h : 1 ≤ t.toInt ∧ t.toInt ≤ 10) (r : Fin 10) :
    t - 1#32 = BitVec.ofNat 32 r.val ↔ r = relRow t h := by
  have hs := toInt_sub_one t h
  have hr := r.isLt
  constructor
  · intro he
    have := congrArg BitVec.toInt he
    rw [hs, StableHlo.Predicate.toInt_ofNat_small _ (by omega)] at this
    apply Fin.ext
    show r.val = (t.toInt - 1).toNat
    omega
  · intro he
    apply BitVec.eq_of_toInt_eq
    rw [hs, StableHlo.Predicate.toInt_ofNat_small _ (by omega), he]
    show t.toInt - 1 = (((t.toInt - 1).toNat : ℕ) : ℤ)
    omega

/-- The one-hot combination of the ten table rows is the row the relation id names: zero times anything is zero and
    one times anything is itself, for every extended real. -/
theorem relSum_eq (w : Fin 10 → Fin 64 → EReal) (t : BitVec 32) (h : 1 ≤ t.toInt ∧ t.toInt ≤ 10) (q : Fin 64) :
    Cert.Spec.relSum w (t - 1#32) q = w (relRow t h) q := by
  unfold Cert.Spec.relSum
  rw [Finset.sum_eq_single (relRow t h)]
  · unfold Cert.Spec.hot
    rw [if_pos ((sub_one_eq_ofNat_iff t h _).2 rfl), one_mul]
  · intro r _ hne
    unfold Cert.Spec.hot
    rw [if_neg (fun he => hne ((sub_one_eq_ofNat_iff t h r).1 he)), zero_mul]
  · intro hnot; exact absurd (Finset.mem_univ _) hnot

/-- A node's in-degree as the accumulation of ones computes it. -/
def cnt (head : Fin 1000000 → BitVec 32) (n : Fin 200000) : EReal :=
  0 + ∑ _e ∈ Finset.univ.filter (fun e : Fin 1000000 => (head e).toInt = (n : ℤ)), (1 : EReal)
/-- A node's inverse degree, the degree floored at one. -/
def inv (head : Fin 1000000 → BitVec 32) (n : Fin 200000) : EReal := Ideal.div 1 (max (cnt head n) 1)

/-- The in-degree is the number of edges whose head is the node. -/
theorem cnt_eq (head : Fin 1000000 → BitVec 32) (n : Fin 200000) :
    cnt head n = (((Finset.univ.filter (fun e : Fin 1000000 => (head e).toInt = (n : ℤ))).card : ℝ) : EReal) := by
  unfold cnt
  rw [zero_add, Finset.sum_const, nsmul_one]
  rfl

/-- So the inverse degree is a nonnegative real number. -/
theorem inv_eq (head : Fin 1000000 → BitVec 32) (n : Fin 200000) : ∃ r : ℝ, 0 ≤ r ∧ inv head n = (r : EReal) := by
  set c : ℝ := ((Finset.univ.filter (fun e : Fin 1000000 => (head e).toInt = (n : ℤ))).card : ℝ) with hc
  have hmax : max ((c : ℝ) : EReal) 1 = ((max c 1 : ℝ) : EReal) := by
    rcases le_total c 1 with hle | hle
    · rw [max_eq_right hle, max_eq_right (by exact_mod_cast hle)]; rfl
    · rw [max_eq_left hle, max_eq_left (by exact_mod_cast hle)]
  have hpos : (0 : ℝ) < max c 1 := lt_of_lt_of_le one_pos (le_max_right _ _)
  refine ⟨(max c 1)⁻¹, inv_nonneg.2 hpos.le, ?_⟩
  unfold inv
  rw [cnt_eq, hmax]
  unfold Ideal.div
  rw [if_neg (by exact_mod_cast hpos.ne'), one_mul]
  rfl

/-- A nonnegative real factor comes out of any finite sum of extended reals: multiplication by it distributes over
    every sum, infinite terms included. -/
theorem sum_mul_coe {ι : Type} (s : Finset ι) (x : ι → EReal) {r : ℝ} (hr : 0 ≤ r) :
    ∑ e ∈ s, x e * (r : EReal) = (∑ e ∈ s, x e) * (r : EReal) := by
  classical
  induction s using Finset.induction_on with
  | empty => simp
  | insert a s ha ih =>
    rw [Finset.sum_insert ha, Finset.sum_insert ha, ih,
      EReal.right_distrib_of_nonneg_of_ne_top (EReal.coe_nonneg.2 hr) (EReal.coe_ne_top r)]

/-- Weighting each edge message by its head's inverse degree before the sum over a node's incoming edges is weighting
    the sum afterwards: on those edges the head is the node itself, so the wrap and the clamp of the head index are the
    identity and every message carries the same nonnegative real factor. -/
theorem agg_eq (te : Fin 1000000 → Fin 64 → EReal) (et head : Fin 1000000 → BitVec 32) (w : Fin 10 → Fin 64 → EReal)
    (h : ∀ e, 1 ≤ (et e).toInt ∧ (et e).toInt ≤ 10) (n : Fin 200000) (q : Fin 64) :
    0 + ∑ e ∈ Finset.univ.filter (fun e : Fin 1000000 => (head e).toInt = (n : ℤ)),
        Cert.Spec.edgeVal te (fun e => et e - 1#32) w (fun e => inv head (row200000 (normIdx 200000#32 (head e)))) e q
      = (0 + ∑ e ∈ Finset.univ.filter (fun e : Fin 1000000 => (head e).toInt = (n : ℤ)),
          te e q * w (relRow (et e) (h e)) q) * inv head n := by
  obtain ⟨r, hr, hinv⟩ := inv_eq head n
  rw [zero_add, zero_add, hinv, ← sum_mul_coe _ _ hr]
  refine Finset.sum_congr rfl (fun e he => ?_)
  have hhe : (head e).toInt = (n : ℤ) := (Finset.mem_filter.1 he).2
  unfold Cert.Spec.edgeVal
  beta_reduce
  rw [row200000_normIdx hhe, relSum_eq w (et e) (h e) q, hinv]

end Cert.Agg

end
-- ==== Proof.Val.RefImports.lean ====
/- The reference program's generated run and its read-at-an-index lemmas, gathered for the value modules. -/
import proofs.«416106_j13048110645352_1_alg».proof.Proof.Gen.ReferenceIdeal.Run
import proofs.«416106_j13048110645352_1_alg».proof.Proof.Gen.ReferenceIdeal.Read
-- ==== Proof.Val.RefNorm1.lean ====
/- The reference's entity side and its plain products in the first hop, read at one element: each stage is the
   specification's function of the earlier stages. A row's normalisation is the aggregate over its floored Euclidean
   norm; the residual adds it on; the aggregate is the scattered sum times the entity's inverse degree; an edge's
   message and an interaction's scaled row are plain products. -/
import proofs.«416106_j13048110645352_1_alg».proof.Proof.Val.RefImports
import proofs.«416106_j13048110645352_1_alg».proof.Proof.Val.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.RefVal

open Cert.ReferenceIdeal Cert.ReferenceIdeal.Read Idealize.ShloMosaic Idealize.ShloMosaic.ValueIdx

variable (x1 : (⟨S200000x64, .f32⟩ : BufTy).Contents (Elt Ideal)) (x3 : (⟨S10x64, .f32⟩ : BufTy).Contents (Elt Ideal))
  (x5 : (⟨S2x1000000, .i32⟩ : BufTy).Contents (Elt Ideal)) (x6 x8 : (⟨S1000000, .i32⟩ : BufTy).Contents (Elt Ideal))
  (x9 : (⟨S1000000, .f32⟩ : BufTy).Contents (Elt Ideal))

/-- The first hop's row sum of squares: the float sum from zero of the aggregate's squares along the row. -/
theorem ref_sq1 (n : Fin 200000) :
    val_main_call1_v1 (F := Ideal) x1 x3 x5 x6 (ix1 n)
      = ∑ k : Fin 64, val_main_v52 (F := Ideal) x1 x3 x5 x6 (ix2 n k) * val_main_v52 (F := Ideal) x1 x3 x5 x6 (ix2 n k) := by
  have esum : ∀ k : Fin 64, idx_main_call1_v1 (ix1 n) k = ix2 n k := fun k =>
    funext fun a => Fin.ext (by match a with | ⟨0, _⟩ => rfl | ⟨1, _⟩ => rfl)
  rw [val_main_call1_v1_apply, val_main_call1_cst_apply, Ideal.ofBits_def, Ideal.ofBits_zero_f32, zero_add]
  refine Finset.sum_congr rfl fun k _ => ?_
  rw [esum k, val_main_call1_v0_apply, Ideal.mulf_def]

/-- The first hop's floored norm of an entity's aggregate row (kept as a one-column array). -/
theorem ref_nrm1 (n : Fin 200000) :
    val_main_v101 (F := Ideal) x1 x3 x5 x6 (ix2 n (0 : Fin 1))
      = Cert.Spec.nrm (fun k => val_main_v52 (F := Ideal) x1 x3 x5 x6 (ix2 n k)) := by
  have erow : idx_main_call1_v2 (ix2 n (0 : Fin 1)) = ix1 n :=
    funext fun a => Fin.ext (by match a with | ⟨0, _⟩ => rfl)
  rw [val_main_v101_apply, val_main_v99_apply, val_main_v100_apply, val_main_cst_23_apply,
    val_main_call1_v2_apply, erow, ref_sq1, Ideal.maximumf_def, Ideal.hostUnary_sqrt_def, Ideal.ofBits_def]
  rfl

/-- The first hop's normalised entity row: the aggregate divided by its floored Euclidean norm. -/
theorem ref_ent1 (n : Fin 200000) (q : Fin 64) :
    val_main_v103 (F := Ideal) x1 x3 x5 x6 (ix2 n q)
      = Cert.Spec.normRow (fun k => val_main_v52 (F := Ideal) x1 x3 x5 x6 (ix2 n k)) q := by
  have ecol : idx_main_v102 (ix2 n q) = ix2 n (0 : Fin 1) :=
    funext fun a => Fin.ext (by match a with | ⟨0, _⟩ => rfl | ⟨1, _⟩ => rfl)
  rw [val_main_v103_apply, val_main_v102_apply, ecol, ref_nrm1, Ideal.hostDivf_def]
  rfl

/-- The first hop's entity residual: the input row plus the normalised row. -/
theorem ref_eres1 (n : Fin 200000) (q : Fin 64) :
    val_main_v109 (F := Ideal) x1 x3 x5 x6 (ix2 n q)
      = x1 (ix2 n q) + val_main_v103 (F := Ideal) x1 x3 x5 x6 (ix2 n q) := by
  rw [val_main_v109_apply, Ideal.addf_def]

/-- The first hop's entity aggregate: the scattered sum times the entity's inverse degree (broadcast along the row). -/
theorem ref_eagg1 (n : Fin 200000) (q : Fin 64) :
    val_main_v52 (F := Ideal) x1 x3 x5 x6 (ix2 n q)
      = val_main_v49 (F := Ideal) x1 x3 x5 x6 (ix2 n q) * val_main_v29 (F := Ideal) x5 (ix1 n) := by
  have ecol : idx_main_v51 (ix2 n q) = ix2 n (0 : Fin 1) :=
    funext fun a => Fin.ext (by match a with | ⟨0, _⟩ => rfl | ⟨1, _⟩ => rfl)
  have erow : idx_main_v50 (ix2 n (0 : Fin 1)) = ix1 n :=
    funext fun a => Fin.ext (by match a with | ⟨0, _⟩ => rfl)
  rw [val_main_v52_apply, val_main_v51_apply, ecol, val_main_v50_apply, erow, Ideal.mulf_def]

/-- The first hop's edge message before the degree: the gathered tail row times the gathered relation row. -/
theorem ref_msg1 (e : Fin 1000000) (q : Fin 64) :
    val_main_v46 (F := Ideal) x1 x3 x5 x6 (ix2 e q)
      = val_main_v45 (F := Ideal) x1 x5 (ix2 e q) * val_main_v38 (F := Ideal) x3 x6 (ix2 e q) := by
  rw [val_main_v46_apply, Ideal.mulf_def]

/-- The first hop's scaled interaction row: the interaction's value (broadcast along the row) times the gathered entity row. -/
theorem ref_scaled1 (e : Fin 1000000) (q : Fin 64) :
    val_main_v76 (F := Ideal) x1 x8 x9 (ix2 e q)
      = x9 (ix1 e) * val_main_v74 (F := Ideal) x1 x8 (ix2 e q) := by
  have ecol : idx_main_v75 (ix2 e q) = ix2 e (0 : Fin 1) :=
    funext fun a => Fin.ext (by match a with | ⟨0, _⟩ => rfl | ⟨1, _⟩ => rfl)
  have erow : idx_main_v67 (ix2 e (0 : Fin 1)) = ix1 e :=
    funext fun a => Fin.ext (by match a with | ⟨0, _⟩ => rfl)
  rw [val_main_v76_apply, val_main_v75_apply, ecol, val_main_v67_apply, erow, Ideal.mulf_def]

end Cert.RefVal

end
-- ==== Proof.Val.RefNorm2.lean ====
/- The reference's entity side and its plain products in the second hop, read at one element: each stage is the
   specification's function of the earlier stages. A row's normalisation is the aggregate over its floored Euclidean
   norm; the residual adds it on; the aggregate is the scattered sum times the entity's inverse degree; an edge's
   message and an interaction's scaled row are plain products. -/
import proofs.«416106_j13048110645352_1_alg».proof.Proof.Val.RefImports
import proofs.«416106_j13048110645352_1_alg».proof.Proof.Val.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.RefVal

open Cert.ReferenceIdeal Cert.ReferenceIdeal.Read Idealize.ShloMosaic Idealize.ShloMosaic.ValueIdx

variable (x1 : (⟨S200000x64, .f32⟩ : BufTy).Contents (Elt Ideal)) (x3 : (⟨S10x64, .f32⟩ : BufTy).Contents (Elt Ideal))
  (x5 : (⟨S2x1000000, .i32⟩ : BufTy).Contents (Elt Ideal)) (x6 x8 : (⟨S1000000, .i32⟩ : BufTy).Contents (Elt Ideal))
  (x9 : (⟨S1000000, .f32⟩ : BufTy).Contents (Elt Ideal))

/-- The second hop's row sum of squares: the float sum from zero of the aggregate's squares along the row. -/
theorem ref_sq2 (n : Fin 200000) :
    val_main_call3_v1 (F := Ideal) x1 x3 x5 x6 (ix1 n)
      = ∑ k : Fin 64, val_main_v133 (F := Ideal) x1 x3 x5 x6 (ix2 n k) * val_main_v133 (F := Ideal) x1 x3 x5 x6 (ix2 n k) := by
  have esum : ∀ k : Fin 64, idx_main_call3_v1 (ix1 n) k = ix2 n k := fun k =>
    funext fun a => Fin.ext (by match a with | ⟨0, _⟩ => rfl | ⟨1, _⟩ => rfl)
  rw [val_main_call3_v1_apply, val_main_call3_cst_apply, Ideal.ofBits_def, Ideal.ofBits_zero_f32, zero_add]
  refine Finset.sum_congr rfl fun k _ => ?_
  rw [esum k, val_main_call3_v0_apply, Ideal.mulf_def]

/-- The second hop's floored norm of an entity's aggregate row (kept as a one-column array). -/
theorem ref_nrm2 (n : Fin 200000) :
    val_main_v182 (F := Ideal) x1 x3 x5 x6 (ix2 n (0 : Fin 1))
      = Cert.Spec.nrm (fun k => val_main_v133 (F := Ideal) x1 x3 x5 x6 (ix2 n k)) := by
  have erow : idx_main_call3_v2 (ix2 n (0 : Fin 1)) = ix1 n :=
    funext fun a => Fin.ext (by match a with | ⟨0, _⟩ => rfl)
  rw [val_main_v182_apply, val_main_v180_apply, val_main_v181_apply, val_main_cst_41_apply,
    val_main_call3_v2_apply, erow, ref_sq2, Ideal.maximumf_def, Ideal.hostUnary_sqrt_def, Ideal.ofBits_def]
  rfl

/-- The second hop's normalised entity row: the aggregate divided by its floored Euclidean norm. -/
theorem ref_ent2 (n : Fin 200000) (q : Fin 64) :
    val_main_v184 (F := Ideal) x1 x3 x5 x6 (ix2 n q)
      = Cert.Spec.normRow (fun k => val_main_v133 (F := Ideal) x1 x3 x5 x6 (ix2 n k)) q := by
  have ecol : idx_main_v183 (ix2 n q) = ix2 n (0 : Fin 1) :=
    funext fun a => Fin.ext (by match a with | ⟨0, _⟩ => rfl | ⟨1, _⟩ => rfl)
  rw [val_main_v184_apply, val_main_v183_apply, ecol, ref_nrm2, Ideal.hostDivf_def]
  rfl

/-- The second hop's entity residual: the first hop's residual plus the normalised row. -/
theorem ref_eres2 (n : Fin 200000) (q : Fin 64) :
    val_main_v190 (F := Ideal) x1 x3 x5 x6 (ix2 n q)
      = val_main_v109 (F := Ideal) x1 x3 x5 x6 (ix2 n q) + val_main_v184 (F := Ideal) x1 x3 x5 x6 (ix2 n q) := by
  rw [val_main_v190_apply, Ideal.addf_def]

/-- The second hop's entity aggregate: the scattered sum times the entity's inverse degree (broadcast along the row). -/
theorem ref_eagg2 (n : Fin 200000) (q : Fin 64) :
    val_main_v133 (F := Ideal) x1 x3 x5 x6 (ix2 n q)
      = val_main_v130 (F := Ideal) x1 x3 x5 x6 (ix2 n q) * val_main_v29 (F := Ideal) x5 (ix1 n) := by
  have ecol : idx_main_v132 (ix2 n q) = ix2 n (0 : Fin 1) :=
    funext fun a => Fin.ext (by match a with | ⟨0, _⟩ => rfl | ⟨1, _⟩ => rfl)
  have erow : idx_main_v131 (ix2 n (0 : Fin 1)) = ix1 n :=
    funext fun a => Fin.ext (by match a with | ⟨0, _⟩ => rfl)
  rw [val_main_v133_apply, val_main_v132_apply, ecol, val_main_v131_apply, erow, Ideal.mulf_def]

/-- The second hop's edge message before the degree: the gathered tail row times the gathered relation row. -/
theorem ref_msg2 (e : Fin 1000000) (q : Fin 64) :
    val_main_v127 (F := Ideal) x1 x3 x5 x6 (ix2 e q)
      = val_main_v126 (F := Ideal) x1 x3 x5 x6 (ix2 e q) * val_main_v119 (F := Ideal) x3 x6 (ix2 e q) := by
  rw [val_main_v127_apply, Ideal.mulf_def]

/-- The second hop's scaled interaction row: the interaction's value (broadcast along the row) times the gathered entity row. -/
theorem ref_scaled2 (e : Fin 1000000) (q : Fin 64) :
    val_main_v157 (F := Ideal) x1 x3 x5 x6 x8 x9 (ix2 e q)
      = x9 (ix1 e) * val_main_v155 (F := Ideal) x1 x3 x5 x6 x8 (ix2 e q) := by
  have ecol : idx_main_v156 (ix2 e q) = ix2 e (0 : Fin 1) :=
    funext fun a => Fin.ext (by match a with | ⟨0, _⟩ => rfl | ⟨1, _⟩ => rfl)
  have erow : idx_main_v148 (ix2 e (0 : Fin 1)) = ix1 e :=
    funext fun a => Fin.ext (by match a with | ⟨0, _⟩ => rfl)
  rw [val_main_v157_apply, val_main_v156_apply, ecol, val_main_v148_apply, erow, Ideal.mulf_def]

end Cert.RefVal

end
-- ==== Proof.Val.RefNorm.lean ====
/- The reference's entity side and its plain products, read at one element: the inverse degree here (one over the
   degree floored at one), the two hops' stages in the two modules imported. -/
import proofs.«416106_j13048110645352_1_alg».proof.Proof.Val.RefNorm1
import proofs.«416106_j13048110645352_1_alg».proof.Proof.Val.RefNorm2

noncomputable section

namespace Cert.RefVal

open Cert.ReferenceIdeal Cert.ReferenceIdeal.Read Idealize.ShloMosaic Idealize.ShloMosaic.ValueIdx

variable (x5 : (⟨S2x1000000, .i32⟩ : BufTy).Contents (Elt Ideal))

/-- An entity's inverse degree: one over its degree floored at one (both ones are the float 1.0). -/
theorem ref_inv_apply (n : Fin 200000) :
    val_main_v29 (F := Ideal) x5 (ix1 n) = Ideal.div 1 (max (val_main_v25 (F := Ideal) x5 (ix1 n)) 1) := by
  rw [val_main_v29_apply, val_main_v28_apply, val_main_cst_7_apply, val_main_v27_apply, val_main_v26_apply,
    val_main_cst_6_apply]
  simp only [Ideal.hostDivf_def, Ideal.maximumf_def, Ideal.ofBits_def, Ideal.ofBits_one_f32]

end Cert.RefVal

end
-- ==== Proof.Val.BridgeE.lean ====
/- The entity side of the bridge between the two programs at the ideal instance: each buffer of the kernel program
   that carries an entity quantity the reference also computes holds the reference's stage value — the edge heads
   and tails, the inverse degree, the two hops' aggregates, the two hops' normalised rows and the accumulated
   residual. Each is read through the chain of buffer contents down to region outputs and @main's arguments; the
   aggregation step is one identity over any table of entity rows, used at both hops. -/
import proofs.«416106_j13048110645352_1_alg».proof.Proof.KI.Run.Chain
import proofs.«416106_j13048110645352_1_alg».proof.Proof.Val.K0
import proofs.«416106_j13048110645352_1_alg».proof.Proof.Val.K4
import proofs.«416106_j13048110645352_1_alg».proof.Proof.Val.K3
import proofs.«416106_j13048110645352_1_alg».proof.Proof.Val.K7
import proofs.«416106_j13048110645352_1_alg».proof.Proof.Val.Agg
import proofs.«416106_j13048110645352_1_alg».proof.Proof.Val.RefNorm
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.Bridge
open Cert.KernelIdeal Cert.KernelIdeal.Gen Cert.KernelIdeal.Frm
open Idealize.ShloMosaic Idealize.ShloMosaic.TcCoe Idealize.SL.Sem Idealize.ShloMosaic.ValueIdx
open Cert.ReferenceIdeal.Read
open scoped BigOperators

/-! ## The shapes of index words both programs print, and what they read at an element -/

/-- A vector over the edges laid as a one-column array. -/
abbrev colV {α : Type} (y : S1000000.Idx → α) : S1000000x1.Idx → α :=
  broadcastInDim S1000000x1 ![0] bcast_S1000000_S1000000x1_0 y

/-- An index vector over the edges with every negative entry wrapped by the extent. -/
abbrev wrapV (ext : BitVec 32) (H : IVec S1000000 32) : IVec S1000000 32 :=
  select (cmpi .slt H (broadcastInDim S1000000 ![] bcast_S_S1000000 (constantI S_ 32 0#32)))
    (addi H (broadcastInDim S1000000 ![] bcast_S_S1000000 (constantI S_ 32 ext))) H

/-- The all-zero [200000, 64] array an accumulation starts from. -/
abbrev zeros : FVec Ideal S200000x64 .f32 :=
  broadcastInDim S200000x64 ![] bcast_S_S200000x64 (constant (F := Ideal) S_ .f32 0x00000000#32)

theorem colV_apply {α : Type} (y : S1000000.Idx → α) (e : Fin 1000000) (u : Fin 1) : colV y (ix2 e u) = y (ix1 e) :=
  broadcastInDim_apply _ bcast_S1000000_S1000000x1_0 y (ix2 e u) (ix1 e) (fun a => match a with
    | ⟨0, _⟩ => by show e.val = if (1000000 : Nat) = 1 then 0 else e.val; rw [if_neg (by decide)])

/-- A scalar laid over any shape reads the scalar everywhere. -/
theorem splat_apply {α : Type} {t : Shape} (h : S_.BroadcastsInDim t ![]) (y : S_.Idx → α) (i : t.Idx) :
    broadcastInDim t ![] h y i = y ix0 :=
  broadcastInDim_apply _ h y i ix0 (fun a => a.elim0)

theorem wrapV_apply (ext : BitVec 32) (H : IVec S1000000 32) (e : Fin 1000000) :
    wrapV ext H (ix1 e) = Cert.Agg.normIdx ext (H (ix1 e)) := by
  show Scalar.select (IntOp.cmpi .slt (H (ix1 e)) (broadcastInDim S1000000 ![] bcast_S_S1000000 (constantI S_ 32 0#32) (ix1 e)))
      (IntOp.addi (H (ix1 e)) (broadcastInDim S1000000 ![] bcast_S_S1000000 (constantI S_ 32 ext) (ix1 e))) (H (ix1 e)) = _
  rw [splat_apply, splat_apply]
  rfl

theorem zeros_apply (i : S200000x64.Idx) : zeros i = 0 := by
  show broadcastInDim S200000x64 ![] bcast_S_S200000x64 (constant (F := Ideal) S_ .f32 0x00000000#32) i = 0
  rw [splat_apply]
  exact Ideal.ofBits_zero_f32

/-- Rows of a [200000, 64] table gathered at a wrapped index vector: element (e, q). -/
theorem gatherRows_apply {α : Type} (T : S200000x64.Idx → α) (H : IVec S1000000 32) (e : Fin 1000000) (q : Fin 64) :
    Host.gather gather_S200000x64_S1000000x1_S1000000x64_1_0_n_n_0_1_164 T (colV (wrapV 200000#32 H)) (ix2 e q)
      = T (ix2 (Cert.Agg.row200000 (Cert.Agg.normIdx 200000#32 (H (ix1 e)))) q) := by
  rw [Cert.Agg.gather_rows200000, colV_apply, wrapV_apply]

/-- Entries of a 200000-vector gathered at a wrapped index vector, laid as a column: element (e, 0). -/
theorem gatherVec_apply {α : Type} (I : S200000.Idx → α) (H : IVec S1000000 32) (e : Fin 1000000) (u : Fin 1) :
    colV (Host.gather gather_S200000_S1000000x1_S1000000_n_0_n_n_0_1_1 I (colV (wrapV 200000#32 H))) (ix2 e u)
      = I (ix1 (Cert.Agg.row200000 (Cert.Agg.normIdx 200000#32 (H (ix1 e))))) := by
  rw [colV_apply, Cert.Agg.gather_vec200000, colV_apply, wrapV_apply]

/-- Rows accumulated from zero at an index vector: element (n, q). -/
theorem scatterRows_apply (H : IVec S1000000 32) (U : FVec Ideal S1000000x64 .f32) (n : Fin 200000) (q : Fin 64) :
    Host.scatterAdd scatter_S200000x64_S1000000x1_S1000000x64_1_0_0_1 zeros (colV H) U (ix2 n q)
      = 0 + ∑ e ∈ Finset.univ.filter (fun e : Fin 1000000 => (H (ix1 e)).toInt = (n : ℤ)), U (ix2 e q) := by
  rw [Cert.Agg.scatter_rows200000, zeros_apply]
  simp only [colV_apply]

/-! ## The reference's heads and tails at an edge -/

theorem ref_head_apply (x5 : (⟨S2x1000000, .i32⟩ : BufTy).Contents (Elt Ideal)) (e : Fin 1000000) :
    val_main_v19 (F := Ideal) x5 (ix1 e) = x5 (ix2 (0 : Fin 2) e) := by
  rw [val_main_v19_apply, val_main_v18_apply]
  refine congrArg x5 (funext fun a => Fin.ext ?_)
  match a with
  | ⟨0, _⟩ => rfl
  | ⟨1, _⟩ => show e.val % 1000000 = e.val; have := e.isLt; omega

theorem ref_tail_apply (x5 : (⟨S2x1000000, .i32⟩ : BufTy).Contents (Elt Ideal)) (e : Fin 1000000) :
    val_main_v21 (F := Ideal) x5 (ix1 e) = x5 (ix2 (1 : Fin 2) e) := by
  rw [val_main_v21_apply, val_main_v20_apply]
  refine congrArg x5 (funext fun a => Fin.ext ?_)
  match a with
  | ⟨0, _⟩ => rfl
  | ⟨1, _⟩ => show e.val % 1000000 = e.val; have := e.isLt; omega

/-! ## The inverse degree and the aggregation step, over any table of entity rows -/

/-- The reference's degree count at a node. -/
theorem ref_cnt_apply (x5 : (⟨S2x1000000, .i32⟩ : BufTy).Contents (Elt Ideal)) (n : Fin 200000) :
    val_main_v25 (F := Ideal) x5 (ix1 n) = Cert.Agg.cnt (fun e => val_main_v19 (F := Ideal) x5 (ix1 e)) n := by
  have e24 : ∀ e : Fin 1000000, val_main_v24 (F := Ideal) x5 (ix2 e (0 : Fin 1)) = val_main_v19 (F := Ideal) x5 (ix1 e) := fun e => by
    rw [val_main_v24_apply]
    exact congrArg _ (funext fun a => match a with | ⟨0, _⟩ => rfl)
  unfold val_main_v25
  rw [Cert.Agg.ref_scatter_vec_eq, Cert.Agg.scatter_vec200000, val_main_v23_apply, val_main_cst_5_apply]
  simp only [e24, val_main_v22_apply, val_main_cst_4_apply, Ideal.ofBits_def, Ideal.ofBits_zero_f32, Cert.Agg.ofBits_one_f32]
  rfl

/-- The reference's inverse degree at a node. -/
theorem ref_inv (x5 : (⟨S2x1000000, .i32⟩ : BufTy).Contents (Elt Ideal)) (n : Fin 200000) :
    val_main_v29 (F := Ideal) x5 (ix1 n) = Cert.Agg.inv (fun e => val_main_v19 (F := Ideal) x5 (ix1 e)) n := by
  rw [Cert.RefVal.ref_inv_apply, ref_cnt_apply]
  rfl

/-- The one (integer) laid over the edges that both programs subtract from the relation ids. -/
abbrev onesI : IVec S1000000 32 := broadcastInDim S1000000 ![] bcast_S_S1000000 (constantI S_ 32 1#32)

/-- THE AGGREGATION STEP over a table T of entity rows. The kernel accumulates, over each head, edge messages that
    already carry the head's inverse degree (U, element by element an edge message of T's rows gathered at the tails,
    the relation id less one, the relation table and the inverse degree gathered at the heads); the reference
    accumulates the products of T's gathered rows and the gathered relation rows and multiplies by the inverse
    degree afterwards. -/
theorem hop_eq (T : FVec Ideal S200000x64 .f32) (x3 : (⟨S10x64, .f32⟩ : BufTy).Contents (Elt Ideal))
    (x5 : (⟨S2x1000000, .i32⟩ : BufTy).Contents (Elt Ideal)) (x6 : (⟨S1000000, .i32⟩ : BufTy).Contents (Elt Ideal))
    (het : ∀ e : Fin 1000000, 1 ≤ (x6 (ix1 e) : BitVec 32).toInt ∧ (x6 (ix1 e) : BitVec 32).toInt ≤ 10)
    (U : FVec Ideal S1000000x64 .f32)
    (hU : ∀ (e : Fin 1000000) (q : Fin 64), U (ix2 e q) = Cert.Spec.edgeVal
      (fun e q => T (ix2 (Cert.Agg.row200000 (Cert.Agg.normIdx 200000#32 (val_main_v21 (F := Ideal) x5 (ix1 e)))) q))
      (fun e => (x6 (ix1 e) : BitVec 32) - 1#32) (fun r q => x3 (ix2 r q))
      (fun e => Cert.Agg.inv (fun e => val_main_v19 (F := Ideal) x5 (ix1 e))
        (Cert.Agg.row200000 (Cert.Agg.normIdx 200000#32 (val_main_v19 (F := Ideal) x5 (ix1 e))))) e q)
    (n : Fin 200000) (q : Fin 64) :
    Host.scatterAdd scatter_S200000x64_S1000000x1_S1000000x64_1_0_0_1 zeros (colV (val_main_v19 (F := Ideal) x5)) U (ix2 n q)
      = Host.scatterAdd Cert.ReferenceIdeal.scatter_S200000x64_S1000000x1_S1000000x64_1_0_0_1 zeros (colV (val_main_v19 (F := Ideal) x5))
          (mulf (Host.gather Cert.ReferenceIdeal.gather_S200000x64_S1000000x1_S1000000x64_1_0_n_n_0_1_164 T (colV (wrapV 200000#32 (val_main_v21 (F := Ideal) x5))))
            (Host.gather Cert.ReferenceIdeal.gather_S10x64_S1000000x1_S1000000x64_1_0_n_n_0_1_164 x3 (colV (wrapV 10#32 (subi x6 onesI))))) (ix2 n q)
        * val_main_v29 (F := Ideal) x5 (ix1 n) := by
  have hsub : ∀ e : Fin 1000000, subi x6 onesI (ix1 e) = (x6 (ix1 e) : BitVec 32) - 1#32 := fun e => by
    show IntOp.subi (x6 (ix1 e)) (broadcastInDim S1000000 ![] bcast_S_S1000000 (constantI S_ 32 1#32) (ix1 e)) = _
    rw [splat_apply]; rfl
  have hrow : ∀ e : Fin 1000000, Cert.Agg.row10 (Cert.Agg.normIdx 10#32 ((x6 (ix1 e) : BitVec 32) - 1#32))
      = Cert.Agg.relRow (x6 (ix1 e)) (het e) := fun e => Cert.Agg.row10_normIdx _ (het e)
  rw [scatterRows_apply, Cert.Agg.ref_scatter_rows200000_eq, scatterRows_apply, ref_inv]
  simp only [hU]
  rw [Cert.Agg.agg_eq _ (fun e => (x6 (ix1 e) : BitVec 32)) _ _ het]
  simp only [mulf_apply, Cert.Agg.ref_gather_rows_eq, gatherRows_apply, Cert.Agg.gather_rows10, colV_apply, wrapV_apply, hsub, hrow]

/-! ## The reference's two message sums as those shapes -/

theorem ref_v49_eq (x1 : (⟨S200000x64, .f32⟩ : BufTy).Contents (Elt Ideal)) (x3 : (⟨S10x64, .f32⟩ : BufTy).Contents (Elt Ideal))
    (x5 : (⟨S2x1000000, .i32⟩ : BufTy).Contents (Elt Ideal)) (x6 : (⟨S1000000, .i32⟩ : BufTy).Contents (Elt Ideal)) :
    val_main_v49 (F := Ideal) x1 x3 x5 x6
      = Host.scatterAdd Cert.ReferenceIdeal.scatter_S200000x64_S1000000x1_S1000000x64_1_0_0_1 zeros (colV (val_main_v19 (F := Ideal) x5))
          (mulf (Host.gather Cert.ReferenceIdeal.gather_S200000x64_S1000000x1_S1000000x64_1_0_n_n_0_1_164 x1 (colV (wrapV 200000#32 (val_main_v21 (F := Ideal) x5))))
            (Host.gather Cert.ReferenceIdeal.gather_S10x64_S1000000x1_S1000000x64_1_0_n_n_0_1_164 x3 (colV (wrapV 10#32 (subi x6 onesI))))) := rfl

theorem ref_v130_eq (x1 : (⟨S200000x64, .f32⟩ : BufTy).Contents (Elt Ideal)) (x3 : (⟨S10x64, .f32⟩ : BufTy).Contents (Elt Ideal))
    (x5 : (⟨S2x1000000, .i32⟩ : BufTy).Contents (Elt Ideal)) (x6 : (⟨S1000000, .i32⟩ : BufTy).Contents (Elt Ideal)) :
    val_main_v130 (F := Ideal) x1 x3 x5 x6
      = Host.scatterAdd Cert.ReferenceIdeal.scatter_S200000x64_S1000000x1_S1000000x64_1_0_0_1 zeros (colV (val_main_v19 (F := Ideal) x5))
          (mulf (Host.gather Cert.ReferenceIdeal.gather_S200000x64_S1000000x1_S1000000x64_1_0_n_n_0_1_164 (val_main_v103 (F := Ideal) x1 x3 x5 x6) (colV (wrapV 200000#32 (val_main_v21 (F := Ideal) x5))))
            (Host.gather Cert.ReferenceIdeal.gather_S10x64_S1000000x1_S1000000x64_1_0_n_n_0_1_164 x3 (colV (wrapV 10#32 (subi x6 onesI))))) := rfl

/-! ## Test: the kernel's stretches over a generic valuation -/
section KV
variable (V : Valuation τ sig (Elt Ideal))

set_option maxHeartbeats 4000000 in
theorem k_v19 : (StableHlo.after main_part0_ops2 V (Proc.devRef .tc main_v19) : (⟨S1000000, .i32⟩ : BufTy).Contents (Elt Ideal))
    = val_main_v19 (F := Ideal) (V (Proc.devRef .tc main_arg5)) := by
  after_results_simp <;> rfl

set_option maxHeartbeats 4000000 in
theorem k_v29 : (StableHlo.after main_part0_ops2 V (Proc.devRef .tc main_v29) : (⟨S200000, .f32⟩ : BufTy).Contents (Elt Ideal))
    = val_main_v29 (F := Ideal) (V (Proc.devRef .tc main_arg5)) := by
  after_results_simp <;> rfl

set_option maxHeartbeats 4000000 in
theorem k_v37 : (StableHlo.after main_part0_ops2 V (Proc.devRef .tc main_v37) : (⟨S1000000x1, .f32⟩ : BufTy).Contents (Elt Ideal))
    = colV (Host.gather gather_S200000_S1000000x1_S1000000_n_0_n_n_0_1_1 (val_main_v29 (F := Ideal) (V (Proc.devRef .tc main_arg5)))
        (colV (wrapV 200000#32 (val_main_v19 (F := Ideal) (V (Proc.devRef .tc main_arg5)))))) := by
  after_results_simp <;> rfl

set_option maxHeartbeats 4000000 in
theorem k_v40 : (StableHlo.after main_part0_ops2 V (Proc.devRef .tc main_v40) : (⟨S1000000x1, .i32⟩ : BufTy).Contents (Elt Ideal))
    = colV (subi (V (Proc.devRef .tc main_arg6) : IVec S1000000 32) onesI) := by
  after_results_simp <;> rfl

set_option maxHeartbeats 4000000 in
theorem k_v60 : (StableHlo.after main_part1_ops0 V (Proc.devRef .tc main_v60) : (⟨S1000000x64, .f32⟩ : BufTy).Contents (Elt Ideal))
    = Host.gather gather_S200000x64_S1000000x1_S1000000x64_1_0_n_n_0_1_164 (V (Proc.devRef .tc main_arg1) : FVec Ideal S200000x64 .f32)
        (colV (wrapV 200000#32 (V (Proc.devRef .tc main_v21) : IVec S1000000 32))) := by
  after_results_simp <;> rfl

set_option maxHeartbeats 4000000 in
theorem k_v64 : (StableHlo.after main_part1_ops1 V (Proc.devRef .tc main_v64) : (⟨S200000x64, .f32⟩ : BufTy).Contents (Elt Ideal))
    = Host.scatterAdd scatter_S200000x64_S1000000x1_S1000000x64_1_0_0_1 zeros (colV (V (Proc.devRef .tc main_v19) : IVec S1000000 32))
        (V (Proc.devRef .tc main_v61) : FVec Ideal S1000000x64 .f32) := by
  after_results_simp <;> rfl

set_option maxHeartbeats 4000000 in
theorem k_v21 : (StableHlo.after main_part0_ops2 V (Proc.devRef .tc main_v21) : (⟨S1000000, .i32⟩ : BufTy).Contents (Elt Ideal))
    = val_main_v21 (F := Ideal) (V (Proc.devRef .tc main_arg5)) := by
  after_results_simp <;> rfl
end KV

section KV2
variable (V : Valuation τ sig (Elt Ideal))
set_option maxHeartbeats 4000000 in
theorem k_v85 : (StableHlo.after main_part1_ops3 V (Proc.devRef .tc main_v85) : (⟨S1000000x64, .f32⟩ : BufTy).Contents (Elt Ideal))
    = Host.gather gather_S200000x64_S1000000x1_S1000000x64_1_0_n_n_0_1_164 (V (Proc.devRef .tc main_v78_0) : FVec Ideal S200000x64 .f32)
        (colV (wrapV 200000#32 (V (Proc.devRef .tc main_v21) : IVec S1000000 32))) := by
  after_results_simp <;> rfl

set_option maxHeartbeats 4000000 in
theorem k_v89 : (StableHlo.after main_part1_ops4 V (Proc.devRef .tc main_v89) : (⟨S200000x64, .f32⟩ : BufTy).Contents (Elt Ideal))
    = Host.scatterAdd scatter_S200000x64_S1000000x1_S1000000x64_1_0_0_1 zeros (colV (V (Proc.devRef .tc main_v19) : IVec S1000000 32))
        (V (Proc.devRef .tc main_v86) : FVec Ideal S1000000x64 .f32) := by
  after_results_simp <;> rfl
end KV2

/-! ## The chain: @main's arguments are never written -/

section Chain
variable (m : (ℓ : Loc nD τ sig) → Buf (Elt Ideal) ℓ) (ρ : Dev nD → PrngReg)

abbrev A0 (c : Dev nD) : (⟨S100000x64, .f32⟩ : BufTy).Contents (Elt Ideal) := m ((c : Thread nD τ).loc main_arg0)
abbrev A1 (c : Dev nD) : (⟨S200000x64, .f32⟩ : BufTy).Contents (Elt Ideal) := m ((c : Thread nD τ).loc main_arg1)
abbrev A2 (c : Dev nD) : (⟨S4x64, .f32⟩ : BufTy).Contents (Elt Ideal) := m ((c : Thread nD τ).loc main_arg2)
abbrev A3 (c : Dev nD) : (⟨S10x64, .f32⟩ : BufTy).Contents (Elt Ideal) := m ((c : Thread nD τ).loc main_arg3)
abbrev A4 (c : Dev nD) : (⟨S4x10, .f32⟩ : BufTy).Contents (Elt Ideal) := m ((c : Thread nD τ).loc main_arg4)
abbrev A5 (c : Dev nD) : (⟨S2x1000000, .i32⟩ : BufTy).Contents (Elt Ideal) := m ((c : Thread nD τ).loc main_arg5)
abbrev A6 (c : Dev nD) : (⟨S1000000, .i32⟩ : BufTy).Contents (Elt Ideal) := m ((c : Thread nD τ).loc main_arg6)
abbrev A7 (c : Dev nD) : (⟨S1000000, .i32⟩ : BufTy).Contents (Elt Ideal) := m ((c : Thread nD τ).loc main_arg7)
abbrev A8 (c : Dev nD) : (⟨S1000000, .i32⟩ : BufTy).Contents (Elt Ideal) := m ((c : Thread nD τ).loc main_arg8)
abbrev A9 (c : Dev nD) : (⟨S1000000, .f32⟩ : BufTy).Contents (Elt Ideal) := m ((c : Thread nD τ).loc main_arg9)

/-- Every relation id lies between 1 and 10. -/
def EtRange (c : Dev nD) : Prop :=
  ∀ e : Fin 1000000, 1 ≤ (A6 m c (ix1 e) : BitVec 32).toInt ∧ (A6 m c (ix1 e) : BitVec 32).toInt ≤ 10

theorem arg5_W2 (c : Dev nD) : (W2 m ρ c (Proc.devRef .tc main_arg5) : (⟨S2x1000000, .i32⟩ : BufTy).Contents (Elt Ideal)) = A5 m c := by
  rw [W2_of m ρ c main_arg5 (by decide), W1_of m ρ c main_arg5 (by decide)]
theorem arg6_W2 (c : Dev nD) : (W2 m ρ c (Proc.devRef .tc main_arg6) : (⟨S1000000, .i32⟩ : BufTy).Contents (Elt Ideal)) = A6 m c := by
  rw [W2_of m ρ c main_arg6 (by decide), W1_of m ρ c main_arg6 (by decide)]
theorem arg1_W3 (c : Dev nD) : (W3 m ρ c (Proc.devRef .tc main_arg1) : (⟨S200000x64, .f32⟩ : BufTy).Contents (Elt Ideal)) = A1 m c := by
  rw [W3_of m ρ c main_arg1 (by decide), W2_of m ρ c main_arg1 (by decide), W1_of m ρ c main_arg1 (by decide)]
theorem arg3_W4 (c : Dev nD) : (W4 m ρ c (Proc.devRef .tc main_arg3) : (⟨S10x64, .f32⟩ : BufTy).Contents (Elt Ideal)) = A3 m c := by
  rw [W4_of m ρ c main_arg3 (by decide), W3_of m ρ c main_arg3 (by decide), W2_of m ρ c main_arg3 (by decide), W1_of m ρ c main_arg3 (by decide)]
theorem arg1_W9 (c : Dev nD) : (W9 m ρ c (Proc.devRef .tc main_arg1) : (⟨S200000x64, .f32⟩ : BufTy).Contents (Elt Ideal)) = A1 m c := by
  rw [W9_of m ρ c main_arg1 (by decide), W8_of m ρ c main_arg1 (by decide), W7_of m ρ c main_arg1 (by decide), W6_of m ρ c main_arg1 (by decide),
    W5_of m ρ c main_arg1 (by decide), W4_of m ρ c main_arg1 (by decide), arg1_W3]
theorem arg3_W11 (c : Dev nD) : (W11 m ρ c (Proc.devRef .tc main_arg3) : (⟨S10x64, .f32⟩ : BufTy).Contents (Elt Ideal)) = A3 m c := by
  rw [W11_of m ρ c main_arg3 (by decide), W10_of m ρ c main_arg3 (by decide), W9_of m ρ c main_arg3 (by decide), W8_of m ρ c main_arg3 (by decide),
    W7_of m ρ c main_arg3 (by decide), W6_of m ρ c main_arg3 (by decide), W5_of m ρ c main_arg3 (by decide), arg3_W4]

/-! ## E1: the edge heads and tails -/

theorem head_eq (c : Dev nD) :
    (W3 m ρ c (Proc.devRef .tc main_v19) : (⟨S1000000, .i32⟩ : BufTy).Contents (Elt Ideal)) = val_main_v19 (F := Ideal) (A5 m c) :=
  (k_v19 (W2 m ρ c)).trans (congrArg (val_main_v19 (F := Ideal)) (arg5_W2 m ρ c))

theorem tail_eq (c : Dev nD) :
    (W3 m ρ c (Proc.devRef .tc main_v21) : (⟨S1000000, .i32⟩ : BufTy).Contents (Elt Ideal)) = val_main_v21 (F := Ideal) (A5 m c) :=
  (k_v21 (W2 m ρ c)).trans (congrArg (val_main_v21 (F := Ideal)) (arg5_W2 m ρ c))

theorem head_apply (c : Dev nD) (e : Fin 1000000) :
    (W3 m ρ c (Proc.devRef .tc main_v19) : (⟨S1000000, .i32⟩ : BufTy).Contents (Elt Ideal)) (ix1 e) = A5 m c (ix2 (0 : Fin 2) e) := by
  rw [head_eq, ref_head_apply]

theorem tail_apply (c : Dev nD) (e : Fin 1000000) :
    (W3 m ρ c (Proc.devRef .tc main_v21) : (⟨S1000000, .i32⟩ : BufTy).Contents (Elt Ideal)) (ix1 e) = A5 m c (ix2 (1 : Fin 2) e) := by
  rw [tail_eq, ref_tail_apply]

/-! ## E2: the inverse degree -/

theorem inv_eq (c : Dev nD) :
    (W3 m ρ c (Proc.devRef .tc main_v29) : (⟨S200000, .f32⟩ : BufTy).Contents (Elt Ideal)) = val_main_v29 (F := Ideal) (A5 m c) :=
  (k_v29 (W2 m ρ c)).trans (congrArg (val_main_v29 (F := Ideal)) (arg5_W2 m ρ c))

/-! ## The buffers the two edge regions read, in both hops -/

/-- The inverse degree gathered at the heads, as a column. -/
theorem buf_v37 (c : Dev nD) : (W3 m ρ c (Proc.devRef .tc main_v37) : (⟨S1000000x1, .f32⟩ : BufTy).Contents (Elt Ideal))
    = colV (Host.gather gather_S200000_S1000000x1_S1000000_n_0_n_n_0_1_1 (val_main_v29 (F := Ideal) (A5 m c))
        (colV (wrapV 200000#32 (val_main_v19 (F := Ideal) (A5 m c))))) :=
  (k_v37 (W2 m ρ c)).trans (by rw [arg5_W2])

/-- The relation ids less one, as a column. -/
theorem buf_v40 (c : Dev nD) : (W3 m ρ c (Proc.devRef .tc main_v40) : (⟨S1000000x1, .i32⟩ : BufTy).Contents (Elt Ideal))
    = colV (subi (A6 m c) onesI) :=
  (k_v40 (W2 m ρ c)).trans (by rw [arg6_W2])

/-- A column entry of the relation ids less one. -/
theorem subOne_apply (x6 : (⟨S1000000, .i32⟩ : BufTy).Contents (Elt Ideal)) (e : Fin 1000000) :
    subi x6 onesI (ix1 e) = (x6 (ix1 e) : BitVec 32) - 1#32 := by
  show IntOp.subi (x6 (ix1 e)) (broadcastInDim S1000000 ![] bcast_S_S1000000 (constantI S_ 32 1#32) (ix1 e)) = _
  rw [splat_apply]; rfl

/-- What either edge region finds in its relation-id, relation-table and inverse-degree windows, from any later
    boundary W that keeps those three buffers. -/
theorem edge_inputs (c : Dev nD) (W : Valuation τ sig (Elt Ideal))
    (h40 : W (Proc.devRef .tc main_v40) = W3 m ρ c (Proc.devRef .tc main_v40))
    (h37 : W (Proc.devRef .tc main_v37) = W3 m ρ c (Proc.devRef .tc main_v37))
    (h3 : (W (Proc.devRef .tc main_arg3) : (⟨S10x64, .f32⟩ : BufTy).Contents (Elt Ideal)) = A3 m c) :
    (∀ e : Fin 1000000, (W (Proc.devRef .tc main_v40) : (⟨S1000000x1, .i32⟩ : BufTy).Contents (Elt Ideal)) (ix2 e (0 : Fin 1))
        = (A6 m c (ix1 e) : BitVec 32) - 1#32)
    ∧ (∀ (r : Fin 10) (q : Fin 64), (W (Proc.devRef .tc main_arg3) : (⟨S10x64, .f32⟩ : BufTy).Contents (Elt Ideal)) (ix2 r q) = A3 m c (ix2 r q))
    ∧ (∀ e : Fin 1000000, (W (Proc.devRef .tc main_v37) : (⟨S1000000x1, .f32⟩ : BufTy).Contents (Elt Ideal)) (ix2 e (0 : Fin 1))
        = Cert.Agg.inv (fun e => val_main_v19 (F := Ideal) (A5 m c) (ix1 e))
            (Cert.Agg.row200000 (Cert.Agg.normIdx 200000#32 (val_main_v19 (F := Ideal) (A5 m c) (ix1 e))))) := by
  refine ⟨fun e => ?_, fun r q => ?_, fun e => ?_⟩
  · rw [h40, buf_v40, colV_apply, subOne_apply]
  · rw [h3]
  · rw [h37, buf_v37, gatherVec_apply, ref_inv]

/-! ## E3: the first hop's aggregate -/

/-- The tail rows the first edge region reads. -/
theorem buf_v60 (c : Dev nD) : (W4 m ρ c (Proc.devRef .tc main_v60) : (⟨S1000000x64, .f32⟩ : BufTy).Contents (Elt Ideal))
    = Host.gather gather_S200000x64_S1000000x1_S1000000x64_1_0_n_n_0_1_164 (A1 m c) (colV (wrapV 200000#32 (val_main_v21 (F := Ideal) (A5 m c)))) :=
  (k_v60 (W3 m ρ c)).trans (by rw [arg1_W3, tail_eq])

/-- The first edge region's output, element by element. -/
theorem msg1_apply (c : Dev nD) (e : Fin 1000000) (q : Fin 64) :
    (W5 m ρ c (Proc.devRef .tc main_v61) : (⟨S1000000x64, .f32⟩ : BufTy).Contents (Elt Ideal)) (ix2 e q) = Cert.Spec.edgeVal
      (fun e q => A1 m c (ix2 (Cert.Agg.row200000 (Cert.Agg.normIdx 200000#32 (val_main_v21 (F := Ideal) (A5 m c) (ix1 e)))) q))
      (fun e => (A6 m c (ix1 e) : BitVec 32) - 1#32) (fun r q => A3 m c (ix2 r q))
      (fun e => Cert.Agg.inv (fun e => val_main_v19 (F := Ideal) (A5 m c) (ix1 e))
        (Cert.Agg.row200000 (Cert.Agg.normIdx 200000#32 (val_main_v19 (F := Ideal) (A5 m c) (ix1 e))))) e q := by
  obtain ⟨h1, h2, h3⟩ := edge_inputs m ρ c (W4 m ρ c) (W4_of m ρ c main_v40 (by decide)) (W4_of m ρ c main_v37 (by decide)) (arg3_W4 m ρ c)
  have h0 : ∀ (e : Fin 1000000) (q : Fin 64), (W4 m ρ c (Proc.devRef .tc main_v60) : (⟨S1000000x64, .f32⟩ : BufTy).Contents (Elt Ideal)) (ix2 e q)
      = A1 m c (ix2 (Cert.Agg.row200000 (Cert.Agg.normIdx 200000#32 (val_main_v21 (F := Ideal) (A5 m c) (ix1 e)))) q) := fun e q => by
    rw [buf_v60, gatherRows_apply]
  refine (congrFun (W5_arr m ρ c 4) (ix2 e q)).trans ((Val.final0_4 (V4 m ρ) c e q).trans ?_)
  show Cert.Spec.edgeVal (fun e q => (W4 m ρ c (Proc.devRef .tc main_v60) : (⟨S1000000x64, .f32⟩ : BufTy).Contents (Elt Ideal)) (ix2 e q))
    (fun e => (W4 m ρ c (Proc.devRef .tc main_v40) : (⟨S1000000x1, .i32⟩ : BufTy).Contents (Elt Ideal)) (ix2 e (0 : Fin 1)))
    (fun r q => (W4 m ρ c (Proc.devRef .tc main_arg3) : (⟨S10x64, .f32⟩ : BufTy).Contents (Elt Ideal)) (ix2 r q))
    (fun e => (W4 m ρ c (Proc.devRef .tc main_v37) : (⟨S1000000x1, .f32⟩ : BufTy).Contents (Elt Ideal)) (ix2 e (0 : Fin 1))) e q = _
  simp only [h0, h1, h2, h3]

/-- The first hop's aggregate buffer as the accumulation of the region's output over the heads. -/
theorem buf_v64 (c : Dev nD) : (W6 m ρ c (Proc.devRef .tc main_v64) : (⟨S200000x64, .f32⟩ : BufTy).Contents (Elt Ideal))
    = Host.scatterAdd scatter_S200000x64_S1000000x1_S1000000x64_1_0_0_1 zeros (colV (val_main_v19 (F := Ideal) (A5 m c)))
        (W5 m ρ c (Proc.devRef .tc main_v61) : FVec Ideal S1000000x64 .f32) :=
  (k_v64 (W5 m ρ c)).trans (by rw [W5_of m ρ c main_v19 (by decide), W4_of m ρ c main_v19 (by decide), head_eq])

theorem agg1_apply (c : Dev nD) (het : EtRange m c) (n : Fin 200000) (q : Fin 64) :
    (W6 m ρ c (Proc.devRef .tc main_v64) : (⟨S200000x64, .f32⟩ : BufTy).Contents (Elt Ideal)) (ix2 n q)
      = val_main_v52 (F := Ideal) (A1 m c) (A3 m c) (A5 m c) (A6 m c) (ix2 n q) := by
  rw [buf_v64, Cert.RefVal.ref_eagg1, ref_v49_eq]
  exact hop_eq (A1 m c) (A3 m c) (A5 m c) (A6 m c) het _ (msg1_apply m ρ c) n q

theorem agg1_eq (c : Dev nD) (het : EtRange m c) :
    (W6 m ρ c (Proc.devRef .tc main_v64) : (⟨S200000x64, .f32⟩ : BufTy).Contents (Elt Ideal))
      = val_main_v52 (F := Ideal) (A1 m c) (A3 m c) (A5 m c) (A6 m c) :=
  funext fun i => by rw [eq_ix2 i]; exact agg1_apply m ρ c het _ _

/-! ## E4: the first hop's entity rows and residual -/

theorem ent1_apply (c : Dev nD) (het : EtRange m c) (n : Fin 200000) (q : Fin 64) :
    (W10 m ρ c (Proc.devRef .tc main_v78_0) : (⟨S200000x64, .f32⟩ : BufTy).Contents (Elt Ideal)) (ix2 n q)
      = val_main_v103 (F := Ideal) (A1 m c) (A3 m c) (A5 m c) (A6 m c) (ix2 n q) := by
  have h0 : ∀ k : Fin 64, Val.arr3_0 (V9 m ρ) c n k = val_main_v52 (F := Ideal) (A1 m c) (A3 m c) (A5 m c) (A6 m c) (ix2 n k) := fun k => by
    show (W9 m ρ c (Proc.devRef .tc main_v64) : (⟨S200000x64, .f32⟩ : BufTy).Contents (Elt Ideal)) (ix2 n k) = _
    rw [W9_of m ρ c main_v64 (by decide), W8_of m ρ c main_v64 (by decide), W7_of m ρ c main_v64 (by decide), agg1_apply m ρ c het]
  refine (congrFun (W10_arr m ρ c 2) (ix2 n q)).trans ((Val.final3_2 (V9 m ρ) c n q).trans ?_)
  rw [Cert.RefVal.ref_ent1]
  simp only [h0]

theorem eres1_apply (c : Dev nD) (het : EtRange m c) (n : Fin 200000) (q : Fin 64) :
    (W10 m ρ c (Proc.devRef .tc main_v78_1) : (⟨S200000x64, .f32⟩ : BufTy).Contents (Elt Ideal)) (ix2 n q)
      = val_main_v109 (F := Ideal) (A1 m c) (A3 m c) (A5 m c) (A6 m c) (ix2 n q) := by
  have h0 : ∀ k : Fin 64, Val.arr3_0 (V9 m ρ) c n k = val_main_v52 (F := Ideal) (A1 m c) (A3 m c) (A5 m c) (A6 m c) (ix2 n k) := fun k => by
    show (W9 m ρ c (Proc.devRef .tc main_v64) : (⟨S200000x64, .f32⟩ : BufTy).Contents (Elt Ideal)) (ix2 n k) = _
    rw [W9_of m ρ c main_v64 (by decide), W8_of m ρ c main_v64 (by decide), W7_of m ρ c main_v64 (by decide), agg1_apply m ρ c het]
  have h1 : Val.arr3_1 (V9 m ρ) c n q = A1 m c (ix2 n q) := by
    show (W9 m ρ c (Proc.devRef .tc main_arg1) : (⟨S200000x64, .f32⟩ : BufTy).Contents (Elt Ideal)) (ix2 n q) = _
    rw [arg1_W9]
  refine (congrFun (W10_arr m ρ c 3) (ix2 n q)).trans ((Val.final3_3 (V9 m ρ) c n q).trans ?_)
  rw [Cert.RefVal.ref_eres1, Cert.RefVal.ref_ent1, h1]
  simp only [h0]

theorem ent1_eq (c : Dev nD) (het : EtRange m c) :
    (W10 m ρ c (Proc.devRef .tc main_v78_0) : (⟨S200000x64, .f32⟩ : BufTy).Contents (Elt Ideal))
      = val_main_v103 (F := Ideal) (A1 m c) (A3 m c) (A5 m c) (A6 m c) :=
  funext fun i => by rw [eq_ix2 i]; exact ent1_apply m ρ c het _ _

theorem eres1_eq (c : Dev nD) (het : EtRange m c) :
    (W10 m ρ c (Proc.devRef .tc main_v78_1) : (⟨S200000x64, .f32⟩ : BufTy).Contents (Elt Ideal))
      = val_main_v109 (F := Ideal) (A1 m c) (A3 m c) (A5 m c) (A6 m c) :=
  funext fun i => by rw [eq_ix2 i]; exact eres1_apply m ρ c het _ _

/-! ## E5: the second hop's aggregate -/

/-- The tail rows the second edge region reads: rows of the first hop's entity array. -/
theorem buf_v85 (c : Dev nD) (het : EtRange m c) : (W11 m ρ c (Proc.devRef .tc main_v85) : (⟨S1000000x64, .f32⟩ : BufTy).Contents (Elt Ideal))
    = Host.gather gather_S200000x64_S1000000x1_S1000000x64_1_0_n_n_0_1_164 (val_main_v103 (F := Ideal) (A1 m c) (A3 m c) (A5 m c) (A6 m c))
        (colV (wrapV 200000#32 (val_main_v21 (F := Ideal) (A5 m c)))) :=
  (k_v85 (W10 m ρ c)).trans (by
    rw [ent1_eq m ρ c het, W10_of m ρ c main_v21 (by decide), W9_of m ρ c main_v21 (by decide), W8_of m ρ c main_v21 (by decide),
      W7_of m ρ c main_v21 (by decide), W6_of m ρ c main_v21 (by decide), W5_of m ρ c main_v21 (by decide), W4_of m ρ c main_v21 (by decide), tail_eq])

/-- A buffer the first stretches wrote and nothing later writes, at the second edge region's entry. -/
theorem keep_W11 (c : Dev nD) (r : Ref sig .tc) (h11 : r ∉ main_part1_ops3_W) (h10 : r ∉ reg3_W) (h9 : r ∉ reg2_W) (h8 : r ∉ main_part1_ops2_W)
    (h7 : r ∉ reg1_W) (h6 : r ∉ main_part1_ops1_W) (h5 : r ∉ reg0_W) (h4 : r ∉ main_part1_ops0_W) :
    W11 m ρ c (Proc.devRef .tc r) = W3 m ρ c (Proc.devRef .tc r) := by
  rw [W11_of m ρ c r h11, W10_of m ρ c r h10, W9_of m ρ c r h9, W8_of m ρ c r h8, W7_of m ρ c r h7, W6_of m ρ c r h6, W5_of m ρ c r h5, W4_of m ρ c r h4]

/-- The second edge region's output, element by element. -/
theorem msg2_apply (c : Dev nD) (het : EtRange m c) (e : Fin 1000000) (q : Fin 64) :
    (W12 m ρ c (Proc.devRef .tc main_v86) : (⟨S1000000x64, .f32⟩ : BufTy).Contents (Elt Ideal)) (ix2 e q) = Cert.Spec.edgeVal
      (fun e q => val_main_v103 (F := Ideal) (A1 m c) (A3 m c) (A5 m c) (A6 m c)
        (ix2 (Cert.Agg.row200000 (Cert.Agg.normIdx 200000#32 (val_main_v21 (F := Ideal) (A5 m c) (ix1 e)))) q))
      (fun e => (A6 m c (ix1 e) : BitVec 32) - 1#32) (fun r q => A3 m c (ix2 r q))
      (fun e => Cert.Agg.inv (fun e => val_main_v19 (F := Ideal) (A5 m c) (ix1 e))
        (Cert.Agg.row200000 (Cert.Agg.normIdx 200000#32 (val_main_v19 (F := Ideal) (A5 m c) (ix1 e))))) e q := by
  obtain ⟨h1, h2, h3⟩ := edge_inputs m ρ c (W11 m ρ c)
    (keep_W11 m ρ c main_v40 (by decide) (by decide) (by decide) (by decide) (by decide) (by decide) (by decide) (by decide))
    (keep_W11 m ρ c main_v37 (by decide) (by decide) (by decide) (by decide) (by decide) (by decide) (by decide) (by decide)) (arg3_W11 m ρ c)
  have h0 : ∀ (e : Fin 1000000) (q : Fin 64), (W11 m ρ c (Proc.devRef .tc main_v85) : (⟨S1000000x64, .f32⟩ : BufTy).Contents (Elt Ideal)) (ix2 e q)
      = val_main_v103 (F := Ideal) (A1 m c) (A3 m c) (A5 m c) (A6 m c)
          (ix2 (Cert.Agg.row200000 (Cert.Agg.normIdx 200000#32 (val_main_v21 (F := Ideal) (A5 m c) (ix1 e)))) q) := fun e q => by
    rw [buf_v85 m ρ c het, gatherRows_apply]
  refine (congrFun (W12_arr m ρ c 4) (ix2 e q)).trans ((Val.final4_4 (V11 m ρ) c e q).trans ?_)
  show Cert.Spec.edgeVal (fun e q => (W11 m ρ c (Proc.devRef .tc main_v85) : (⟨S1000000x64, .f32⟩ : BufTy).Contents (Elt Ideal)) (ix2 e q))
    (fun e => (W11 m ρ c (Proc.devRef .tc main_v40) : (⟨S1000000x1, .i32⟩ : BufTy).Contents (Elt Ideal)) (ix2 e (0 : Fin 1)))
    (fun r q => (W11 m ρ c (Proc.devRef .tc main_arg3) : (⟨S10x64, .f32⟩ : BufTy).Contents (Elt Ideal)) (ix2 r q))
    (fun e => (W11 m ρ c (Proc.devRef .tc main_v37) : (⟨S1000000x1, .f32⟩ : BufTy).Contents (Elt Ideal)) (ix2 e (0 : Fin 1))) e q = _
  simp only [h0, h1, h2, h3]

/-- The second hop's aggregate buffer as the accumulation of the region's output over the heads. -/
theorem buf_v89 (c : Dev nD) : (W13 m ρ c (Proc.devRef .tc main_v89) : (⟨S200000x64, .f32⟩ : BufTy).Contents (Elt Ideal))
    = Host.scatterAdd scatter_S200000x64_S1000000x1_S1000000x64_1_0_0_1 zeros (colV (val_main_v19 (F := Ideal) (A5 m c)))
        (W12 m ρ c (Proc.devRef .tc main_v86) : FVec Ideal S1000000x64 .f32) :=
  (k_v89 (W12 m ρ c)).trans (by
    rw [W12_of m ρ c main_v19 (by decide), keep_W11 m ρ c main_v19 (by decide) (by decide) (by decide) (by decide) (by decide) (by decide) (by decide) (by decide), head_eq])

theorem agg2_apply (c : Dev nD) (het : EtRange m c) (n : Fin 200000) (q : Fin 64) :
    (W13 m ρ c (Proc.devRef .tc main_v89) : (⟨S200000x64, .f32⟩ : BufTy).Contents (Elt Ideal)) (ix2 n q)
      = val_main_v133 (F := Ideal) (A1 m c) (A3 m c) (A5 m c) (A6 m c) (ix2 n q) := by
  rw [buf_v89, Cert.RefVal.ref_eagg2, ref_v130_eq]
  exact hop_eq (val_main_v103 (F := Ideal) (A1 m c) (A3 m c) (A5 m c) (A6 m c)) (A3 m c) (A5 m c) (A6 m c) het _ (msg2_apply m ρ c het) n q

/-! ## E6: the results -/

/-- What the last entity region finds in its aggregate window. -/
theorem ent2_in (c : Dev nD) (het : EtRange m c) (n : Fin 200000) (k : Fin 64) :
    Val.arr7_0 (V17 m ρ) c n k = val_main_v133 (F := Ideal) (A1 m c) (A3 m c) (A5 m c) (A6 m c) (ix2 n k) := by
  show (W17 m ρ c (Proc.devRef .tc main_v89) : (⟨S200000x64, .f32⟩ : BufTy).Contents (Elt Ideal)) (ix2 n k) = _
  rw [W17_of m ρ c main_v89 (by decide), W16_of m ρ c main_v89 (by decide), W15_of m ρ c main_v89 (by decide), W14_of m ρ c main_v89 (by decide),
    agg2_apply m ρ c het]

theorem ent2_apply (c : Dev nD) (het : EtRange m c) (n : Fin 200000) (q : Fin 64) :
    (Wn m ρ c (Proc.devRef .tc main_v103_0) : (⟨S200000x64, .f32⟩ : BufTy).Contents (Elt Ideal)) (ix2 n q)
      = val_main_v184 (F := Ideal) (A1 m c) (A3 m c) (A5 m c) (A6 m c) (ix2 n q) := by
  refine (congrFun (W18_arr m ρ c 2) (ix2 n q)).trans ((Val.final7_2 (V17 m ρ) c n q).trans ?_)
  rw [Cert.RefVal.ref_ent2]
  simp only [ent2_in m ρ c het]

theorem eres2_apply (c : Dev nD) (het : EtRange m c) (n : Fin 200000) (q : Fin 64) :
    (Wn m ρ c (Proc.devRef .tc main_v103_1) : (⟨S200000x64, .f32⟩ : BufTy).Contents (Elt Ideal)) (ix2 n q)
      = val_main_v190 (F := Ideal) (A1 m c) (A3 m c) (A5 m c) (A6 m c) (ix2 n q) := by
  have h1 : Val.arr7_1 (V17 m ρ) c n q = val_main_v109 (F := Ideal) (A1 m c) (A3 m c) (A5 m c) (A6 m c) (ix2 n q) := by
    show (W17 m ρ c (Proc.devRef .tc main_v78_1) : (⟨S200000x64, .f32⟩ : BufTy).Contents (Elt Ideal)) (ix2 n q) = _
    rw [W17_of m ρ c main_v78_1 (by decide), W16_of m ρ c main_v78_1 (by decide), W15_of m ρ c main_v78_1 (by decide),
      W14_of m ρ c main_v78_1 (by decide), W13_of m ρ c main_v78_1 (by decide), W12_of m ρ c main_v78_1 (by decide),
      W11_of m ρ c main_v78_1 (by decide), eres1_apply m ρ c het]
  refine (congrFun (W18_arr m ρ c 3) (ix2 n q)).trans ((Val.final7_3 (V17 m ρ) c n q).trans ?_)
  rw [Cert.RefVal.ref_eres2, Cert.RefVal.ref_ent2, h1]
  simp only [ent2_in m ρ c het]

/-- The entity result: the accumulated residual after two hops is the reference's. -/
theorem bridge_ent (c : Dev nD) (het : EtRange m c) :
    (Wn m ρ c (Proc.devRef .tc main_v103_1) : (⟨S200000x64, .f32⟩ : BufTy).Contents (Elt Ideal))
      = val_main_v190 (F := Ideal) (A1 m c) (A3 m c) (A5 m c) (A6 m c) :=
  funext fun i => by rw [eq_ix2 i]; exact eres2_apply m ρ c het _ _

theorem bridge_ent0 (c : Dev nD) (het : EtRange m c) :
    (Wn m ρ c (Proc.devRef .tc main_v103_0) : (⟨S200000x64, .f32⟩ : BufTy).Contents (Elt Ideal))
      = val_main_v184 (F := Ideal) (A1 m c) (A3 m c) (A5 m c) (A6 m c) :=
  funext fun i => by rw [eq_ix2 i]; exact ent2_apply m ρ c het _ _

end Chain

end Cert.Bridge

end
-- ==== Proof.Val.RefUser1.lean ====
/- The reference program's user update at the first propagation step, read one element at a time over the
   extended reals. For a user row: the four attention logits are the row's inner products with the latent
   factors, the softmax shifts by the row's largest logit, the four disentangled relation rows are combined with
   those weights, the user's aggregate is modulated by the combination and added to itself, and the result is
   divided by its Euclidean norm floored at a small constant. -/
import proofs.«416106_j13048110645352_1_alg».proof.Proof.Val.RefImports
import proofs.«416106_j13048110645352_1_alg».proof.Proof.Val.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.RefVal

open Cert.ReferenceIdeal Cert.ReferenceIdeal.Gen Cert.ReferenceIdeal.Read Idealize.ShloMosaic Idealize.ShloMosaic.ValueIdx Idealize.ShloMosaic.StableHlo

variable (x0 : (⟨S100000x64, .f32⟩ : BufTy).Contents (Elt Ideal)) (x1 : (⟨S200000x64, .f32⟩ : BufTy).Contents (Elt Ideal))
  (x2 : (⟨S4x64, .f32⟩ : BufTy).Contents (Elt Ideal)) (x3 : (⟨S10x64, .f32⟩ : BufTy).Contents (Elt Ideal))
  (x4 : (⟨S4x10, .f32⟩ : BufTy).Contents (Elt Ideal)) (x5 : (⟨S2x1000000, .i32⟩ : BufTy).Contents (Elt Ideal))
  (x6 x7 x8 : (⟨S1000000, .i32⟩ : BufTy).Contents (Elt Ideal)) (x9 : (⟨S1000000, .f32⟩ : BufTy).Contents (Elt Ideal))

/-- A row's reduced index with the factor's coordinate put back is (row, factor). -/
private theorem lift_factor (h : S100000x4.Reduces [1] S100000) (u : Fin 100000) (k : Fin (S100000x4.size 1)) :
    h.lift (ix1 u) k = ix2 u (⟨k.val, k.isLt⟩ : Fin 4) := by
  funext c; apply Fin.ext; fin_cases c <;> rfl

/-! ## The first propagation step: logits, softmax, combination, update, normalisation -/

/-- A user row's logit against a factor: the inner product with the factor's coordinates. -/
theorem ref_logit1 (u : Fin 100000) (f : Fin 4) :
    val_main_v54 (F := Ideal) x0 x2 (ix2 u f)
      = Cert.Spec.logit (fun k => x0 (ix2 u k)) (fun k f => val_main_v53 (F := Ideal) x2 (ix2 k f)) f := by
  rw [val_main_v54_apply]
  unfold Cert.Spec.logit
  refine Finset.sum_congr rfl fun k _ => ?_
  have el : lidx_main_v54 (ix2 u f) k = ix2 u k :=
    funext fun a => Fin.ext (by match a with | ⟨0, _⟩ => rfl | ⟨1, _⟩ => rfl)
  have er : ridx_main_v54 (ix2 u f) k = ix2 k f :=
    funext fun a => Fin.ext (by match a with | ⟨0, _⟩ => rfl | ⟨1, _⟩ => rfl)
  rw [el, er]

/-- The softmax's shift: the fold of the maximum from −∞ over the row's four logits, once more against −∞. -/
theorem ref_rowMax1 (u : Fin 100000) :
    val_main_v57 (F := Ideal) x0 x2 (ix1 u)
      = Cert.Spec.rowMax (fun g => val_main_v54 (F := Ideal) x0 x2 (ix2 u g)) := by
  have h : S100000x4.Reduces [1] S100000 := by decide
  have hf : (val_main_v54 (F := Ideal) x0 x2 ∘ h.lift (ix1 u))
      = fun g : Fin 4 => val_main_v54 (F := Ideal) x0 x2 (ix2 u g) :=
    funext fun k => congrArg (val_main_v54 (F := Ideal) x0 x2) (lift_factor h u k)
  rw [val_main_v57_apply, val_main_v56_apply, val_main_cst_14_apply]
  unfold val_main_v55
  rw [Host.reduce_eq_fold_single FloatOps.maximumf _ _ reducesTo_S100000x4_S100000_d1 h h_S_, val_main_cst_13_apply]
  unfold Cert.Spec.rowMax Cert.Spec.negInf
  exact congrArg (fun z => max (Ideal.ofBits .f32 0xFF800000#32)
    (Finset.fold max (Ideal.ofBits .f32 0xFF800000#32) z (Finset.univ : Finset (Fin 4)))) hf

/-- The attention weights: the softmax of the row's four logits. -/
theorem ref_soft1 (u : Fin 100000) (f : Fin 4) :
    val_main_v65 (F := Ideal) x0 x2 (ix2 u f)
      = Cert.Spec.soft (fun g => val_main_v54 (F := Ideal) x0 x2 (ix2 u g)) f := by
  have e59 : ∀ g : Fin 4, idx_main_v58 (idx_main_v59 (ix2 u g)) = ix1 u := fun g =>
    funext fun a => Fin.ext (by match a with | ⟨0, _⟩ => rfl)
  have e64 : idx_main_v63 (idx_main_v64 (ix2 u f)) = ix1 u :=
    funext fun a => Fin.ext (by match a with | ⟨0, _⟩ => rfl)
  have e62 : ∀ g : Fin 4, idx_main_v62 (ix1 u) g = ix2 u g := fun g =>
    funext fun a => Fin.ext (by match a with | ⟨0, _⟩ => rfl | ⟨1, _⟩ => rfl)
  -- the shifted exponential of one logit
  have hexp : ∀ g : Fin 4, val_main_v61 (F := Ideal) x0 x2 (ix2 u g)
      = Ideal.exp (val_main_v54 (F := Ideal) x0 x2 (ix2 u g)
          - Cert.Spec.rowMax (fun g => val_main_v54 (F := Ideal) x0 x2 (ix2 u g))) := by
    intro g
    rw [val_main_v61_apply, val_main_v60_apply, val_main_v59_apply, val_main_v58_apply, e59 g, ref_rowMax1,
      Ideal.hostUnary_exp_def, Ideal.subf_def]
  have hs : (∑ g : Fin 4, val_main_v61 (F := Ideal) x0 x2 (idx_main_v62 (ix1 u) g))
      = ∑ g : Fin 4, Ideal.exp (val_main_v54 (F := Ideal) x0 x2 (ix2 u g)
          - Cert.Spec.rowMax (fun g => val_main_v54 (F := Ideal) x0 x2 (ix2 u g))) :=
    Finset.sum_congr rfl fun g _ => by rw [e62 g, hexp g]
  unfold Cert.Spec.soft
  rw [val_main_v65_apply, val_main_v64_apply, val_main_v63_apply, e64, val_main_v62_apply, val_main_cst_15_apply,
    hs, hexp f, Ideal.hostDivf_def, Ideal.ofBits_def, Ideal.ofBits_zero_f32, zero_add]

/-- The attention weights as the softmax of the logits of the row against the latent table. -/
theorem ref_att1 (u : Fin 100000) :
    (fun f => val_main_v65 (F := Ideal) x0 x2 (ix2 u f))
      = Cert.Spec.soft (Cert.Spec.logit (fun k => x0 (ix2 u k)) (fun k f => val_main_v53 (F := Ideal) x2 (ix2 k f))) := by
  have hz : (fun g => val_main_v54 (F := Ideal) x0 x2 (ix2 u g))
      = Cert.Spec.logit (fun k => x0 (ix2 u k)) (fun k f => val_main_v53 (F := Ideal) x2 (ix2 k f)) :=
    funext fun g => ref_logit1 ..
  funext f
  rw [ref_soft1, hz]

/-- The weighted combination of the four disentangled relation rows (the program multiplies row by weight). -/
theorem ref_comb1 (u : Fin 100000) (q : Fin 64) :
    val_main_v96 (F := Ideal) x0 x2 x3 x4 (ix2 u q)
      = Cert.Spec.combine (fun f => val_main_v65 (F := Ideal) x0 x2 (ix2 u f))
          (fun f q => val_main_v91 (F := Ideal) x3 x4 (ix2 f q)) q := by
  rw [val_main_v96_apply, val_main_cst_22_apply]
  unfold Cert.Spec.combine
  simp only [Ideal.ofBits_def, Ideal.ofBits_zero_f32, zero_add]
  refine Finset.sum_congr rfl fun f _ => ?_
  have ew : idx_main_v92 (idx_main_v93 (idx_main_v96 (ix2 u q) f)) = ix2 f q :=
    funext fun a => Fin.ext (by match a with | ⟨0, _⟩ => rfl | ⟨1, _⟩ => rfl)
  have es : idx_main_v66 (idx_main_v94 (idx_main_v96 (ix2 u q) f)) = ix2 u f :=
    funext fun a => Fin.ext (by match a with | ⟨0, _⟩ => rfl | ⟨1, _⟩ => rfl)
  rw [val_main_v95_apply, val_main_v93_apply, val_main_v92_apply, val_main_v94_apply, val_main_v66_apply, ew, es,
    Ideal.mulf_def]
  exact mul_comm _ _

/-- The aggregate modulated by the combination, plus itself. -/
theorem ref_new1 (u : Fin 100000) (q : Fin 64) :
    val_main_v98 (F := Ideal) x0 x1 x2 x3 x4 x7 x8 x9 (ix2 u q)
      = Cert.Spec.userNew (fun k => x0 (ix2 u k)) (fun k => val_main_v79 (F := Ideal) x1 x7 x8 x9 (ix2 u k))
          (fun k f => val_main_v53 (F := Ideal) x2 (ix2 k f)) (fun f q => val_main_v91 (F := Ideal) x3 x4 (ix2 f q)) q := by
  unfold Cert.Spec.userNew
  rw [val_main_v98_apply, val_main_v97_apply, ref_comb1, ref_att1, Ideal.addf_def, Ideal.mulf_def]

/-- The row's Euclidean norm, floored. -/
theorem ref_unrm1 (u : Fin 100000) :
    val_main_v106 (F := Ideal) x0 x1 x2 x3 x4 x7 x8 x9 (ix2 u (0 : Fin 1))
      = Cert.Spec.nrm (fun k => val_main_v98 (F := Ideal) x0 x1 x2 x3 x4 x7 x8 x9 (ix2 u k)) := by
  have e1 : ∀ k : Fin 64, idx_main_call2_v1 (idx_main_call2_v2 (ix2 u (0 : Fin 1))) k = ix2 u k := fun k =>
    funext fun a => Fin.ext (by match a with | ⟨0, _⟩ => rfl | ⟨1, _⟩ => rfl)
  have hs : (∑ k : Fin 64, val_main_call2_v0 (F := Ideal) x0 x1 x2 x3 x4 x7 x8 x9
        (idx_main_call2_v1 (idx_main_call2_v2 (ix2 u (0 : Fin 1))) k))
      = ∑ k : Fin 64, val_main_v98 (F := Ideal) x0 x1 x2 x3 x4 x7 x8 x9 (ix2 u k)
          * val_main_v98 (F := Ideal) x0 x1 x2 x3 x4 x7 x8 x9 (ix2 u k) :=
    Finset.sum_congr rfl fun k _ => by rw [e1 k, val_main_call2_v0_apply, Ideal.mulf_def]
  unfold Cert.Spec.nrm Cert.Spec.eps
  rw [val_main_v106_apply, val_main_v104_apply, val_main_call2_v2_apply, val_main_call2_v1_apply,
    val_main_call2_cst_apply, val_main_v105_apply, val_main_cst_24_apply, hs, Ideal.maximumf_def,
    Ideal.hostUnary_sqrt_def, Ideal.ofBits_def, Ideal.ofBits_def, Ideal.ofBits_zero_f32, zero_add]

/-- The user's new embedding: the updated row divided by its floored norm. -/
theorem ref_user1 (u : Fin 100000) (q : Fin 64) :
    val_main_v108 (F := Ideal) x0 x1 x2 x3 x4 x7 x8 x9 (ix2 u q)
      = Cert.Spec.userOut (fun k => x0 (ix2 u k)) (fun k => val_main_v79 (F := Ideal) x1 x7 x8 x9 (ix2 u k))
          (fun k f => val_main_v53 (F := Ideal) x2 (ix2 k f)) (fun f q => val_main_v91 (F := Ideal) x3 x4 (ix2 f q)) q := by
  have e : idx_main_v107 (ix2 u q) = ix2 u (0 : Fin 1) :=
    funext fun a => Fin.ext (by match a with | ⟨0, _⟩ => rfl | ⟨1, _⟩ => rfl)
  have hn : (fun k => val_main_v98 (F := Ideal) x0 x1 x2 x3 x4 x7 x8 x9 (ix2 u k))
      = Cert.Spec.userNew (fun k => x0 (ix2 u k)) (fun k => val_main_v79 (F := Ideal) x1 x7 x8 x9 (ix2 u k))
          (fun k f => val_main_v53 (F := Ideal) x2 (ix2 k f)) (fun f q => val_main_v91 (F := Ideal) x3 x4 (ix2 f q)) :=
    funext fun k => ref_new1 ..
  unfold Cert.Spec.userOut Cert.Spec.normRow
  rw [val_main_v108_apply, val_main_v107_apply, e, ref_unrm1, hn, ref_new1, Ideal.hostDivf_def]

end Cert.RefVal

end
-- ==== Proof.Val.RefUser2.lean ====
/- The reference program's user update at the second propagation step, read one element at a time over the
   extended reals. For a user row: the four attention logits are the row's inner products with the latent
   factors, the softmax shifts by the row's largest logit, the four disentangled relation rows are combined with
   those weights, the user's aggregate is modulated by the combination and added to itself, and the result is
   divided by its Euclidean norm floored at a small constant. -/
import proofs.«416106_j13048110645352_1_alg».proof.Proof.Val.RefImports
import proofs.«416106_j13048110645352_1_alg».proof.Proof.Val.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.RefVal

open Cert.ReferenceIdeal Cert.ReferenceIdeal.Gen Cert.ReferenceIdeal.Read Idealize.ShloMosaic Idealize.ShloMosaic.ValueIdx Idealize.ShloMosaic.StableHlo

variable (x0 : (⟨S100000x64, .f32⟩ : BufTy).Contents (Elt Ideal)) (x1 : (⟨S200000x64, .f32⟩ : BufTy).Contents (Elt Ideal))
  (x2 : (⟨S4x64, .f32⟩ : BufTy).Contents (Elt Ideal)) (x3 : (⟨S10x64, .f32⟩ : BufTy).Contents (Elt Ideal))
  (x4 : (⟨S4x10, .f32⟩ : BufTy).Contents (Elt Ideal)) (x5 : (⟨S2x1000000, .i32⟩ : BufTy).Contents (Elt Ideal))
  (x6 x7 x8 : (⟨S1000000, .i32⟩ : BufTy).Contents (Elt Ideal)) (x9 : (⟨S1000000, .f32⟩ : BufTy).Contents (Elt Ideal))

/-- A row's reduced index with the factor's coordinate put back is (row, factor). -/
private theorem lift_factor (h : S100000x4.Reduces [1] S100000) (u : Fin 100000) (k : Fin (S100000x4.size 1)) :
    h.lift (ix1 u) k = ix2 u (⟨k.val, k.isLt⟩ : Fin 4) := by
  funext c; apply Fin.ext; fin_cases c <;> rfl

/-! ## The second propagation step: logits, softmax, combination, update, normalisation -/

/-- A user row's logit against a factor: the inner product with the factor's coordinates. -/
theorem ref_logit2 (u : Fin 100000) (f : Fin 4) :
    val_main_v135 (F := Ideal) x0 x1 x2 x3 x4 x7 x8 x9 (ix2 u f)
      = Cert.Spec.logit (fun k => val_main_v108 (F := Ideal) x0 x1 x2 x3 x4 x7 x8 x9 (ix2 u k)) (fun k f => val_main_v134 (F := Ideal) x2 (ix2 k f)) f := by
  rw [val_main_v135_apply]
  unfold Cert.Spec.logit
  refine Finset.sum_congr rfl fun k _ => ?_
  have el : lidx_main_v135 (ix2 u f) k = ix2 u k :=
    funext fun a => Fin.ext (by match a with | ⟨0, _⟩ => rfl | ⟨1, _⟩ => rfl)
  have er : ridx_main_v135 (ix2 u f) k = ix2 k f :=
    funext fun a => Fin.ext (by match a with | ⟨0, _⟩ => rfl | ⟨1, _⟩ => rfl)
  rw [el, er]

/-- The softmax's shift: the fold of the maximum from −∞ over the row's four logits, once more against −∞. -/
theorem ref_rowMax2 (u : Fin 100000) :
    val_main_v138 (F := Ideal) x0 x1 x2 x3 x4 x7 x8 x9 (ix1 u)
      = Cert.Spec.rowMax (fun g => val_main_v135 (F := Ideal) x0 x1 x2 x3 x4 x7 x8 x9 (ix2 u g)) := by
  have h : S100000x4.Reduces [1] S100000 := by decide
  have hf : (val_main_v135 (F := Ideal) x0 x1 x2 x3 x4 x7 x8 x9 ∘ h.lift (ix1 u))
      = fun g : Fin 4 => val_main_v135 (F := Ideal) x0 x1 x2 x3 x4 x7 x8 x9 (ix2 u g) :=
    funext fun k => congrArg (val_main_v135 (F := Ideal) x0 x1 x2 x3 x4 x7 x8 x9) (lift_factor h u k)
  rw [val_main_v138_apply, val_main_v137_apply, val_main_cst_32_apply]
  unfold val_main_v136
  rw [Host.reduce_eq_fold_single FloatOps.maximumf _ _ reducesTo_S100000x4_S100000_d1 h h_S_, val_main_cst_31_apply]
  unfold Cert.Spec.rowMax Cert.Spec.negInf
  exact congrArg (fun z => max (Ideal.ofBits .f32 0xFF800000#32)
    (Finset.fold max (Ideal.ofBits .f32 0xFF800000#32) z (Finset.univ : Finset (Fin 4)))) hf

/-- The attention weights: the softmax of the row's four logits. -/
theorem ref_soft2 (u : Fin 100000) (f : Fin 4) :
    val_main_v146 (F := Ideal) x0 x1 x2 x3 x4 x7 x8 x9 (ix2 u f)
      = Cert.Spec.soft (fun g => val_main_v135 (F := Ideal) x0 x1 x2 x3 x4 x7 x8 x9 (ix2 u g)) f := by
  have e59 : ∀ g : Fin 4, idx_main_v139 (idx_main_v140 (ix2 u g)) = ix1 u := fun g =>
    funext fun a => Fin.ext (by match a with | ⟨0, _⟩ => rfl)
  have e64 : idx_main_v144 (idx_main_v145 (ix2 u f)) = ix1 u :=
    funext fun a => Fin.ext (by match a with | ⟨0, _⟩ => rfl)
  have e62 : ∀ g : Fin 4, idx_main_v143 (ix1 u) g = ix2 u g := fun g =>
    funext fun a => Fin.ext (by match a with | ⟨0, _⟩ => rfl | ⟨1, _⟩ => rfl)
  -- the shifted exponential of one logit
  have hexp : ∀ g : Fin 4, val_main_v142 (F := Ideal) x0 x1 x2 x3 x4 x7 x8 x9 (ix2 u g)
      = Ideal.exp (val_main_v135 (F := Ideal) x0 x1 x2 x3 x4 x7 x8 x9 (ix2 u g)
          - Cert.Spec.rowMax (fun g => val_main_v135 (F := Ideal) x0 x1 x2 x3 x4 x7 x8 x9 (ix2 u g))) := by
    intro g
    rw [val_main_v142_apply, val_main_v141_apply, val_main_v140_apply, val_main_v139_apply, e59 g, ref_rowMax2,
      Ideal.hostUnary_exp_def, Ideal.subf_def]
  have hs : (∑ g : Fin 4, val_main_v142 (F := Ideal) x0 x1 x2 x3 x4 x7 x8 x9 (idx_main_v143 (ix1 u) g))
      = ∑ g : Fin 4, Ideal.exp (val_main_v135 (F := Ideal) x0 x1 x2 x3 x4 x7 x8 x9 (ix2 u g)
          - Cert.Spec.rowMax (fun g => val_main_v135 (F := Ideal) x0 x1 x2 x3 x4 x7 x8 x9 (ix2 u g))) :=
    Finset.sum_congr rfl fun g _ => by rw [e62 g, hexp g]
  unfold Cert.Spec.soft
  rw [val_main_v146_apply, val_main_v145_apply, val_main_v144_apply, e64, val_main_v143_apply, val_main_cst_33_apply,
    hs, hexp f, Ideal.hostDivf_def, Ideal.ofBits_def, Ideal.ofBits_zero_f32, zero_add]

/-- The attention weights as the softmax of the logits of the row against the latent table. -/
theorem ref_att2 (u : Fin 100000) :
    (fun f => val_main_v146 (F := Ideal) x0 x1 x2 x3 x4 x7 x8 x9 (ix2 u f))
      = Cert.Spec.soft (Cert.Spec.logit (fun k => val_main_v108 (F := Ideal) x0 x1 x2 x3 x4 x7 x8 x9 (ix2 u k)) (fun k f => val_main_v134 (F := Ideal) x2 (ix2 k f))) := by
  have hz : (fun g => val_main_v135 (F := Ideal) x0 x1 x2 x3 x4 x7 x8 x9 (ix2 u g))
      = Cert.Spec.logit (fun k => val_main_v108 (F := Ideal) x0 x1 x2 x3 x4 x7 x8 x9 (ix2 u k)) (fun k f => val_main_v134 (F := Ideal) x2 (ix2 k f)) :=
    funext fun g => ref_logit2 ..
  funext f
  rw [ref_soft2, hz]

/-- The weighted combination of the four disentangled relation rows (the program multiplies row by weight). -/
theorem ref_comb2 (u : Fin 100000) (q : Fin 64) :
    val_main_v177 (F := Ideal) x0 x1 x2 x3 x4 x7 x8 x9 (ix2 u q)
      = Cert.Spec.combine (fun f => val_main_v146 (F := Ideal) x0 x1 x2 x3 x4 x7 x8 x9 (ix2 u f))
          (fun f q => val_main_v172 (F := Ideal) x3 x4 (ix2 f q)) q := by
  rw [val_main_v177_apply, val_main_cst_40_apply]
  unfold Cert.Spec.combine
  simp only [Ideal.ofBits_def, Ideal.ofBits_zero_f32, zero_add]
  refine Finset.sum_congr rfl fun f _ => ?_
  have ew : idx_main_v173 (idx_main_v174 (idx_main_v177 (ix2 u q) f)) = ix2 f q :=
    funext fun a => Fin.ext (by match a with | ⟨0, _⟩ => rfl | ⟨1, _⟩ => rfl)
  have es : idx_main_v147 (idx_main_v175 (idx_main_v177 (ix2 u q) f)) = ix2 u f :=
    funext fun a => Fin.ext (by match a with | ⟨0, _⟩ => rfl | ⟨1, _⟩ => rfl)
  rw [val_main_v176_apply, val_main_v174_apply, val_main_v173_apply, val_main_v175_apply, val_main_v147_apply, ew, es,
    Ideal.mulf_def]
  exact mul_comm _ _

/-- The aggregate modulated by the combination, plus itself. -/
theorem ref_new2 (u : Fin 100000) (q : Fin 64) :
    val_main_v179 (F := Ideal) x0 x1 x2 x3 x4 x5 x6 x7 x8 x9 (ix2 u q)
      = Cert.Spec.userNew (fun k => val_main_v108 (F := Ideal) x0 x1 x2 x3 x4 x7 x8 x9 (ix2 u k)) (fun k => val_main_v160 (F := Ideal) x1 x3 x5 x6 x7 x8 x9 (ix2 u k))
          (fun k f => val_main_v134 (F := Ideal) x2 (ix2 k f)) (fun f q => val_main_v172 (F := Ideal) x3 x4 (ix2 f q)) q := by
  unfold Cert.Spec.userNew
  rw [val_main_v179_apply, val_main_v178_apply, ref_comb2, ref_att2, Ideal.addf_def, Ideal.mulf_def]

/-- The row's Euclidean norm, floored. -/
theorem ref_unrm2 (u : Fin 100000) :
    val_main_v187 (F := Ideal) x0 x1 x2 x3 x4 x5 x6 x7 x8 x9 (ix2 u (0 : Fin 1))
      = Cert.Spec.nrm (fun k => val_main_v179 (F := Ideal) x0 x1 x2 x3 x4 x5 x6 x7 x8 x9 (ix2 u k)) := by
  have e1 : ∀ k : Fin 64, idx_main_call4_v1 (idx_main_call4_v2 (ix2 u (0 : Fin 1))) k = ix2 u k := fun k =>
    funext fun a => Fin.ext (by match a with | ⟨0, _⟩ => rfl | ⟨1, _⟩ => rfl)
  have hs : (∑ k : Fin 64, val_main_call4_v0 (F := Ideal) x0 x1 x2 x3 x4 x5 x6 x7 x8 x9
        (idx_main_call4_v1 (idx_main_call4_v2 (ix2 u (0 : Fin 1))) k))
      = ∑ k : Fin 64, val_main_v179 (F := Ideal) x0 x1 x2 x3 x4 x5 x6 x7 x8 x9 (ix2 u k)
          * val_main_v179 (F := Ideal) x0 x1 x2 x3 x4 x5 x6 x7 x8 x9 (ix2 u k) :=
    Finset.sum_congr rfl fun k _ => by rw [e1 k, val_main_call4_v0_apply, Ideal.mulf_def]
  unfold Cert.Spec.nrm Cert.Spec.eps
  rw [val_main_v187_apply, val_main_v185_apply, val_main_call4_v2_apply, val_main_call4_v1_apply,
    val_main_call4_cst_apply, val_main_v186_apply, val_main_cst_42_apply, hs, Ideal.maximumf_def,
    Ideal.hostUnary_sqrt_def, Ideal.ofBits_def, Ideal.ofBits_def, Ideal.ofBits_zero_f32, zero_add]

/-- The user's new embedding: the updated row divided by its floored norm. -/
theorem ref_user2 (u : Fin 100000) (q : Fin 64) :
    val_main_v189 (F := Ideal) x0 x1 x2 x3 x4 x5 x6 x7 x8 x9 (ix2 u q)
      = Cert.Spec.userOut (fun k => val_main_v108 (F := Ideal) x0 x1 x2 x3 x4 x7 x8 x9 (ix2 u k)) (fun k => val_main_v160 (F := Ideal) x1 x3 x5 x6 x7 x8 x9 (ix2 u k))
          (fun k f => val_main_v134 (F := Ideal) x2 (ix2 k f)) (fun f q => val_main_v172 (F := Ideal) x3 x4 (ix2 f q)) q := by
  have e : idx_main_v188 (ix2 u q) = ix2 u (0 : Fin 1) :=
    funext fun a => Fin.ext (by match a with | ⟨0, _⟩ => rfl | ⟨1, _⟩ => rfl)
  have hn : (fun k => val_main_v179 (F := Ideal) x0 x1 x2 x3 x4 x5 x6 x7 x8 x9 (ix2 u k))
      = Cert.Spec.userNew (fun k => val_main_v108 (F := Ideal) x0 x1 x2 x3 x4 x7 x8 x9 (ix2 u k)) (fun k => val_main_v160 (F := Ideal) x1 x3 x5 x6 x7 x8 x9 (ix2 u k))
          (fun k f => val_main_v134 (F := Ideal) x2 (ix2 k f)) (fun f q => val_main_v172 (F := Ideal) x3 x4 (ix2 f q)) :=
    funext fun k => ref_new2 ..
  unfold Cert.Spec.userOut Cert.Spec.normRow
  rw [val_main_v189_apply, val_main_v188_apply, e, ref_unrm2, hn, ref_new2, Ideal.hostDivf_def]

end Cert.RefVal

end
-- ==== Proof.Val.RefUser.lean ====
/- The reference program's user update over both propagation steps: the two step modules gathered, the tables
   the steps share (the transposed latent table and the disentangled relation rows, computed twice by the same
   operations on the same arguments) and the running sum of the user's embeddings. The second step reads the
   first step's normalised rows where the first reads the input embedding. -/
import proofs.«416106_j13048110645352_1_alg».proof.Proof.Val.RefUser1
import proofs.«416106_j13048110645352_1_alg».proof.Proof.Val.RefUser2
import proofs.«416106_j13048110645352_1_alg».proof.Proof.Val.RefImports
import Idealize.ShloMosaic.Lib.ValueIdx
import Idealize.ShloMosaic.PureOps.Ideal.Laws

noncomputable section

namespace Cert.RefVal

open Cert.ReferenceIdeal Cert.ReferenceIdeal.Gen Cert.ReferenceIdeal.Read Idealize.ShloMosaic Idealize.ShloMosaic.ValueIdx Idealize.ShloMosaic.StableHlo

variable (x0 : (⟨S100000x64, .f32⟩ : BufTy).Contents (Elt Ideal)) (x1 : (⟨S200000x64, .f32⟩ : BufTy).Contents (Elt Ideal))
  (x2 : (⟨S4x64, .f32⟩ : BufTy).Contents (Elt Ideal)) (x3 : (⟨S10x64, .f32⟩ : BufTy).Contents (Elt Ideal))
  (x4 : (⟨S4x10, .f32⟩ : BufTy).Contents (Elt Ideal)) (x5 : (⟨S2x1000000, .i32⟩ : BufTy).Contents (Elt Ideal))
  (x6 x7 x8 : (⟨S1000000, .i32⟩ : BufTy).Contents (Elt Ideal)) (x9 : (⟨S1000000, .f32⟩ : BufTy).Contents (Elt Ideal))

/-! ## The tables both steps share -/

/-- The transposed latent table at (coordinate, factor) is the table at (factor, coordinate). -/
theorem ref_latT (k : Fin 64) (f : Fin 4) : val_main_v53 (F := Ideal) x2 (ix2 k f) = x2 (ix2 f k) := by
  rw [val_main_v53_apply]
  exact congrArg x2 (funext fun a => Fin.ext (by match a with | ⟨0, _⟩ => rfl | ⟨1, _⟩ => rfl))

/-- The second step transposes the same table again. -/
theorem ref_latT2 (k : Fin 64) (f : Fin 4) : val_main_v134 (F := Ideal) x2 (ix2 k f) = x2 (ix2 f k) := by
  rw [val_main_v134_apply]
  exact congrArg x2 (funext fun a => Fin.ext (by match a with | ⟨0, _⟩ => rfl | ⟨1, _⟩ => rfl))

/-- The two transposes are one function of the latent table. -/
theorem ref_latT_eq : val_main_v134 (F := Ideal) x2 = val_main_v53 (F := Ideal) x2 := rfl

/-- The second step's disentangled relation rows are the first step's: the same operations on the same arguments. -/
theorem ref_dw_eq : val_main_v172 (F := Ideal) x3 x4 = val_main_v91 (F := Ideal) x3 x4 := rfl

/-! ## The running sum of the user's embeddings -/

/-- After the first step: the input embedding plus the first step's normalised row. -/
theorem ref_ures1 (u : Fin 100000) (q : Fin 64) :
    val_main_v110 (F := Ideal) x0 x1 x2 x3 x4 x7 x8 x9 (ix2 u q)
      = x0 (ix2 u q) + val_main_v108 (F := Ideal) x0 x1 x2 x3 x4 x7 x8 x9 (ix2 u q) := by
  rw [val_main_v110_apply, Ideal.addf_def]

/-- After the second step: the first step's sum plus the second step's normalised row. -/
theorem ref_ures2 (u : Fin 100000) (q : Fin 64) :
    val_main_v191 (F := Ideal) x0 x1 x2 x3 x4 x5 x6 x7 x8 x9 (ix2 u q)
      = val_main_v110 (F := Ideal) x0 x1 x2 x3 x4 x7 x8 x9 (ix2 u q)
        + val_main_v189 (F := Ideal) x0 x1 x2 x3 x4 x5 x6 x7 x8 x9 (ix2 u q) := by
  rw [val_main_v191_apply, Ideal.addf_def]

end Cert.RefVal

end
-- ==== Proof.Val.BridgeU.lean ====
/-
  The user side of the comparison and the scalar, over the extended reals. Each array of the kernel program that
  carries a quantity the reference also computes is shown to hold the reference's stage: the transposed latent table,
  the disentangled relation rows (a softmax of the attention table, times the relation table), the mutual-information
  scalar, each hop's user aggregate (an interaction's value times its gathered entity row, accumulated by user), each
  hop's new user rows, and the running sum of user rows.

  A stretch of host operations is first read over an ARBITRARY valuation: the array it writes is its operations applied
  to the valuation's reads, which is the reference's stage as a function of those reads, the two programs applying the
  same operations (equal as terms once both are unfolded; no full-size array is ever evaluated). Then the stretch is
  placed in the chain of boundary contents, where an argument reads as launched. What a kernel region leaves in its
  output arrays enters as a hypothesis on the boundary contents, element by element, and so does the first hop's
  normalised entity table; whole arrays are compared by congruence, so no accumulation is ever opened.
-/
import proofs.«416106_j13048110645352_1_alg».proof.Proof.KI.Run.Chain
import proofs.«416106_j13048110645352_1_alg».proof.Proof.Val.RefImports
import proofs.«416106_j13048110645352_1_alg».proof.Proof.Val.RefNorm
import proofs.«416106_j13048110645352_1_alg».proof.Proof.Val.RefUser
import proofs.«416106_j13048110645352_1_alg».proof.Proof.Val.Spec
import Idealize.ShloMosaic.Lib.StableHlo.Run
import Idealize.ShloMosaic.Lib.ValueIdx

set_option maxRecDepth 16384

noncomputable section

namespace Cert.Bridge.U

open Cert.KernelIdeal Cert.KernelIdeal.Gen Cert.KernelIdeal.Frm Cert.ReferenceIdeal.Read
open Idealize.ShloMosaic Idealize.ShloMosaic.TcCoe Idealize.SL.Sem Idealize.ShloMosaic.StableHlo Idealize.ShloMosaic.ValueIdx

/-! ## An argument array reads as launched at every boundary -/

section Args
variable {F : FTy → Type} [FloatOps F]
variable (m : (ℓ : Loc nD τ sig) → Buf (Elt F) ℓ) (ρ : Dev nD → PrngReg) (c : Dev nD)
variable (r : Ref sig .tc)

theorem W2_arg (h : r ∈ argRefs) : W2 m ρ c (Proc.devRef .tc r) = m ((c : Thread nD τ).loc r) := by
  obtain ⟨⟨h1, h2, -⟩, -⟩ := args_unwritten r h
  exact (W2_of m ρ c r h2).trans (W1_of m ρ c r h1)
theorem W3_arg (h : r ∈ argRefs) : W3 m ρ c (Proc.devRef .tc r) = m ((c : Thread nD τ).loc r) := by
  obtain ⟨⟨-, -, h3, -⟩, -⟩ := args_unwritten r h
  exact (W3_of m ρ c r h3).trans (W2_arg m ρ c r h)
theorem W4_arg (h : r ∈ argRefs) : W4 m ρ c (Proc.devRef .tc r) = m ((c : Thread nD τ).loc r) := by
  obtain ⟨⟨-, -, -, h4, -⟩, -⟩ := args_unwritten r h
  exact (W4_of m ρ c r h4).trans (W3_arg m ρ c r h)
theorem W5_arg (h : r ∈ argRefs) : W5 m ρ c (Proc.devRef .tc r) = m ((c : Thread nD τ).loc r) := by
  obtain ⟨⟨-, -, -, -, h5, -⟩, -⟩ := args_unwritten r h
  exact (W5_of m ρ c r h5).trans (W4_arg m ρ c r h)
theorem W6_arg (h : r ∈ argRefs) : W6 m ρ c (Proc.devRef .tc r) = m ((c : Thread nD τ).loc r) := by
  obtain ⟨⟨-, -, -, -, -, h6⟩, -⟩ := args_unwritten r h
  exact (W6_of m ρ c r h6).trans (W5_arg m ρ c r h)
theorem W7_arg (h : r ∈ argRefs) : W7 m ρ c (Proc.devRef .tc r) = m ((c : Thread nD τ).loc r) := by
  obtain ⟨-, ⟨h7, -⟩, -⟩ := args_unwritten r h
  exact (W7_of m ρ c r h7).trans (W6_arg m ρ c r h)
theorem W8_arg (h : r ∈ argRefs) : W8 m ρ c (Proc.devRef .tc r) = m ((c : Thread nD τ).loc r) := by
  obtain ⟨-, ⟨-, h8, -⟩, -⟩ := args_unwritten r h
  exact (W8_of m ρ c r h8).trans (W7_arg m ρ c r h)
theorem W9_arg (h : r ∈ argRefs) : W9 m ρ c (Proc.devRef .tc r) = m ((c : Thread nD τ).loc r) := by
  obtain ⟨-, ⟨-, -, h9, -⟩, -⟩ := args_unwritten r h
  exact (W9_of m ρ c r h9).trans (W8_arg m ρ c r h)
theorem W10_arg (h : r ∈ argRefs) : W10 m ρ c (Proc.devRef .tc r) = m ((c : Thread nD τ).loc r) := by
  obtain ⟨-, ⟨-, -, -, h10, -⟩, -⟩ := args_unwritten r h
  exact (W10_of m ρ c r h10).trans (W9_arg m ρ c r h)
theorem W11_arg (h : r ∈ argRefs) : W11 m ρ c (Proc.devRef .tc r) = m ((c : Thread nD τ).loc r) := by
  obtain ⟨-, ⟨-, -, -, -, h11, -⟩, -⟩ := args_unwritten r h
  exact (W11_of m ρ c r h11).trans (W10_arg m ρ c r h)
theorem W12_arg (h : r ∈ argRefs) : W12 m ρ c (Proc.devRef .tc r) = m ((c : Thread nD τ).loc r) := by
  obtain ⟨-, ⟨-, -, -, -, -, h12⟩, -⟩ := args_unwritten r h
  exact (W12_of m ρ c r h12).trans (W11_arg m ρ c r h)
theorem W13_arg (h : r ∈ argRefs) : W13 m ρ c (Proc.devRef .tc r) = m ((c : Thread nD τ).loc r) := by
  obtain ⟨-, -, ⟨h13, -⟩⟩ := args_unwritten r h
  exact (W13_of m ρ c r h13).trans (W12_arg m ρ c r h)
theorem W14_arg (h : r ∈ argRefs) : W14 m ρ c (Proc.devRef .tc r) = m ((c : Thread nD τ).loc r) := by
  obtain ⟨-, -, ⟨-, h14, -⟩⟩ := args_unwritten r h
  exact (W14_of m ρ c r h14).trans (W13_arg m ρ c r h)
theorem W15_arg (h : r ∈ argRefs) : W15 m ρ c (Proc.devRef .tc r) = m ((c : Thread nD τ).loc r) := by
  obtain ⟨-, -, ⟨-, -, h15, -⟩⟩ := args_unwritten r h
  exact (W15_of m ρ c r h15).trans (W14_arg m ρ c r h)

end Args

/-! ## Each host stretch over an arbitrary valuation -/

section Host
variable {F : FTy → Type} [FloatOps F] (V : Valuation τ sig (Elt F))

/-- The transposed attention table. -/
theorem host_v0 : (StableHlo.after main_part0_ops0 V (Proc.devRef .tc main_v0) : (⟨S10x4, .f32⟩ : BufTy).Contents (Elt F))
    = val_main_v0 (F := F) (V (Proc.devRef .tc main_arg4)) := by
  after_results_simp <;> rfl

/-- Its rows' Euclidean norms, as a column (the outlined norm). -/
theorem host_v1 (x4 : (⟨S4x10, .f32⟩ : BufTy).Contents (Elt F))
    (h0 : (V (Proc.devRef .tc main_v0) : (⟨S10x4, .f32⟩ : BufTy).Contents (Elt F)) = val_main_v0 (F := F) x4) :
    (StableHlo.after main_part0_ops1 V (Proc.devRef .tc main_v1) : (⟨S10x1, .f32⟩ : BufTy).Contents (Elt F))
      = val_main_v1 (F := F) x4 := by
  after_results_simp
  try simp only [StableHlo.TRef.ofBuf, StableHlo.TRef.toBuf, cast_eq]
  rw [h0]
  rfl

/-- The mutual-information scalar, from the transposed table, its norms and the table. -/
theorem host_v17 (x4 : (⟨S4x10, .f32⟩ : BufTy).Contents (Elt F))
    (h0 : (V (Proc.devRef .tc main_v0) : (⟨S10x4, .f32⟩ : BufTy).Contents (Elt F)) = val_main_v0 (F := F) x4)
    (h1 : (V (Proc.devRef .tc main_v1) : (⟨S10x1, .f32⟩ : BufTy).Contents (Elt F)) = val_main_v1 (F := F) x4)
    (h4 : (V (Proc.devRef .tc main_arg4) : (⟨S4x10, .f32⟩ : BufTy).Contents (Elt F)) = x4) :
    (StableHlo.after main_part0_ops2 V (Proc.devRef .tc main_v17) : (⟨S_, .f32⟩ : BufTy).Contents (Elt F))
      = val_main_v17 (F := F) x4 := by
  after_results_simp
  rw [h0, h1, h4]
  rfl

/-- The transposed latent table. -/
theorem host_v41 : (StableHlo.after main_part0_ops2 V (Proc.devRef .tc main_v41) : (⟨S64x4, .f32⟩ : BufTy).Contents (Elt F))
    = val_main_v53 (F := F) (V (Proc.devRef .tc main_arg2)) := by
  after_results_simp <;> rfl

/-- The attention table's row maxima, as a column. -/
theorem host_v45 : (StableHlo.after main_part0_ops2 V (Proc.devRef .tc main_v45) : (⟨S4x1, .f32⟩ : BufTy).Contents (Elt F))
    = val_main_v83 (F := F) (V (Proc.devRef .tc main_arg4)) := by
  after_results_simp <;> rfl

/-- The disentangled relation rows: the attention table's softmax times the relation table. -/
theorem host_v53 (x4 : (⟨S4x10, .f32⟩ : BufTy).Contents (Elt F))
    (h45 : (V (Proc.devRef .tc main_v45) : (⟨S4x1, .f32⟩ : BufTy).Contents (Elt F)) = val_main_v83 (F := F) x4)
    (h4 : (V (Proc.devRef .tc main_arg4) : (⟨S4x10, .f32⟩ : BufTy).Contents (Elt F)) = x4) :
    (StableHlo.after main_part1_ops0 V (Proc.devRef .tc main_v53) : (⟨S4x64, .f32⟩ : BufTy).Contents (Elt F))
      = val_main_v91 (F := F) (V (Proc.devRef .tc main_arg3)) x4 := by
  after_results_simp
  rw [h45, h4]
  rfl

/-- The first hop's gathered entity rows, one per interaction. -/
theorem host_v71 : (StableHlo.after main_part1_ops1 V (Proc.devRef .tc main_v71) : (⟨S1000000x64, .f32⟩ : BufTy).Contents (Elt F))
    = val_main_v74 (F := F) (V (Proc.devRef .tc main_arg1)) (V (Proc.devRef .tc main_arg8)) := by
  after_results_simp <;> rfl

/-- The interactions' values as a column. -/
theorem host_v72 : (StableHlo.after main_part1_ops1 V (Proc.devRef .tc main_v72) : (⟨S1000000x1, .f32⟩ : BufTy).Contents (Elt F))
    = val_main_v67 (F := F) (V (Proc.devRef .tc main_arg9)) := by
  after_results_simp <;> rfl

/-- The first hop's user aggregate: the scaled rows accumulated by user. -/
theorem host_v76 (x1 : (⟨S200000x64, .f32⟩ : BufTy).Contents (Elt F)) (x8 : (⟨S1000000, .i32⟩ : BufTy).Contents (Elt F))
    (x9 : (⟨S1000000, .f32⟩ : BufTy).Contents (Elt F))
    (h73 : (V (Proc.devRef .tc main_v73) : (⟨S1000000x64, .f32⟩ : BufTy).Contents (Elt F)) = val_main_v76 (F := F) x1 x8 x9) :
    (StableHlo.after main_part1_ops2 V (Proc.devRef .tc main_v76) : (⟨S100000x64, .f32⟩ : BufTy).Contents (Elt F))
      = val_main_v79 (F := F) x1 (V (Proc.devRef .tc main_arg7)) x8 x9 := by
  after_results_simp
  rw [h73]
  rfl

/-- The second hop's index wrap: the sign test and the index moved up by the table's extent. -/
theorem host_v91 : (StableHlo.after main_part1_ops4 V (Proc.devRef .tc main_v91) : (⟨S1000000, .i1⟩ : BufTy).Contents (Elt F))
    = val_main_v150 (F := F) (V (Proc.devRef .tc main_arg8)) := by
  after_results_simp <;> rfl
theorem host_v93 : (StableHlo.after main_part1_ops4 V (Proc.devRef .tc main_v93) : (⟨S1000000, .i32⟩ : BufTy).Contents (Elt F))
    = val_main_v152 (F := F) (V (Proc.devRef .tc main_arg8)) := by
  after_results_simp <;> rfl

/-- The second hop's gathered entity rows, from the first hop's normalised entity table. -/
theorem host_v96 (x1 : (⟨S200000x64, .f32⟩ : BufTy).Contents (Elt F)) (x3 : (⟨S10x64, .f32⟩ : BufTy).Contents (Elt F))
    (x5 : (⟨S2x1000000, .i32⟩ : BufTy).Contents (Elt F)) (x6 x8 : (⟨S1000000, .i32⟩ : BufTy).Contents (Elt F))
    (h91 : (V (Proc.devRef .tc main_v91) : (⟨S1000000, .i1⟩ : BufTy).Contents (Elt F)) = val_main_v150 (F := F) x8)
    (h93 : (V (Proc.devRef .tc main_v93) : (⟨S1000000, .i32⟩ : BufTy).Contents (Elt F)) = val_main_v152 (F := F) x8)
    (h8 : (V (Proc.devRef .tc main_arg8) : (⟨S1000000, .i32⟩ : BufTy).Contents (Elt F)) = x8)
    (hE : (V (Proc.devRef .tc main_v78_0) : (⟨S200000x64, .f32⟩ : BufTy).Contents (Elt F)) = val_main_v103 (F := F) x1 x3 x5 x6) :
    (StableHlo.after main_part2_ops0 V (Proc.devRef .tc main_v96) : (⟨S1000000x64, .f32⟩ : BufTy).Contents (Elt F))
      = val_main_v155 (F := F) x1 x3 x5 x6 x8 := by
  after_results_simp
  rw [h91, h93, h8, hE]
  rfl

theorem host_v97 : (StableHlo.after main_part2_ops0 V (Proc.devRef .tc main_v97) : (⟨S1000000x1, .f32⟩ : BufTy).Contents (Elt F))
    = val_main_v148 (F := F) (V (Proc.devRef .tc main_arg9)) := by
  after_results_simp <;> rfl

/-- The second hop's user aggregate. -/
theorem host_v101 (x1 : (⟨S200000x64, .f32⟩ : BufTy).Contents (Elt F)) (x3 : (⟨S10x64, .f32⟩ : BufTy).Contents (Elt F))
    (x5 : (⟨S2x1000000, .i32⟩ : BufTy).Contents (Elt F)) (x6 x8 : (⟨S1000000, .i32⟩ : BufTy).Contents (Elt F))
    (x9 : (⟨S1000000, .f32⟩ : BufTy).Contents (Elt F))
    (h98 : (V (Proc.devRef .tc main_v98) : (⟨S1000000x64, .f32⟩ : BufTy).Contents (Elt F)) = val_main_v157 (F := F) x1 x3 x5 x6 x8 x9) :
    (StableHlo.after main_part2_ops1 V (Proc.devRef .tc main_v101) : (⟨S100000x64, .f32⟩ : BufTy).Contents (Elt F))
      = val_main_v160 (F := F) x1 x3 x5 x6 (V (Proc.devRef .tc main_arg7)) x8 x9 := by
  after_results_simp
  rw [h98]
  rfl

end Host

/-! ## Walking a buffer across the items that do not write it -/

section Walk
variable {F : FTy → Type} [FloatOps F]
variable (m : (ℓ : Loc nD τ sig) → Buf (Elt F) ℓ) (ρ : Dev nD → PrngReg) (c : Dev nD) (r : Ref sig .tc)

theorem W8_of_W4 (h5 : r ∉ reg0_W) (h6 : r ∉ main_part1_ops1_W) (h7 : r ∉ reg1_W) (h8 : r ∉ main_part1_ops2_W) :
    W8 m ρ c (Proc.devRef .tc r) = W4 m ρ c (Proc.devRef .tc r) :=
  (W8_of m ρ c r h8).trans <| (W7_of m ρ c r h7).trans <| (W6_of m ρ c r h6).trans (W5_of m ρ c r h5)

theorem W16_of_W9 (h10 : r ∉ reg3_W) (h11 : r ∉ main_part1_ops3_W) (h12 : r ∉ reg4_W) (h13 : r ∉ main_part1_ops4_W)
    (h14 : r ∉ main_part2_ops0_W) (h15 : r ∉ reg5_W) (h16 : r ∉ main_part2_ops1_W) :
    W16 m ρ c (Proc.devRef .tc r) = W9 m ρ c (Proc.devRef .tc r) :=
  (W16_of m ρ c r h16).trans <| (W15_of m ρ c r h15).trans <| (W14_of m ρ c r h14).trans <| (W13_of m ρ c r h13).trans <|
    (W12_of m ρ c r h12).trans <| (W11_of m ρ c r h11).trans (W10_of m ρ c r h10)

theorem W16_of_W8 (h9 : r ∉ reg2_W) (h10 : r ∉ reg3_W) (h11 : r ∉ main_part1_ops3_W) (h12 : r ∉ reg4_W)
    (h13 : r ∉ main_part1_ops4_W) (h14 : r ∉ main_part2_ops0_W) (h15 : r ∉ reg5_W) (h16 : r ∉ main_part2_ops1_W) :
    W16 m ρ c (Proc.devRef .tc r) = W8 m ρ c (Proc.devRef .tc r) :=
  (W16_of_W9 m ρ c r h10 h11 h12 h13 h14 h15 h16).trans (W9_of m ρ c r h9)

theorem Wn_of_W16 (h17 : r ∉ reg6_W) (h18 : r ∉ reg7_W) :
    Wn m ρ c (Proc.devRef .tc r) = W16 m ρ c (Proc.devRef .tc r) :=
  (W18_of m ρ c r h18).trans (W17_of m ρ c r h17)

end Walk

/-! ## The stages both programs share, whole arrays (any float model) -/

section Shared
variable {F : FTy → Type} [FloatOps F]
variable (m : (ℓ : Loc nD τ sig) → Buf (Elt F) ℓ) (ρ : Dev nD → PrngReg) (c : Dev nD)

/-- The transposed latent table, where it is written. -/
theorem latT_W3 : (W3 m ρ c (Proc.devRef .tc main_v41) : (⟨S64x4, .f32⟩ : BufTy).Contents (Elt F))
    = val_main_v53 (F := F) (m ((c : Thread nD τ).loc main_arg2)) := by
  have h := host_v41 (W2 m ρ c)
  rw [W2_arg m ρ c main_arg2 (by decide)] at h
  exact h

/-- The attention table's row maxima, where they are written. -/
theorem rowmax_W3 : (W3 m ρ c (Proc.devRef .tc main_v45) : (⟨S4x1, .f32⟩ : BufTy).Contents (Elt F))
    = val_main_v83 (F := F) (m ((c : Thread nD τ).loc main_arg4)) := by
  have h := host_v45 (W2 m ρ c)
  rw [W2_arg m ρ c main_arg4 (by decide)] at h
  exact h

/-- The disentangled relation rows, where they are written. -/
theorem dw_W4 : (W4 m ρ c (Proc.devRef .tc main_v53) : (⟨S4x64, .f32⟩ : BufTy).Contents (Elt F))
    = val_main_v91 (F := F) (m ((c : Thread nD τ).loc main_arg3)) (m ((c : Thread nD τ).loc main_arg4)) := by
  have h := host_v53 (W3 m ρ c) (m ((c : Thread nD τ).loc main_arg4)) (rowmax_W3 m ρ c) (W3_arg m ρ c main_arg4 (by decide))
  rw [W3_arg m ρ c main_arg3 (by decide)] at h
  exact h

/-- Both tables at the first user update's entry. -/
theorem latT_W8 : (W8 m ρ c (Proc.devRef .tc main_v41) : (⟨S64x4, .f32⟩ : BufTy).Contents (Elt F))
    = val_main_v53 (F := F) (m ((c : Thread nD τ).loc main_arg2)) :=
  (W8_of_W4 m ρ c main_v41 (by decide) (by decide) (by decide) (by decide)).trans
    ((W4_of m ρ c main_v41 (by decide)).trans (latT_W3 m ρ c))
theorem dw_W8 : (W8 m ρ c (Proc.devRef .tc main_v53) : (⟨S4x64, .f32⟩ : BufTy).Contents (Elt F))
    = val_main_v91 (F := F) (m ((c : Thread nD τ).loc main_arg3)) (m ((c : Thread nD τ).loc main_arg4)) :=
  (W8_of_W4 m ρ c main_v53 (by decide) (by decide) (by decide) (by decide)).trans (dw_W4 m ρ c)

/-- Both tables at the second user update's entry. -/
theorem latT_W16 : (W16 m ρ c (Proc.devRef .tc main_v41) : (⟨S64x4, .f32⟩ : BufTy).Contents (Elt F))
    = val_main_v53 (F := F) (m ((c : Thread nD τ).loc main_arg2)) :=
  (W16_of_W8 m ρ c main_v41 (by decide) (by decide) (by decide) (by decide) (by decide) (by decide) (by decide) (by decide)).trans
    (latT_W8 m ρ c)
theorem dw_W16 : (W16 m ρ c (Proc.devRef .tc main_v53) : (⟨S4x64, .f32⟩ : BufTy).Contents (Elt F))
    = val_main_v91 (F := F) (m ((c : Thread nD τ).loc main_arg3)) (m ((c : Thread nD τ).loc main_arg4)) :=
  (W16_of_W8 m ρ c main_v53 (by decide) (by decide) (by decide) (by decide) (by decide) (by decide) (by decide) (by decide)).trans
    (dw_W8 m ρ c)

/-- The transposed attention table and its row norms, where they are written. -/
theorem attT_W1 : (W1 m ρ c (Proc.devRef .tc main_v0) : (⟨S10x4, .f32⟩ : BufTy).Contents (Elt F))
    = val_main_v0 (F := F) (m ((c : Thread nD τ).loc main_arg4)) :=
  host_v0 (W0 m ρ c)
theorem attNorm_W2 : (W2 m ρ c (Proc.devRef .tc main_v1) : (⟨S10x1, .f32⟩ : BufTy).Contents (Elt F))
    = val_main_v1 (F := F) (m ((c : Thread nD τ).loc main_arg4)) :=
  host_v1 (W1 m ρ c) (m ((c : Thread nD τ).loc main_arg4)) (attT_W1 m ρ c)

/-- The mutual-information scalar, where it is written. -/
theorem cor_W3 : (W3 m ρ c (Proc.devRef .tc main_v17) : (⟨S_, .f32⟩ : BufTy).Contents (Elt F))
    = val_main_v17 (F := F) (m ((c : Thread nD τ).loc main_arg4)) :=
  host_v17 (W2 m ρ c) (m ((c : Thread nD τ).loc main_arg4))
    ((W2_of m ρ c main_v0 (by decide)).trans (attT_W1 m ρ c)) (attNorm_W2 m ρ c) (W2_arg m ρ c main_arg4 (by decide))

/-- The scalar as @main returns it. -/
theorem cor_Wn : (Wn m ρ c (Proc.devRef .tc main_v17) : (⟨S_, .f32⟩ : BufTy).Contents (Elt F))
    = val_main_v17 (F := F) (m ((c : Thread nD τ).loc main_arg4)) :=
  (Wn_of_W16 m ρ c main_v17 (by decide) (by decide)).trans <|
    (W16_of_W8 m ρ c main_v17 (by decide) (by decide) (by decide) (by decide) (by decide) (by decide) (by decide) (by decide)).trans <|
    (W8_of_W4 m ρ c main_v17 (by decide) (by decide) (by decide) (by decide)).trans <|
    (W4_of m ρ c main_v17 (by decide)).trans (cor_W3 m ρ c)

end Shared

/-! ## The two propagation steps, at the extended reals -/

section Steps
variable (m : (ℓ : Loc nD τ sig) → Buf (Elt Ideal) ℓ) (ρ : Dev nD → PrngReg) (c : Dev nD)

set_option quotPrecheck false in
local notation "A0" => (m ((c : Thread nD τ).loc main_arg0) : (⟨S100000x64, .f32⟩ : BufTy).Contents (Elt Ideal))
set_option quotPrecheck false in
local notation "A1" => (m ((c : Thread nD τ).loc main_arg1) : (⟨S200000x64, .f32⟩ : BufTy).Contents (Elt Ideal))
set_option quotPrecheck false in
local notation "A2" => (m ((c : Thread nD τ).loc main_arg2) : (⟨S4x64, .f32⟩ : BufTy).Contents (Elt Ideal))
set_option quotPrecheck false in
local notation "A3" => (m ((c : Thread nD τ).loc main_arg3) : (⟨S10x64, .f32⟩ : BufTy).Contents (Elt Ideal))
set_option quotPrecheck false in
local notation "A4" => (m ((c : Thread nD τ).loc main_arg4) : (⟨S4x10, .f32⟩ : BufTy).Contents (Elt Ideal))
set_option quotPrecheck false in
local notation "A5" => (m ((c : Thread nD τ).loc main_arg5) : (⟨S2x1000000, .i32⟩ : BufTy).Contents (Elt Ideal))
set_option quotPrecheck false in
local notation "A6" => (m ((c : Thread nD τ).loc main_arg6) : (⟨S1000000, .i32⟩ : BufTy).Contents (Elt Ideal))
set_option quotPrecheck false in
local notation "A7" => (m ((c : Thread nD τ).loc main_arg7) : (⟨S1000000, .i32⟩ : BufTy).Contents (Elt Ideal))
set_option quotPrecheck false in
local notation "A8" => (m ((c : Thread nD τ).loc main_arg8) : (⟨S1000000, .i32⟩ : BufTy).Contents (Elt Ideal))
set_option quotPrecheck false in
local notation "A9" => (m ((c : Thread nD τ).loc main_arg9) : (⟨S1000000, .f32⟩ : BufTy).Contents (Elt Ideal))

/-! ### What the regions leave, and the first hop's entity table, as hypotheses on the boundary contents -/

/-- The first scaling region leaves each gathered row times its interaction's value. -/
def Scale1 : Prop := ∀ (e : Fin 1000000) (q : Fin 64),
  (W7 m ρ c (Proc.devRef .tc main_v73) : S1000000x64.Idx → EReal) (ix2 e q)
    = Cert.Spec.scaleVal (fun e q => (W6 m ρ c (Proc.devRef .tc main_v71) : S1000000x64.Idx → EReal) (ix2 e q))
        (fun e => (W6 m ρ c (Proc.devRef .tc main_v72) : S1000000x1.Idx → EReal) (ix2 e (0 : Fin 1))) e q

/-- The second scaling region likewise. -/
def Scale2 : Prop := ∀ (e : Fin 1000000) (q : Fin 64),
  (W15 m ρ c (Proc.devRef .tc main_v98) : S1000000x64.Idx → EReal) (ix2 e q)
    = Cert.Spec.scaleVal (fun e q => (W14 m ρ c (Proc.devRef .tc main_v96) : S1000000x64.Idx → EReal) (ix2 e q))
        (fun e => (W14 m ρ c (Proc.devRef .tc main_v97) : S1000000x1.Idx → EReal) (ix2 e (0 : Fin 1))) e q

/-- The first user update leaves each user's new row … -/
def User1 : Prop := ∀ (u : Fin 100000) (q : Fin 64),
  (W9 m ρ c (Proc.devRef .tc main_v77_0) : S100000x64.Idx → EReal) (ix2 u q)
    = Cert.Spec.userOut (fun k => (W8 m ρ c (Proc.devRef .tc main_arg0) : S100000x64.Idx → EReal) (ix2 u k))
        (fun k => (W8 m ρ c (Proc.devRef .tc main_v76) : S100000x64.Idx → EReal) (ix2 u k))
        (fun k f => (W8 m ρ c (Proc.devRef .tc main_v41) : S64x4.Idx → EReal) (ix2 k f))
        (fun f q => (W8 m ρ c (Proc.devRef .tc main_v53) : S4x64.Idx → EReal) (ix2 f q)) q

/-- … and the running sum: the row it entered with plus the new row. -/
def Res1 : Prop := ∀ (u : Fin 100000) (q : Fin 64),
  (W9 m ρ c (Proc.devRef .tc main_v77_1) : S100000x64.Idx → EReal) (ix2 u q)
    = (show EReal from (W8 m ρ c (Proc.devRef .tc main_arg0) : S100000x64.Idx → EReal) (ix2 u q))
      + Cert.Spec.userOut (fun k => (W8 m ρ c (Proc.devRef .tc main_arg0) : S100000x64.Idx → EReal) (ix2 u k))
        (fun k => (W8 m ρ c (Proc.devRef .tc main_v76) : S100000x64.Idx → EReal) (ix2 u k))
        (fun k f => (W8 m ρ c (Proc.devRef .tc main_v41) : S64x4.Idx → EReal) (ix2 k f))
        (fun f q => (W8 m ρ c (Proc.devRef .tc main_v53) : S4x64.Idx → EReal) (ix2 f q)) q

/-- The second user update, on the first update's rows and the second aggregate. -/
def User2 : Prop := ∀ (u : Fin 100000) (q : Fin 64),
  (W17 m ρ c (Proc.devRef .tc main_v102_0) : S100000x64.Idx → EReal) (ix2 u q)
    = Cert.Spec.userOut (fun k => (W16 m ρ c (Proc.devRef .tc main_v77_0) : S100000x64.Idx → EReal) (ix2 u k))
        (fun k => (W16 m ρ c (Proc.devRef .tc main_v101) : S100000x64.Idx → EReal) (ix2 u k))
        (fun k f => (W16 m ρ c (Proc.devRef .tc main_v41) : S64x4.Idx → EReal) (ix2 k f))
        (fun f q => (W16 m ρ c (Proc.devRef .tc main_v53) : S4x64.Idx → EReal) (ix2 f q)) q

def Res2 : Prop := ∀ (u : Fin 100000) (q : Fin 64),
  (W17 m ρ c (Proc.devRef .tc main_v102_1) : S100000x64.Idx → EReal) (ix2 u q)
    = (show EReal from (W16 m ρ c (Proc.devRef .tc main_v77_1) : S100000x64.Idx → EReal) (ix2 u q))
      + Cert.Spec.userOut (fun k => (W16 m ρ c (Proc.devRef .tc main_v77_0) : S100000x64.Idx → EReal) (ix2 u k))
        (fun k => (W16 m ρ c (Proc.devRef .tc main_v101) : S100000x64.Idx → EReal) (ix2 u k))
        (fun k f => (W16 m ρ c (Proc.devRef .tc main_v41) : S64x4.Idx → EReal) (ix2 k f))
        (fun f q => (W16 m ρ c (Proc.devRef .tc main_v53) : S4x64.Idx → EReal) (ix2 f q)) q

/-- The first hop's normalised entity table is the reference's. -/
def Ent1 : Prop :=
  (W10 m ρ c (Proc.devRef .tc main_v78_0) : (⟨S200000x64, .f32⟩ : BufTy).Contents (Elt Ideal))
    = val_main_v103 (F := Ideal) A1 A3 A5 A6

/-! ### The first hop's user aggregate -/

/-- A product of two extended reals, its factors exchanged. -/
theorem mul_swap (a b : EReal) : a * b = b * a := mul_comm a b

theorem gath1_eq : (W6 m ρ c (Proc.devRef .tc main_v71) : (⟨S1000000x64, .f32⟩ : BufTy).Contents (Elt Ideal))
    = val_main_v74 (F := Ideal) A1 A8 := by
  have h := host_v71 (F := Ideal) (W5 m ρ c)
  rw [W5_arg m ρ c main_arg1 (by decide), W5_arg m ρ c main_arg8 (by decide)] at h
  exact h

theorem val1_eq : (W6 m ρ c (Proc.devRef .tc main_v72) : (⟨S1000000x1, .f32⟩ : BufTy).Contents (Elt Ideal))
    = val_main_v67 (F := Ideal) A9 := by
  have h := host_v72 (F := Ideal) (W5 m ρ c)
  rw [W5_arg m ρ c main_arg9 (by decide)] at h
  exact h

/-- The scaled interaction rows are the reference's: the two factors of each product exchanged. -/
theorem scaled1_eq (hS : Scale1 m ρ c) :
    (W7 m ρ c (Proc.devRef .tc main_v73) : (⟨S1000000x64, .f32⟩ : BufTy).Contents (Elt Ideal))
      = val_main_v76 (F := Ideal) A1 A8 A9 := by
  funext i
  obtain ⟨e, q, rfl⟩ : ∃ (e : Fin 1000000) (q : Fin 64), i = ix2 e q := ⟨i 0, i 1, eq_ix2 i⟩
  have e0 : val_main_v67 (F := Ideal) A9 (ix2 e (0 : Fin 1)) = A9 (ix1 e) := by
    rw [val_main_v67_apply]
    exact congrArg _ (funext fun a => Fin.ext (by match a with | ⟨0, _⟩ => rfl))
  rw [hS e q, gath1_eq m ρ c, val1_eq m ρ c, Cert.RefVal.ref_scaled1]
  simp only [Cert.Spec.scaleVal]
  rw [e0]
  generalize val_main_v74 (F := Ideal) A1 A8 (ix2 e q) = a
  generalize A9 (ix1 e) = b
  exact mul_swap a b

/-- U2. The first hop's user aggregate is the reference's. -/
theorem uagg1_eq (hS : Scale1 m ρ c) :
    (W8 m ρ c (Proc.devRef .tc main_v76) : (⟨S100000x64, .f32⟩ : BufTy).Contents (Elt Ideal))
      = val_main_v79 (F := Ideal) A1 A7 A8 A9 := by
  have h := host_v76 (F := Ideal) (W7 m ρ c) A1 A8 A9 (scaled1_eq m ρ c hS)
  rw [W7_arg m ρ c main_arg7 (by decide)] at h
  exact h

/-! ### The first hop's user rows -/

/-- U3. The users' new rows after the first step are the reference's … -/
theorem user1_eq (hS : Scale1 m ρ c) (hU : User1 m ρ c) :
    (W9 m ρ c (Proc.devRef .tc main_v77_0) : (⟨S100000x64, .f32⟩ : BufTy).Contents (Elt Ideal))
      = val_main_v108 (F := Ideal) A0 A1 A2 A3 A4 A7 A8 A9 := by
  funext i
  obtain ⟨u, q, rfl⟩ : ∃ (u : Fin 100000) (q : Fin 64), i = ix2 u q := ⟨i 0, i 1, eq_ix2 i⟩
  rw [hU u q, W8_arg m ρ c main_arg0 (by decide), uagg1_eq m ρ c hS, latT_W8 m ρ c, dw_W8 m ρ c]
  exact (Cert.RefVal.ref_user1 A0 A1 A2 A3 A4 A7 A8 A9 u q).symm

/-- … and so is the running sum. -/
theorem ures1_eq (hS : Scale1 m ρ c) (hR : Res1 m ρ c) :
    (W9 m ρ c (Proc.devRef .tc main_v77_1) : (⟨S100000x64, .f32⟩ : BufTy).Contents (Elt Ideal))
      = val_main_v110 (F := Ideal) A0 A1 A2 A3 A4 A7 A8 A9 := by
  funext i
  obtain ⟨u, q, rfl⟩ : ∃ (u : Fin 100000) (q : Fin 64), i = ix2 u q := ⟨i 0, i 1, eq_ix2 i⟩
  rw [hR u q, W8_arg m ρ c main_arg0 (by decide), uagg1_eq m ρ c hS, latT_W8 m ρ c, dw_W8 m ρ c,
    Cert.RefVal.ref_ures1, Cert.RefVal.ref_user1] <;> rfl

/-! ### The second hop's user aggregate -/

theorem gath2_eq (hE : Ent1 m ρ c) :
    (W14 m ρ c (Proc.devRef .tc main_v96) : (⟨S1000000x64, .f32⟩ : BufTy).Contents (Elt Ideal))
      = val_main_v155 (F := Ideal) A1 A3 A5 A6 A8 := by
  have h91 : (W13 m ρ c (Proc.devRef .tc main_v91) : (⟨S1000000, .i1⟩ : BufTy).Contents (Elt Ideal))
      = val_main_v150 (F := Ideal) A8 := by
    have h := host_v91 (F := Ideal) (W12 m ρ c)
    rw [W12_arg m ρ c main_arg8 (by decide)] at h
    exact h
  have h93 : (W13 m ρ c (Proc.devRef .tc main_v93) : (⟨S1000000, .i32⟩ : BufTy).Contents (Elt Ideal))
      = val_main_v152 (F := Ideal) A8 := by
    have h := host_v93 (F := Ideal) (W12 m ρ c)
    rw [W12_arg m ρ c main_arg8 (by decide)] at h
    exact h
  have hx : (W13 m ρ c (Proc.devRef .tc main_v78_0) : (⟨S200000x64, .f32⟩ : BufTy).Contents (Elt Ideal))
      = val_main_v103 (F := Ideal) A1 A3 A5 A6 :=
    ((W13_of m ρ c main_v78_0 (by decide)).trans <| (W12_of m ρ c main_v78_0 (by decide)).trans
      (W11_of m ρ c main_v78_0 (by decide))).trans hE
  exact host_v96 (F := Ideal) (W13 m ρ c) A1 A3 A5 A6 A8 h91 h93 (W13_arg m ρ c main_arg8 (by decide)) hx

theorem val2_eq : (W14 m ρ c (Proc.devRef .tc main_v97) : (⟨S1000000x1, .f32⟩ : BufTy).Contents (Elt Ideal))
    = val_main_v148 (F := Ideal) A9 := by
  have h := host_v97 (F := Ideal) (W13 m ρ c)
  rw [W13_arg m ρ c main_arg9 (by decide)] at h
  exact h

theorem scaled2_eq (hE : Ent1 m ρ c) (hS : Scale2 m ρ c) :
    (W15 m ρ c (Proc.devRef .tc main_v98) : (⟨S1000000x64, .f32⟩ : BufTy).Contents (Elt Ideal))
      = val_main_v157 (F := Ideal) A1 A3 A5 A6 A8 A9 := by
  funext i
  obtain ⟨e, q, rfl⟩ : ∃ (e : Fin 1000000) (q : Fin 64), i = ix2 e q := ⟨i 0, i 1, eq_ix2 i⟩
  have e0 : val_main_v148 (F := Ideal) A9 (ix2 e (0 : Fin 1)) = A9 (ix1 e) := by
    rw [val_main_v148_apply]
    exact congrArg _ (funext fun a => Fin.ext (by match a with | ⟨0, _⟩ => rfl))
  rw [hS e q, gath2_eq m ρ c hE, val2_eq m ρ c, Cert.RefVal.ref_scaled2]
  simp only [Cert.Spec.scaleVal]
  rw [e0]
  generalize val_main_v155 (F := Ideal) A1 A3 A5 A6 A8 (ix2 e q) = a
  generalize A9 (ix1 e) = b
  exact mul_swap a b

/-- U4. The second hop's user aggregate is the reference's. -/
theorem uagg2_eq (hE : Ent1 m ρ c) (hS : Scale2 m ρ c) :
    (W16 m ρ c (Proc.devRef .tc main_v101) : (⟨S100000x64, .f32⟩ : BufTy).Contents (Elt Ideal))
      = val_main_v160 (F := Ideal) A1 A3 A5 A6 A7 A8 A9 := by
  have h := host_v101 (F := Ideal) (W15 m ρ c) A1 A3 A5 A6 A8 A9 (scaled2_eq m ρ c hE hS)
  rw [W15_arg m ρ c main_arg7 (by decide)] at h
  exact h

/-! ### The second hop's user rows: the results -/

/-- The first step's rows and running sum, still there at the second update's entry. -/
theorem user1_W16 (hS : Scale1 m ρ c) (hU : User1 m ρ c) :
    (W16 m ρ c (Proc.devRef .tc main_v77_0) : (⟨S100000x64, .f32⟩ : BufTy).Contents (Elt Ideal))
      = val_main_v108 (F := Ideal) A0 A1 A2 A3 A4 A7 A8 A9 :=
  (W16_of_W9 m ρ c main_v77_0 (by decide) (by decide) (by decide) (by decide) (by decide) (by decide) (by decide)).trans
    (user1_eq m ρ c hS hU)
theorem ures1_W16 (hS : Scale1 m ρ c) (hR : Res1 m ρ c) :
    (W16 m ρ c (Proc.devRef .tc main_v77_1) : (⟨S100000x64, .f32⟩ : BufTy).Contents (Elt Ideal))
      = val_main_v110 (F := Ideal) A0 A1 A2 A3 A4 A7 A8 A9 :=
  (W16_of_W9 m ρ c main_v77_1 (by decide) (by decide) (by decide) (by decide) (by decide) (by decide) (by decide)).trans
    (ures1_eq m ρ c hS hR)

/-- The users' rows after the second step. -/
theorem user2_eq (hS1 : Scale1 m ρ c) (hU1 : User1 m ρ c) (hE : Ent1 m ρ c) (hS2 : Scale2 m ρ c) (hU2 : User2 m ρ c) :
    (W17 m ρ c (Proc.devRef .tc main_v102_0) : (⟨S100000x64, .f32⟩ : BufTy).Contents (Elt Ideal))
      = val_main_v189 (F := Ideal) A0 A1 A2 A3 A4 A5 A6 A7 A8 A9 := by
  funext i
  obtain ⟨u, q, rfl⟩ : ∃ (u : Fin 100000) (q : Fin 64), i = ix2 u q := ⟨i 0, i 1, eq_ix2 i⟩
  rw [hU2 u q, user1_W16 m ρ c hS1 hU1, uagg2_eq m ρ c hE hS2, latT_W16 m ρ c, dw_W16 m ρ c,
    Cert.RefVal.ref_user2, Cert.RefVal.ref_latT_eq, Cert.RefVal.ref_dw_eq] <;> rfl

/-- U5. The running sum of user rows after the second step, where it is written … -/
theorem ures2_eq (hS1 : Scale1 m ρ c) (hU1 : User1 m ρ c) (hR1 : Res1 m ρ c) (hE : Ent1 m ρ c) (hS2 : Scale2 m ρ c)
    (hR2 : Res2 m ρ c) :
    (W17 m ρ c (Proc.devRef .tc main_v102_1) : (⟨S100000x64, .f32⟩ : BufTy).Contents (Elt Ideal))
      = val_main_v191 (F := Ideal) A0 A1 A2 A3 A4 A5 A6 A7 A8 A9 := by
  funext i
  obtain ⟨u, q, rfl⟩ : ∃ (u : Fin 100000) (q : Fin 64), i = ix2 u q := ⟨i 0, i 1, eq_ix2 i⟩
  rw [hR2 u q, ures1_W16 m ρ c hS1 hR1, user1_W16 m ρ c hS1 hU1, uagg2_eq m ρ c hE hS2, latT_W16 m ρ c, dw_W16 m ρ c,
    Cert.RefVal.ref_ures2, Cert.RefVal.ref_user2, Cert.RefVal.ref_latT_eq, Cert.RefVal.ref_dw_eq] <;> rfl

end Steps

end Cert.Bridge.U

namespace Cert.Bridge

open Cert.KernelIdeal Cert.KernelIdeal.Gen Cert.KernelIdeal.Frm Cert.ReferenceIdeal.Read
open Idealize.ShloMosaic Idealize.ShloMosaic.TcCoe Idealize.SL.Sem

variable (m : (ℓ : Loc nD τ sig) → Buf (Elt Ideal) ℓ) (ρ : Dev nD → PrngReg) (c : Dev nD)

/-- THE USER RESULT: the running sum of user rows @main returns is the reference's, whole array. -/
theorem bridge_user (hS1 : U.Scale1 m ρ c) (hU1 : U.User1 m ρ c) (hR1 : U.Res1 m ρ c) (hE : U.Ent1 m ρ c)
    (hS2 : U.Scale2 m ρ c) (hR2 : U.Res2 m ρ c) :
    (Wn m ρ c (Proc.devRef .tc main_v102_1) : (⟨S100000x64, .f32⟩ : BufTy).Contents (Elt Ideal))
      = val_main_v191 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) :=
  (W18_of m ρ c main_v102_1 (by decide)).trans (U.ures2_eq m ρ c hS1 hU1 hR1 hE hS2 hR2)

/-- THE SCALAR: the mutual-information term @main returns is the reference's. -/
theorem bridge_cor :
    (Wn m ρ c (Proc.devRef .tc main_v17) : (⟨S_, .f32⟩ : BufTy).Contents (Elt Ideal))
      = val_main_v17 (F := Ideal) (m ((c : Thread nD τ).loc main_arg4)) :=
  U.cor_Wn m ρ c

end Cert.Bridge

end
-- ==== Proof.Val.K1.lean ====
import proofs.«416106_j13048110645352_1_alg».proof.Proof.KI.Body1
import proofs.«416106_j13048110645352_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

-- the core's buffer contents when the region is entered, over the extended reals
variable (V : (c : Dev nD) → (b : Ref sig .tc) → Buf (Elt Ideal) ((c : Thread nD τ).loc b))

/-! # Region 1 in closed form: the output array is the rows of window 0 scaled by the column of window 1 -/

/-- A column `[a, 1]` broadcast to `[a, b]` reads, at `(p, q)`, the column's entry of row `p`. -/
theorem bcast1_col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's product at row `p`, lane `q` of a block: the row's entry times the row's scalar. -/
theorem pay1_apply (x0 : Vec Ideal S4000x64 .f32) (x1 : Vec Ideal S4000x1 .f32) (p : Fin 4000) (q : Fin 64) :
    k1_pay1 x0 x1 (ix2 p q) = x0 (ix2 p q) * x1 (ix2 p (0 : Fin 1)) := by
  unfold k1_pay1
  rw [mulf_apply, shapeCast_self, shapeCast_self]
  rw [show broadcastTo S4000x64 x1 broadcasts_S4000x1_S4000x64 (ix2 p q) = x1 (ix2 p (0 : Fin 1)) from
    bcast1_col_apply x1 broadcasts_S4000x1_S4000x64 p q]

theorem hz1 : (![0, 0] : Fin 2 → Nat) = fun _ => 0 := funext fun a => by fin_cases a <;> rfl

/-- What the output array ends holding: each row of `a0` times the matching entry of the column `a1`. -/
def G1_2 (a0 : S1000000x64.Idx → EReal) (a1 : S1000000x1.Idx → EReal) : S1000000x64.Idx → EReal :=
  fun i => Cert.Spec.scaleVal (fun e q => a0 (ix2 e q)) (fun e => a1 (ix2 e (0 : Fin 1))) (i 0) (i 1)

/-- The three windows move together: at point `t` each is on block row `t` (the grid is one axis of 250 points), and
    on its only block column. -/
theorem idx_facts1 : ∀ t : Fin cfg1.N, win1_0.index t (0 : Fin 2) = win1_2.index t (0 : Fin 2)
    ∧ win1_0.index t (1 : Fin 2) = 0
    ∧ win1_1.index t (0 : Fin 2) = win1_2.index t (0 : Fin 2)
    ∧ win1_1.index t (1 : Fin 2) = 0
    ∧ win1_2.index t (1 : Fin 2) = 0
    ∧ win1_2.index t (0 : Fin 2) = t.val :=
  (by decide +kernel : ∀ t : Fin grid1.N, _)

/-- `G1_2` at an index: the entry of `a0` there times the column's entry of its row. -/
theorem G1_2_apply (a0 : S1000000x64.Idx → EReal) (a1 : S1000000x1.Idx → EReal) (i : S1000000x64.Idx) :
    G1_2 a0 a1 i = a0 i * a1 (ix2 (i 0) (0 : Fin 1)) := by
  unfold G1_2 Cert.Spec.scaleVal
  exact congrArg (fun z => a0 z * a1 (ix2 (i 0) (0 : Fin 1))) (eq_ix2 i).symm

/-- Window 0's block at point `t` sits in its array where the output's block sits in the output array. -/
theorem blk1_0_emb (t : Fin cfg1.N) (p : Fin 4000) (q : Fin 64) :
    ((cfg1.win 0).blk t).view.emb (ix2 p q) = ((cfg1.win 2).blk t).view.emb (ix2 p q) := by
  obtain ⟨e0, e1, e2, e3, e4, e5⟩ := idx_facts1 t
  funext a; apply Fin.ext
  match a with
  | ⟨0, _⟩ => show win1_0.index t (0 : Fin 2) * 4000 + 1 * p.val = win1_2.index t (0 : Fin 2) * 4000 + 1 * p.val; omega
  | ⟨1, _⟩ => show win1_0.index t (1 : Fin 2) * 64 + 1 * q.val = win1_2.index t (1 : Fin 2) * 64 + 1 * q.val; omega

/-- Window 1's block at point `t` is the column's stretch over the same rows. -/
theorem blk1_1_emb (t : Fin cfg1.N) (p : Fin 4000) (q : Fin 64) :
    ((cfg1.win 1).blk t).view.emb (ix2 p (0 : Fin 1))
      = ix2 ((((cfg1.win 2).blk t).view.emb (ix2 p q)) 0) (0 : Fin 1) := by
  obtain ⟨e0, e1, e2, e3, e4, e5⟩ := idx_facts1 t
  funext a; apply Fin.ext
  match a with
  | ⟨0, _⟩ => show win1_1.index t (0 : Fin 2) * 4000 + 1 * p.val = win1_2.index t (0 : Fin 2) * 4000 + 1 * p.val; omega
  | ⟨1, _⟩ => show win1_1.index t (1 : Fin 2) * 1 + 1 * 0 = 0; omega

/-- Window 0's block read at `(p, q)` is its array where the output's block has `(p, q)`. -/
theorem iblk1_0_apply (c : Dev nD) (t : Fin cfg1.N) (p : Fin 4000) (q : Fin 64) :
    Frm.iblk1 V c 0 t (ix2 p q) = V c (Pipeline.arrRef spec1 0) (((cfg1.win 2).blk t).view.emb (ix2 p q)) := by
  show V c (Pipeline.arrRef spec1 0) (((cfg1.win 0).blk t).view.emb (ix2 p q)) = _
  exact congrArg (V c (Pipeline.arrRef spec1 0)) (blk1_0_emb t p q)

/-- Window 1's block read at row `p` is its column at the output block's row. -/
theorem iblk1_1_apply (c : Dev nD) (t : Fin cfg1.N) (p : Fin 4000) (q : Fin 64) :
    Frm.iblk1 V c 1 t (ix2 p (0 : Fin 1))
      = V c (Pipeline.arrRef spec1 1) (ix2 ((((cfg1.win 2).blk t).view.emb (ix2 p q)) 0) (0 : Fin 1)) := by
  show V c (Pipeline.arrRef spec1 1) (((cfg1.win 1).blk t).view.emb (ix2 p (0 : Fin 1))) = _
  exact congrArg (V c (Pipeline.arrRef spec1 1)) (blk1_1_emb t p q)

set_option maxHeartbeats 1000000 in
/-- What point `t` writes back is block `t` of `G1_2` of the arrays as the region finds them. -/
theorem flushed1_2_eq (c : Dev nD) (t : Fin cfg1.N) :
    (Frm.dat1 V c).flushed 2 t = ((cfg1.win 2).blk t).view.read (Elt Ideal)
      (G1_2 (V c (Pipeline.arrRef spec1 0)) (V c (Pipeline.arrRef spec1 1))) := by
  show (cfg1.win 2).cut (grid1.coords t) ((Frm.dat1 V c).after 2 t) = _
  rw [Frm.after1_2]
  unfold Frm.out1_2
  rw [View.canon_unit_zero hz1]
  simp only [View.ld_unit_zero (S := S4000x64) hz1, View.ld_unit_zero (S := S4000x1) hz1]
  funext j
  obtain ⟨p, q, rfl⟩ : ∃ (p : Fin 4000) (q : Fin 64), j = ix2 p q := ⟨j 0, j 1, eq_ix2 j⟩
  show k1_pay1 (Frm.iblk1 V c 0 t) (Frm.iblk1 V c 1 t) (ix2 p q)
    = G1_2 (V c (Pipeline.arrRef spec1 0)) (V c (Pipeline.arrRef spec1 1)) (((cfg1.win 2).blk t).view.emb (ix2 p q))
  rw [pay1_apply, G1_2_apply, iblk1_0_apply V c t p q, iblk1_1_apply V c t p q]

/-- An index of the array is in point `t`'s block iff each coordinate is in the block's range on its axis. -/
theorem mem_blk1_2 (t : Fin cfg1.N) (i : S1000000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v73).slice (win1_2.rect t)).set ↔ _
  rw [View.set_slice_whole, Rect.mem_set_unit]
  exact Iff.rfl

/-- Every index of the array is in some point's block: row `r` in that of point `r / 4000`. -/
theorem cover1_2 (i : S1000000x64.Idx) : ∃ t : Fin cfg1.N, (cfg1.win 2).flush t = true ∧ i ∈ ((cfg1.win 2).blk t).view.set := by
  have hi0 : (i 0).val < 1000000 := (i 0).isLt
  have hi1 : (i 1).val < 64 := (i 1).isLt
  have hN : (i 0).val / 4000 < cfg1.N := by
    show (i 0).val / 4000 < grid1.N
    rw [N_1]; omega
  obtain ⟨-, -, -, -, q1, q0⟩ := idx_facts1 ⟨(i 0).val / 4000, hN⟩
  have q0' : win1_2.index ⟨(i 0).val / 4000, hN⟩ (0 : Fin 2) = (i 0).val / 4000 := q0
  refine ⟨⟨(i 0).val / 4000, hN⟩, flush1_2 _, ?_⟩
  rw [mem_blk1_2]
  intro a
  match a with
  | ⟨0, _⟩ =>
    show win1_2.index ⟨(i 0).val / 4000, hN⟩ (0 : Fin 2) * 4000 ≤ (i 0).val ∧ (i 0).val < win1_2.index ⟨(i 0).val / 4000, hN⟩ (0 : Fin 2) * 4000 + 4000
    rw [q0']; omega
  | ⟨1, _⟩ =>
    show win1_2.index ⟨(i 0).val / 4000, hN⟩ (1 : Fin 2) * 64 ≤ (i 1).val ∧ (i 1).val < win1_2.index ⟨(i 0).val / 4000, hN⟩ (1 : Fin 2) * 64 + 64
    rw [q1]; omega

/-- The output array after the region, as one function of the region-entry arrays. -/
theorem final1_2_fun (c : Dev nD) :
    (Frm.dat1 V c).arrAt 2 cfg1.N = G1_2 (V c (Pipeline.arrRef spec1 0)) (V c (Pipeline.arrRef spec1 1)) :=
  (Frm.dat1 V c).arrAt_eq_of_cover 2 (G1_2 (V c (Pipeline.arrRef spec1 0)) (V c (Pipeline.arrRef spec1 1)))
    (fun t _ => flushed1_2_eq V c t) cover1_2

/-- The output array after the region, element by element: row `e` of window 0's array scaled by entry `e` of
    window 1's column. -/
theorem final1_2 (c : Dev nD) (e : Fin 1000000) (q : Fin 64) :
    ((Frm.dat1 V c).arrAt 2 cfg1.N : S1000000x64.Idx → EReal) (ix2 e q)
      = Cert.Spec.scaleVal (fun e q => (V c (Pipeline.arrRef spec1 0) : S1000000x64.Idx → EReal) (ix2 e q))
          (fun e => (V c (Pipeline.arrRef spec1 1) : S1000000x1.Idx → EReal) (ix2 e (0 : Fin 1))) e q := by
  rw [final1_2_fun V c]
  rfl

end Cert.KernelIdeal.Val

end
-- ==== Proof.Val.K5.lean ====
import proofs.«416106_j13048110645352_1_alg».proof.Proof.KI.Body5
import proofs.«416106_j13048110645352_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

-- the core's buffer contents when the region is entered, over the extended reals
variable (V : (c : Dev nD) → (b : Ref sig .tc) → Buf (Elt Ideal) ((c : Thread nD τ).loc b))

/-! # Region 5 in closed form: the output array is the rows of window 0 scaled by the column of window 1 -/

/-- A column `[a, 1]` broadcast to `[a, b]` reads, at `(p, q)`, the column's entry of row `p`. -/
theorem bcast5_col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's product at row `p`, lane `q` of a block: the row's entry times the row's scalar. -/
theorem pay5_apply (x0 : Vec Ideal S4000x64 .f32) (x1 : Vec Ideal S4000x1 .f32) (p : Fin 4000) (q : Fin 64) :
    k5_pay1 x0 x1 (ix2 p q) = x0 (ix2 p q) * x1 (ix2 p (0 : Fin 1)) := by
  unfold k5_pay1
  rw [mulf_apply, shapeCast_self, shapeCast_self]
  rw [show broadcastTo S4000x64 x1 broadcasts_S4000x1_S4000x64 (ix2 p q) = x1 (ix2 p (0 : Fin 1)) from
    bcast5_col_apply x1 broadcasts_S4000x1_S4000x64 p q]

theorem hz5 : (![0, 0] : Fin 2 → Nat) = fun _ => 0 := funext fun a => by fin_cases a <;> rfl

/-- What the output array ends holding: each row of `a0` times the matching entry of the column `a1`. -/
def G5_2 (a0 : S1000000x64.Idx → EReal) (a1 : S1000000x1.Idx → EReal) : S1000000x64.Idx → EReal :=
  fun i => Cert.Spec.scaleVal (fun e q => a0 (ix2 e q)) (fun e => a1 (ix2 e (0 : Fin 1))) (i 0) (i 1)

/-- The three windows move together: at point `t` each is on block row `t` (the grid is one axis of 250 points), and
    on its only block column. -/
theorem idx_facts5 : ∀ t : Fin cfg5.N, win5_0.index t (0 : Fin 2) = win5_2.index t (0 : Fin 2)
    ∧ win5_0.index t (1 : Fin 2) = 0
    ∧ win5_1.index t (0 : Fin 2) = win5_2.index t (0 : Fin 2)
    ∧ win5_1.index t (1 : Fin 2) = 0
    ∧ win5_2.index t (1 : Fin 2) = 0
    ∧ win5_2.index t (0 : Fin 2) = t.val :=
  (by decide +kernel : ∀ t : Fin grid5.N, _)

/-- `G5_2` at an index: the entry of `a0` there times the column's entry of its row. -/
theorem G5_2_apply (a0 : S1000000x64.Idx → EReal) (a1 : S1000000x1.Idx → EReal) (i : S1000000x64.Idx) :
    G5_2 a0 a1 i = a0 i * a1 (ix2 (i 0) (0 : Fin 1)) := by
  unfold G5_2 Cert.Spec.scaleVal
  exact congrArg (fun z => a0 z * a1 (ix2 (i 0) (0 : Fin 1))) (eq_ix2 i).symm

/-- Window 0's block at point `t` sits in its array where the output's block sits in the output array. -/
theorem blk5_0_emb (t : Fin cfg5.N) (p : Fin 4000) (q : Fin 64) :
    ((cfg5.win 0).blk t).view.emb (ix2 p q) = ((cfg5.win 2).blk t).view.emb (ix2 p q) := by
  obtain ⟨e0, e1, e2, e3, e4, e5⟩ := idx_facts5 t
  funext a; apply Fin.ext
  match a with
  | ⟨0, _⟩ => show win5_0.index t (0 : Fin 2) * 4000 + 1 * p.val = win5_2.index t (0 : Fin 2) * 4000 + 1 * p.val; omega
  | ⟨1, _⟩ => show win5_0.index t (1 : Fin 2) * 64 + 1 * q.val = win5_2.index t (1 : Fin 2) * 64 + 1 * q.val; omega

/-- Window 1's block at point `t` is the column's stretch over the same rows. -/
theorem blk5_1_emb (t : Fin cfg5.N) (p : Fin 4000) (q : Fin 64) :
    ((cfg5.win 1).blk t).view.emb (ix2 p (0 : Fin 1))
      = ix2 ((((cfg5.win 2).blk t).view.emb (ix2 p q)) 0) (0 : Fin 1) := by
  obtain ⟨e0, e1, e2, e3, e4, e5⟩ := idx_facts5 t
  funext a; apply Fin.ext
  match a with
  | ⟨0, _⟩ => show win5_1.index t (0 : Fin 2) * 4000 + 1 * p.val = win5_2.index t (0 : Fin 2) * 4000 + 1 * p.val; omega
  | ⟨1, _⟩ => show win5_1.index t (1 : Fin 2) * 1 + 1 * 0 = 0; omega

/-- Window 0's block read at `(p, q)` is its array where the output's block has `(p, q)`. -/
theorem iblk5_0_apply (c : Dev nD) (t : Fin cfg5.N) (p : Fin 4000) (q : Fin 64) :
    Frm.iblk5 V c 0 t (ix2 p q) = V c (Pipeline.arrRef spec5 0) (((cfg5.win 2).blk t).view.emb (ix2 p q)) := by
  show V c (Pipeline.arrRef spec5 0) (((cfg5.win 0).blk t).view.emb (ix2 p q)) = _
  exact congrArg (V c (Pipeline.arrRef spec5 0)) (blk5_0_emb t p q)

/-- Window 1's block read at row `p` is its column at the output block's row. -/
theorem iblk5_1_apply (c : Dev nD) (t : Fin cfg5.N) (p : Fin 4000) (q : Fin 64) :
    Frm.iblk5 V c 1 t (ix2 p (0 : Fin 1))
      = V c (Pipeline.arrRef spec5 1) (ix2 ((((cfg5.win 2).blk t).view.emb (ix2 p q)) 0) (0 : Fin 1)) := by
  show V c (Pipeline.arrRef spec5 1) (((cfg5.win 1).blk t).view.emb (ix2 p (0 : Fin 1))) = _
  exact congrArg (V c (Pipeline.arrRef spec5 1)) (blk5_1_emb t p q)

set_option maxHeartbeats 1000000 in
/-- What point `t` writes back is block `t` of `G5_2` of the arrays as the region finds them. -/
theorem flushed5_2_eq (c : Dev nD) (t : Fin cfg5.N) :
    (Frm.dat5 V c).flushed 2 t = ((cfg5.win 2).blk t).view.read (Elt Ideal)
      (G5_2 (V c (Pipeline.arrRef spec5 0)) (V c (Pipeline.arrRef spec5 1))) := by
  show (cfg5.win 2).cut (grid5.coords t) ((Frm.dat5 V c).after 2 t) = _
  rw [Frm.after5_2]
  unfold Frm.out5_2
  rw [View.canon_unit_zero hz5]
  simp only [View.ld_unit_zero (S := S4000x64) hz5, View.ld_unit_zero (S := S4000x1) hz5]
  funext j
  obtain ⟨p, q, rfl⟩ : ∃ (p : Fin 4000) (q : Fin 64), j = ix2 p q := ⟨j 0, j 1, eq_ix2 j⟩
  show k5_pay1 (Frm.iblk5 V c 0 t) (Frm.iblk5 V c 1 t) (ix2 p q)
    = G5_2 (V c (Pipeline.arrRef spec5 0)) (V c (Pipeline.arrRef spec5 1)) (((cfg5.win 2).blk t).view.emb (ix2 p q))
  rw [pay5_apply, G5_2_apply, iblk5_0_apply V c t p q, iblk5_1_apply V c t p q]

/-- An index of the array is in point `t`'s block iff each coordinate is in the block's range on its axis. -/
theorem mem_blk5_2 (t : Fin cfg5.N) (i : S1000000x64.Idx) :
    i ∈ ((cfg5.win 2).blk t).view.set ↔ ∀ a : Fin 2, win5_2.index t a * S4000x64.size a ≤ (i a).val ∧ (i a).val < win5_2.index t a * S4000x64.size a + S4000x64.size a := by
  show i ∈ ((View.whole main_v98).slice (win5_2.rect t)).set ↔ _
  rw [View.set_slice_whole, Rect.mem_set_unit]
  exact Iff.rfl

/-- Every index of the array is in some point's block: row `r` in that of point `r / 4000`. -/
theorem cover5_2 (i : S1000000x64.Idx) : ∃ t : Fin cfg5.N, (cfg5.win 2).flush t = true ∧ i ∈ ((cfg5.win 2).blk t).view.set := by
  have hi0 : (i 0).val < 1000000 := (i 0).isLt
  have hi1 : (i 1).val < 64 := (i 1).isLt
  have hN : (i 0).val / 4000 < cfg5.N := by
    show (i 0).val / 4000 < grid5.N
    rw [N_5]; omega
  obtain ⟨-, -, -, -, q1, q0⟩ := idx_facts5 ⟨(i 0).val / 4000, hN⟩
  have q0' : win5_2.index ⟨(i 0).val / 4000, hN⟩ (0 : Fin 2) = (i 0).val / 4000 := q0
  refine ⟨⟨(i 0).val / 4000, hN⟩, flush5_2 _, ?_⟩
  rw [mem_blk5_2]
  intro a
  match a with
  | ⟨0, _⟩ =>
    show win5_2.index ⟨(i 0).val / 4000, hN⟩ (0 : Fin 2) * 4000 ≤ (i 0).val ∧ (i 0).val < win5_2.index ⟨(i 0).val / 4000, hN⟩ (0 : Fin 2) * 4000 + 4000
    rw [q0']; omega
  | ⟨1, _⟩ =>
    show win5_2.index ⟨(i 0).val / 4000, hN⟩ (1 : Fin 2) * 64 ≤ (i 1).val ∧ (i 1).val < win5_2.index ⟨(i 0).val / 4000, hN⟩ (1 : Fin 2) * 64 + 64
    rw [q1]; omega

/-- The output array after the region, as one function of the region-entry arrays. -/
theorem final5_2_fun (c : Dev nD) :
    (Frm.dat5 V c).arrAt 2 cfg5.N = G5_2 (V c (Pipeline.arrRef spec5 0)) (V c (Pipeline.arrRef spec5 1)) :=
  (Frm.dat5 V c).arrAt_eq_of_cover 2 (G5_2 (V c (Pipeline.arrRef spec5 0)) (V c (Pipeline.arrRef spec5 1)))
    (fun t _ => flushed5_2_eq V c t) cover5_2

/-- The output array after the region, element by element: row `e` of window 0's array scaled by entry `e` of
    window 1's column. -/
theorem final5_2 (c : Dev nD) (e : Fin 1000000) (q : Fin 64) :
    ((Frm.dat5 V c).arrAt 2 cfg5.N : S1000000x64.Idx → EReal) (ix2 e q)
      = Cert.Spec.scaleVal (fun e q => (V c (Pipeline.arrRef spec5 0) : S1000000x64.Idx → EReal) (ix2 e q))
          (fun e => (V c (Pipeline.arrRef spec5 1) : S1000000x1.Idx → EReal) (ix2 e (0 : Fin 1))) e q := by
  rw [final5_2_fun V c]
  rfl

end Cert.KernelIdeal.Val

end
-- ==== Proof.Val.K2Pay.lean ====
/- The user-update body's two stored values read at one element, at the ideal instance: row p of the first is the
   user's new embedding (softmax attention over the four latent factors, the disentangled combination, the aggregate
   modulated by it plus itself, the row divided by its floored Euclidean norm), row p of the second the residual's row
   plus that. Each stage of the body is read at an index on its own; the matrix products through the plain contraction
   sum, the row reductions through the one-axis sums and maxima, the keepdims columns through two layout lemmas. -/
import proofs.«416106_j13048110645352_1_alg».proof.Proof.Gen.KernelIdeal.Skeleton
import proofs.«416106_j13048110645352_1_alg».proof.Proof.Val.Spec
import proofs.«416106_j13048110645352_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.SL.Sem
open Idealize.ShloMosaic.ValueIdx
open scoped BigOperators

/-! ## Two layout operations read at an index -/

/-- A vector of length a kept as an [a, 1] column reads, at (i, u), the vector at i. -/
theorem colCast_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) := by
  refine shapeCast_apply x h (ix2 i u) (ix1 i) ?_
  rw [Shape.rowMajor_val_two, Shape.rowMajor_val_one]
  have hu : u.val = 0 := by omega
  show i.val = i.val * 1 + u.val
  omega

/-- An [a, 1] column laid along every column of an [a, b] rectangle reads, at (p, c), the column at p. -/
theorem colBcast_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) ?_
  intro ax
  match ax with
  | ⟨0, _⟩ =>
    show p.val = if a = 1 then 0 else p.val
    have hp := p.isLt
    split <;> omega
  | ⟨1, _⟩ => rfl

/-! ## The stages of the body, as functions of the loaded blocks -/

/-- The attention logits: the user rows against the latent factors. -/
def logitsB (x0 : Vec Ideal S2000x64 .f32) (x2 : Vec Ideal S64x4 .f32) : FVec Ideal S2000x4 .f32 :=
  matmul (F := Ideal) dot_S2000x64_S64x4_S2000x4_1_0_0_1_n_n none (truncf .bf16 x0 bitsLt_bf16_f32)
    (truncf .bf16 (shapeCast S64x4 x2 shapeCasts_S64x4_S64x4) bitsLt_bf16_f32) (constant (F := Ideal) S2000x4 .f32 0x00000000#32)

/-- Each row's largest logit, from −∞ and once more against −∞. -/
def rowMaxB (z : FVec Ideal S2000x4 .f32) : FVec Ideal S2000 .f32 :=
  maximumf (broadcast S2000 (Scalar.ofBits (F := Ideal) .f32 0xFF800000#32))
    (multiReduction (F := Ideal) .maximumf [1] S2000 z 0xFF800000#32 reduces_S2000x4_S2000 (.inl rfl) rfl)

/-- The exponentials of the shifted logits. -/
def expB (z : FVec Ideal S2000x4 .f32) : FVec Ideal S2000x4 .f32 :=
  exp (subf z (broadcastTo S2000x4 (shapeCast S2000x1 (rowMaxB z) shapeCasts_S2000_S2000x1) broadcasts_S2000x1_S2000x4))

/-- The softmax: each exponential over its row's sum. -/
def softB (z : FVec Ideal S2000x4 .f32) : FVec Ideal S2000x4 .f32 :=
  divf (expB z) (broadcastTo S2000x4 (shapeCast S2000x1
    (multiReduction (F := Ideal) .add [1] S2000 (expB z) 0x00000000#32 reduces_S2000x4_S2000 (.inl rfl) rfl)
    shapeCasts_S2000_S2000x1) broadcasts_S2000x1_S2000x4)

/-- The attention-weighted combination of the disentangled relation rows. -/
def combB (s : FVec Ideal S2000x4 .f32) (x3 : Vec Ideal S4x64 .f32) : FVec Ideal S2000x64 .f32 :=
  matmul (F := Ideal) dot_S2000x4_S4x64_S2000x64_1_0_0_1_n_n none (truncf .bf16 s bitsLt_bf16_f32)
    (truncf .bf16 (shapeCast S4x64 x3 shapeCasts_S4x64_S4x64) bitsLt_bf16_f32) (constant (F := Ideal) S2000x64 .f32 0x00000000#32)

/-- The aggregate modulated by the combination, plus itself. -/
def newB (x1 : Vec Ideal S2000x64 .f32) (c : FVec Ideal S2000x64 .f32) : FVec Ideal S2000x64 .f32 :=
  addf (mulf (shapeCast S2000x64 x1 shapeCasts_S2000x64_S2000x64) c) (shapeCast S2000x64 x1 shapeCasts_S2000x64_S2000x64)

/-- Each row over its floored Euclidean norm. -/
def normB (y : FVec Ideal S2000x64 .f32) : FVec Ideal S2000x64 .f32 :=
  divf y (broadcastTo S2000x64
    (maximumf (sqrt (shapeCast S2000x1
        (multiReduction (F := Ideal) .add [1] S2000 (mulf y y) 0x00000000#32 reduces_S2000x64_S2000 (.inl rfl) rfl)
        shapeCasts_S2000_S2000x1))
      (broadcast S2000x1 (Scalar.ofBits (F := Ideal) .f32 0x2B8CBCCC#32)))
    broadcasts_S2000x1_S2000x64)

/-- The first stored value is the stages composed. -/
theorem k2_pay1_stages (x0 : Vec Ideal S2000x64 .f32) (x2 : Vec Ideal S64x4 .f32) (x3 : Vec Ideal S4x64 .f32)
    (x1 : Vec Ideal S2000x64 .f32) :
    k2_pay1 (F := Ideal) x0 x2 x3 x1 = normB (newB x1 (combB (softB (logitsB x0 x2)) x3)) := rfl

/-! ## Each stage at an index -/

/-- The source index over row p of a [2000, 4] block with lane f inserted is (p, f). -/
theorem lift2_row4 (p : Fin 2000) (f : Fin (S2000x4.size 1)) : (reduces_S2000x4_S2000).lift (ix1 p) f = ix2 p f := by
  funext a; apply Fin.ext
  match a with
  | ⟨0, _⟩ => rfl
  | ⟨1, _⟩ => rfl

/-- The source index over row p of a [2000, 64] block with lane k inserted is (p, k). -/
theorem lift2_row64 (p : Fin 2000) (k : Fin (S2000x64.size 1)) : (reduces_S2000x64_S2000).lift (ix1 p) k = ix2 p k := by
  funext a; apply Fin.ext
  match a with
  | ⟨0, _⟩ => rfl
  | ⟨1, _⟩ => rfl

/-- The lane sum of a [2000, 4] block at row p. -/
theorem rowSum2_4 (x : FVec Ideal S2000x4 .f32) (p : Fin 2000) :
    multiReduction (F := Ideal) .add [1] S2000 x 0x00000000#32 reduces_S2000x4_S2000 (.inl rfl) rfl (ix1 p)
      = ∑ f : Fin 4, x (ix2 p f) :=
  (Ideal.multiReduction_add_single x 0x00000000#32 reduces_S2000x4_S2000 (.inl rfl) rfl (ix1 p)).trans
    (Finset.sum_congr rfl fun f _ => congrArg x (lift2_row4 p f))

/-- The lane sum of a [2000, 64] block at row p. -/
theorem rowSum2_64 (x : FVec Ideal S2000x64 .f32) (p : Fin 2000) :
    multiReduction (F := Ideal) .add [1] S2000 x 0x00000000#32 reduces_S2000x64_S2000 (.inl rfl) rfl (ix1 p)
      = ∑ k : Fin 64, x (ix2 p k) :=
  (Ideal.multiReduction_add_single x 0x00000000#32 reduces_S2000x64_S2000 (.inl rfl) rfl (ix1 p)).trans
    (Finset.sum_congr rfl fun k _ => congrArg x (lift2_row64 p k))

/-- The lane maximum of a [2000, 4] block at row p: the fold of max from −∞ over the row. -/
theorem rowMax2_4 (x : FVec Ideal S2000x4 .f32) (p : Fin 2000) :
    multiReduction (F := Ideal) .maximumf [1] S2000 x 0xFF800000#32 reduces_S2000x4_S2000 (.inl rfl) rfl (ix1 p)
      = (Finset.univ : Finset (Fin 4)).fold max (Ideal.ofBits .f32 0xFF800000#32) (fun f => x (ix2 p f)) :=
  (Ideal.multiReduction_maximumf_single x 0xFF800000#32 reduces_S2000x4_S2000 (.inl rfl) rfl (ix1 p)).trans
    (congrArg ((Finset.univ : Finset (Fin 4)).fold max (Ideal.ofBits .f32 0xFF800000#32))
      (funext fun f => congrArg x (lift2_row4 p f)))

/-- A logit: the user's row against one latent factor. -/
theorem logitsB_apply (x0 : Vec Ideal S2000x64 .f32) (x2 : Vec Ideal S64x4 .f32) (p : Fin 2000) (f : Fin 4) :
    logitsB x0 x2 (ix2 p f) = ∑ k : Fin 64, x0 (ix2 p k) * x2 (ix2 k f) := by
  unfold logitsB
  rw [shapeCast_self]
  simp only [matmul]
  rw [Ideal.matmul_constant_zero_apply]
  exact PlainDot.sum_eq dot_S2000x64_S64x4_S2000x4_1_0_0_1_n_n rfl rfl rfl rfl rfl rfl
    (truncf .bf16 x0 bitsLt_bf16_f32 : FVec Ideal S2000x64 .bf16) (truncf .bf16 x2 bitsLt_bf16_f32 : FVec Ideal S64x4 .bf16) p f

/-- The row maximum at p is the specification's shift of row p. -/
theorem rowMaxB_apply (z : FVec Ideal S2000x4 .f32) (p : Fin 2000) :
    rowMaxB z (ix1 p) = Cert.Spec.rowMax (fun f => z (ix2 p f)) := by
  unfold rowMaxB
  rw [maximumf_apply, broadcast_apply, rowMax2_4]
  rfl

/-- A shifted exponential at (p, f). -/
theorem expB_apply (z : FVec Ideal S2000x4 .f32) (p : Fin 2000) (f : Fin 4) :
    expB z (ix2 p f) = Ideal.exp (z (ix2 p f) - Cert.Spec.rowMax (fun g => z (ix2 p g))) := by
  unfold expB
  show Ideal.exp (subf z _ (ix2 p f)) = _
  rw [subf_apply, colBcast_apply, colCast_apply, rowMaxB_apply]

/-- The softmax at (p, f) is the specification's. -/
theorem softB_apply (z : FVec Ideal S2000x4 .f32) (p : Fin 2000) (f : Fin 4) :
    softB z (ix2 p f) = Cert.Spec.soft (fun g => z (ix2 p g)) f := by
  unfold softB
  rw [divf_apply, colBcast_apply, colCast_apply, rowSum2_4, expB_apply]
  unfold Cert.Spec.soft
  congr 1
  refine Finset.sum_congr rfl fun g _ => ?_
  rw [expB_apply]

/-- The combination at (p, q). -/
theorem combB_apply (s : FVec Ideal S2000x4 .f32) (x3 : Vec Ideal S4x64 .f32) (p : Fin 2000) (q : Fin 64) :
    combB s x3 (ix2 p q) = ∑ f : Fin 4, s (ix2 p f) * x3 (ix2 f q) := by
  unfold combB
  rw [shapeCast_self]
  simp only [matmul]
  rw [Ideal.matmul_constant_zero_apply]
  exact PlainDot.sum_eq dot_S2000x4_S4x64_S2000x64_1_0_0_1_n_n rfl rfl rfl rfl rfl rfl
    (truncf .bf16 s bitsLt_bf16_f32 : FVec Ideal S2000x4 .bf16) (truncf .bf16 x3 bitsLt_bf16_f32 : FVec Ideal S4x64 .bf16) p q

/-- The modulated aggregate at (p, q). -/
theorem newB_apply (x1 : Vec Ideal S2000x64 .f32) (c : FVec Ideal S2000x64 .f32) (p : Fin 2000) (q : Fin 64) :
    newB x1 c (ix2 p q) = x1 (ix2 p q) * c (ix2 p q) + x1 (ix2 p q) := by
  unfold newB
  rw [shapeCast_self]
  rfl

/-- The normalised row at (p, q). -/
theorem normB_apply (y : FVec Ideal S2000x64 .f32) (p : Fin 2000) (q : Fin 64) :
    normB y (ix2 p q) = Cert.Spec.normRow (fun k => y (ix2 p k)) q := by
  unfold normB
  rw [divf_apply, colBcast_apply, maximumf_apply, broadcast_apply]
  show Ideal.div _ (max (Ideal.sqrt (shapeCast S2000x1 _ _ (ix2 p (0 : Fin 1)))) _) = _
  rw [colCast_apply, rowSum2_64]
  rfl

/-! ## The two stored values at an index -/

/-- The first stored value at (p, q): the user's new embedding. -/
theorem pay2_1_apply (x0 : Vec Ideal S2000x64 .f32) (x2 : Vec Ideal S64x4 .f32) (x3 : Vec Ideal S4x64 .f32)
    (x1 : Vec Ideal S2000x64 .f32) (p : Fin 2000) (q : Fin 64) :
    k2_pay1 (F := Ideal) x0 x2 x3 x1 (ix2 p q)
      = Cert.Spec.userOut (fun k => x0 (ix2 p k)) (fun k => x1 (ix2 p k)) (fun k f => x2 (ix2 k f)) (fun f q => x3 (ix2 f q)) q := by
  have hlog : (fun g => logitsB x0 x2 (ix2 p g))
      = Cert.Spec.logit (fun k => x0 (ix2 p k)) (fun k f => x2 (ix2 k f)) := by
    funext g
    rw [logitsB_apply]
    rfl
  have hnew : (fun k => newB x1 (combB (softB (logitsB x0 x2)) x3) (ix2 p k))
      = Cert.Spec.userNew (fun k => x0 (ix2 p k)) (fun k => x1 (ix2 p k)) (fun k f => x2 (ix2 k f)) (fun f q => x3 (ix2 f q)) := by
    funext k
    rw [newB_apply, combB_apply]
    unfold Cert.Spec.userNew Cert.Spec.combine
    simp only [softB_apply, hlog]
  rw [k2_pay1_stages, normB_apply, hnew]
  rfl

/-- The second stored value at (p, q): the residual's entry plus the new embedding's. -/
theorem pay2_2_apply (x0 : Vec Ideal S2000x64 .f32) (x2 : Vec Ideal S64x4 .f32) (x3 : Vec Ideal S4x64 .f32)
    (x1 x4 : Vec Ideal S2000x64 .f32) (p : Fin 2000) (q : Fin 64) :
    k2_pay2 (F := Ideal) x0 x2 x3 x1 x4 (ix2 p q)
      = x4 (ix2 p q) + Cert.Spec.userOut (fun k => x0 (ix2 p k)) (fun k => x1 (ix2 p k)) (fun k f => x2 (ix2 k f)) (fun f q => x3 (ix2 f q)) q := by
  rw [← pay2_1_apply]
  rfl

/-! ## The second hop's copy of the body

The same body printed once more: its user rows and its residual pass through an identity cast first. -/

/-- The first stored value of the second hop's body is the same stages composed. -/
theorem k6_pay1_stages (x0 : Vec Ideal S2000x64 .f32) (x2 : Vec Ideal S64x4 .f32) (x3 : Vec Ideal S4x64 .f32)
    (x1 : Vec Ideal S2000x64 .f32) :
    k6_pay1 (F := Ideal) x0 x2 x3 x1
      = normB (newB x1 (combB (softB (logitsB (shapeCast S2000x64 x0 shapeCasts_S2000x64_S2000x64) x2)) x3)) := rfl

/-- The first stored value at (p, q): the user's new embedding. -/
theorem pay6_1_apply (x0 : Vec Ideal S2000x64 .f32) (x2 : Vec Ideal S64x4 .f32) (x3 : Vec Ideal S4x64 .f32)
    (x1 : Vec Ideal S2000x64 .f32) (p : Fin 2000) (q : Fin 64) :
    k6_pay1 (F := Ideal) x0 x2 x3 x1 (ix2 p q)
      = Cert.Spec.userOut (fun k => x0 (ix2 p k)) (fun k => x1 (ix2 p k)) (fun k f => x2 (ix2 k f)) (fun f q => x3 (ix2 f q)) q := by
  rw [k6_pay1_stages, shapeCast_self, ← k2_pay1_stages]
  exact pay2_1_apply x0 x2 x3 x1 p q

/-- The second stored value at (p, q): the residual's entry plus the new embedding's. -/
theorem pay6_2_apply (x0 : Vec Ideal S2000x64 .f32) (x2 : Vec Ideal S64x4 .f32) (x3 : Vec Ideal S4x64 .f32)
    (x1 x4 : Vec Ideal S2000x64 .f32) (p : Fin 2000) (q : Fin 64) :
    k6_pay2 (F := Ideal) x0 x2 x3 x1 x4 (ix2 p q)
      = x4 (ix2 p q) + Cert.Spec.userOut (fun k => x0 (ix2 p k)) (fun k => x1 (ix2 p k)) (fun k f => x2 (ix2 k f)) (fun f q => x3 (ix2 f q)) q := by
  rw [← pay6_1_apply]
  unfold k6_pay2
  simp only [shapeCast_self]
  rfl

end Cert.KernelIdeal.Val

end
-- ==== Proof.Val.K2.lean ====
/- Region 2's two output arrays after the region, element by element at the ideal instance: row u of the first is
   the user update of row u of the user rows and of the aggregate against the two small matrices (attention over the
   latent factors, the disentangled combination, the floored L2 normalisation), row u of the second the residual's
   row u plus that. Each input block's row as a row of its array (the two small matrices are one block at every
   point), what a point writes back as a block of one whole-array function, the cover of the rows by the points. -/
import proofs.«416106_j13048110645352_1_alg».proof.Proof.KI.Body2
import proofs.«416106_j13048110645352_1_alg».proof.Proof.Val.Spec
import proofs.«416106_j13048110645352_1_alg».proof.Proof.Val.K2Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## From blocks to the arrays -/

section Region2
variable (V : (c : Dev nD) → (b : Ref sig .tc) → Buf (Elt Ideal) ((c : Thread nD τ).loc b))

/-- Input window 0's array (the user rows) as the region finds it, by row and column. -/
def arr2_0 (c : Dev nD) (u : Fin 100000) (k : Fin 64) : EReal :=
  (V c (Pipeline.arrRef spec2 0) : S100000x64.Idx → EReal) (ix2 u k)

/-- Input window 1's array (the aggregate), by row and column. -/
def arr2_1 (c : Dev nD) (u : Fin 100000) (k : Fin 64) : EReal :=
  (V c (Pipeline.arrRef spec2 1) : S100000x64.Idx → EReal) (ix2 u k)

/-- Input window 2's array (the latent factors, coordinate by factor). -/
def arr2_2 (c : Dev nD) (k : Fin 64) (f : Fin 4) : EReal :=
  (V c (Pipeline.arrRef spec2 2) : S64x4.Idx → EReal) (ix2 k f)

/-- Input window 3's array (the disentangled relation rows, factor by coordinate). -/
def arr2_3 (c : Dev nD) (f : Fin 4) (q : Fin 64) : EReal :=
  (V c (Pipeline.arrRef spec2 3) : S4x64.Idx → EReal) (ix2 f q)

/-- Input window 4's array (the residual), by row and column. -/
def arr2_4 (c : Dev nD) (u : Fin 100000) (k : Fin 64) : EReal :=
  (V c (Pipeline.arrRef spec2 4) : S100000x64.Idx → EReal) (ix2 u k)

/-- The user update of row u, entry q, from the arrays as the region finds them. -/
def upd2 (c : Dev nD) (u : Fin 100000) (q : Fin 64) : EReal :=
  Cert.Spec.userOut (fun k => arr2_0 V c u k) (fun k => arr2_1 V c u k) (fun k f => arr2_2 V c k f) (fun f q => arr2_3 V c f q) q

/-- What output window 5's array ends holding: the user update of each row. -/
def G2_5 (c : Dev nD) : S100000x64.Idx → EReal := fun i =>
  upd2 V c ⟨(i 0).val, idx2_lt0 i⟩ ⟨(i 1).val, idx2_lt1 i⟩

/-- What output window 6's array ends holding: the residual plus the user update. -/
def G2_6 (c : Dev nD) : S100000x64.Idx → EReal := fun i =>
  arr2_4 V c ⟨(i 0).val, idx2_lt0 i⟩ ⟨(i 1).val, idx2_lt1 i⟩ + upd2 V c ⟨(i 0).val, idx2_lt0 i⟩ ⟨(i 1).val, idx2_lt1 i⟩

theorem hz2 : (![0, 0] : Fin 2 → Nat) = fun _ => 0 := funext fun a => by fin_cases a <;> rfl

/-- The printed index maps, decided over the grid: a row window's block index at point t is (t, 0), the two small
    matrices' is (0, 0) at every point. -/
theorem ixmap2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Row p of point t's block is a row of the array. -/
theorem row2_lt (t : Fin cfg2.N) (p : Fin 2000) : t.val * 2000 + p.val < 100000 := by
  have hN : cfg2.N = 50 := N_2
  have h1 := t.isLt
  have h2 := p.isLt
  omega

/-- Input window 0's block at point t, row p, is row 2000 t + p of the user rows. -/
theorem iblk2_0_apply (c : Dev nD) (t : Fin cfg2.N) (p : Fin 2000) (k : Fin 64) :
    (Frm.iblk2 V c 0 t : S2000x64.Idx → EReal) (ix2 p k) = arr2_0 V c ⟨t.val * 2000 + p.val, row2_lt t p⟩ k := by
  obtain ⟨e0, e1, -⟩ := ixmap2 t
  unfold Frm.iblk2 arr2_0
  rw [View.read_apply]
  show V c (Pipeline.arrRef spec2 0) _ = V c (Pipeline.arrRef spec2 0) _
  congr 1
  funext a; apply Fin.ext
  match a with
  | ⟨0, _⟩ => show win2_0.index t (0 : Fin 2) * 2000 + 1 * p.val = t.val * 2000 + p.val; rw [e0]; omega
  | ⟨1, _⟩ => show win2_0.index t (1 : Fin 2) * 64 + 1 * k.val = k.val; rw [e1]; omega

/-- Input window 1's block at point t, row p, is row 2000 t + p of the aggregate. -/
theorem iblk2_1_apply (c : Dev nD) (t : Fin cfg2.N) (p : Fin 2000) (k : Fin 64) :
    (Frm.iblk2 V c 1 t : S2000x64.Idx → EReal) (ix2 p k) = arr2_1 V c ⟨t.val * 2000 + p.val, row2_lt t p⟩ k := by
  obtain ⟨-, -, e0, e1, -⟩ := ixmap2 t
  unfold Frm.iblk2 arr2_1
  rw [View.read_apply]
  show V c (Pipeline.arrRef spec2 1) _ = V c (Pipeline.arrRef spec2 1) _
  congr 1
  funext a; apply Fin.ext
  match a with
  | ⟨0, _⟩ => show win2_1.index t (0 : Fin 2) * 2000 + 1 * p.val = t.val * 2000 + p.val; rw [e0]; omega
  | ⟨1, _⟩ => show win2_1.index t (1 : Fin 2) * 64 + 1 * k.val = k.val; rw [e1]; omega

/-- Input window 2's block at any point is the whole of the latent factors' matrix. -/
theorem iblk2_2_apply (c : Dev nD) (t : Fin cfg2.N) (k : Fin 64) (f : Fin 4) :
    (Frm.iblk2 V c 2 t : S64x4.Idx → EReal) (ix2 k f) = arr2_2 V c k f := by
  obtain ⟨-, -, -, -, e0, e1, -⟩ := ixmap2 t
  unfold Frm.iblk2 arr2_2
  rw [View.read_apply]
  show V c (Pipeline.arrRef spec2 2) _ = V c (Pipeline.arrRef spec2 2) _
  congr 1
  funext a; apply Fin.ext
  match a with
  | ⟨0, _⟩ => show win2_2.index t (0 : Fin 2) * 64 + 1 * k.val = k.val; rw [e0]; omega
  | ⟨1, _⟩ => show win2_2.index t (1 : Fin 2) * 4 + 1 * f.val = f.val; rw [e1]; omega

/-- Input window 3's block at any point is the whole of the relation rows' matrix. -/
theorem iblk2_3_apply (c : Dev nD) (t : Fin cfg2.N) (f : Fin 4) (q : Fin 64) :
    (Frm.iblk2 V c 3 t : S4x64.Idx → EReal) (ix2 f q) = arr2_3 V c f q := by
  obtain ⟨-, -, -, -, -, -, e0, e1, -⟩ := ixmap2 t
  unfold Frm.iblk2 arr2_3
  rw [View.read_apply]
  show V c (Pipeline.arrRef spec2 3) _ = V c (Pipeline.arrRef spec2 3) _
  congr 1
  funext a; apply Fin.ext
  match a with
  | ⟨0, _⟩ => show win2_3.index t (0 : Fin 2) * 4 + 1 * f.val = f.val; rw [e0]; omega
  | ⟨1, _⟩ => show win2_3.index t (1 : Fin 2) * 64 + 1 * q.val = q.val; rw [e1]; omega

/-- Input window 4's block at point t, row p, is row 2000 t + p of the residual. -/
theorem iblk2_4_apply (c : Dev nD) (t : Fin cfg2.N) (p : Fin 2000) (k : Fin 64) :
    (Frm.iblk2 V c 4 t : S2000x64.Idx → EReal) (ix2 p k) = arr2_4 V c ⟨t.val * 2000 + p.val, row2_lt t p⟩ k := by
  obtain ⟨-, -, -, -, -, -, -, -, e0, e1, -⟩ := ixmap2 t
  unfold Frm.iblk2 arr2_4
  rw [View.read_apply]
  show V c (Pipeline.arrRef spec2 4) _ = V c (Pipeline.arrRef spec2 4) _
  congr 1
  funext a; apply Fin.ext
  match a with
  | ⟨0, _⟩ => show win2_4.index t (0 : Fin 2) * 2000 + 1 * p.val = t.val * 2000 + p.val; rw [e0]; omega
  | ⟨1, _⟩ => show win2_4.index t (1 : Fin 2) * 64 + 1 * k.val = k.val; rw [e1]; omega

/-- Output window 5's block at point t sits at rows 2000 t … of its array. -/
theorem emb2_5 (t : Fin cfg2.N) (p : Fin 2000) (q : Fin 64) :
    (((cfg2.win 5).blk t).view.emb (ix2 p q) : S100000x64.Idx) = ix2 ⟨t.val * 2000 + p.val, row2_lt t p⟩ q := by
  obtain ⟨-, -, -, -, -, -, -, -, -, -, e0, e1, -⟩ := ixmap2 t
  funext a; apply Fin.ext
  match a with
  | ⟨0, _⟩ => show win2_5.index t (0 : Fin 2) * 2000 + 1 * p.val = t.val * 2000 + p.val; rw [e0]; omega
  | ⟨1, _⟩ => show win2_5.index t (1 : Fin 2) * 64 + 1 * q.val = q.val; rw [e1]; omega

/-- Output window 6's block at point t sits at rows 2000 t … of its array. -/
theorem emb2_6 (t : Fin cfg2.N) (p : Fin 2000) (q : Fin 64) :
    (((cfg2.win 6).blk t).view.emb (ix2 p q) : S100000x64.Idx) = ix2 ⟨t.val * 2000 + p.val, row2_lt t p⟩ q := by
  obtain ⟨-, -, -, -, -, -, -, -, -, -, -, -, e0, e1⟩ := ixmap2 t
  funext a; apply Fin.ext
  match a with
  | ⟨0, _⟩ => show win2_6.index t (0 : Fin 2) * 2000 + 1 * p.val = t.val * 2000 + p.val; rw [e0]; omega
  | ⟨1, _⟩ => show win2_6.index t (1 : Fin 2) * 64 + 1 * q.val = q.val; rw [e1]; omega

/-- What point t writes back to window 5 is block t of G2_5. -/
theorem flushed2_5 (c : Dev nD) (t : Fin cfg2.N) :
    (Frm.dat2 V c).flushed 5 t = ((cfg2.win 5).blk t).view.read (Elt Ideal) (G2_5 V c) := by
  show (cfg2.win 5).cut (grid2.coords t) ((Frm.dat2 V c).after 5 t) = _
  rw [Frm.after2_5]
  unfold Frm.out2_5
  rw [View.canon_unit_zero hz2]
  simp only [View.ld_unit_zero (S := S2000x64) hz2, View.ld_unit_zero (S := S64x4) hz2, View.ld_unit_zero (S := S4x64) hz2]
  funext j
  obtain ⟨p, q, rfl⟩ : ∃ (p : Fin 2000) (q : Fin 64), j = ix2 p q := ⟨j 0, j 1, eq_ix2 j⟩
  show k2_pay1 (F := Ideal) (Frm.iblk2 V c 0 t) (Frm.iblk2 V c 2 t) (Frm.iblk2 V c 3 t) (Frm.iblk2 V c 1 t) (ix2 p q) = G2_5 V c (((cfg2.win 5).blk t).view.emb (ix2 p q))
  rw [pay2_1_apply, emb2_5]
  unfold G2_5 upd2
  simp only [iblk2_0_apply, iblk2_1_apply, iblk2_2_apply, iblk2_3_apply]

/-- What point t writes back to window 6 is block t of G2_6. -/
theorem flushed2_6 (c : Dev nD) (t : Fin cfg2.N) :
    (Frm.dat2 V c).flushed 6 t = ((cfg2.win 6).blk t).view.read (Elt Ideal) (G2_6 V c) := by
  show (cfg2.win 6).cut (grid2.coords t) ((Frm.dat2 V c).after 6 t) = _
  rw [Frm.after2_6]
  unfold Frm.out2_6
  rw [View.canon_unit_zero hz2]
  simp only [View.ld_unit_zero (S := S2000x64) hz2, View.ld_unit_zero (S := S64x4) hz2, View.ld_unit_zero (S := S4x64) hz2]
  funext j
  obtain ⟨p, q, rfl⟩ : ∃ (p : Fin 2000) (q : Fin 64), j = ix2 p q := ⟨j 0, j 1, eq_ix2 j⟩
  show k2_pay2 (F := Ideal) (Frm.iblk2 V c 0 t) (Frm.iblk2 V c 2 t) (Frm.iblk2 V c 3 t) (Frm.iblk2 V c 1 t) (Frm.iblk2 V c 4 t) (ix2 p q) = G2_6 V c (((cfg2.win 6).blk t).view.emb (ix2 p q))
  rw [pay2_2_apply, emb2_6]
  unfold G2_6 upd2
  simp only [iblk2_0_apply, iblk2_1_apply, iblk2_2_apply, iblk2_3_apply, iblk2_4_apply]

/-- An index of window 5's array is in point t's block iff each coordinate is in the block's range. -/
theorem mem_blk2_5 (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole (Pipeline.arrRef spec2 5)).slice (win2_5.rect t)).set ↔ _
  rw [View.set_slice_whole, Rect.mem_set_unit]
  exact Iff.rfl

/-- An index of window 6's array is in point t's block iff each coordinate is in the block's range. -/
theorem mem_blk2_6 (t : Fin cfg2.N) (i : S100000x64.Idx) :
    i ∈ ((cfg2.win 6).blk t).view.set ↔ ∀ a : Fin 2, win2_6.index t a * S2000x64.size a ≤ (i a).val ∧ (i a).val < win2_6.index t a * S2000x64.size a + S2000x64.size a := by
  show i ∈ ((View.whole (Pipeline.arrRef spec2 6)).slice (win2_6.rect t)).set ↔ _
  rw [View.set_slice_whole, Rect.mem_set_unit]
  exact Iff.rfl

/-- Row r of window 5's array is in the block of point r / 2000. -/
theorem covers2_5 (i : S100000x64.Idx) : ∃ t : Fin cfg2.N, (cfg2.win 5).flush t = true ∧ i ∈ ((cfg2.win 5).blk t).view.set := by
  have hN : cfg2.N = 50 := N_2
  have h0 : (i 0).val < 100000 := (i 0).isLt
  have h1 : (i 1).val < 64 := (i 1).isLt
  have ht : (i 0).val / 2000 < cfg2.N := by rw [hN]; omega
  obtain ⟨-, -, -, -, -, -, -, -, -, -, e0, e1, -⟩ := ixmap2 ⟨(i 0).val / 2000, ht⟩
  refine ⟨⟨(i 0).val / 2000, ht⟩, flush2_5 _, ?_⟩
  rw [mem_blk2_5]
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, ht⟩ (1 : Fin 2) * 64 ≤ (i 1).val ∧ (i 1).val < win2_5.index ⟨(i 0).val / 2000, ht⟩ (1 : Fin 2) * 64 + 64
    rw [e1]; omega

/-- Row r of window 6's array is in the block of point r / 2000. -/
theorem covers2_6 (i : S100000x64.Idx) : ∃ t : Fin cfg2.N, (cfg2.win 6).flush t = true ∧ i ∈ ((cfg2.win 6).blk t).view.set := by
  have hN : cfg2.N = 50 := N_2
  have h0 : (i 0).val < 100000 := (i 0).isLt
  have h1 : (i 1).val < 64 := (i 1).isLt
  have ht : (i 0).val / 2000 < cfg2.N := by rw [hN]; omega
  obtain ⟨-, -, -, -, -, -, -, -, -, -, -, -, e0, e1⟩ := ixmap2 ⟨(i 0).val / 2000, ht⟩
  refine ⟨⟨(i 0).val / 2000, ht⟩, flush2_6 _, ?_⟩
  rw [mem_blk2_6]
  intro a
  match a with
  | ⟨0, _⟩ =>
    show win2_6.index ⟨(i 0).val / 2000, ht⟩ (0 : Fin 2) * 2000 ≤ (i 0).val ∧ (i 0).val < win2_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_6.index ⟨(i 0).val / 2000, ht⟩ (1 : Fin 2) * 64 ≤ (i 1).val ∧ (i 1).val < win2_6.index ⟨(i 0).val / 2000, ht⟩ (1 : Fin 2) * 64 + 64
    rw [e1]; omega

/-- Output window 5's array after the region, at row u and column q: the user update of row u. -/
theorem final2_5 (c : Dev nD) (u : Fin 100000) (q : Fin 64) :
    ((Frm.dat2 V c).arrAt 5 cfg2.N : S100000x64.Idx → EReal) (ix2 u q)
      = Cert.Spec.userOut (fun k => arr2_0 V c u k) (fun k => arr2_1 V c u k) (fun k f => arr2_2 V c k f) (fun f q => arr2_3 V c f q) q :=
  congrFun ((Frm.dat2 V c).arrAt_eq_of_cover 5 (G2_5 V c) (fun t _ => flushed2_5 V c t) (covers2_5)) (ix2 u q)

/-- Output window 6's array after the region, at row u and column q: the residual's entry plus the user update's. -/
theorem final2_6 (c : Dev nD) (u : Fin 100000) (q : Fin 64) :
    ((Frm.dat2 V c).arrAt 6 cfg2.N : S100000x64.Idx → EReal) (ix2 u q)
      = arr2_4 V c u q + Cert.Spec.userOut (fun k => arr2_0 V c u k) (fun k => arr2_1 V c u k) (fun k f => arr2_2 V c k f) (fun f q => arr2_3 V c f q) q :=
  congrFun ((Frm.dat2 V c).arrAt_eq_of_cover 6 (G2_6 V c) (fun t _ => flushed2_6 V c t) (covers2_6)) (ix2 u q)

end Region2

end Cert.KernelIdeal.Val

end
-- ==== Proof.Val.K6.lean ====
/- Region 6's two output arrays after the region, element by element at the ideal instance: row u of the first is
   the user update of row u of the user rows and of the aggregate against the two small matrices (attention over the
   latent factors, the disentangled combination, the floored L2 normalisation), row u of the second the residual's
   row u plus that. Each input block's row as a row of its array (the two small matrices are one block at every
   point), what a point writes back as a block of one whole-array function, the cover of the rows by the points. -/
import proofs.«416106_j13048110645352_1_alg».proof.Proof.KI.Body6
import proofs.«416106_j13048110645352_1_alg».proof.Proof.Val.Spec
import proofs.«416106_j13048110645352_1_alg».proof.Proof.Val.K2Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## From blocks to the arrays -/

section Region6
variable (V : (c : Dev nD) → (b : Ref sig .tc) → Buf (Elt Ideal) ((c : Thread nD τ).loc b))

/-- Input window 0's array (the user rows) as the region finds it, by row and column. -/
def arr6_0 (c : Dev nD) (u : Fin 100000) (k : Fin 64) : EReal :=
  (V c (Pipeline.arrRef spec6 0) : S100000x64.Idx → EReal) (ix2 u k)

/-- Input window 1's array (the aggregate), by row and column. -/
def arr6_1 (c : Dev nD) (u : Fin 100000) (k : Fin 64) : EReal :=
  (V c (Pipeline.arrRef spec6 1) : S100000x64.Idx → EReal) (ix2 u k)

/-- Input window 2's array (the latent factors, coordinate by factor). -/
def arr6_2 (c : Dev nD) (k : Fin 64) (f : Fin 4) : EReal :=
  (V c (Pipeline.arrRef spec6 2) : S64x4.Idx → EReal) (ix2 k f)

/-- Input window 3's array (the disentangled relation rows, factor by coordinate). -/
def arr6_3 (c : Dev nD) (f : Fin 4) (q : Fin 64) : EReal :=
  (V c (Pipeline.arrRef spec6 3) : S4x64.Idx → EReal) (ix2 f q)

/-- Input window 4's array (the residual), by row and column. -/
def arr6_4 (c : Dev nD) (u : Fin 100000) (k : Fin 64) : EReal :=
  (V c (Pipeline.arrRef spec6 4) : S100000x64.Idx → EReal) (ix2 u k)

/-- The user update of row u, entry q, from the arrays as the region finds them. -/
def upd6 (c : Dev nD) (u : Fin 100000) (q : Fin 64) : EReal :=
  Cert.Spec.userOut (fun k => arr6_0 V c u k) (fun k => arr6_1 V c u k) (fun k f => arr6_2 V c k f) (fun f q => arr6_3 V c f q) q

/-- What output window 5's array ends holding: the user update of each row. -/
def G6_5 (c : Dev nD) : S100000x64.Idx → EReal := fun i =>
  upd6 V c ⟨(i 0).val, idx2_lt0 i⟩ ⟨(i 1).val, idx2_lt1 i⟩

/-- What output window 6's array ends holding: the residual plus the user update. -/
def G6_6 (c : Dev nD) : S100000x64.Idx → EReal := fun i =>
  arr6_4 V c ⟨(i 0).val, idx2_lt0 i⟩ ⟨(i 1).val, idx2_lt1 i⟩ + upd6 V c ⟨(i 0).val, idx2_lt0 i⟩ ⟨(i 1).val, idx2_lt1 i⟩

theorem hz6 : (![0, 0] : Fin 2 → Nat) = fun _ => 0 := funext fun a => by fin_cases a <;> rfl

/-- The printed index maps, decided over the grid: a row window's block index at point t is (t, 0), the two small
    matrices' is (0, 0) at every point. -/
theorem ixmap6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

/-- Row p of point t's block is a row of the array. -/
theorem row6_lt (t : Fin cfg6.N) (p : Fin 2000) : t.val * 2000 + p.val < 100000 := by
  have hN : cfg6.N = 50 := N_6
  have h1 := t.isLt
  have h2 := p.isLt
  omega

/-- Input window 0's block at point t, row p, is row 2000 t + p of the user rows. -/
theorem iblk6_0_apply (c : Dev nD) (t : Fin cfg6.N) (p : Fin 2000) (k : Fin 64) :
    (Frm.iblk6 V c 0 t : S2000x64.Idx → EReal) (ix2 p k) = arr6_0 V c ⟨t.val * 2000 + p.val, row6_lt t p⟩ k := by
  obtain ⟨e0, e1, -⟩ := ixmap6 t
  unfold Frm.iblk6 arr6_0
  rw [View.read_apply]
  show V c (Pipeline.arrRef spec6 0) _ = V c (Pipeline.arrRef spec6 0) _
  congr 1
  funext a; apply Fin.ext
  match a with
  | ⟨0, _⟩ => show win6_0.index t (0 : Fin 2) * 2000 + 1 * p.val = t.val * 2000 + p.val; rw [e0]; omega
  | ⟨1, _⟩ => show win6_0.index t (1 : Fin 2) * 64 + 1 * k.val = k.val; rw [e1]; omega

/-- Input window 1's block at point t, row p, is row 2000 t + p of the aggregate. -/
theorem iblk6_1_apply (c : Dev nD) (t : Fin cfg6.N) (p : Fin 2000) (k : Fin 64) :
    (Frm.iblk6 V c 1 t : S2000x64.Idx → EReal) (ix2 p k) = arr6_1 V c ⟨t.val * 2000 + p.val, row6_lt t p⟩ k := by
  obtain ⟨-, -, e0, e1, -⟩ := ixmap6 t
  unfold Frm.iblk6 arr6_1
  rw [View.read_apply]
  show V c (Pipeline.arrRef spec6 1) _ = V c (Pipeline.arrRef spec6 1) _
  congr 1
  funext a; apply Fin.ext
  match a with
  | ⟨0, _⟩ => show win6_1.index t (0 : Fin 2) * 2000 + 1 * p.val = t.val * 2000 + p.val; rw [e0]; omega
  | ⟨1, _⟩ => show win6_1.index t (1 : Fin 2) * 64 + 1 * k.val = k.val; rw [e1]; omega

/-- Input window 2's block at any point is the whole of the latent factors' matrix. -/
theorem iblk6_2_apply (c : Dev nD) (t : Fin cfg6.N) (k : Fin 64) (f : Fin 4) :
    (Frm.iblk6 V c 2 t : S64x4.Idx → EReal) (ix2 k f) = arr6_2 V c k f := by
  obtain ⟨-, -, -, -, e0, e1, -⟩ := ixmap6 t
  unfold Frm.iblk6 arr6_2
  rw [View.read_apply]
  show V c (Pipeline.arrRef spec6 2) _ = V c (Pipeline.arrRef spec6 2) _
  congr 1
  funext a; apply Fin.ext
  match a with
  | ⟨0, _⟩ => show win6_2.index t (0 : Fin 2) * 64 + 1 * k.val = k.val; rw [e0]; omega
  | ⟨1, _⟩ => show win6_2.index t (1 : Fin 2) * 4 + 1 * f.val = f.val; rw [e1]; omega

/-- Input window 3's block at any point is the whole of the relation rows' matrix. -/
theorem iblk6_3_apply (c : Dev nD) (t : Fin cfg6.N) (f : Fin 4) (q : Fin 64) :
    (Frm.iblk6 V c 3 t : S4x64.Idx → EReal) (ix2 f q) = arr6_3 V c f q := by
  obtain ⟨-, -, -, -, -, -, e0, e1, -⟩ := ixmap6 t
  unfold Frm.iblk6 arr6_3
  rw [View.read_apply]
  show V c (Pipeline.arrRef spec6 3) _ = V c (Pipeline.arrRef spec6 3) _
  congr 1
  funext a; apply Fin.ext
  match a with
  | ⟨0, _⟩ => show win6_3.index t (0 : Fin 2) * 4 + 1 * f.val = f.val; rw [e0]; omega
  | ⟨1, _⟩ => show win6_3.index t (1 : Fin 2) * 64 + 1 * q.val = q.val; rw [e1]; omega

/-- Input window 4's block at point t, row p, is row 2000 t + p of the residual. -/
theorem iblk6_4_apply (c : Dev nD) (t : Fin cfg6.N) (p : Fin 2000) (k : Fin 64) :
    (Frm.iblk6 V c 4 t : S2000x64.Idx → EReal) (ix2 p k) = arr6_4 V c ⟨t.val * 2000 + p.val, row6_lt t p⟩ k := by
  obtain ⟨-, -, -, -, -, -, -, -, e0, e1, -⟩ := ixmap6 t
  unfold Frm.iblk6 arr6_4
  rw [View.read_apply]
  show V c (Pipeline.arrRef spec6 4) _ = V c (Pipeline.arrRef spec6 4) _
  congr 1
  funext a; apply Fin.ext
  match a with
  | ⟨0, _⟩ => show win6_4.index t (0 : Fin 2) * 2000 + 1 * p.val = t.val * 2000 + p.val; rw [e0]; omega
  | ⟨1, _⟩ => show win6_4.index t (1 : Fin 2) * 64 + 1 * k.val = k.val; rw [e1]; omega

/-- Output window 5's block at point t sits at rows 2000 t … of its array. -/
theorem emb6_5 (t : Fin cfg6.N) (p : Fin 2000) (q : Fin 64) :
    (((cfg6.win 5).blk t).view.emb (ix2 p q) : S100000x64.Idx) = ix2 ⟨t.val * 2000 + p.val, row6_lt t p⟩ q := by
  obtain ⟨-, -, -, -, -, -, -, -, -, -, e0, e1, -⟩ := ixmap6 t
  funext a; apply Fin.ext
  match a with
  | ⟨0, _⟩ => show win6_5.index t (0 : Fin 2) * 2000 + 1 * p.val = t.val * 2000 + p.val; rw [e0]; omega
  | ⟨1, _⟩ => show win6_5.index t (1 : Fin 2) * 64 + 1 * q.val = q.val; rw [e1]; omega

/-- Output window 6's block at point t sits at rows 2000 t … of its array. -/
theorem emb6_6 (t : Fin cfg6.N) (p : Fin 2000) (q : Fin 64) :
    (((cfg6.win 6).blk t).view.emb (ix2 p q) : S100000x64.Idx) = ix2 ⟨t.val * 2000 + p.val, row6_lt t p⟩ q := by
  obtain ⟨-, -, -, -, -, -, -, -, -, -, -, -, e0, e1⟩ := ixmap6 t
  funext a; apply Fin.ext
  match a with
  | ⟨0, _⟩ => show win6_6.index t (0 : Fin 2) * 2000 + 1 * p.val = t.val * 2000 + p.val; rw [e0]; omega
  | ⟨1, _⟩ => show win6_6.index t (1 : Fin 2) * 64 + 1 * q.val = q.val; rw [e1]; omega

/-- What point t writes back to window 5 is block t of G6_5. -/
theorem flushed6_5 (c : Dev nD) (t : Fin cfg6.N) :
    (Frm.dat6 V c).flushed 5 t = ((cfg6.win 5).blk t).view.read (Elt Ideal) (G6_5 V c) := by
  show (cfg6.win 5).cut (grid6.coords t) ((Frm.dat6 V c).after 5 t) = _
  rw [Frm.after6_5]
  unfold Frm.out6_5
  rw [View.canon_unit_zero hz6]
  simp only [View.ld_unit_zero (S := S2000x64) hz6, View.ld_unit_zero (S := S64x4) hz6, View.ld_unit_zero (S := S4x64) hz6]
  funext j
  obtain ⟨p, q, rfl⟩ : ∃ (p : Fin 2000) (q : Fin 64), j = ix2 p q := ⟨j 0, j 1, eq_ix2 j⟩
  show k6_pay1 (F := Ideal) (Frm.iblk6 V c 0 t) (Frm.iblk6 V c 2 t) (Frm.iblk6 V c 3 t) (Frm.iblk6 V c 1 t) (ix2 p q) = G6_5 V c (((cfg6.win 5).blk t).view.emb (ix2 p q))
  rw [pay6_1_apply, emb6_5]
  unfold G6_5 upd6
  simp only [iblk6_0_apply, iblk6_1_apply, iblk6_2_apply, iblk6_3_apply]

/-- What point t writes back to window 6 is block t of G6_6. -/
theorem flushed6_6 (c : Dev nD) (t : Fin cfg6.N) :
    (Frm.dat6 V c).flushed 6 t = ((cfg6.win 6).blk t).view.read (Elt Ideal) (G6_6 V c) := by
  show (cfg6.win 6).cut (grid6.coords t) ((Frm.dat6 V c).after 6 t) = _
  rw [Frm.after6_6]
  unfold Frm.out6_6
  rw [View.canon_unit_zero hz6]
  simp only [View.ld_unit_zero (S := S2000x64) hz6, View.ld_unit_zero (S := S64x4) hz6, View.ld_unit_zero (S := S4x64) hz6]
  funext j
  obtain ⟨p, q, rfl⟩ : ∃ (p : Fin 2000) (q : Fin 64), j = ix2 p q := ⟨j 0, j 1, eq_ix2 j⟩
  show k6_pay2 (F := Ideal) (Frm.iblk6 V c 0 t) (Frm.iblk6 V c 2 t) (Frm.iblk6 V c 3 t) (Frm.iblk6 V c 1 t) (Frm.iblk6 V c 4 t) (ix2 p q) = G6_6 V c (((cfg6.win 6).blk t).view.emb (ix2 p q))
  rw [pay6_2_apply, emb6_6]
  unfold G6_6 upd6
  simp only [iblk6_0_apply, iblk6_1_apply, iblk6_2_apply, iblk6_3_apply, iblk6_4_apply]

/-- An index of window 5's array is in point t's block iff each coordinate is in the block's range. -/
theorem mem_blk6_5 (t : Fin cfg6.N) (i : S100000x64.Idx) :
    i ∈ ((cfg6.win 5).blk t).view.set ↔ ∀ a : Fin 2, win6_5.index t a * S2000x64.size a ≤ (i a).val ∧ (i a).val < win6_5.index t a * S2000x64.size a + S2000x64.size a := by
  show i ∈ ((View.whole (Pipeline.arrRef spec6 5)).slice (win6_5.rect t)).set ↔ _
  rw [View.set_slice_whole, Rect.mem_set_unit]
  exact Iff.rfl

/-- An index of window 6's array is in point t's block iff each coordinate is in the block's range. -/
theorem mem_blk6_6 (t : Fin cfg6.N) (i : S100000x64.Idx) :
    i ∈ ((cfg6.win 6).blk t).view.set ↔ ∀ a : Fin 2, win6_6.index t a * S2000x64.size a ≤ (i a).val ∧ (i a).val < win6_6.index t a * S2000x64.size a + S2000x64.size a := by
  show i ∈ ((View.whole (Pipeline.arrRef spec6 6)).slice (win6_6.rect t)).set ↔ _
  rw [View.set_slice_whole, Rect.mem_set_unit]
  exact Iff.rfl

/-- Row r of window 5's array is in the block of point r / 2000. -/
theorem covers6_5 (i : S100000x64.Idx) : ∃ t : Fin cfg6.N, (cfg6.win 5).flush t = true ∧ i ∈ ((cfg6.win 5).blk t).view.set := by
  have hN : cfg6.N = 50 := N_6
  have h0 : (i 0).val < 100000 := (i 0).isLt
  have h1 : (i 1).val < 64 := (i 1).isLt
  have ht : (i 0).val / 2000 < cfg6.N := by rw [hN]; omega
  obtain ⟨-, -, -, -, -, -, -, -, -, -, e0, e1, -⟩ := ixmap6 ⟨(i 0).val / 2000, ht⟩
  refine ⟨⟨(i 0).val / 2000, ht⟩, flush6_5 _, ?_⟩
  rw [mem_blk6_5]
  intro a
  match a with
  | ⟨0, _⟩ =>
    show win6_5.index ⟨(i 0).val / 2000, ht⟩ (0 : Fin 2) * 2000 ≤ (i 0).val ∧ (i 0).val < win6_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win6_5.index ⟨(i 0).val / 2000, ht⟩ (1 : Fin 2) * 64 ≤ (i 1).val ∧ (i 1).val < win6_5.index ⟨(i 0).val / 2000, ht⟩ (1 : Fin 2) * 64 + 64
    rw [e1]; omega

/-- Row r of window 6's array is in the block of point r / 2000. -/
theorem covers6_6 (i : S100000x64.Idx) : ∃ t : Fin cfg6.N, (cfg6.win 6).flush t = true ∧ i ∈ ((cfg6.win 6).blk t).view.set := by
  have hN : cfg6.N = 50 := N_6
  have h0 : (i 0).val < 100000 := (i 0).isLt
  have h1 : (i 1).val < 64 := (i 1).isLt
  have ht : (i 0).val / 2000 < cfg6.N := by rw [hN]; omega
  obtain ⟨-, -, -, -, -, -, -, -, -, -, -, -, e0, e1⟩ := ixmap6 ⟨(i 0).val / 2000, ht⟩
  refine ⟨⟨(i 0).val / 2000, ht⟩, flush6_6 _, ?_⟩
  rw [mem_blk6_6]
  intro a
  match a with
  | ⟨0, _⟩ =>
    show win6_6.index ⟨(i 0).val / 2000, ht⟩ (0 : Fin 2) * 2000 ≤ (i 0).val ∧ (i 0).val < win6_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win6_6.index ⟨(i 0).val / 2000, ht⟩ (1 : Fin 2) * 64 ≤ (i 1).val ∧ (i 1).val < win6_6.index ⟨(i 0).val / 2000, ht⟩ (1 : Fin 2) * 64 + 64
    rw [e1]; omega

/-- Output window 5's array after the region, at row u and column q: the user update of row u. -/
theorem final6_5 (c : Dev nD) (u : Fin 100000) (q : Fin 64) :
    ((Frm.dat6 V c).arrAt 5 cfg6.N : S100000x64.Idx → EReal) (ix2 u q)
      = Cert.Spec.userOut (fun k => arr6_0 V c u k) (fun k => arr6_1 V c u k) (fun k f => arr6_2 V c k f) (fun f q => arr6_3 V c f q) q :=
  congrFun ((Frm.dat6 V c).arrAt_eq_of_cover 5 (G6_5 V c) (fun t _ => flushed6_5 V c t) (covers6_5)) (ix2 u q)

/-- Output window 6's array after the region, at row u and column q: the residual's entry plus the user update's. -/
theorem final6_6 (c : Dev nD) (u : Fin 100000) (q : Fin 64) :
    ((Frm.dat6 V c).arrAt 6 cfg6.N : S100000x64.Idx → EReal) (ix2 u q)
      = arr6_4 V c u q + Cert.Spec.userOut (fun k => arr6_0 V c u k) (fun k => arr6_1 V c u k) (fun k f => arr6_2 V c k f) (fun f q => arr6_3 V c f q) q :=
  congrFun ((Frm.dat6 V c).arrAt_eq_of_cover 6 (G6_6 V c) (fun t _ => flushed6_6 V c t) (covers6_6)) (ix2 u q)

end Region6

end Cert.KernelIdeal.Val

end
-- ==== Proof.Val.BridgeFinal.lean ====
/- The user result of the bridge, with nothing assumed but the range of the relation ids: what each region leaves
   (the two scalings of gathered rows, the two user updates with their running sums) is its closed form at the
   contents the region is entered with, and the first hop's entity table is the reference's; with these the running
   sum of user rows @main returns is the reference's. -/
import proofs.«416106_j13048110645352_1_alg».proof.Proof.Val.BridgeU
import proofs.«416106_j13048110645352_1_alg».proof.Proof.Val.BridgeE
import proofs.«416106_j13048110645352_1_alg».proof.Proof.Val.K1
import proofs.«416106_j13048110645352_1_alg».proof.Proof.Val.K5
import proofs.«416106_j13048110645352_1_alg».proof.Proof.Val.K2
import proofs.«416106_j13048110645352_1_alg».proof.Proof.Val.K6
import Idealize.ShloMosaic.Lib.ValueIdx

set_option maxRecDepth 16384

noncomputable section

namespace Cert.Bridge

open Cert.KernelIdeal Cert.KernelIdeal.Gen Cert.KernelIdeal.Frm
open Idealize.ShloMosaic Idealize.ShloMosaic.TcCoe Idealize.SL.Sem Idealize.ShloMosaic.ValueIdx
open Cert.ReferenceIdeal.Read
open scoped BigOperators

variable (m : (ℓ : Loc nD τ sig) → Buf (Elt Ideal) ℓ) (ρ : Dev nD → PrngReg)

/-! ## What each region leaves, at the contents it is entered with -/

/-- The first scaling region: its output array after the region is its closed form at the entry contents. -/
theorem scale1_holds (c : Dev nD) : U.Scale1 m ρ c := by
  intro e q
  exact (congrFun (W7_arr m ρ c 2) (ix2 e q)).trans (Val.final1_2 (V6 m ρ) c e q)

/-- The second scaling region. -/
theorem scale2_holds (c : Dev nD) : U.Scale2 m ρ c := by
  intro e q
  exact (congrFun (W15_arr m ρ c 2) (ix2 e q)).trans (Val.final5_2 (V14 m ρ) c e q)

/-- The first user update's new rows. -/
theorem user1_holds (c : Dev nD) : U.User1 m ρ c := by
  intro u q
  exact (congrFun (W9_arr m ρ c 5) (ix2 u q)).trans (Val.final2_5 (V8 m ρ) c u q)

/-- The first user update's running sum. -/
theorem res1_holds (c : Dev nD) : U.Res1 m ρ c := by
  intro u q
  exact (congrFun (W9_arr m ρ c 6) (ix2 u q)).trans (Val.final2_6 (V8 m ρ) c u q)

/-- The second user update's running sum. -/
theorem res2_holds (c : Dev nD) : U.Res2 m ρ c := by
  intro u q
  exact (congrFun (W17_arr m ρ c 6) (ix2 u q)).trans (Val.final6_6 (V16 m ρ) c u q)

/-- The first hop's entity table is the reference's, the relation ids in range. -/
theorem ent1_holds (c : Dev nD) (het : EtRange m c) : U.Ent1 m ρ c :=
  ent1_eq m ρ c het

/-! ## The user result -/

/-- The running sum of user rows @main returns is the reference's, whole array. -/
theorem bridge_user' (c : Dev nD) (het : EtRange m c) :
    (Wn m ρ c (Proc.devRef .tc main_v102_1) : (⟨S100000x64, .f32⟩ : BufTy).Contents (Elt Ideal))
      = val_main_v191 (F := Ideal) (A0 m c) (A1 m c) (A2 m c) (A3 m c) (A4 m c) (A5 m c) (A6 m c) (A7 m c) (A8 m c) (A9 m c) :=
  bridge_user m ρ c (scale1_holds m ρ c) (user1_holds m ρ c) (res1_holds m ρ c) (ent1_holds m ρ c het)
    (scale2_holds m ρ c) (res2_holds m ρ c)

end Cert.Bridge

end
-- ==== Proof.lean ====
/- The proof of `Cert.Claim`: the two-hop graph update as eight kernel regions among stretches of host operations,
   against its plain reference, at the ideal instance.
   FRAME. The kernel program, as printed and at the ideal instance, runs its eighteen items as segments from the launch
   memory: each stretch of host operations maps the unscoped buffers' contents, each kernel region puts its arrays at
   what its pipeline's write-backs leave, and no item writes an argument array (Proof/KB/Run.lean, Proof/KI/Run.lean;
   the same text at the two instances). The reference is a line of host operations (Proof/Gen/ReferenceIdeal/Run.lean).
   PRESERVES. The ideal pass rewrote no operation: the claim is `True`.
   VALUE. At the ideal instance the kernel program's three results are read at the last boundary's contents; the
   reference's are its operations' composed terms of the arguments. Under the precondition every relation id lies in
   1 … 10, so the one-hot product of the edge-scaling kernel selects the relation's weight row as the reference's gather
   does; with that, the accumulated entity rows, the accumulated user rows and the scalar term are the reference's
   stage values of the same arguments (Proof/Val/). -/
import proofs.«416106_j13048110645352_1_alg».proof.Defs
import proofs.«416106_j13048110645352_1_alg».proof.Proof.Gen.Kernel
import proofs.«416106_j13048110645352_1_alg».proof.Proof.Gen.Kernel.Skeleton
import proofs.«416106_j13048110645352_1_alg».proof.Proof.Gen.Kernel.Launch
import proofs.«416106_j13048110645352_1_alg».proof.Proof.Gen.Kernel.Regions
import proofs.«416106_j13048110645352_1_alg».proof.Proof.Gen.Kernel.Points
import proofs.«416106_j13048110645352_1_alg».proof.Proof.Gen.KernelIdeal
import proofs.«416106_j13048110645352_1_alg».proof.Proof.Gen.KernelIdeal.Skeleton
import proofs.«416106_j13048110645352_1_alg».proof.Proof.Gen.KernelIdeal.Launch
import proofs.«416106_j13048110645352_1_alg».proof.Proof.Gen.KernelIdeal.Regions
import proofs.«416106_j13048110645352_1_alg».proof.Proof.Gen.KernelIdeal.Points
import proofs.«416106_j13048110645352_1_alg».proof.Proof.Gen.ReferenceIdeal
import proofs.«416106_j13048110645352_1_alg».proof.Proof.Gen.Pre_finite_inputs
import Idealize.ShloMosaic.Adequacy
import Idealize.ShloMosaic.Init
import proofs.«416106_j13048110645352_1_alg».proof.Proof.KB.Run
import proofs.«416106_j13048110645352_1_alg».proof.Proof.KI.Run
import proofs.«416106_j13048110645352_1_alg».proof.Proof.Gen.ReferenceIdeal.Run
import proofs.«416106_j13048110645352_1_alg».proof.Proof.Gen.ReferenceIdeal.Read
import proofs.«416106_j13048110645352_1_alg».proof.Proof.Val.PreFacts
import proofs.«416106_j13048110645352_1_alg».proof.Proof.Val.BridgeE
import proofs.«416106_j13048110645352_1_alg».proof.Proof.Val.BridgeFinal

noncomputable section

namespace Cert.Proof

open Idealize.ShloMosaic Idealize.ShloMosaic.TcCoe Idealize.SL.Sem

/-- The kernel program as printed runs and leaves its arguments as launched. -/
theorem frame_k : Cert.frame_Kernel := fun m ρ _ => Cert.Kernel.Frm.frame m ρ
/-- So does its idealization. -/
theorem frame_ki : Cert.frame_KernelIdeal := fun m ρ _ => Cert.KernelIdeal.Frm.frame m ρ
/-- The reference runs, a line of host operations, and leaves its arguments as launched. -/
theorem frame_ri : Cert.frame_ReferenceIdeal := fun m ρ _ =>
  (θ_run Cert.ReferenceIdeal.defs _ _).mono (fun _ h c => (h c).2.2.2) (Cert.ReferenceIdeal.Value.run (F := Ideal) m ρ)

/-- At the ideal instance, from memories that agree on the arguments, the kernel program ends with its three results at
    the last boundary's contents and the reference with its composed terms; under the precondition (every relation id in
    1 … 10) those are equal, result by result. -/
theorem algebraic : Cert.algebraic_KernelIdeal_ReferenceIdeal := by
  intro m ρ m' ρ' hpre hagree
  have het : ∀ c, Cert.Bridge.EtRange m c := fun c e =>
    Cert.PreFacts.etype_range (F := Ideal) _ _ _ _ _ _ _ _ _ _ (hpre c) e
  refine ⟨fun c => Cert.KernelIdeal.Frm.Wn m ρ c (Proc.devRef .tc Cert.KernelIdeal.main_v103_1),
    fun c => Cert.KernelIdeal.Frm.Wn m ρ c (Proc.devRef .tc Cert.KernelIdeal.main_v102_1),
    fun c => Cert.KernelIdeal.Frm.Wn m ρ c (Proc.devRef .tc Cert.KernelIdeal.main_v17),
    Cert.KernelIdeal.Frm.run_main (F := Ideal) m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v190_eq, (hagree c).2.1, (hagree c).2.2.2.1, (hagree c).2.2.2.2.2.1,
      (hagree c).2.2.2.2.2.2.1]
    exact (Cert.Bridge.bridge_ent m ρ c (het c)).symm
  · rw [Cert.ReferenceIdeal.Read.val_main_v191_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]
    exact (Cert.Bridge.bridge_user' m ρ c (het c)).symm
  · rw [Cert.ReferenceIdeal.Read.val_main_v17_eq, (hagree c).2.2.2.2.1]
    exact (Cert.Bridge.bridge_cor m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
